-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S32768x512 : Shape := ⟨2, ![32768, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  main_v3
-- ==== Kernel.lean ====
abbrev S1024x512 : Shape := ⟨2, ![1024, 512]⟩
abbrev S1x512 : Shape := ⟨2, ![1, 512]⟩
abbrev S32x1x512 : Shape := ⟨3, ![32, 1, 512]⟩
abbrev S32 : Shape := ⟨1, ![32]⟩
abbrev S_ : Shape := ⟨0, ![]⟩
abbrev S512 : Shape := ⟨1, ![512]⟩
abbrev S1x1x512 : Shape := ⟨3, ![1, 1, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S32x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_33 : BitVec 32 := 1#32
  let v66 : BitVec 32 := Scalar.muli v4 c1_i32_33
  let v67 : BitVec 32 := Scalar.addi c0_i32 v66
  v67.toNat
def k0_dev2 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v5 : BitVec 32 := Scalar.addi v2 c2_i32
  let c32_i32_2 : BitVec 32 := 32#32
  let v6 : BitVec 32 := Scalar.remsi v5 c32_i32_2
  let c1_i32_35 : BitVec 32 := 1#32
  let v68 : BitVec 32 := Scalar.muli v6 c1_i32_35
  let v69 : BitVec 32 := Scalar.addi c0_i32_36 v68
  v69.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v7 : BitVec 32 := Scalar.addi v2 c3_i32
  let c32_i32_3 : BitVec 32 := 32#32
  let v8 : BitVec 32 := Scalar.remsi v7 c32_i32_3
  let c1_i32_38 : BitVec 32 := 1#32
  let v70 : BitVec 32 := Scalar.muli v8 c1_i32_38
  let v71 : BitVec 32 := Scalar.addi c0_i32_39 v70
  v71.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v9 : BitVec 32 := Scalar.addi v2 c4_i32
  let c32_i32_4 : BitVec 32 := 32#32
  let v10 : BitVec 32 := Scalar.remsi v9 c32_i32_4
  let c1_i32_41 : BitVec 32 := 1#32
  let v72 : BitVec 32 := Scalar.muli v10 c1_i32_41
  let v73 : BitVec 32 := Scalar.addi c0_i32_42 v72
  v73.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v11 : BitVec 32 := Scalar.addi v2 c5_i32
  let c32_i32_5 : BitVec 32 := 32#32
  let v12 : BitVec 32 := Scalar.remsi v11 c32_i32_5
  let c1_i32_44 : BitVec 32 := 1#32
  let v74 : BitVec 32 := Scalar.muli v12 c1_i32_44
  let v75 : BitVec 32 := Scalar.addi c0_i32_45 v74
  v75.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v13 : BitVec 32 := Scalar.addi v2 c6_i32
  let c32_i32_6 : BitVec 32 := 32#32
  let v14 : BitVec 32 := Scalar.remsi v13 c32_i32_6
  let c1_i32_47 : BitVec 32 := 1#32
  let v76 : BitVec 32 := Scalar.muli v14 c1_i32_47
  let v77 : BitVec 32 := Scalar.addi c0_i32_48 v76
  v77.toNat
def k0_dev7 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v15 : BitVec 32 := Scalar.addi v2 c7_i32
  let c32_i32_7 : BitVec 32 := 32#32
  let v16 : BitVec 32 := Scalar.remsi v15 c32_i32_7
  let c1_i32_50 : BitVec 32 := 1#32
  let v78 : BitVec 32 := Scalar.muli v16 c1_i32_50
  let v79 : BitVec 32 := Scalar.addi c0_i32_51 v78
  v79.toNat
def k0_dev8 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v17 : BitVec 32 := Scalar.addi v2 c8_i32
  let c32_i32_8 : BitVec 32 := 32#32
  let v18 : BitVec 32 := Scalar.remsi v17 c32_i32_8
  let c1_i32_53 : BitVec 32 := 1#32
  let v80 : BitVec 32 := Scalar.muli v18 c1_i32_53
  let v81 : BitVec 32 := Scalar.addi c0_i32_54 v80
  v81.toNat
def k0_dev9 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v19 : BitVec 32 := Scalar.addi v2 c9_i32
  let c32_i32_9 : BitVec 32 := 32#32
  let v20 : BitVec 32 := Scalar.remsi v19 c32_i32_9
  let c1_i32_56 : BitVec 32 := 1#32
  let v82 : BitVec 32 := Scalar.muli v20 c1_i32_56
  let v83 : BitVec 32 := Scalar.addi c0_i32_57 v82
  v83.toNat
def k0_dev10 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v21 : BitVec 32 := Scalar.addi v2 c10_i32
  let c32_i32_10 : BitVec 32 := 32#32
  let v22 : BitVec 32 := Scalar.remsi v21 c32_i32_10
  let c1_i32_59 : BitVec 32 := 1#32
  let v84 : BitVec 32 := Scalar.muli v22 c1_i32_59
  let v85 : BitVec 32 := Scalar.addi c0_i32_60 v84
  v85.toNat
def k0_dev11 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v23 : BitVec 32 := Scalar.addi v2 c11_i32
  let c32_i32_11 : BitVec 32 := 32#32
  let v24 : BitVec 32 := Scalar.remsi v23 c32_i32_11
  let c1_i32_62 : BitVec 32 := 1#32
  let v86 : BitVec 32 := Scalar.muli v24 c1_i32_62
  let v87 : BitVec 32 := Scalar.addi c0_i32_63 v86
  v87.toNat
def k0_dev12 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v25 : BitVec 32 := Scalar.addi v2 c12_i32
  let c32_i32_12 : BitVec 32 := 32#32
  let v26 : BitVec 32 := Scalar.remsi v25 c32_i32_12
  let c1_i32_65 : BitVec 32 := 1#32
  let v88 : BitVec 32 := Scalar.muli v26 c1_i32_65
  let v89 : BitVec 32 := Scalar.addi c0_i32_66 v88
  v89.toNat
def k0_dev13 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v27 : BitVec 32 := Scalar.addi v2 c13_i32
  let c32_i32_13 : BitVec 32 := 32#32
  let v28 : BitVec 32 := Scalar.remsi v27 c32_i32_13
  let c1_i32_68 : BitVec 32 := 1#32
  let v90 : BitVec 32 := Scalar.muli v28 c1_i32_68
  let v91 : BitVec 32 := Scalar.addi c0_i32_69 v90
  v91.toNat
def k0_dev14 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v29 : BitVec 32 := Scalar.addi v2 c14_i32
  let c32_i32_14 : BitVec 32 := 32#32
  let v30 : BitVec 32 := Scalar.remsi v29 c32_i32_14
  let c1_i32_71 : BitVec 32 := 1#32
  let v92 : BitVec 32 := Scalar.muli v30 c1_i32_71
  let v93 : BitVec 32 := Scalar.addi c0_i32_72 v92
  v93.toNat
def k0_dev15 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v31 : BitVec 32 := Scalar.addi v2 c15_i32
  let c32_i32_15 : BitVec 32 := 32#32
  let v32 : BitVec 32 := Scalar.remsi v31 c32_i32_15
  let c1_i32_74 : BitVec 32 := 1#32
  let v94 : BitVec 32 := Scalar.muli v32 c1_i32_74
  let v95 : BitVec 32 := Scalar.addi c0_i32_75 v94
  v95.toNat
def k0_dev16 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v33 : BitVec 32 := Scalar.addi v2 c16_i32
  let c32_i32_16 : BitVec 32 := 32#32
  let v34 : BitVec 32 := Scalar.remsi v33 c32_i32_16
  let c1_i32_77 : BitVec 32 := 1#32
  let v96 : BitVec 32 := Scalar.muli v34 c1_i32_77
  let v97 : BitVec 32 := Scalar.addi c0_i32_78 v96
  v97.toNat
def k0_dev17 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v35 : BitVec 32 := Scalar.addi v2 c17_i32
  let c32_i32_17 : BitVec 32 := 32#32
  let v36 : BitVec 32 := Scalar.remsi v35 c32_i32_17
  let c1_i32_80 : BitVec 32 := 1#32
  let v98 : BitVec 32 := Scalar.muli v36 c1_i32_80
  let v99 : BitVec 32 := Scalar.addi c0_i32_81 v98
  v99.toNat
def k0_dev18 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v37 : BitVec 32 := Scalar.addi v2 c18_i32
  let c32_i32_18 : BitVec 32 := 32#32
  let v38 : BitVec 32 := Scalar.remsi v37 c32_i32_18
  let c1_i32_83 : BitVec 32 := 1#32
  let v100 : BitVec 32 := Scalar.muli v38 c1_i32_83
  let v101 : BitVec 32 := Scalar.addi c0_i32_84 v100
  v101.toNat
def k0_dev19 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v39 : BitVec 32 := Scalar.addi v2 c19_i32
  let c32_i32_19 : BitVec 32 := 32#32
  let v40 : BitVec 32 := Scalar.remsi v39 c32_i32_19
  let c1_i32_86 : BitVec 32 := 1#32
  let v102 : BitVec 32 := Scalar.muli v40 c1_i32_86
  let v103 : BitVec 32 := Scalar.addi c0_i32_87 v102
  v103.toNat
def k0_dev20 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v41 : BitVec 32 := Scalar.addi v2 c20_i32
  let c32_i32_20 : BitVec 32 := 32#32
  let v42 : BitVec 32 := Scalar.remsi v41 c32_i32_20
  let c1_i32_89 : BitVec 32 := 1#32
  let v104 : BitVec 32 := Scalar.muli v42 c1_i32_89
  let v105 : BitVec 32 := Scalar.addi c0_i32_90 v104
  v105.toNat
def k0_dev21 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v43 : BitVec 32 := Scalar.addi v2 c21_i32
  let c32_i32_21 : BitVec 32 := 32#32
  let v44 : BitVec 32 := Scalar.remsi v43 c32_i32_21
  let c1_i32_92 : BitVec 32 := 1#32
  let v106 : BitVec 32 := Scalar.muli v44 c1_i32_92
  let v107 : BitVec 32 := Scalar.addi c0_i32_93 v106
  v107.toNat
def k0_dev22 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v45 : BitVec 32 := Scalar.addi v2 c22_i32
  let c32_i32_22 : BitVec 32 := 32#32
  let v46 : BitVec 32 := Scalar.remsi v45 c32_i32_22
  let c1_i32_95 : BitVec 32 := 1#32
  let v108 : BitVec 32 := Scalar.muli v46 c1_i32_95
  let v109 : BitVec 32 := Scalar.addi c0_i32_96 v108
  v109.toNat
def k0_dev23 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v47 : BitVec 32 := Scalar.addi v2 c23_i32
  let c32_i32_23 : BitVec 32 := 32#32
  let v48 : BitVec 32 := Scalar.remsi v47 c32_i32_23
  let c1_i32_98 : BitVec 32 := 1#32
  let v110 : BitVec 32 := Scalar.muli v48 c1_i32_98
  let v111 : BitVec 32 := Scalar.addi c0_i32_99 v110
  v111.toNat
def k0_dev24 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v49 : BitVec 32 := Scalar.addi v2 c24_i32
  let c32_i32_24 : BitVec 32 := 32#32
  let v50 : BitVec 32 := Scalar.remsi v49 c32_i32_24
  let c1_i32_101 : BitVec 32 := 1#32
  let v112 : BitVec 32 := Scalar.muli v50 c1_i32_101
  let v113 : BitVec 32 := Scalar.addi c0_i32_102 v112
  v113.toNat
def k0_dev25 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v51 : BitVec 32 := Scalar.addi v2 c25_i32
  let c32_i32_25 : BitVec 32 := 32#32
  let v52 : BitVec 32 := Scalar.remsi v51 c32_i32_25
  let c1_i32_104 : BitVec 32 := 1#32
  let v114 : BitVec 32 := Scalar.muli v52 c1_i32_104
  let v115 : BitVec 32 := Scalar.addi c0_i32_105 v114
  v115.toNat
def k0_dev26 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v53 : BitVec 32 := Scalar.addi v2 c26_i32
  let c32_i32_26 : BitVec 32 := 32#32
  let v54 : BitVec 32 := Scalar.remsi v53 c32_i32_26
  let c1_i32_107 : BitVec 32 := 1#32
  let v116 : BitVec 32 := Scalar.muli v54 c1_i32_107
  let v117 : BitVec 32 := Scalar.addi c0_i32_108 v116
  v117.toNat
def k0_dev27 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v55 : BitVec 32 := Scalar.addi v2 c27_i32
  let c32_i32_27 : BitVec 32 := 32#32
  let v56 : BitVec 32 := Scalar.remsi v55 c32_i32_27
  let c1_i32_110 : BitVec 32 := 1#32
  let v118 : BitVec 32 := Scalar.muli v56 c1_i32_110
  let v119 : BitVec 32 := Scalar.addi c0_i32_111 v118
  v119.toNat
def k0_dev28 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v57 : BitVec 32 := Scalar.addi v2 c28_i32
  let c32_i32_28 : BitVec 32 := 32#32
  let v58 : BitVec 32 := Scalar.remsi v57 c32_i32_28
  let c1_i32_113 : BitVec 32 := 1#32
  let v120 : BitVec 32 := Scalar.muli v58 c1_i32_113
  let v121 : BitVec 32 := Scalar.addi c0_i32_114 v120
  v121.toNat
def k0_dev29 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v59 : BitVec 32 := Scalar.addi v2 c29_i32
  let c32_i32_29 : BitVec 32 := 32#32
  let v60 : BitVec 32 := Scalar.remsi v59 c32_i32_29
  let c1_i32_116 : BitVec 32 := 1#32
  let v122 : BitVec 32 := Scalar.muli v60 c1_i32_116
  let v123 : BitVec 32 := Scalar.addi c0_i32_117 v122
  v123.toNat
def k0_dev30 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v61 : BitVec 32 := Scalar.addi v2 c30_i32
  let c32_i32_30 : BitVec 32 := 32#32
  let v62 : BitVec 32 := Scalar.remsi v61 c32_i32_30
  let c1_i32_119 : BitVec 32 := 1#32
  let v124 : BitVec 32 := Scalar.muli v62 c1_i32_119
  let v125 : BitVec 32 := Scalar.addi c0_i32_120 v124
  v125.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v63 : BitVec 32 := Scalar.addi v2 c31_i32
  let c32_i32_31 : BitVec 32 := 32#32
  let v64 : BitVec 32 := Scalar.remsi v63 c32_i32_31
  let c1_i32_122 : BitVec 32 := 1#32
  let v126 : BitVec 32 := Scalar.muli v64 c1_i32_122
  let v127 : BitVec 32 := Scalar.addi c0_i32_123 v126
  v127.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v133 : Index := Scalar.indexCast v2
  let c0_125 : Index := 0#32
  let c0_126 : Index := 0#32
  ![v133.toNat, 0, 0]
def k0_off2 (d0 : Dev nD) (c1_i32_0 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : BitVec 32 := Scalar.addi v2 c1_i32_0
  let c32_i32_1 : BitVec 32 := 32#32
  let v4 : BitVec 32 := Scalar.remsi v3 c32_i32_1
  ![v4.toNat]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_130 : BitVec 32 := 0#32
  let c0_i32_131 : BitVec 32 := 0#32
  ![v2.toNat, 0, 0]
def k0_dev32 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_128 : BitVec 32 := 1#32
  let v137 : BitVec 32 := Scalar.muli v4 c1_i32_128
  let v138 : BitVec 32 := Scalar.addi c0_i32_129 v137
  v138.toNat
def k0_dev33 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v5 : BitVec 32 := Scalar.addi v2 c2_i32
  let c32_i32_2 : BitVec 32 := 32#32
  let v6 : BitVec 32 := Scalar.remsi v5 c32_i32_2
  let c1_i32_134 : BitVec 32 := 1#32
  let v145 : BitVec 32 := Scalar.muli v6 c1_i32_134
  let v146 : BitVec 32 := Scalar.addi c0_i32_135 v145
  v146.toNat
def k0_dev34 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v7 : BitVec 32 := Scalar.addi v2 c3_i32
  let c32_i32_3 : BitVec 32 := 32#32
  let v8 : BitVec 32 := Scalar.remsi v7 c32_i32_3
  let c1_i32_140 : BitVec 32 := 1#32
  let v153 : BitVec 32 := Scalar.muli v8 c1_i32_140
  let v154 : BitVec 32 := Scalar.addi c0_i32_141 v153
  v154.toNat
def k0_dev35 (d0 : Dev nD) : Nat :=
  let c0_i32_147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v9 : BitVec 32 := Scalar.addi v2 c4_i32
  let c32_i32_4 : BitVec 32 := 32#32
  let v10 : BitVec 32 := Scalar.remsi v9 c32_i32_4
  let c1_i32_146 : BitVec 32 := 1#32
  let v161 : BitVec 32 := Scalar.muli v10 c1_i32_146
  let v162 : BitVec 32 := Scalar.addi c0_i32_147 v161
  v162.toNat
def k0_dev36 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v11 : BitVec 32 := Scalar.addi v2 c5_i32
  let c32_i32_5 : BitVec 32 := 32#32
  let v12 : BitVec 32 := Scalar.remsi v11 c32_i32_5
  let c1_i32_152 : BitVec 32 := 1#32
  let v169 : BitVec 32 := Scalar.muli v12 c1_i32_152
  let v170 : BitVec 32 := Scalar.addi c0_i32_153 v169
  v170.toNat
def k0_dev37 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v13 : BitVec 32 := Scalar.addi v2 c6_i32
  let c32_i32_6 : BitVec 32 := 32#32
  let v14 : BitVec 32 := Scalar.remsi v13 c32_i32_6
  let c1_i32_158 : BitVec 32 := 1#32
  let v177 : BitVec 32 := Scalar.muli v14 c1_i32_158
  let v178 : BitVec 32 := Scalar.addi c0_i32_159 v177
  v178.toNat
def k0_dev38 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v15 : BitVec 32 := Scalar.addi v2 c7_i32
  let c32_i32_7 : BitVec 32 := 32#32
  let v16 : BitVec 32 := Scalar.remsi v15 c32_i32_7
  let c1_i32_164 : BitVec 32 := 1#32
  let v185 : BitVec 32 := Scalar.muli v16 c1_i32_164
  let v186 : BitVec 32 := Scalar.addi c0_i32_165 v185
  v186.toNat
def k0_dev39 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v17 : BitVec 32 := Scalar.addi v2 c8_i32
  let c32_i32_8 : BitVec 32 := 32#32
  let v18 : BitVec 32 := Scalar.remsi v17 c32_i32_8
  let c1_i32_170 : BitVec 32 := 1#32
  let v193 : BitVec 32 := Scalar.muli v18 c1_i32_170
  let v194 : BitVec 32 := Scalar.addi c0_i32_171 v193
  v194.toNat
def k0_dev40 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v19 : BitVec 32 := Scalar.addi v2 c9_i32
  let c32_i32_9 : BitVec 32 := 32#32
  let v20 : BitVec 32 := Scalar.remsi v19 c32_i32_9
  let c1_i32_176 : BitVec 32 := 1#32
  let v201 : BitVec 32 := Scalar.muli v20 c1_i32_176
  let v202 : BitVec 32 := Scalar.addi c0_i32_177 v201
  v202.toNat
def k0_dev41 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v21 : BitVec 32 := Scalar.addi v2 c10_i32
  let c32_i32_10 : BitVec 32 := 32#32
  let v22 : BitVec 32 := Scalar.remsi v21 c32_i32_10
  let c1_i32_182 : BitVec 32 := 1#32
  let v209 : BitVec 32 := Scalar.muli v22 c1_i32_182
  let v210 : BitVec 32 := Scalar.addi c0_i32_183 v209
  v210.toNat
def k0_dev42 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v23 : BitVec 32 := Scalar.addi v2 c11_i32
  let c32_i32_11 : BitVec 32 := 32#32
  let v24 : BitVec 32 := Scalar.remsi v23 c32_i32_11
  let c1_i32_188 : BitVec 32 := 1#32
  let v217 : BitVec 32 := Scalar.muli v24 c1_i32_188
  let v218 : BitVec 32 := Scalar.addi c0_i32_189 v217
  v218.toNat
def k0_dev43 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v25 : BitVec 32 := Scalar.addi v2 c12_i32
  let c32_i32_12 : BitVec 32 := 32#32
  let v26 : BitVec 32 := Scalar.remsi v25 c32_i32_12
  let c1_i32_194 : BitVec 32 := 1#32
  let v225 : BitVec 32 := Scalar.muli v26 c1_i32_194
  let v226 : BitVec 32 := Scalar.addi c0_i32_195 v225
  v226.toNat
def k0_dev44 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v27 : BitVec 32 := Scalar.addi v2 c13_i32
  let c32_i32_13 : BitVec 32 := 32#32
  let v28 : BitVec 32 := Scalar.remsi v27 c32_i32_13
  let c1_i32_200 : BitVec 32 := 1#32
  let v233 : BitVec 32 := Scalar.muli v28 c1_i32_200
  let v234 : BitVec 32 := Scalar.addi c0_i32_201 v233
  v234.toNat
def k0_dev45 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v29 : BitVec 32 := Scalar.addi v2 c14_i32
  let c32_i32_14 : BitVec 32 := 32#32
  let v30 : BitVec 32 := Scalar.remsi v29 c32_i32_14
  let c1_i32_206 : BitVec 32 := 1#32
  let v241 : BitVec 32 := Scalar.muli v30 c1_i32_206
  let v242 : BitVec 32 := Scalar.addi c0_i32_207 v241
  v242.toNat
def k0_dev46 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v31 : BitVec 32 := Scalar.addi v2 c15_i32
  let c32_i32_15 : BitVec 32 := 32#32
  let v32 : BitVec 32 := Scalar.remsi v31 c32_i32_15
  let c1_i32_212 : BitVec 32 := 1#32
  let v249 : BitVec 32 := Scalar.muli v32 c1_i32_212
  let v250 : BitVec 32 := Scalar.addi c0_i32_213 v249
  v250.toNat
def k0_dev47 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v33 : BitVec 32 := Scalar.addi v2 c16_i32
  let c32_i32_16 : BitVec 32 := 32#32
  let v34 : BitVec 32 := Scalar.remsi v33 c32_i32_16
  let c1_i32_218 : BitVec 32 := 1#32
  let v257 : BitVec 32 := Scalar.muli v34 c1_i32_218
  let v258 : BitVec 32 := Scalar.addi c0_i32_219 v257
  v258.toNat
def k0_dev48 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v35 : BitVec 32 := Scalar.addi v2 c17_i32
  let c32_i32_17 : BitVec 32 := 32#32
  let v36 : BitVec 32 := Scalar.remsi v35 c32_i32_17
  let c1_i32_224 : BitVec 32 := 1#32
  let v265 : BitVec 32 := Scalar.muli v36 c1_i32_224
  let v266 : BitVec 32 := Scalar.addi c0_i32_225 v265
  v266.toNat
def k0_dev49 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v37 : BitVec 32 := Scalar.addi v2 c18_i32
  let c32_i32_18 : BitVec 32 := 32#32
  let v38 : BitVec 32 := Scalar.remsi v37 c32_i32_18
  let c1_i32_230 : BitVec 32 := 1#32
  let v273 : BitVec 32 := Scalar.muli v38 c1_i32_230
  let v274 : BitVec 32 := Scalar.addi c0_i32_231 v273
  v274.toNat
def k0_dev50 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v39 : BitVec 32 := Scalar.addi v2 c19_i32
  let c32_i32_19 : BitVec 32 := 32#32
  let v40 : BitVec 32 := Scalar.remsi v39 c32_i32_19
  let c1_i32_236 : BitVec 32 := 1#32
  let v281 : BitVec 32 := Scalar.muli v40 c1_i32_236
  let v282 : BitVec 32 := Scalar.addi c0_i32_237 v281
  v282.toNat
def k0_dev51 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v41 : BitVec 32 := Scalar.addi v2 c20_i32
  let c32_i32_20 : BitVec 32 := 32#32
  let v42 : BitVec 32 := Scalar.remsi v41 c32_i32_20
  let c1_i32_242 : BitVec 32 := 1#32
  let v289 : BitVec 32 := Scalar.muli v42 c1_i32_242
  let v290 : BitVec 32 := Scalar.addi c0_i32_243 v289
  v290.toNat
def k0_dev52 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v43 : BitVec 32 := Scalar.addi v2 c21_i32
  let c32_i32_21 : BitVec 32 := 32#32
  let v44 : BitVec 32 := Scalar.remsi v43 c32_i32_21
  let c1_i32_248 : BitVec 32 := 1#32
  let v297 : BitVec 32 := Scalar.muli v44 c1_i32_248
  let v298 : BitVec 32 := Scalar.addi c0_i32_249 v297
  v298.toNat
def k0_dev53 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v45 : BitVec 32 := Scalar.addi v2 c22_i32
  let c32_i32_22 : BitVec 32 := 32#32
  let v46 : BitVec 32 := Scalar.remsi v45 c32_i32_22
  let c1_i32_254 : BitVec 32 := 1#32
  let v305 : BitVec 32 := Scalar.muli v46 c1_i32_254
  let v306 : BitVec 32 := Scalar.addi c0_i32_255 v305
  v306.toNat
def k0_dev54 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v47 : BitVec 32 := Scalar.addi v2 c23_i32
  let c32_i32_23 : BitVec 32 := 32#32
  let v48 : BitVec 32 := Scalar.remsi v47 c32_i32_23
  let c1_i32_260 : BitVec 32 := 1#32
  let v313 : BitVec 32 := Scalar.muli v48 c1_i32_260
  let v314 : BitVec 32 := Scalar.addi c0_i32_261 v313
  v314.toNat
def k0_dev55 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v49 : BitVec 32 := Scalar.addi v2 c24_i32
  let c32_i32_24 : BitVec 32 := 32#32
  let v50 : BitVec 32 := Scalar.remsi v49 c32_i32_24
  let c1_i32_266 : BitVec 32 := 1#32
  let v321 : BitVec 32 := Scalar.muli v50 c1_i32_266
  let v322 : BitVec 32 := Scalar.addi c0_i32_267 v321
  v322.toNat
def k0_dev56 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v51 : BitVec 32 := Scalar.addi v2 c25_i32
  let c32_i32_25 : BitVec 32 := 32#32
  let v52 : BitVec 32 := Scalar.remsi v51 c32_i32_25
  let c1_i32_272 : BitVec 32 := 1#32
  let v329 : BitVec 32 := Scalar.muli v52 c1_i32_272
  let v330 : BitVec 32 := Scalar.addi c0_i32_273 v329
  v330.toNat
def k0_dev57 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v53 : BitVec 32 := Scalar.addi v2 c26_i32
  let c32_i32_26 : BitVec 32 := 32#32
  let v54 : BitVec 32 := Scalar.remsi v53 c32_i32_26
  let c1_i32_278 : BitVec 32 := 1#32
  let v337 : BitVec 32 := Scalar.muli v54 c1_i32_278
  let v338 : BitVec 32 := Scalar.addi c0_i32_279 v337
  v338.toNat
def k0_dev58 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v55 : BitVec 32 := Scalar.addi v2 c27_i32
  let c32_i32_27 : BitVec 32 := 32#32
  let v56 : BitVec 32 := Scalar.remsi v55 c32_i32_27
  let c1_i32_284 : BitVec 32 := 1#32
  let v345 : BitVec 32 := Scalar.muli v56 c1_i32_284
  let v346 : BitVec 32 := Scalar.addi c0_i32_285 v345
  v346.toNat
def k0_dev59 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v57 : BitVec 32 := Scalar.addi v2 c28_i32
  let c32_i32_28 : BitVec 32 := 32#32
  let v58 : BitVec 32 := Scalar.remsi v57 c32_i32_28
  let c1_i32_290 : BitVec 32 := 1#32
  let v353 : BitVec 32 := Scalar.muli v58 c1_i32_290
  let v354 : BitVec 32 := Scalar.addi c0_i32_291 v353
  v354.toNat
def k0_dev60 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v59 : BitVec 32 := Scalar.addi v2 c29_i32
  let c32_i32_29 : BitVec 32 := 32#32
  let v60 : BitVec 32 := Scalar.remsi v59 c32_i32_29
  let c1_i32_296 : BitVec 32 := 1#32
  let v361 : BitVec 32 := Scalar.muli v60 c1_i32_296
  let v362 : BitVec 32 := Scalar.addi c0_i32_297 v361
  v362.toNat
def k0_dev61 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v61 : BitVec 32 := Scalar.addi v2 c30_i32
  let c32_i32_30 : BitVec 32 := 32#32
  let v62 : BitVec 32 := Scalar.remsi v61 c32_i32_30
  let c1_i32_302 : BitVec 32 := 1#32
  let v369 : BitVec 32 := Scalar.muli v62 c1_i32_302
  let v370 : BitVec 32 := Scalar.addi c0_i32_303 v369
  v370.toNat
def k0_dev62 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v63 : BitVec 32 := Scalar.addi v2 c31_i32
  let c32_i32_31 : BitVec 32 := 32#32
  let v64 : BitVec 32 := Scalar.remsi v63 c32_i32_31
  let c1_i32_308 : BitVec 32 := 1#32
  let v377 : BitVec 32 := Scalar.muli v64 c1_i32_308
  let v378 : BitVec 32 := Scalar.addi c0_i32_309 v377
  v378.toNat
def k0_off5 (d0 : Dev nD) (c1_i32_0 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : BitVec 32 := Scalar.addi v2 c1_i32_0
  let c32_i32_1 : BitVec 32 := 32#32
  let v4 : BitVec 32 := Scalar.remsi v3 c32_i32_1
  let c0_i32_316 : BitVec 32 := 0#32
  let c0_i32_317 : BitVec 32 := 0#32
  ![v4.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  shapeCasts_S1x512_S1x1x512 : S1x512.ShapeCasts S1x1x512
  h_S1x1x512 : 0 < S1x1x512.numel
  shapeCasts_S1x1x512_S1x1x512 : S1x1x512.ShapeCasts S1x1x512
  hamt_31 : (31#32 : BitVec 32).msb = false
  squeezes_S1_S_ : S1.Squeezes S_
  inb_S32x1x512_S32x1x512_0_0_0 : ∀ a, (![0, 0, 0] : Fin 3 → Nat) a + S32x1x512.size a ≤ S32x1x512.size a
  h_S32x1x512 : 0 < S32x1x512.numel
  reduces_S32x1x512_S1x512 : S32x1x512.Reduces [0] S1x512
  inb_S1x512_S1x512_0_0 : ∀ a, (![0, 0] : Fin 2 → Nat) a + S1x512.size a ≤ S1x512.size a
  h_S1x512 : 0 < S1x512.numel
  hcc0_scratch1 : 2 + S32.numel ≤ 66
  hcc0_scratch2 : 34 + S32.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ a, (k0_off1 d0) a + S1x1x512.size a ≤ S32x1x512.size a
  k0_off2_inb : ∀ d0 : Dev nD, ∀ (r : Fin 31), ∀ a, (k0_off2 d0 (BitVec.ofNat 32 (1 + r.val))) a + S1.size a ≤ S32.size a
  k0_off3_inb : ∀ d0 : Dev nD, ∀ a, (k0_off3 d0) a + S1.size a ≤ S32.size a
  k0_off4_inb : ∀ d0 : Dev nD, ∀ a, (k0_off4 d0) a + S1x1x512.size a ≤ S32x1x512.size a
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off5_inb : ∀ d0 : Dev nD, ∀ (r : Fin 31), ∀ a, (k0_off5 d0 (BitVec.ofNat 32 (1 + r.val))) a + S1x1x512.size a ≤ S32x1x512.size a
  hstage0_0 : ∀ j, (stage0_0 j).IsWhole
  hstage0_1 : ∀ j, (stage0_1 j).IsWhole

variable [Facts₀]

abbrev cc0_scratch1 : DmaSems sig S32 := SemArray.consecutive 2 S32 hcc0_scratch1
abbrev cc0_scratch2 : DmaSems sig S32 := SemArray.consecutive 34 S32 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x512 : Shape := ⟨2, ![32768, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S_, .f32⟩
  | .hbm, ⟨2, _⟩ => ⟨S512, .f32⟩
  | .hbm, ⟨3, _⟩ => ⟨S1x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S32768x512_S512_d0 : S32768x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.Rows.lean ====
/-
  The array every device's scratch holds once all rows have landed, and the kernel's result read off it.

  Row `p` of the scratch (shape 32 × 1 × 512) is the column-wise maximum of device `p`'s block of the input: the
  body's first payload applied to that block. The result block (1 × 512) is the body's second payload of the whole
  scratch: the maximum over the 32 rows. Both are stated once, for any float instance, as functions of the 32 blocks.
-/
import proofs.«900562_g7700000000000563_dist_max_ax0_shard0_i_m1024_n512_v7x_i32_f32_1_alg».proof.Proof.Gen.KernelIdeal.Skeleton
import Idealize.ShloMosaic.Lib.ValueIdx

noncomputable section

namespace Cert.KernelIdeal.Rows

open Idealize.ShloMosaic Cert.KernelIdeal Cert.KernelIdeal.Gen

variable {F : FTy → Type} [FloatOps F]

/-- The index of column `j` in a single row (shape 1 × 1 × 512). -/
def colIdx (j : Fin 512) : S1x1x512.Idx := ValueIdx.ix3 (0 : Fin 1) (0 : Fin 1) j

/-- The scratch once complete: entry `(p, 0, j)` is column `j` of the column-wise maximum of block `p`. -/
def rows (B : Fin 32 → Vec F S1024x512 .f32) : Vec F S32x1x512 .f32 :=
  fun i => k0_pay2 (B (i 0)) (colIdx (i 2))

/-- The kernel's result block: the maximum over the 32 rows. -/
def result (B : Fin 32 → Vec F S1024x512 .f32) : Vec F S1x512 .f32 := k0_pay1 (rows B)

theorem rows_apply (B : Fin 32 → Vec F S1024x512 .f32) (p : Fin 32) (j : Fin 512) :
    rows B (ValueIdx.ix3 p (0 : Fin 1) j) = k0_pay2 (B p) (colIdx j) := rfl

end Cert.KernelIdeal.Rows

end
-- ==== Proof.Proto.lean ====
/-
  The protocol of the all-to-all maximum on 32 devices, as a schedule of rounds.

  Device `c` has 31 peers, `peer c d = (c + d + 1) mod 32` for `d < 31`. Three kinds of cells meet on a device:
  * its BARRIER cell (the runtime's barrier semaphore): one round, one duty of one unit per peer `p ≠ c`, paid by `p`'s
    signal; what the landing tells `c`: row `c` of `p`'s scratch is `c`'s to write (the slot its copy goes to), and `p`
    is at round 0 of its receive cell `c`;
  * its RECEIVE cell `p` (`p ≠ c`): one round, one duty of the row's credit, paid by `p`'s copy; the landing tells `c` that
    row `p` of its scratch holds row `p` of the complete array;
  * its SEND cell `p` (`p ≠ c`): one round, one duty of the row's credit, paid by `c`'s own copy to `p`; the landing gives
    back the share of row `c` that copy read.
  The complete array is one function of the 32 argument blocks, the same on every device: row `p` is the column-wise maximum
  of block `p`. Every payload about a row's contents is stated over it, on that row's index set.
-/
import proofs.«900562_g7700000000000563_dist_max_ax0_shard0_i_m1024_n512_v7x_i32_f32_1_alg».proof.Proof.Rows
import proofs.«900562_g7700000000000563_dist_max_ax0_shard0_i_m1024_n512_v7x_i32_f32_1_alg».proof.Proof.Gen.KernelIdeal
import proofs.«900562_g7700000000000563_dist_max_ax0_shard0_i_m1024_n512_v7x_i32_f32_1_alg».proof.Proof.Gen.KernelIdeal.Skeleton
import proofs.«900562_g7700000000000563_dist_max_ax0_shard0_i_m1024_n512_v7x_i32_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Proto

open Cert.KernelIdeal Cert.KernelIdeal.Gen Cert.KernelIdeal.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## Two algebras side by side: the pipeline's (duties `Unit`) and the protocol's (duties named by a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Peers -/

/-- The `d`-th peer of `c`: `(c + d + 1) mod 32`, `d < 31`. -/
def peer (c : Dev nD) (d : Fin 31) : Dev nD := ⟨(c.val + d.val + 1) % 32, Nat.mod_lt _ (by decide)⟩
/-- The device whose `d`-th peer is `c`: `(c + 31 - d) mod 32`. -/
def src (c : Dev nD) (d : Fin 31) : Dev nD := ⟨(c.val + 31 - d.val) % 32, Nat.mod_lt _ (by decide)⟩

theorem peer_src (c : Dev nD) (d : Fin 31) : peer (src c d) d = c := by
  apply Fin.ext; have hc : c.val < 32 := c.isLt; have := d.isLt; simp only [peer, src]; omega
theorem src_peer (c : Dev nD) (d : Fin 31) : src (peer c d) d = c := by
  apply Fin.ext; have hc : c.val < 32 := c.isLt; have := d.isLt; simp only [peer, src]; omega
theorem peer_ne (c : Dev nD) (d : Fin 31) : peer c d ≠ c := by
  intro h; have h' := congrArg Fin.val h; have hc : c.val < 32 := c.isLt; have := d.isLt; simp only [peer] at h'; omega
theorem src_ne (c : Dev nD) (d : Fin 31) : src c d ≠ c := by
  intro h; have h' := congrArg Fin.val h; have hc : c.val < 32 := c.isLt; have := d.isLt; simp only [src] at h'; omega
theorem peer_injective (c : Dev nD) : Function.Injective (peer c) := by
  intro d d' h; have h' := congrArg Fin.val h; have hc : c.val < 32 := c.isLt; have := d.isLt; have := d'.isLt
  simp only [peer] at h'; exact Fin.ext (by omega)
/-- Every device other than `c` is a peer of `c`. -/
theorem exists_peer (c p : Dev nD) (h : p ≠ c) : ∃ d : Fin 31, peer c d = p := by
  have hc : c.val < 32 := c.isLt; have hp : p.val < 32 := p.isLt
  have hne : p.val ≠ c.val := fun e => h (Fin.ext e)
  refine ⟨⟨(p.val + 31 - c.val) % 32, by omega⟩, Fin.ext ?_⟩
  simp only [peer]; omega

/-! ## Semaphores and cells -/

/-- The runtime's barrier semaphore of collective id 0 (not scoped to the launch). -/
abbrev barS : Sem sig := (SemArray.scalar (sig.barrier 0 rfl) : Sems sig S_).sem
/-- Send semaphore `p` and receive semaphore `p` of the two scratch arrays of 32. -/
def sendSem (p : Dev nD) : DmaSem sig := ⟨2 + p.val, by have hp : p.val < 32 := p.isLt; show 2 + p.val < 66; omega⟩
def recvSem (p : Dev nD) : DmaSem sig := ⟨34 + p.val, by have hp : p.val < 32 := p.isLt; show 34 + p.val < 66; omega⟩

abbrev barCell (c : Dev nD) : GSem nD τ sig := ((c : Thread nD τ), .reg barS)
abbrev sendCell (c p : Dev nD) : GSem nD τ sig := ((c : Thread nD τ), .dma (sendSem p))
abbrev recvCell (c p : Dev nD) : GSem nD τ sig := ((c : Thread nD τ), .dma (recvSem p))

/-- The cells of a device, indexed: `none` its barrier cell, `some (false, p)` its send cell `p`, `some (true, p)` its
    receive cell `p` (the two cells `p = c` are the kernel's own too; nothing ever lands on them). -/
abbrev CellIx : Type := Option (Bool × Dev nD)
def csem : CellIx → SemLoc sig
  | none => .reg barS
  | some (false, p) => .dma (sendSem p)
  | some (true, p) => .dma (recvSem p)
abbrev kcell (ck : Dev nD × CellIx) : GSem nD τ sig := ((ck.1 : Thread nD τ), csem ck.2)

theorem sendSem_injective : Function.Injective (sendSem : Dev nD → DmaSem sig) := by
  intro p p' h; have h' := congrArg Fin.val h; simp only [sendSem] at h'; exact Fin.ext (by omega)
theorem recvSem_injective : Function.Injective (recvSem : Dev nD → DmaSem sig) := by
  intro p p' h; have h' := congrArg Fin.val h; simp only [recvSem] at h'; exact Fin.ext (by omega)
theorem sendSem_ne_recvSem (p p' : Dev nD) : sendSem p ≠ recvSem p' := by
  intro h; have h' := congrArg Fin.val h; have hp : p.val < 32 := p.isLt; simp only [sendSem, recvSem] at h'; omega

theorem csem_injective : Function.Injective csem := by
  intro a b h
  match a, b with
  | none, none => rfl
  | none, some (false, _) => cases h
  | none, some (true, _) => cases h
  | some (false, _), none => cases h
  | some (true, _), none => cases h
  | some (false, p), some (false, p') => simp only [csem, SemLoc.dma.injEq] at h; rw [sendSem_injective h]
  | some (true, p), some (true, p') => simp only [csem, SemLoc.dma.injEq] at h; rw [recvSem_injective h]
  | some (false, p), some (true, p') => simp only [csem, SemLoc.dma.injEq] at h; exact absurd h (sendSem_ne_recvSem p p')
  | some (true, p), some (false, p') => simp only [csem, SemLoc.dma.injEq] at h; exact absurd h.symm (sendSem_ne_recvSem p' p)

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## The scratch and its rows -/

abbrev scrM : Memref sig .tc .vmem S32x1x512 .f32 := Memref.whole cc0_scratch0

/-- Row `p` of the scratch: the 1 × 1 × 512 rectangle at `(p, 0, 0)`. -/
def rowOff (p : Dev nD) : Fin 3 → Nat := ![p.val, 0, 0]
theorem rowOff_inb (p : Dev nD) : ∀ a, rowOff p a + S1x1x512.size a ≤ S32x1x512.size a := by
  intro a; have hp : p.val < 32 := p.isLt; fin_cases a <;> simp [rowOff, Shape.size] <;> omega
abbrev rowRect (p : Dev nD) : Rect S32x1x512 := Rect.unit (s := S32x1x512) (rowOff p) S1x1x512.size (rowOff_inb p)
abbrev rowM (p : Dev nD) : Memref sig .tc .vmem S1x1x512 .f32 := scrM.slice (rowRect p) (fun _ => rfl)

/-- The row's credit: what one copy of a row puts on its send and on its receive semaphore. -/
abbrev N : ℕ := (rowM (0 : Dev nD)).view.dmaCredit

theorem N_pos : 0 < N := View.dmaCredit_pos _ (by decide)

/-! ## Contents -/

/-- Device `p`'s block of the argument, as its kernel finds it staged. -/
def xblk (p : Dev nD) : Vec F S1024x512 .f32 :=
  (win0_0.blk (0 : Fin 1)).view.read (Elt F) (m ((p : Thread nD τ).loc main_arg0))

/-- The complete array: row `p` the column-wise maximum of device `p`'s block. The same on every device. -/
def RED : Vec F S32x1x512 .f32 := rows (xblk m)

/-- The kernel's result block on every device: the maximum over the 32 rows of the complete array. -/
def OUT : Vec F S1x512 .f32 := result (xblk m)

/-- Device `c` holds row `p` of its scratch at share `q` with contents `f` (only `f`'s entries in that row matter). -/
def rowPts (c p : Dev nD) (q : PosShare TreeShare) (f : Buf (Elt F) ((rowM p).view.loc (c : Thread nD τ))) : sProp 𝕄 :=
  (rowM p).view.loc (c : Thread nD τ) ↦[(rowM p).view.set]{q} f

/-! ## The schedule -/

/-- Which scratch semaphore a DMA semaphore is: `(false, p)` send semaphore `p`, `(true, p)` receive semaphore `p`. -/
def decode (s : DmaSem sig) : Option (Bool × Dev nD) :=
  if h : 2 ≤ s.val ∧ s.val < 34 then some (false, ⟨s.val - 2, by show s.val - 2 < 32; omega⟩)
  else if h' : 34 ≤ s.val ∧ s.val < 66 then some (true, ⟨s.val - 34, by show s.val - 34 < 32; omega⟩)
  else none

theorem decode_sendSem (p : Dev nD) : decode (sendSem p) = some (false, p) := by
  have hp : p.val < 32 := p.isLt
  unfold decode sendSem
  rw [dif_pos ⟨by show 2 ≤ 2 + p.val; omega, by show 2 + p.val < 34; omega⟩]
  exact congrArg some (Prod.ext rfl (Fin.ext (by show 2 + p.val - 2 = p.val; omega)))
theorem decode_recvSem (p : Dev nD) : decode (recvSem p) = some (true, p) := by
  have hp : p.val < 32 := p.isLt
  unfold decode recvSem
  rw [dif_neg (fun h => by have : (34 + p.val) < 34 := h.2; omega), dif_pos ⟨by show 34 ≤ 34 + p.val; omega, by show 34 + p.val < 66; omega⟩]
  exact congrArg some (Prod.ext rfl (Fin.ext (by show 34 + p.val - 34 = p.val; omega)))

/-- Which of `c`'s copies goes to `p`: `(p + 31 - c) mod 32` (the `d` with `peer c d = p`). -/
def offOf (c p : Dev nD) : ℕ := (p.val + 31 - c.val) % 32
theorem offOf_peer (c : Dev nD) (d : Fin 31) : offOf c (peer c d) = d.val := by
  have hc : c.val < 32 := c.isLt; have := d.isLt; simp only [offOf, peer]; omega

/-- What `p`'s signal hands `c`: row `c` of `p`'s scratch, to write, and that `p` is at round 0 of its receive cell `c`. -/
def barPay (c p : Dev nD) : sProp 𝕄 := iprop((∃ f, rowPts p c fullShare f) ∗ reached ER (recvCell p c) 0)
/-- What `p`'s copy hands `c`: row `p` of `c`'s scratch holds row `p` of the complete array. -/
def recvPay (c p : Dev nD) : sProp 𝕄 := rowPts c p fullShare (RED m)
/-- What `c`'s copy to `p` gives back to `c`: the share of its own row that copy read. -/
def sendPay (c p : Dev nD) : sProp 𝕄 := rowPts c c (Transfers.shareTokN fullShare (offOf c p)) (RED m)

/-- One round, round 0. A barrier cell: a unit from every other device. A send or receive cell `p` of device `c ≠ p`: the
    row's credit, one duty named `p`. Nothing else, and nothing in later rounds. -/
def sched : Rounds.Schedule (GSem nD τ sig) (Dev nD) 𝕄 where
  duties g r :=
    if r ≠ 0 ∨ g.1.2 ≠ .tc then ∅ else
      match g.2 with
      | .reg s => if s = barS then Finset.univ.erase g.1.1 else ∅
      | .dma s => match decode s with
        | some (_, p) => if p = g.1.1 then ∅ else {p}
        | none => ∅
  amount g _ _ := match g.2 with
    | .reg _ => 1
    | .dma _ => N
  payload g _ d := match g.2 with
    | .reg _ => barPay g.1.1 d
    | .dma s => match decode s with
      | some (false, p) => sendPay m g.1.1 p
      | some (true, p) => recvPay m g.1.1 p
      | none => iprop(emp)
  amount_pos g _ _ _ := by
    cases g.2 with
    | reg _ => exact Nat.one_pos
    | dma _ => exact N_pos

section Sched
variable (c p : Dev nD)

theorem duties_bar : (sched (F := F) m).duties (barCell c) 0 = Finset.univ.erase c := by
  dsimp only [sched]; rw [if_neg (by simp), if_pos rfl]
theorem duties_send (h : p ≠ c) : (sched (F := F) m).duties (sendCell c p) 0 = {p} := by
  dsimp only [sched]; rw [if_neg (by simp)]; simp only [decode_sendSem]; rw [if_neg h]
theorem duties_recv (h : p ≠ c) : (sched (F := F) m).duties (recvCell c p) 0 = {p} := by
  dsimp only [sched]; rw [if_neg (by simp)]; simp only [decode_recvSem]; rw [if_neg h]
theorem duties_send_self : (sched (F := F) m).duties (sendCell c c) 0 = ∅ := by
  dsimp only [sched]; rw [if_neg (by simp)]; simp only [decode_sendSem]; exact if_pos trivial
theorem duties_recv_self : (sched (F := F) m).duties (recvCell c c) 0 = ∅ := by
  dsimp only [sched]; rw [if_neg (by simp)]; simp only [decode_recvSem]; exact if_pos trivial
theorem duties_later (g : GSem nD τ sig) : ∀ r, 1 ≤ r → (sched (F := F) m).duties g r = ∅ :=
  fun r hr => by dsimp only [sched]; rw [if_pos (Or.inl (by omega))]

theorem amount_bar (d : Dev nD) : (sched (F := F) m).amount (barCell c) 0 d = 1 := rfl
theorem amount_send (d : Dev nD) : (sched (F := F) m).amount (sendCell c p) 0 d = N := rfl
theorem amount_recv (d : Dev nD) : (sched (F := F) m).amount (recvCell c p) 0 d = N := rfl

theorem expect_bar : (sched (F := F) m).expect (barCell c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
  rfl
theorem expect_send (h : p ≠ c) : (sched (F := F) m).expect (sendCell c p) 0 = N := by
  unfold Schedule.expect Schedule.amountOf; rw [duties_send m c p h, Finset.sum_singleton, amount_send]
theorem expect_recv (h : p ≠ c) : (sched (F := F) m).expect (recvCell c p) 0 = N := by
  unfold Schedule.expect Schedule.amountOf; rw [duties_recv m c p h, Finset.sum_singleton, amount_recv]

theorem payload_bar (d : Dev nD) : (sched (F := F) m).payload (barCell c) 0 d = barPay c d := rfl
theorem payload_send (d : Dev nD) : (sched (F := F) m).payload (sendCell c p) 0 d = sendPay m c p := by
  dsimp only [sched]; simp only [decode_sendSem]
theorem payload_recv (d : Dev nD) : (sched (F := F) m).payload (recvCell c p) 0 d = recvPay m c p := by
  dsimp only [sched]; simp only [decode_recvSem]

theorem rest_send (h : p ≠ c) : bigSep ((sched (F := F) m).duties (sendCell c p) 0 \ ∅) (fun d => (sched (F := F) m).payload (sendCell c p) 0 d) = sendPay m c p := by
  rw [Finset.sdiff_empty, duties_send m c p h, bigSep_singleton, payload_send]
theorem rest_recv (h : p ≠ c) : bigSep ((sched (F := F) m).duties (recvCell c p) 0 \ ∅) (fun d => (sched (F := F) m).payload (recvCell c p) 0 d) = recvPay m c p := by
  rw [Finset.sdiff_empty, duties_recv m c p h, bigSep_singleton, payload_recv]
/-- The rest of the barrier cell's round, no duty taken: every other device's payload. -/
theorem rest_bar : bigSep ((sched (F := F) m).duties (barCell c) 0 \ ∅) (fun d => (sched (F := F) m).payload (barCell c) 0 d)
    = bigSep (Finset.univ.erase c) (fun p => barPay (F := F) c p) := by
  rw [Finset.sdiff_empty, duties_bar]; rfl

end Sched

end Cert.KernelIdeal.Proto

end
-- ==== Proof.Data.lean ====
/-
  What one device holds and owes, laid out for a proof that walks its 31 peers in order.

  A device meets its peers in the order `peer c 0, …, peer c 30`, four times over (signal, copy, receive wait, send wait).
  Whatever it holds per peer is kept as a CHAIN that gives up the entry of peer `k` first: `chain Φ (j+1)` is `chain Φ j` and
  the entry of peer `30 - j`, so that `chain Φ 31` is everything and `chain Φ (31 - k)` is what is left after `k` peers.
  What it owes is summed the same way: the units it owes its peers' barrier cells over the credit it owes their receive cells.
-/
import proofs.«900562_g7700000000000563_dist_max_ax0_shard0_i_m1024_n512_v7x_i32_f32_1_alg».proof.Proof.Proto

noncomputable section

namespace Cert.KernelIdeal.Proto

open Cert.KernelIdeal Cert.KernelIdeal.Gen Cert.KernelIdeal.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Chains over the 31 peers -/

/-- The entries of peers `30 - j + 1 … 30` … `chain Φ 31` is every peer's entry; peeling gives up the lowest peer first. -/
def chain (Φ : Fin 31 → sProp 𝕄) : ℕ → sProp 𝕄
  | 0 => iprop(emp)
  | j + 1 => iprop(chain Φ j ∗ Φ ⟨30 - j, by omega⟩)

omit [FloatOps F] in
theorem chain_succ (Φ : Fin 31 → sProp 𝕄) (j : ℕ) : chain Φ (j + 1) = iprop(chain Φ j ∗ Φ ⟨30 - j, by omega⟩) := rfl

omit [FloatOps F] in
/-- Giving up peer `k`'s entry: what is left after `k` peers is what is left after `k + 1`, and peer `k`'s. -/
theorem chain_peel (Φ : Fin 31 → sProp 𝕄) (k : ℕ) (hk : k < 31) : chain Φ (31 - k) = iprop(chain Φ (30 - k) ∗ Φ ⟨k, hk⟩) := by
  have h : 31 - k = (30 - k) + 1 := by omega
  rw [h, chain_succ]
  have e : (⟨30 - (30 - k), by omega⟩ : Fin 31) = ⟨k, hk⟩ := Fin.ext (by show 30 - (30 - k) = k; omega)
  rw [e]

/-- What has been gathered from peers `0 … k - 1`, in order. -/
def upto (Φ : ℕ → sProp 𝕄) : ℕ → sProp 𝕄
  | 0 => iprop(emp)
  | k + 1 => iprop(upto Φ k ∗ Φ k)

omit [FloatOps F] in
theorem upto_succ (Φ : ℕ → sProp 𝕄) (k : ℕ) : upto Φ (k + 1) = iprop(upto Φ k ∗ Φ k) := rfl

/-- The `k`-th peer with `k` a natural number (`peer c d = peerN c d`). -/
def peerN (c : Dev nD) (k : ℕ) : Dev nD := ⟨(c.val + k + 1) % 32, Nat.mod_lt _ (by decide)⟩
theorem peer_eq_peerN (c : Dev nD) (d : Fin 31) : peer c d = peerN c d.val := rfl

/-! ## What a device owes at launch -/

/-- The credit device `c` owes receive cell `c` of its peers `31 - j … 30`. -/
def oRecv (c : Dev nD) : ℕ → CellTallies nD τ sig Unit
  | 0 => 0
  | j + 1 => oRecv c j + tallyAt (recvCell (peer c ⟨30 - j, by omega⟩) c) () N
/-- … and over it the units it owes the barrier cells of its peers `31 - j … 30`. -/
def oSig (c : Dev nD) : ℕ → CellTallies nD τ sig Unit
  | 0 => oRecv c 31
  | j + 1 => oSig c j + tallyAt (barCell (peer c ⟨30 - j, by omega⟩)) () 1
/-- At launch: a unit to every peer's barrier cell, the row's credit to every peer's receive cell `c`. -/
def O₀ (c : Dev nD) : CellTallies nD τ sig Unit := oSig c 31

theorem oRecv_succ (c : Dev nD) (j : ℕ) : oRecv c (j + 1) = oRecv c j + tallyAt (recvCell (peer c ⟨30 - j, by omega⟩) c) () N := rfl
theorem oSig_succ (c : Dev nD) (j : ℕ) : oSig c (j + 1) = oSig c j + tallyAt (barCell (peer c ⟨30 - j, by omega⟩)) () 1 := rfl

/-! ## Levels: barrier cells at 1, receive cells at 2, everything else (staging, send) at 0 -/

def L (g : GSem nD τ sig) : Finset Unit := if g.1.2 = .tc then {()} else ∅
def lv (g : GSem nD τ sig) (_ : Unit) : ℕ := match g.2 with
  | .reg _ => 1
  | .dma s => match decode s with
    | some (true, _) => 2
    | _ => 0

/-! ## The ghost state -/

/-- Every cell's invariant, under the names `K` the launch allocated them at, and that every cell has reached round 0.
    Persistent: every device holds all of it. -/
def records (K : Dev nD × CellIx → ℕ) : sProp 𝕄 :=
  iprop((bigSep Finset.univ fun ck : Dev nD × CellIx => cellInv ER (sched m) (K ck) (kcell ck))
    ∗ bigSep Finset.univ fun ck : Dev nD × CellIx => reached ER (kcell ck) 0)

instance records_persistent (K : Dev nD × CellIx → ℕ) : BI.Persistent (records m K) := by unfold records; infer_instance

/-- The tokens of the duties device `c` PAYS, per peer: its unit on the peer's barrier cell, its copy's credit on the peer's
    receive cell `c`, the same copy's credit on its own send cell for that peer. -/
def sigToks (c : Dev nD) : ℕ → sProp 𝕄 := chain fun d => dutyTok ER (barCell (peer c d)) 0 c
def rcvToks (c : Dev nD) : ℕ → sProp 𝕄 := chain fun d => dutyTok ER (recvCell (peer c d) c) 0 c
def sndToks (c : Dev nD) : ℕ → sProp 𝕄 := chain fun d => dutyTok ER (sendCell c (peer c d)) 0 (peer c d)
/-- Its positions: at round 0, nothing taken, of every one of its 65 cells. -/
def positions (c : Dev nD) : sProp 𝕄 := bigSep Finset.univ fun k : CellIx => atPos ER (kcell (c, k)) 0 ∅ 0
def linear (c : Dev nD) : sProp 𝕄 := iprop(positions c ∗ sigToks c 31 ∗ rcvToks c 31 ∗ sndToks c 31)

def ghost (K : Dev nD × CellIx → ℕ) (c : Dev nD) : sProp 𝕄 := iprop(records m K ∗ linear c)

/-- The launch credit of the cells device `c` waits on that others pay: 31 units on its barrier cell, a row's credit on its
    receive cell for each peer. -/
def rcvCreds (c : Dev nD) : ℕ → sProp 𝕄 := chain fun d => cred (tallyAt (recvCell c (peer c d)) () N)

/-- What device `c`'s body starts from, besides its buffers. -/
def start (c : Dev nD) : sProp 𝕄 :=
  iprop((∃ K, ghost m K c) ∗ cred (tallyAt (barCell c) () 31) ∗ rcvCreds c 31 ∗ levAts L lv)

/-! ## What a device holds per peer, phase by phase -/

/-- Rows of its own scratch it hands to its peers to write (row `peer c d` goes with its signal to `peer c d`). -/
def slots (c : Dev nD) : ℕ → sProp 𝕄 := chain fun d => iprop(∃ f, rowPts (F := F) c (peer c d) fullShare f)
/-- Row `c` of each peer's scratch, which the barrier wait hands it to copy into. -/
def dsts (c : Dev nD) : ℕ → sProp 𝕄 := chain fun d => iprop(∃ f, rowPts (F := F) (peer c d) c fullShare f)
/-- Its own row `c`, holding its row of the complete array, in the 31 shares its 31 copies read. -/
def srcShares (c : Dev nD) : ℕ → sProp 𝕄 := chain fun d => rowPts c c (Transfers.shareTok fullShare 31 d) (RED m)
/-- Its positions on its receive and send cells for its peers. -/
def rcvPos (c : Dev nD) : ℕ → sProp 𝕄 := chain fun d => atPos ER (recvCell c (peer c d)) 0 ∅ 0
def sndPos (c : Dev nD) : ℕ → sProp 𝕄 := chain fun d => atPos ER (sendCell c (peer c d)) 0 ∅ 0
/-- Gathered as it goes: the credit its copies put on its send cells; the rows its receive waits hand it; the shares its
    send waits give back; its positions after those waits. -/
def sndCreds (c : Dev nD) : ℕ → sProp 𝕄 := upto fun k => cred (tallyAt (sendCell c (peerN c k)) () N)
def gotRows (c : Dev nD) : ℕ → sProp 𝕄 := upto fun k => rowPts c (peerN c k) fullShare (RED m)
def gotShares (c : Dev nD) : ℕ → sProp 𝕄 := upto fun k => rowPts c c (Transfers.shareTokN fullShare k) (RED m)
def rcvDone (c : Dev nD) : ℕ → sProp 𝕄 := upto fun k => atPos ER (recvCell c (peerN c k)) 1 ∅ 0
def sndDone (c : Dev nD) : ℕ → sProp 𝕄 := upto fun k => atPos ER (sendCell c (peerN c k)) 1 ∅ 0

/-- The kernel's own (scoped) semaphores, as the launch indexes them: the 64 of the two scratch arrays. -/
def osem (i : Fin 64) : SemLoc sig := .dma ⟨2 + i.val, by show 2 + i.val < 66; omega⟩

/-- Before the point: that, and the scratch at some contents. -/
def Φ₀ (c : Dev nD) : sProp 𝕄 := iprop(start m c ∗ ∃ f : Buf (Elt F) ((c : Thread nD τ).loc cc0_scratch0), ((c : Thread nD τ).loc cc0_scratch0) ↦{fullShare} f)
/-- After it: the scratch holding the complete array, and the 64 own semaphores at zero, closed. -/
def Φ₁ (c : Dev nD) : sProp 𝕄 :=
  iprop((((c : Thread nD τ).loc cc0_scratch0) ↦{fullShare} RED m) ∗ Pipeline.ownSems0 osem c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => OUT m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Proto

end
-- ==== Proof.Values.lean ====
/-
  The run's post read as values. The pipeline's post speaks of the windows' arrays after the last point's write-back; this
  kernel has one point, the argument's window is never written back, and the result's window is written back once, its
  one block being the whole array: so the result array ends at what the body left in the staging buffer, the argument array
  as it began, and the argument's one block, read through zero offsets, is the argument array itself.
-/
import proofs.«900562_g7700000000000563_dist_max_ax0_shard0_i_m1024_n512_v7x_i32_f32_1_alg».proof.Proof.Data
import proofs.«900562_g7700000000000563_dist_max_ax0_shard0_i_m1024_n512_v7x_i32_f32_1_alg».proof.Proof.Gen.KernelIdeal.Points
import Idealize.ShloMosaic.Lib.Pipeline.Cells
import Idealize.ShloMosaic.Lib.Pipeline.Value

noncomputable section

namespace Cert.KernelIdeal.Proto

open Cert.KernelIdeal Cert.KernelIdeal.Gen Cert.KernelIdeal.Rows

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The protocol's run: every weakly fair execution terminates, nothing faulting, each window's array at what the
    pipeline's data say it holds after the last point. -/
def RunAll : Prop :=
  θ_run defs (onTc (τ := τ) (main (F := F))) ⟨m, fun _ => 0, ρ⟩ (fun r => ∀ c : Dev nD, ∀ w : Fin cfg0.W,
    r.2.mem ((cfg0.win w).arr.view.loc (c : Thread nD τ)) = (dats m 0 c).arrAt w cfg0.N)

/-- The argument's one block is the whole array: read through zero offsets at the array's own sizes. -/
theorem xblk_eq (c : Dev nD) : xblk m c = m ((c : Thread nD τ).loc main_arg0) := by
  unfold xblk
  have hz : (fun a => win0_0.index (0 : Fin 1) a * main_arg0.ty.shape.size a) = fun _ => 0 :=
    funext fun a => Nat.zero_mul _
  exact Memref.read_access_unit_zero (Elt F) main_arg0 hz (fun a => by rw [congrFun hz a]; simp) _

/-- The argument's array is never written back. -/
theorem arrAt_arg (c : Dev nD) : (dats m 0 c).arrAt (0 : Fin 2) cfg0.N = m ((c : Thread nD τ).loc main_arg0) :=
  (dats m 0 c).arrAt_in 0 rfl _

/-- For any data of this pipeline: after its one point the result's array holds what the body left for it, the one
    write-back going through zero offsets at the array's own sizes. -/
theorem arrAt_out_of (c : Dev nD) (d : Dat τ (Elt F) Unit ℕ UU ℕ cfg0 c) :
    d.arrAt (1 : Fin 2) cfg0.N = d.after (1 : Fin 2) t₀ := by
  have hN : cfg0.N = (t₀ : Fin cfg0.N).val + 1 := cfg0_N
  refine (congrArg (d.arrAt 1) hN).trans ?_
  rw [Dat.arrAt_succ, if_pos (flush0_1 t₀)]
  have hz : (fun a => win0_1.index t₀ a * main_v1.ty.shape.size a) = fun _ => 0 :=
    funext fun a => Nat.zero_mul _
  exact Memref.write_access_unit_zero_univ (Elt F) main_v1 hz (fun a => by rw [congrFun hz a]; simp) _ _

/-- The result's array ends at the kernel's result block. -/
theorem arrAt_out (c : Dev nD) : (dats m 0 c).arrAt (1 : Fin 2) cfg0.N = OUT m := by
  refine (arrAt_out_of c (dats m 0 c)).trans ?_
  unfold dats
  generalize OUT m = o
  rfl

/-- The run with its values named: the result array at the result block, the argument array unchanged. -/
theorem run_values (h : RunAll m ρ) :
    θ_run defs (onTc (τ := τ) (main (F := F))) ⟨m, fun _ => 0, ρ⟩ (fun r => ∀ c : Dev nD,
      r.2.mem ((c.tc : Thread nD τ).loc main_v1) = OUT m
      ∧ r.2.mem ((c.tc : Thread nD τ).loc main_arg0) = m ((c.tc : Thread nD τ).loc main_arg0)) :=
  (θ_run defs _ _).mono (fun _ hr c => ⟨(hr c 1).trans (arrAt_out m c), (hr c 0).trans (arrAt_arg m c)⟩) h

/-- The frame: the run with the result dropped. -/
theorem frame_of_run (h : RunAll m ρ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ hr c => (hr c).2) (run_values m ρ h)

/-- info: 'Cert.KernelIdeal.Proto.run_values' depends on axioms: [propext, Classical.choice, Quot.sound] -/
#guard_msgs in #print axioms run_values

end Cert.KernelIdeal.Proto

end
-- ==== Proof.Bits.Rows.lean ====
/-
  The array every device's scratch holds once all rows have landed, and the kernel's result read off it.

  Row `p` of the scratch (shape 32 × 1 × 512) is the column-wise maximum of device `p`'s block of the input: the
  body's first payload applied to that block. The result block (1 × 512) is the body's second payload of the whole
  scratch: the maximum over the 32 rows. Both are stated once, for any float instance, as functions of the 32 blocks.
-/
import proofs.«900562_g7700000000000563_dist_max_ax0_shard0_i_m1024_n512_v7x_i32_f32_1_alg».proof.Proof.Gen.Kernel.Skeleton
import Idealize.ShloMosaic.Lib.ValueIdx

noncomputable section

namespace Cert.Kernel.Rows

open Idealize.ShloMosaic Cert.Kernel Cert.Kernel.Gen

variable {F : FTy → Type} [FloatOps F]

/-- The index of column `j` in a single row (shape 1 × 1 × 512). -/
def colIdx (j : Fin 512) : S1x1x512.Idx := ValueIdx.ix3 (0 : Fin 1) (0 : Fin 1) j

/-- The scratch once complete: entry `(p, 0, j)` is column `j` of the column-wise maximum of block `p`. -/
def rows (B : Fin 32 → Vec F S1024x512 .f32) : Vec F S32x1x512 .f32 :=
  fun i => k0_pay2 (B (i 0)) (colIdx (i 2))

/-- The kernel's result block: the maximum over the 32 rows. -/
def result (B : Fin 32 → Vec F S1024x512 .f32) : Vec F S1x512 .f32 := k0_pay1 (rows B)

theorem rows_apply (B : Fin 32 → Vec F S1024x512 .f32) (p : Fin 32) (j : Fin 512) :
    rows B (ValueIdx.ix3 p (0 : Fin 1) j) = k0_pay2 (B p) (colIdx j) := rfl

end Cert.Kernel.Rows

end
-- ==== Proof.Bits.Proto.lean ====
/-
  The protocol of the all-to-all maximum on 32 devices, as a schedule of rounds.

  Device `c` has 31 peers, `peer c d = (c + d + 1) mod 32` for `d < 31`. Three kinds of cells meet on a device:
  * its BARRIER cell (the runtime's barrier semaphore): one round, one duty of one unit per peer `p ≠ c`, paid by `p`'s
    signal; what the landing tells `c`: row `c` of `p`'s scratch is `c`'s to write (the slot its copy goes to), and `p`
    is at round 0 of its receive cell `c`;
  * its RECEIVE cell `p` (`p ≠ c`): one round, one duty of the row's credit, paid by `p`'s copy; the landing tells `c` that
    row `p` of its scratch holds row `p` of the complete array;
  * its SEND cell `p` (`p ≠ c`): one round, one duty of the row's credit, paid by `c`'s own copy to `p`; the landing gives
    back the share of row `c` that copy read.
  The complete array is one function of the 32 argument blocks, the same on every device: row `p` is the column-wise maximum
  of block `p`. Every payload about a row's contents is stated over it, on that row's index set.
-/
import proofs.«900562_g7700000000000563_dist_max_ax0_shard0_i_m1024_n512_v7x_i32_f32_1_alg».proof.Proof.Bits.Rows
import proofs.«900562_g7700000000000563_dist_max_ax0_shard0_i_m1024_n512_v7x_i32_f32_1_alg».proof.Proof.Gen.Kernel
import proofs.«900562_g7700000000000563_dist_max_ax0_shard0_i_m1024_n512_v7x_i32_f32_1_alg».proof.Proof.Gen.Kernel.Skeleton
import proofs.«900562_g7700000000000563_dist_max_ax0_shard0_i_m1024_n512_v7x_i32_f32_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

noncomputable section

namespace Cert.Kernel.Proto

open Cert.Kernel Cert.Kernel.Gen Cert.Kernel.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## Two algebras side by side: the pipeline's (duties `Unit`) and the protocol's (duties named by a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Peers -/

/-- The `d`-th peer of `c`: `(c + d + 1) mod 32`, `d < 31`. -/
def peer (c : Dev nD) (d : Fin 31) : Dev nD := ⟨(c.val + d.val + 1) % 32, Nat.mod_lt _ (by decide)⟩
/-- The device whose `d`-th peer is `c`: `(c + 31 - d) mod 32`. -/
def src (c : Dev nD) (d : Fin 31) : Dev nD := ⟨(c.val + 31 - d.val) % 32, Nat.mod_lt _ (by decide)⟩

theorem peer_src (c : Dev nD) (d : Fin 31) : peer (src c d) d = c := by
  apply Fin.ext; have hc : c.val < 32 := c.isLt; have := d.isLt; simp only [peer, src]; omega
theorem src_peer (c : Dev nD) (d : Fin 31) : src (peer c d) d = c := by
  apply Fin.ext; have hc : c.val < 32 := c.isLt; have := d.isLt; simp only [peer, src]; omega
theorem peer_ne (c : Dev nD) (d : Fin 31) : peer c d ≠ c := by
  intro h; have h' := congrArg Fin.val h; have hc : c.val < 32 := c.isLt; have := d.isLt; simp only [peer] at h'; omega
theorem src_ne (c : Dev nD) (d : Fin 31) : src c d ≠ c := by
  intro h; have h' := congrArg Fin.val h; have hc : c.val < 32 := c.isLt; have := d.isLt; simp only [src] at h'; omega
theorem peer_injective (c : Dev nD) : Function.Injective (peer c) := by
  intro d d' h; have h' := congrArg Fin.val h; have hc : c.val < 32 := c.isLt; have := d.isLt; have := d'.isLt
  simp only [peer] at h'; exact Fin.ext (by omega)
/-- Every device other than `c` is a peer of `c`. -/
theorem exists_peer (c p : Dev nD) (h : p ≠ c) : ∃ d : Fin 31, peer c d = p := by
  have hc : c.val < 32 := c.isLt; have hp : p.val < 32 := p.isLt
  have hne : p.val ≠ c.val := fun e => h (Fin.ext e)
  refine ⟨⟨(p.val + 31 - c.val) % 32, by omega⟩, Fin.ext ?_⟩
  simp only [peer]; omega

/-! ## Semaphores and cells -/

/-- The runtime's barrier semaphore of collective id 0 (not scoped to the launch). -/
abbrev barS : Sem sig := (SemArray.scalar (sig.barrier 0 rfl) : Sems sig S_).sem
/-- Send semaphore `p` and receive semaphore `p` of the two scratch arrays of 32. -/
def sendSem (p : Dev nD) : DmaSem sig := ⟨2 + p.val, by have hp : p.val < 32 := p.isLt; show 2 + p.val < 66; omega⟩
def recvSem (p : Dev nD) : DmaSem sig := ⟨34 + p.val, by have hp : p.val < 32 := p.isLt; show 34 + p.val < 66; omega⟩

abbrev barCell (c : Dev nD) : GSem nD τ sig := ((c : Thread nD τ), .reg barS)
abbrev sendCell (c p : Dev nD) : GSem nD τ sig := ((c : Thread nD τ), .dma (sendSem p))
abbrev recvCell (c p : Dev nD) : GSem nD τ sig := ((c : Thread nD τ), .dma (recvSem p))

/-- The cells of a device, indexed: `none` its barrier cell, `some (false, p)` its send cell `p`, `some (true, p)` its
    receive cell `p` (the two cells `p = c` are the kernel's own too; nothing ever lands on them). -/
abbrev CellIx : Type := Option (Bool × Dev nD)
def csem : CellIx → SemLoc sig
  | none => .reg barS
  | some (false, p) => .dma (sendSem p)
  | some (true, p) => .dma (recvSem p)
abbrev kcell (ck : Dev nD × CellIx) : GSem nD τ sig := ((ck.1 : Thread nD τ), csem ck.2)

theorem sendSem_injective : Function.Injective (sendSem : Dev nD → DmaSem sig) := by
  intro p p' h; have h' := congrArg Fin.val h; simp only [sendSem] at h'; exact Fin.ext (by omega)
theorem recvSem_injective : Function.Injective (recvSem : Dev nD → DmaSem sig) := by
  intro p p' h; have h' := congrArg Fin.val h; simp only [recvSem] at h'; exact Fin.ext (by omega)
theorem sendSem_ne_recvSem (p p' : Dev nD) : sendSem p ≠ recvSem p' := by
  intro h; have h' := congrArg Fin.val h; have hp : p.val < 32 := p.isLt; simp only [sendSem, recvSem] at h'; omega

theorem csem_injective : Function.Injective csem := by
  intro a b h
  match a, b with
  | none, none => rfl
  | none, some (false, _) => cases h
  | none, some (true, _) => cases h
  | some (false, _), none => cases h
  | some (true, _), none => cases h
  | some (false, p), some (false, p') => simp only [csem, SemLoc.dma.injEq] at h; rw [sendSem_injective h]
  | some (true, p), some (true, p') => simp only [csem, SemLoc.dma.injEq] at h; rw [recvSem_injective h]
  | some (false, p), some (true, p') => simp only [csem, SemLoc.dma.injEq] at h; exact absurd h (sendSem_ne_recvSem p p')
  | some (true, p), some (false, p') => simp only [csem, SemLoc.dma.injEq] at h; exact absurd h.symm (sendSem_ne_recvSem p' p)

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## The scratch and its rows -/

abbrev scrM : Memref sig .tc .vmem S32x1x512 .f32 := Memref.whole cc0_scratch0

/-- Row `p` of the scratch: the 1 × 1 × 512 rectangle at `(p, 0, 0)`. -/
def rowOff (p : Dev nD) : Fin 3 → Nat := ![p.val, 0, 0]
theorem rowOff_inb (p : Dev nD) : ∀ a, rowOff p a + S1x1x512.size a ≤ S32x1x512.size a := by
  intro a; have hp : p.val < 32 := p.isLt; fin_cases a <;> simp [rowOff, Shape.size] <;> omega
abbrev rowRect (p : Dev nD) : Rect S32x1x512 := Rect.unit (s := S32x1x512) (rowOff p) S1x1x512.size (rowOff_inb p)
abbrev rowM (p : Dev nD) : Memref sig .tc .vmem S1x1x512 .f32 := scrM.slice (rowRect p) (fun _ => rfl)

/-- The row's credit: what one copy of a row puts on its send and on its receive semaphore. -/
abbrev N : ℕ := (rowM (0 : Dev nD)).view.dmaCredit

theorem N_pos : 0 < N := View.dmaCredit_pos _ (by decide)

/-! ## Contents -/

/-- Device `p`'s block of the argument, as its kernel finds it staged. -/
def xblk (p : Dev nD) : Vec F S1024x512 .f32 :=
  (win0_0.blk (0 : Fin 1)).view.read (Elt F) (m ((p : Thread nD τ).loc main_arg0))

/-- The complete array: row `p` the column-wise maximum of device `p`'s block. The same on every device. -/
def RED : Vec F S32x1x512 .f32 := rows (xblk m)

/-- The kernel's result block on every device: the maximum over the 32 rows of the complete array. -/
def OUT : Vec F S1x512 .f32 := result (xblk m)

/-- Device `c` holds row `p` of its scratch at share `q` with contents `f` (only `f`'s entries in that row matter). -/
def rowPts (c p : Dev nD) (q : PosShare TreeShare) (f : Buf (Elt F) ((rowM p).view.loc (c : Thread nD τ))) : sProp 𝕄 :=
  (rowM p).view.loc (c : Thread nD τ) ↦[(rowM p).view.set]{q} f

/-! ## The schedule -/

/-- Which scratch semaphore a DMA semaphore is: `(false, p)` send semaphore `p`, `(true, p)` receive semaphore `p`. -/
def decode (s : DmaSem sig) : Option (Bool × Dev nD) :=
  if h : 2 ≤ s.val ∧ s.val < 34 then some (false, ⟨s.val - 2, by show s.val - 2 < 32; omega⟩)
  else if h' : 34 ≤ s.val ∧ s.val < 66 then some (true, ⟨s.val - 34, by show s.val - 34 < 32; omega⟩)
  else none

theorem decode_sendSem (p : Dev nD) : decode (sendSem p) = some (false, p) := by
  have hp : p.val < 32 := p.isLt
  unfold decode sendSem
  rw [dif_pos ⟨by show 2 ≤ 2 + p.val; omega, by show 2 + p.val < 34; omega⟩]
  exact congrArg some (Prod.ext rfl (Fin.ext (by show 2 + p.val - 2 = p.val; omega)))
theorem decode_recvSem (p : Dev nD) : decode (recvSem p) = some (true, p) := by
  have hp : p.val < 32 := p.isLt
  unfold decode recvSem
  rw [dif_neg (fun h => by have : (34 + p.val) < 34 := h.2; omega), dif_pos ⟨by show 34 ≤ 34 + p.val; omega, by show 34 + p.val < 66; omega⟩]
  exact congrArg some (Prod.ext rfl (Fin.ext (by show 34 + p.val - 34 = p.val; omega)))

/-- Which of `c`'s copies goes to `p`: `(p + 31 - c) mod 32` (the `d` with `peer c d = p`). -/
def offOf (c p : Dev nD) : ℕ := (p.val + 31 - c.val) % 32
theorem offOf_peer (c : Dev nD) (d : Fin 31) : offOf c (peer c d) = d.val := by
  have hc : c.val < 32 := c.isLt; have := d.isLt; simp only [offOf, peer]; omega

/-- What `p`'s signal hands `c`: row `c` of `p`'s scratch, to write, and that `p` is at round 0 of its receive cell `c`. -/
def barPay (c p : Dev nD) : sProp 𝕄 := iprop((∃ f, rowPts p c fullShare f) ∗ reached ER (recvCell p c) 0)
/-- What `p`'s copy hands `c`: row `p` of `c`'s scratch holds row `p` of the complete array. -/
def recvPay (c p : Dev nD) : sProp 𝕄 := rowPts c p fullShare (RED m)
/-- What `c`'s copy to `p` gives back to `c`: the share of its own row that copy read. -/
def sendPay (c p : Dev nD) : sProp 𝕄 := rowPts c c (Transfers.shareTokN fullShare (offOf c p)) (RED m)

/-- One round, round 0. A barrier cell: a unit from every other device. A send or receive cell `p` of device `c ≠ p`: the
    row's credit, one duty named `p`. Nothing else, and nothing in later rounds. -/
def sched : Rounds.Schedule (GSem nD τ sig) (Dev nD) 𝕄 where
  duties g r :=
    if r ≠ 0 ∨ g.1.2 ≠ .tc then ∅ else
      match g.2 with
      | .reg s => if s = barS then Finset.univ.erase g.1.1 else ∅
      | .dma s => match decode s with
        | some (_, p) => if p = g.1.1 then ∅ else {p}
        | none => ∅
  amount g _ _ := match g.2 with
    | .reg _ => 1
    | .dma _ => N
  payload g _ d := match g.2 with
    | .reg _ => barPay g.1.1 d
    | .dma s => match decode s with
      | some (false, p) => sendPay m g.1.1 p
      | some (true, p) => recvPay m g.1.1 p
      | none => iprop(emp)
  amount_pos g _ _ _ := by
    cases g.2 with
    | reg _ => exact Nat.one_pos
    | dma _ => exact N_pos

section Sched
variable (c p : Dev nD)

theorem duties_bar : (sched (F := F) m).duties (barCell c) 0 = Finset.univ.erase c := by
  dsimp only [sched]; rw [if_neg (by simp), if_pos rfl]
theorem duties_send (h : p ≠ c) : (sched (F := F) m).duties (sendCell c p) 0 = {p} := by
  dsimp only [sched]; rw [if_neg (by simp)]; simp only [decode_sendSem]; rw [if_neg h]
theorem duties_recv (h : p ≠ c) : (sched (F := F) m).duties (recvCell c p) 0 = {p} := by
  dsimp only [sched]; rw [if_neg (by simp)]; simp only [decode_recvSem]; rw [if_neg h]
theorem duties_send_self : (sched (F := F) m).duties (sendCell c c) 0 = ∅ := by
  dsimp only [sched]; rw [if_neg (by simp)]; simp only [decode_sendSem]; exact if_pos trivial
theorem duties_recv_self : (sched (F := F) m).duties (recvCell c c) 0 = ∅ := by
  dsimp only [sched]; rw [if_neg (by simp)]; simp only [decode_recvSem]; exact if_pos trivial
theorem duties_later (g : GSem nD τ sig) : ∀ r, 1 ≤ r → (sched (F := F) m).duties g r = ∅ :=
  fun r hr => by dsimp only [sched]; rw [if_pos (Or.inl (by omega))]

theorem amount_bar (d : Dev nD) : (sched (F := F) m).amount (barCell c) 0 d = 1 := rfl
theorem amount_send (d : Dev nD) : (sched (F := F) m).amount (sendCell c p) 0 d = N := rfl
theorem amount_recv (d : Dev nD) : (sched (F := F) m).amount (recvCell c p) 0 d = N := rfl

theorem expect_bar : (sched (F := F) m).expect (barCell c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
  rfl
theorem expect_send (h : p ≠ c) : (sched (F := F) m).expect (sendCell c p) 0 = N := by
  unfold Schedule.expect Schedule.amountOf; rw [duties_send m c p h, Finset.sum_singleton, amount_send]
theorem expect_recv (h : p ≠ c) : (sched (F := F) m).expect (recvCell c p) 0 = N := by
  unfold Schedule.expect Schedule.amountOf; rw [duties_recv m c p h, Finset.sum_singleton, amount_recv]

theorem payload_bar (d : Dev nD) : (sched (F := F) m).payload (barCell c) 0 d = barPay c d := rfl
theorem payload_send (d : Dev nD) : (sched (F := F) m).payload (sendCell c p) 0 d = sendPay m c p := by
  dsimp only [sched]; simp only [decode_sendSem]
theorem payload_recv (d : Dev nD) : (sched (F := F) m).payload (recvCell c p) 0 d = recvPay m c p := by
  dsimp only [sched]; simp only [decode_recvSem]

theorem rest_send (h : p ≠ c) : bigSep ((sched (F := F) m).duties (sendCell c p) 0 \ ∅) (fun d => (sched (F := F) m).payload (sendCell c p) 0 d) = sendPay m c p := by
  rw [Finset.sdiff_empty, duties_send m c p h, bigSep_singleton, payload_send]
theorem rest_recv (h : p ≠ c) : bigSep ((sched (F := F) m).duties (recvCell c p) 0 \ ∅) (fun d => (sched (F := F) m).payload (recvCell c p) 0 d) = recvPay m c p := by
  rw [Finset.sdiff_empty, duties_recv m c p h, bigSep_singleton, payload_recv]
/-- The rest of the barrier cell's round, no duty taken: every other device's payload. -/
theorem rest_bar : bigSep ((sched (F := F) m).duties (barCell c) 0 \ ∅) (fun d => (sched (F := F) m).payload (barCell c) 0 d)
    = bigSep (Finset.univ.erase c) (fun p => barPay (F := F) c p) := by
  rw [Finset.sdiff_empty, duties_bar]; rfl

end Sched

end Cert.Kernel.Proto

end
-- ==== Proof.Bits.Data.lean ====
/-
  What one device holds and owes, laid out for a proof that walks its 31 peers in order.

  A device meets its peers in the order `peer c 0, …, peer c 30`, four times over (signal, copy, receive wait, send wait).
  Whatever it holds per peer is kept as a CHAIN that gives up the entry of peer `k` first: `chain Φ (j+1)` is `chain Φ j` and
  the entry of peer `30 - j`, so that `chain Φ 31` is everything and `chain Φ (31 - k)` is what is left after `k` peers.
  What it owes is summed the same way: the units it owes its peers' barrier cells over the credit it owes their receive cells.
-/
import proofs.«900562_g7700000000000563_dist_max_ax0_shard0_i_m1024_n512_v7x_i32_f32_1_alg».proof.Proof.Bits.Proto

noncomputable section

namespace Cert.Kernel.Proto

open Cert.Kernel Cert.Kernel.Gen Cert.Kernel.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Chains over the 31 peers -/

/-- The entries of peers `30 - j + 1 … 30` … `chain Φ 31` is every peer's entry; peeling gives up the lowest peer first. -/
def chain (Φ : Fin 31 → sProp 𝕄) : ℕ → sProp 𝕄
  | 0 => iprop(emp)
  | j + 1 => iprop(chain Φ j ∗ Φ ⟨30 - j, by omega⟩)

omit [FloatOps F] in
theorem chain_succ (Φ : Fin 31 → sProp 𝕄) (j : ℕ) : chain Φ (j + 1) = iprop(chain Φ j ∗ Φ ⟨30 - j, by omega⟩) := rfl

omit [FloatOps F] in
/-- Giving up peer `k`'s entry: what is left after `k` peers is what is left after `k + 1`, and peer `k`'s. -/
theorem chain_peel (Φ : Fin 31 → sProp 𝕄) (k : ℕ) (hk : k < 31) : chain Φ (31 - k) = iprop(chain Φ (30 - k) ∗ Φ ⟨k, hk⟩) := by
  have h : 31 - k = (30 - k) + 1 := by omega
  rw [h, chain_succ]
  have e : (⟨30 - (30 - k), by omega⟩ : Fin 31) = ⟨k, hk⟩ := Fin.ext (by show 30 - (30 - k) = k; omega)
  rw [e]

/-- What has been gathered from peers `0 … k - 1`, in order. -/
def upto (Φ : ℕ → sProp 𝕄) : ℕ → sProp 𝕄
  | 0 => iprop(emp)
  | k + 1 => iprop(upto Φ k ∗ Φ k)

omit [FloatOps F] in
theorem upto_succ (Φ : ℕ → sProp 𝕄) (k : ℕ) : upto Φ (k + 1) = iprop(upto Φ k ∗ Φ k) := rfl

/-- The `k`-th peer with `k` a natural number (`peer c d = peerN c d`). -/
def peerN (c : Dev nD) (k : ℕ) : Dev nD := ⟨(c.val + k + 1) % 32, Nat.mod_lt _ (by decide)⟩
theorem peer_eq_peerN (c : Dev nD) (d : Fin 31) : peer c d = peerN c d.val := rfl

/-! ## What a device owes at launch -/

/-- The credit device `c` owes receive cell `c` of its peers `31 - j … 30`. -/
def oRecv (c : Dev nD) : ℕ → CellTallies nD τ sig Unit
  | 0 => 0
  | j + 1 => oRecv c j + tallyAt (recvCell (peer c ⟨30 - j, by omega⟩) c) () N
/-- … and over it the units it owes the barrier cells of its peers `31 - j … 30`. -/
def oSig (c : Dev nD) : ℕ → CellTallies nD τ sig Unit
  | 0 => oRecv c 31
  | j + 1 => oSig c j + tallyAt (barCell (peer c ⟨30 - j, by omega⟩)) () 1
/-- At launch: a unit to every peer's barrier cell, the row's credit to every peer's receive cell `c`. -/
def O₀ (c : Dev nD) : CellTallies nD τ sig Unit := oSig c 31

theorem oRecv_succ (c : Dev nD) (j : ℕ) : oRecv c (j + 1) = oRecv c j + tallyAt (recvCell (peer c ⟨30 - j, by omega⟩) c) () N := rfl
theorem oSig_succ (c : Dev nD) (j : ℕ) : oSig c (j + 1) = oSig c j + tallyAt (barCell (peer c ⟨30 - j, by omega⟩)) () 1 := rfl

/-! ## Levels: barrier cells at 1, receive cells at 2, everything else (staging, send) at 0 -/

def L (g : GSem nD τ sig) : Finset Unit := if g.1.2 = .tc then {()} else ∅
def lv (g : GSem nD τ sig) (_ : Unit) : ℕ := match g.2 with
  | .reg _ => 1
  | .dma s => match decode s with
    | some (true, _) => 2
    | _ => 0

/-! ## The ghost state -/

/-- Every cell's invariant, under the names `K` the launch allocated them at, and that every cell has reached round 0.
    Persistent: every device holds all of it. -/
def records (K : Dev nD × CellIx → ℕ) : sProp 𝕄 :=
  iprop((bigSep Finset.univ fun ck : Dev nD × CellIx => cellInv ER (sched m) (K ck) (kcell ck))
    ∗ bigSep Finset.univ fun ck : Dev nD × CellIx => reached ER (kcell ck) 0)

instance records_persistent (K : Dev nD × CellIx → ℕ) : BI.Persistent (records m K) := by unfold records; infer_instance

/-- The tokens of the duties device `c` PAYS, per peer: its unit on the peer's barrier cell, its copy's credit on the peer's
    receive cell `c`, the same copy's credit on its own send cell for that peer. -/
def sigToks (c : Dev nD) : ℕ → sProp 𝕄 := chain fun d => dutyTok ER (barCell (peer c d)) 0 c
def rcvToks (c : Dev nD) : ℕ → sProp 𝕄 := chain fun d => dutyTok ER (recvCell (peer c d) c) 0 c
def sndToks (c : Dev nD) : ℕ → sProp 𝕄 := chain fun d => dutyTok ER (sendCell c (peer c d)) 0 (peer c d)
/-- Its positions: at round 0, nothing taken, of every one of its 65 cells. -/
def positions (c : Dev nD) : sProp 𝕄 := bigSep Finset.univ fun k : CellIx => atPos ER (kcell (c, k)) 0 ∅ 0
def linear (c : Dev nD) : sProp 𝕄 := iprop(positions c ∗ sigToks c 31 ∗ rcvToks c 31 ∗ sndToks c 31)

def ghost (K : Dev nD × CellIx → ℕ) (c : Dev nD) : sProp 𝕄 := iprop(records m K ∗ linear c)

/-- The launch credit of the cells device `c` waits on that others pay: 31 units on its barrier cell, a row's credit on its
    receive cell for each peer. -/
def rcvCreds (c : Dev nD) : ℕ → sProp 𝕄 := chain fun d => cred (tallyAt (recvCell c (peer c d)) () N)

/-- What device `c`'s body starts from, besides its buffers. -/
def start (c : Dev nD) : sProp 𝕄 :=
  iprop((∃ K, ghost m K c) ∗ cred (tallyAt (barCell c) () 31) ∗ rcvCreds c 31 ∗ levAts L lv)

/-! ## What a device holds per peer, phase by phase -/

/-- Rows of its own scratch it hands to its peers to write (row `peer c d` goes with its signal to `peer c d`). -/
def slots (c : Dev nD) : ℕ → sProp 𝕄 := chain fun d => iprop(∃ f, rowPts (F := F) c (peer c d) fullShare f)
/-- Row `c` of each peer's scratch, which the barrier wait hands it to copy into. -/
def dsts (c : Dev nD) : ℕ → sProp 𝕄 := chain fun d => iprop(∃ f, rowPts (F := F) (peer c d) c fullShare f)
/-- Its own row `c`, holding its row of the complete array, in the 31 shares its 31 copies read. -/
def srcShares (c : Dev nD) : ℕ → sProp 𝕄 := chain fun d => rowPts c c (Transfers.shareTok fullShare 31 d) (RED m)
/-- Its positions on its receive and send cells for its peers. -/
def rcvPos (c : Dev nD) : ℕ → sProp 𝕄 := chain fun d => atPos ER (recvCell c (peer c d)) 0 ∅ 0
def sndPos (c : Dev nD) : ℕ → sProp 𝕄 := chain fun d => atPos ER (sendCell c (peer c d)) 0 ∅ 0
/-- Gathered as it goes: the credit its copies put on its send cells; the rows its receive waits hand it; the shares its
    send waits give back; its positions after those waits. -/
def sndCreds (c : Dev nD) : ℕ → sProp 𝕄 := upto fun k => cred (tallyAt (sendCell c (peerN c k)) () N)
def gotRows (c : Dev nD) : ℕ → sProp 𝕄 := upto fun k => rowPts c (peerN c k) fullShare (RED m)
def gotShares (c : Dev nD) : ℕ → sProp 𝕄 := upto fun k => rowPts c c (Transfers.shareTokN fullShare k) (RED m)
def rcvDone (c : Dev nD) : ℕ → sProp 𝕄 := upto fun k => atPos ER (recvCell c (peerN c k)) 1 ∅ 0
def sndDone (c : Dev nD) : ℕ → sProp 𝕄 := upto fun k => atPos ER (sendCell c (peerN c k)) 1 ∅ 0

/-- The kernel's own (scoped) semaphores, as the launch indexes them: the 64 of the two scratch arrays. -/
def osem (i : Fin 64) : SemLoc sig := .dma ⟨2 + i.val, by show 2 + i.val < 66; omega⟩

/-- Before the point: that, and the scratch at some contents. -/
def Φ₀ (c : Dev nD) : sProp 𝕄 := iprop(start m c ∗ ∃ f : Buf (Elt F) ((c : Thread nD τ).loc cc0_scratch0), ((c : Thread nD τ).loc cc0_scratch0) ↦{fullShare} f)
/-- After it: the scratch holding the complete array, and the 64 own semaphores at zero, closed. -/
def Φ₁ (c : Dev nD) : sProp 𝕄 :=
  iprop((((c : Thread nD τ).loc cc0_scratch0) ↦{fullShare} RED m) ∗ Pipeline.ownSems0 osem c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => OUT m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Proto

end
-- ==== Proof.Bits.Values.lean ====
/-
  The run's post read as values. The pipeline's post speaks of the windows' arrays after the last point's write-back; this
  kernel has one point, the argument's window is never written back, and the result's window is written back once, its
  one block being the whole array: so the result array ends at what the body left in the staging buffer, the argument array
  as it began, and the argument's one block, read through zero offsets, is the argument array itself.
-/
import proofs.«900562_g7700000000000563_dist_max_ax0_shard0_i_m1024_n512_v7x_i32_f32_1_alg».proof.Proof.Bits.Data
import proofs.«900562_g7700000000000563_dist_max_ax0_shard0_i_m1024_n512_v7x_i32_f32_1_alg».proof.Proof.Gen.Kernel.Points
import Idealize.ShloMosaic.Lib.Pipeline.Cells
import Idealize.ShloMosaic.Lib.Pipeline.Value

noncomputable section

namespace Cert.Kernel.Proto

open Cert.Kernel Cert.Kernel.Gen Cert.Kernel.Rows

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The protocol's run: every weakly fair execution terminates, nothing faulting, each window's array at what the
    pipeline's data say it holds after the last point. -/
def RunAll : Prop :=
  θ_run defs (onTc (τ := τ) (main (F := F))) ⟨m, fun _ => 0, ρ⟩ (fun r => ∀ c : Dev nD, ∀ w : Fin cfg0.W,
    r.2.mem ((cfg0.win w).arr.view.loc (c : Thread nD τ)) = (dats m 0 c).arrAt w cfg0.N)

/-- The argument's one block is the whole array: read through zero offsets at the array's own sizes. -/
theorem xblk_eq (c : Dev nD) : xblk m c = m ((c : Thread nD τ).loc main_arg0) := by
  unfold xblk
  have hz : (fun a => win0_0.index (0 : Fin 1) a * main_arg0.ty.shape.size a) = fun _ => 0 :=
    funext fun a => Nat.zero_mul _
  exact Memref.read_access_unit_zero (Elt F) main_arg0 hz (fun a => by rw [congrFun hz a]; simp) _

/-- The argument's array is never written back. -/
theorem arrAt_arg (c : Dev nD) : (dats m 0 c).arrAt (0 : Fin 2) cfg0.N = m ((c : Thread nD τ).loc main_arg0) :=
  (dats m 0 c).arrAt_in 0 rfl _

/-- For any data of this pipeline: after its one point the result's array holds what the body left for it, the one
    write-back going through zero offsets at the array's own sizes. -/
theorem arrAt_out_of (c : Dev nD) (d : Dat τ (Elt F) Unit ℕ UU ℕ cfg0 c) :
    d.arrAt (1 : Fin 2) cfg0.N = d.after (1 : Fin 2) t₀ := by
  have hN : cfg0.N = (t₀ : Fin cfg0.N).val + 1 := cfg0_N
  refine (congrArg (d.arrAt 1) hN).trans ?_
  rw [Dat.arrAt_succ, if_pos (flush0_1 t₀)]
  have hz : (fun a => win0_1.index t₀ a * main_v1.ty.shape.size a) = fun _ => 0 :=
    funext fun a => Nat.zero_mul _
  exact Memref.write_access_unit_zero_univ (Elt F) main_v1 hz (fun a => by rw [congrFun hz a]; simp) _ _

/-- The result's array ends at the kernel's result block. -/
theorem arrAt_out (c : Dev nD) : (dats m 0 c).arrAt (1 : Fin 2) cfg0.N = OUT m := by
  refine (arrAt_out_of c (dats m 0 c)).trans ?_
  unfold dats
  generalize OUT m = o
  rfl

/-- The run with its values named: the result array at the result block, the argument array unchanged. -/
theorem run_values (h : RunAll m ρ) :
    θ_run defs (onTc (τ := τ) (main (F := F))) ⟨m, fun _ => 0, ρ⟩ (fun r => ∀ c : Dev nD,
      r.2.mem ((c.tc : Thread nD τ).loc main_v1) = OUT m
      ∧ r.2.mem ((c.tc : Thread nD τ).loc main_arg0) = m ((c.tc : Thread nD τ).loc main_arg0)) :=
  (θ_run defs _ _).mono (fun _ hr c => ⟨(hr c 1).trans (arrAt_out m c), (hr c 0).trans (arrAt_arg m c)⟩) h

/-- The frame: the run with the result dropped. -/
theorem frame_of_run (h : RunAll m ρ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ hr c => (hr c).2) (run_values m ρ h)

/-- info: 'Cert.Kernel.Proto.run_values' depends on axioms: [propext, Classical.choice, Quot.sound] -/
#guard_msgs in #print axioms run_values

end Cert.Kernel.Proto

end
-- ==== Proof.Bridge.lean ====
/-
  The value bridge. At the ideal values a float is an extended real and `maximumf` is `max`, so every reduction here is
  a fold of `max` from one start value over a finite index set, in any order. The kernel's result at column `j` is the
  maximum over the 32 blocks `p` of the maximum over the 1024 rows `r` of block `p` at `(r, j)`; block `p` of the whole
  array at `(r, j)` is the whole array at `(1024 · p + r, j)`; the reference's result at column `j` is the maximum over
  all 32768 rows `n` of the whole array at `(n, j)`. Every `n` is `1024 · p + r` for one pair `(p, r)`, and a maximum is
  characterised by its upper bounds, so the two agree, whatever the start value is.
-/
import proofs.«900562_g7700000000000563_dist_max_ax0_shard0_i_m1024_n512_v7x_i32_f32_1_alg».proof.Proof.Rows
import proofs.«900562_g7700000000000563_dist_max_ax0_shard0_i_m1024_n512_v7x_i32_f32_1_alg».proof.Proof.Gen.ReferenceIdeal.Read
import Idealize.ShloMosaic.Lib.Layout
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open Cert.KernelIdeal Cert.KernelIdeal.Gen Cert.KernelIdeal.Rows

/-- A maximum taken block by block is the maximum over everything, for any start value: an upper bound of one side
    bounds the start value and every `f n`, hence the other side. -/
theorem fold_max_blocks {α : Type} [LinearOrder α] (a : α) (f : Fin 32768 → α) :
    (Finset.univ : Finset (Fin 32)).fold max a
        (fun p => (Finset.univ : Finset (Fin 1024)).fold max a
          (fun r => f ⟨p.val * 1024 + r.val, by have := p.isLt; have := r.isLt; omega⟩))
      = (Finset.univ : Finset (Fin 32768)).fold max a f := by
  refine eq_of_forall_ge_iff fun c => ?_
  simp only [Finset.fold_max_le, Finset.mem_univ, forall_const]
  constructor
  · rintro ⟨ha, h⟩
    refine ⟨ha, fun n => ?_⟩
    have hn := n.isLt
    have := (h ⟨n.val / 1024, by omega⟩).2 ⟨n.val % 1024, Nat.mod_lt _ (by norm_num)⟩
    have e : (⟨(⟨n.val / 1024, by omega⟩ : Fin 32).val * 1024 + (⟨n.val % 1024, Nat.mod_lt _ (by norm_num)⟩ : Fin 1024).val, by
        show n.val / 1024 * 1024 + n.val % 1024 < 32768; omega⟩ : Fin 32768) = n :=
      Fin.ext (by show n.val / 1024 * 1024 + n.val % 1024 = n.val; omega)
    rw [e] at this
    exact this
  · rintro ⟨ha, h⟩
    exact ⟨ha, fun p => ⟨ha, fun r => h _⟩⟩

/-- The start value of every maximum here: what the word of `-∞` denotes. -/
abbrev negInf : Ideal .f32 := FloatOps.ofBits (F := Ideal) .f32 0xFF800000#32

/-- The column-wise maximum of a block, read at column `j`: the maximum down that column. -/
theorem pay2_apply (v : Vec Ideal S1024x512 .f32) (j : Fin 512) :
    k0_pay2 (F := Ideal) v (colIdx j)
      = (Finset.univ : Finset (Fin 1024)).fold max negInf (fun r => v (ix2 r j)) := by
  unfold k0_pay2 colIdx
  simp only [shapeCast_self]
  rw [shapeCast_ab_1ab_apply, shapeCast_a_1a_apply]
  refine (Ideal.multiReduction_maximumf_single _ _ _ _ _ _).trans ?_
  refine congrArg (fun g => (Finset.univ : Finset (Fin 1024)).fold max negInf g) (funext fun r => ?_)
  show v _ = v _
  refine congrArg v (funext fun c => Fin.ext ?_)
  match c with
  | ⟨0, _⟩ => rfl
  | ⟨1, _⟩ => rfl

/-- Over result index `i`, the scratch index with row `p` inserted is `(p, 0, i₁)`. -/
theorem lift_rows (h : S32x1x512.Reduces [0] S1x512) (i : S1x512.Idx) (p : Fin (S32x1x512.size 0)) :
    h.lift i p = ix3 (n0 := 32) (n1 := 1) (n2 := 512) p (0 : Fin 1) (i 1) := by
  have h0 : (i 0).val < 1 := (i 0).isLt
  refine funext fun c => Fin.ext ?_
  match c with
  | ⟨0, _⟩ => rfl
  | ⟨1, _⟩ => show (i 0).val = 0; omega
  | ⟨2, _⟩ => rfl

/-- The kernel's result at an index: the maximum over the blocks of each block's column maximum. -/
theorem result_apply (B : Fin 32 → Vec Ideal S1024x512 .f32) (i : S1x512.Idx) :
    result (F := Ideal) B i
      = (Finset.univ : Finset (Fin 32)).fold max negInf
          (fun p => (Finset.univ : Finset (Fin 1024)).fold max negInf (fun r => B p (ix2 r (i 1)))) := by
  unfold result k0_pay1
  refine (Ideal.multiReduction_maximumf_single _ _ _ _ _ _).trans ?_
  refine congrArg (fun g => (Finset.univ : Finset (Fin 32)).fold max negInf g) (funext fun p => ?_)
  rw [Function.comp_apply, lift_rows]
  exact (rows_apply B p (i 1)).trans (pay2_apply (B p) (i 1))

/-- The reference's result at an index: the maximum down the whole column. -/
theorem reference_apply (X : Vec Ideal Cert.ReferenceIdeal.S32768x512 .f32) (i : Cert.ReferenceIdeal.S1x512.Idx) :
    broadcastInDim Cert.ReferenceIdeal.S1x512 ![1] Cert.ReferenceIdeal.Gen.bcast_S512_S1x512_1
        (Host.reduce (FloatOps.maximumf (F := Ideal) (φ := .f32)) X
          (constant (F := Ideal) Cert.ReferenceIdeal.S_ .f32 0xFF800000#32)
          Cert.ReferenceIdeal.Gen.reducesTo_S32768x512_S512_d0 Cert.ReferenceIdeal.Gen.h_S_) i
      = (Finset.univ : Finset (Fin 32768)).fold max negInf (fun n => X (ix2 n (i 1))) := by
  show Cert.ReferenceIdeal.Read.val_main_v1 (F := Ideal) X i = _
  rw [Cert.ReferenceIdeal.Read.val_main_v1_apply]
  unfold Cert.ReferenceIdeal.Read.val_main_v0
  refine (Host.reduce_eq_fold_single _ X _ _
    (by decide : Cert.ReferenceIdeal.S32768x512.Reduces [0] Cert.ReferenceIdeal.S512) _ _).trans ?_
  refine congrArg (fun g => (Finset.univ : Finset (Fin 32768)).fold max negInf g) (funext fun n => ?_)
  show X _ = X _
  refine congrArg X (funext fun c => Fin.ext ?_)
  match c with
  | ⟨0, _⟩ => rfl
  | ⟨1, _⟩ => rfl

/-- The kernel's result, of the 32 blocks of the whole array, is the reference's result of the whole array. -/
theorem result_eq_reference (X : Vec Ideal Cert.ReferenceIdeal.S32768x512 .f32) :
    Cert.KernelIdeal.Rows.result (F := Ideal)
        (fun p : Fin 32 => Layout.block ⟨2, ![1024, 512]⟩ ⟨2, ![32768, 512]⟩ 0 32 p X)
      = broadcastInDim Cert.ReferenceIdeal.S1x512 ![1] Cert.ReferenceIdeal.Gen.bcast_S512_S1x512_1
          (Host.reduce (FloatOps.maximumf (F := Ideal) (φ := .f32)) X
            (constant (F := Ideal) Cert.ReferenceIdeal.S_ .f32 0xFF800000#32)
            Cert.ReferenceIdeal.Gen.reducesTo_S32768x512_S512_d0 Cert.ReferenceIdeal.Gen.h_S_) := by
  funext i
  rw [result_apply, reference_apply, ← fold_max_blocks negInf (fun n => X (ix2 n (i 1)))]
  refine congrArg (fun g => (Finset.univ : Finset (Fin 32)).fold max negInf g) (funext fun p => ?_)
  refine congrArg (fun g => (Finset.univ : Finset (Fin 1024)).fold max negInf g) (funext fun r => ?_)
  show X _ = X _
  refine congrArg X (funext fun c => Fin.ext ?_)
  match c with
  | ⟨0, _⟩ => rfl
  | ⟨1, _⟩ => rfl

/-- info: 'Cert.Bridge.result_eq_reference' depends on axioms: [propext, Classical.choice, Quot.sound] -/
#guard_msgs in #print axioms result_eq_reference

end Cert.Bridge

end
-- ==== Proof.Assemble.lean ====
/-
  The five conjuncts from the two protocol runs. The two kernel frames are the runs with the values dropped; the
  reference's frame is its generated run with the result dropped; the idealization rewrote nothing; and over the extended
  reals the kernel's result block, the maximum over the 32 rows of the column-wise maxima of the 32 blocks, is the
  reference's maximum over all rows, each device's block being its part of the reference's whole array.
-/
import proofs.«900562_g7700000000000563_dist_max_ax0_shard0_i_m1024_n512_v7x_i32_f32_1_alg».proof.Defs
import proofs.«900562_g7700000000000563_dist_max_ax0_shard0_i_m1024_n512_v7x_i32_f32_1_alg».proof.Proof.Values
import proofs.«900562_g7700000000000563_dist_max_ax0_shard0_i_m1024_n512_v7x_i32_f32_1_alg».proof.Proof.Bits.Values
import proofs.«900562_g7700000000000563_dist_max_ax0_shard0_i_m1024_n512_v7x_i32_f32_1_alg».proof.Proof.Bridge
import proofs.«900562_g7700000000000563_dist_max_ax0_shard0_i_m1024_n512_v7x_i32_f32_1_alg».proof.Proof.Gen.Kernel
import proofs.«900562_g7700000000000563_dist_max_ax0_shard0_i_m1024_n512_v7x_i32_f32_1_alg».proof.Proof.Gen.KernelIdeal
import proofs.«900562_g7700000000000563_dist_max_ax0_shard0_i_m1024_n512_v7x_i32_f32_1_alg».proof.Proof.Gen.ReferenceIdeal
import proofs.«900562_g7700000000000563_dist_max_ax0_shard0_i_m1024_n512_v7x_i32_f32_1_alg».proof.Proof.Gen.Pre_finite_inputs_Kernel
import proofs.«900562_g7700000000000563_dist_max_ax0_shard0_i_m1024_n512_v7x_i32_f32_1_alg».proof.Proof.Gen.Pre_finite_inputs_ReferenceIdeal
import proofs.«900562_g7700000000000563_dist_max_ax0_shard0_i_m1024_n512_v7x_i32_f32_1_alg».proof.Proof.Gen.ReferenceIdeal.Run

noncomputable section

namespace Cert.Assemble

open Idealize.ShloMosaic Idealize.SL.Sem

/-- The reference's frame: its run with the result dropped. -/
theorem frame_ReferenceIdeal : Cert.frame_ReferenceIdeal :=
  fun m ρ _ => (θ_run Cert.ReferenceIdeal.defs _ _).mono (fun _ h c => (h c).2)
    (Cert.ReferenceIdeal.Value.run (F := Ideal) m ρ)

/-- The kernel's frame: its run with the values dropped. -/
theorem frame_Kernel (hK : ∀ m ρ, Cert.Kernel.Proto.RunAll (F := Bits) m ρ) : Cert.frame_Kernel :=
  fun m ρ _ => Cert.Kernel.Proto.frame_of_run m ρ (hK m ρ)

/-- The idealized kernel's frame: its run with the values dropped. -/
theorem frame_KernelIdeal (hKI : ∀ m ρ, Cert.KernelIdeal.Proto.RunAll (F := Ideal) m ρ) : Cert.frame_KernelIdeal :=
  fun m ρ _ => Cert.KernelIdeal.Proto.frame_of_run m ρ (hKI m ρ)

/-- Over the extended reals both programs end at the reference's term of the whole array. -/
theorem algebraic (hKI : ∀ m ρ, Cert.KernelIdeal.Proto.RunAll (F := Ideal) m ρ) :
    Cert.algebraic_KernelIdeal_ReferenceIdeal := by
  intro m g m' g' _ hblk
  have hx : Cert.KernelIdeal.Proto.xblk m
      = fun p => Layout.block ⟨2, ![1024, 512]⟩ ⟨2, ![32768, 512]⟩ 0 32 p
          (m' (((0 : Dev Cert.ReferenceIdeal.nD).tc : Thread Cert.ReferenceIdeal.nD Cert.ReferenceIdeal.τ).loc Cert.ReferenceIdeal.main_arg0)) :=
    funext fun p => (Cert.KernelIdeal.Proto.xblk_eq m p).trans (hblk p)
  have hOUT := (congrArg (Cert.KernelIdeal.Rows.result (F := Ideal)) hx).trans (Cert.Bridge.result_eq_reference _)
  refine ⟨_, (θ_run _ _ _).mono (fun _ h c => ⟨(h c).1.trans hOUT, (h c).2⟩)
      (Cert.KernelIdeal.Proto.run_values m g (hKI m g)), ?_⟩
  exact (θ_run _ _ _).mono (fun _ h => h 0) (Cert.ReferenceIdeal.Value.run (F := Ideal) m' g')

/-- Everything the certificate claims, from the two protocol runs. -/
theorem claim_of_runs (hK : ∀ m ρ, Cert.Kernel.Proto.RunAll (F := Bits) m ρ)
    (hKI : ∀ m ρ, Cert.KernelIdeal.Proto.RunAll (F := Ideal) m ρ) : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_Kernel hK, frame_KernelIdeal hKI, frame_ReferenceIdeal, trivial, algebraic hKI⟩

/-- info: 'Cert.Assemble.claim_of_runs' depends on axioms: [propext, Classical.choice, Quot.sound] -/
#guard_msgs in #print axioms claim_of_runs

end Cert.Assemble

end
-- ==== Proof.Owes.lean ====
/-
  What the devices owe one another at launch, seen from both ends.

  Device `c` owes each of its 31 peers one unit on the peer's barrier cell and one row's credit on the peer's receive
  cell `c`. Read at a cell, the dues are: a barrier cell is owed one unit by every other device (31 in all), receive
  cell `q` of device `c` is owed the row's credit by `q` alone. That is the credit the launch deals each device.
  Barrier cells sit at level 1, receive cells at level 2, every other cell at level 0: a device waits on a staging or
  send cell owing anything, on its barrier cell owing receive credit only, and on a receive cell owing nothing.
-/
import proofs.«900562_g7700000000000563_dist_max_ax0_shard0_i_m1024_n512_v7x_i32_f32_1_alg».proof.Proof.Data
import Mathlib.Algebra.BigOperators.Fin
import Mathlib.Algebra.BigOperators.Intervals

noncomputable section

namespace Cert.KernelIdeal.Proto

open Cert.KernelIdeal Cert.KernelIdeal.Gen Cert.KernelIdeal.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

namespace Owes

/-! ## Sums over the 31 peers -/

/-- The peers of `c` are the devices other than `c`. -/
theorem image_peer (c : Dev nD) : Finset.univ.image (peer c) = Finset.univ.erase c := by
  ext p
  rw [Finset.mem_image, Finset.mem_erase]
  constructor
  · rintro ⟨d, -, rfl⟩; exact ⟨peer_ne c d, Finset.mem_univ _⟩
  · rintro ⟨h, -⟩; obtain ⟨d, hd⟩ := exists_peer c p h; exact ⟨d, Finset.mem_univ _, hd⟩

theorem sum_peers {M : Type} [AddCommMonoid M] (c : Dev nD) (G : Dev nD → M) :
    (∑ d : Fin 31, G (peer c d)) = ∑ p ∈ Finset.univ.erase c, G p := by
  rw [← image_peer, Finset.sum_image fun a _ b _ h => peer_injective c h]

/-- A sum over the peers taken from the last down, as the dues are written: the same sum over `Fin 31`. -/
theorem sum_down {M : Type} [AddCommMonoid M] (c : Dev nD) (G : Dev nD → M) :
    (∑ i ∈ Finset.range 31, G (peerN c (30 - i))) = ∑ d : Fin 31, G (peer c d) := by
  have h := Finset.sum_range_reflect (fun i => G (peerN c i)) 31
  exact h.trans (Fin.sum_univ_eq_sum_range (fun i => G (peerN c i)) 31).symm

/-! ## The dues as sums -/

theorem oRecv_eq (c : Dev nD) (j : ℕ) :
    oRecv c j = ∑ i ∈ Finset.range j, (tallyAt (recvCell (peerN c (30 - i)) c) () N : CellTallies nD τ sig Unit) := by
  induction j with
  | zero => rfl
  | succ j ih => rw [oRecv_succ, Finset.sum_range_succ, ih]; rfl

theorem oSig_eq (c : Dev nD) (j : ℕ) :
    oSig c j = oRecv c 31 + ∑ i ∈ Finset.range j, (tallyAt (barCell (peerN c (30 - i))) () 1 : CellTallies nD τ sig Unit) := by
  induction j with
  | zero => rw [Finset.sum_range_zero, add_zero]; rfl
  | succ j ih => rw [oSig_succ, Finset.sum_range_succ, ih, add_assoc]; rfl

theorem oRecv_eq_sum (c : Dev nD) :
    oRecv c 31 = ∑ d : Fin 31, (tallyAt (recvCell (peer c d) c) () N : CellTallies nD τ sig Unit) := by
  rw [oRecv_eq, sum_down c fun p => (tallyAt (recvCell p c) () N : CellTallies nD τ sig Unit)]

theorem O₀_eq_sum (c : Dev nD) :
    O₀ c = oRecv c 31 + ∑ d : Fin 31, (tallyAt (barCell (peer c d)) () 1 : CellTallies nD τ sig Unit) := by
  unfold O₀; rw [oSig_eq, sum_down c fun p => (tallyAt (barCell p) () 1 : CellTallies nD τ sig Unit)]

/-! ## The dues read at a cell -/

theorem barCell_injective : Function.Injective (barCell : Dev nD → GSem nD τ sig) :=
  fun a b h => congrArg (fun g : GSem nD τ sig => g.1.1) h
theorem recvCell_injective (q : Dev nD) : Function.Injective (fun p : Dev nD => (recvCell p q : GSem nD τ sig)) :=
  fun a b h => congrArg (fun g : GSem nD τ sig => g.1.1) h
theorem recv_ne_bar (c p c' : Dev nD) : (recvCell c p : GSem nD τ sig) ≠ barCell c' :=
  fun h => by cases (congrArg Prod.snd h)

/-- What device `d` owes receive cell `q` of device `c`: the row's credit when `q = d` and `c` is another device. -/
theorem oRecv_recv (d c q : Dev nD) : oRecv d 31 (recvCell c q) () = if q = d ∧ c ≠ d then N else 0 := by
  rw [oRecv_eq_sum, sum_peers d (fun p => (tallyAt (recvCell p d) () N : CellTallies nD τ sig Unit)),
    Pipeline.sum_tallyAt_cells (Finset.univ.erase d) (recvCell_injective d) () N (recvCell c q) ()]
  refine if_congr ⟨?_, ?_⟩ rfl rfl
  · rintro ⟨⟨p, hp, h⟩, -⟩
    have h1 : p = c := congrArg (fun g : GSem nD τ sig => g.1.1) h
    have h2 : SemLoc.dma (recvSem d) = (SemLoc.dma (recvSem q) : SemLoc sig) := congrArg Prod.snd h
    exact ⟨(recvSem_injective (SemLoc.dma.inj h2)).symm, h1 ▸ (Finset.mem_erase.mp hp).1⟩
  · rintro ⟨rfl, h⟩; exact ⟨⟨c, Finset.mem_erase.mpr ⟨h, Finset.mem_univ _⟩, rfl⟩, rfl⟩

theorem oRecv_bar (d c : Dev nD) : oRecv d 31 (barCell c) () = 0 := by
  rw [oRecv_eq_sum, Finset.sum_apply, Finsupp.finsetSum_apply]
  exact Finset.sum_eq_zero fun k _ => by rw [tallyAt_ne_cell (fun h => recv_ne_bar _ _ _ h.symm)]; rfl

theorem owed_recv (d c q : Dev nD) : O₀ d (recvCell c q) () = if q = d ∧ c ≠ d then N else 0 := by
  rw [O₀_eq_sum, Pi.add_apply, Finsupp.add_apply, oRecv_recv, Finset.sum_apply, Finsupp.finsetSum_apply,
    Finset.sum_eq_zero fun k _ => by rw [tallyAt_ne_cell (recv_ne_bar _ _ _)]; rfl, Nat.add_zero]

/-- What device `d` owes the barrier cell of device `c`: one unit when `c` is another device. -/
theorem owed_bar (d c : Dev nD) : O₀ d (barCell c) () = if c ≠ d then 1 else 0 := by
  rw [O₀_eq_sum, Pi.add_apply, Finsupp.add_apply, oRecv_bar, Nat.zero_add,
    sum_peers d (fun p => (tallyAt (barCell p) () 1 : CellTallies nD τ sig Unit)),
    Pipeline.sum_tallyAt_cells (Finset.univ.erase d) barCell_injective () 1 (barCell c) ()]
  refine if_congr ⟨?_, ?_⟩ rfl rfl
  · rintro ⟨⟨p, hp, h⟩, -⟩
    have h1 : p = c := barCell_injective h
    exact h1 ▸ (Finset.mem_erase.mp hp).1
  · intro h; exact ⟨⟨c, Finset.mem_erase.mpr ⟨h, Finset.mem_univ _⟩, rfl⟩, rfl⟩

/-- The receive dues sit on receive cells of peers; -/
theorem oRecv_pos {c : Dev nD} {g : GSem nD τ sig} {u : Unit} (h : 0 < oRecv c 31 g u) : ∃ d : Fin 31, g = recvCell (peer c d) c := by
  rw [oRecv_eq_sum] at h
  obtain ⟨d, -, hd⟩ := Pipeline.sum_pos_exists h
  exact ⟨d, (Pipeline.tallyAt_pos hd).1⟩

/-- everything owed at launch on receive cells or barrier cells of peers. -/
theorem O₀_pos {c : Dev nD} {g : GSem nD τ sig} {u : Unit} (h : 0 < O₀ c g u) :
    (∃ d : Fin 31, g = recvCell (peer c d) c) ∨ ∃ d : Fin 31, g = barCell (peer c d) := by
  rw [O₀_eq_sum] at h
  rcases Pipeline.add_pos_cases h with h | h
  · exact Or.inl (oRecv_pos h)
  · obtain ⟨d, -, hd⟩ := Pipeline.sum_pos_exists h
    exact Or.inr ⟨d, (Pipeline.tallyAt_pos hd).1⟩

/-! ## Levels -/

theorem lv_bar (c : Dev nD) : lv (barCell c) () = 1 := rfl
theorem lv_recv (c p : Dev nD) : lv (recvCell c p) () = 2 := by
  unfold lv; dsimp only; rw [decode_recvSem]
theorem lv_low (c : Dev nD) (q : DmaSem sig) (hq : q.val < 34) : lv ((c : Thread nD τ), .dma q) () = 0 := by
  unfold lv; dsimp only
  unfold decode
  by_cases h : 2 ≤ q.val ∧ q.val < 34
  · rw [dif_pos h]
  · rw [dif_neg h, dif_neg (fun h' => absurd h'.1 (Nat.not_le.mpr hq))]

end Owes

open Owes

/-! ## Levels and waits -/

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A wait on a staging or send semaphore (level 0), owing everything or nothing. -/
theorem mayWait_low (c : Dev nD) (q : DmaSem sig) (hq : q.val < 34) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    cases u
    rcases O₀_pos hg with ⟨d, rfl⟩ | ⟨d, rfl⟩
    · exact ⟨by rw [L_tc]; exact Finset.mem_singleton_self _, by rw [lv_low c q hq, lv_recv]; decide⟩
    · exact ⟨by rw [L_tc]; exact Finset.mem_singleton_self _, by rw [lv_low c q hq, lv_bar]; decide⟩
  · rw [MayWait_zero]; iintro -; iempintro

omit [FloatOps F] in
/-- At its barrier wait a device owes the receive dues only: receive cells, above its barrier cell. -/
theorem mayWait_bar (c : Dev nD) : (levAts L lv : sProp 𝕄) ⊢ MayWait (c : Thread nD τ) (.reg barS) () (oRecv c 31) := by
  refine Pipeline.mayWait_of_levAts (by rw [L_tc]; exact Finset.mem_singleton_self _) fun g u hg => ?_
  cases u
  obtain ⟨d, rfl⟩ := oRecv_pos hg
  exact ⟨by rw [L_tc]; exact Finset.mem_singleton_self _, by rw [lv_bar, lv_recv]; decide⟩

/-- The pipeline's own waits, on the two staging semaphores: before the point owing everything, after it nothing. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-! ## The launch credit -/

namespace Owes

omit [FloatOps F] in
/-- The barrier cell of `c` is credited one unit by each of the 31 other devices. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

omit [FloatOps F] in
/-- Receive cell `q` of `c`, `q` another device, is credited the row's credit by `q` alone. -/
theorem launch_recv (c q : Dev nD) (hq : q ≠ c) :
    tallyOn (recvCell c q) (launchCredit (Pipeline.owing O₀) 0 (recvCell c q)) = (tallyAt (recvCell c q) () N : CellTallies nD τ sig Unit) := by
  unfold tallyAt; refine congrArg _ (Finsupp.ext fun u => ?_); cases u
  rw [Pipeline.launchCredit_owing, Finsupp.single_eq_same, Finset.sum_congr rfl fun d _ => owed_recv d c q,
    Finset.sum_eq_single q (fun d _ hd => if_neg fun h => hd h.1.symm) (fun h => absurd (Finset.mem_univ _) h),
    if_pos ⟨rfl, hq.symm⟩]

theorem recvLoc_injective (c : Dev nD) : Function.Injective (fun d : Fin 31 => (SemLoc.dma (recvSem (peer c d)) : SemLoc sig)) :=
  fun a b h => peer_injective c (recvSem_injective (SemLoc.dma.inj h))

omit [FloatOps F] in
/-- The entries of the peers from `31 - j` up, out of a conjunction over them all. -/
theorem chain_of_bigSep (Φ : Fin 31 → sProp 𝕄) (j : ℕ) (hj : j ≤ 31) :
    bigSep (Finset.univ.filter fun d : Fin 31 => 31 - j ≤ d.val) Φ ⊢ chain Φ j := by
  induction j with
  | zero =>
    have he : (Finset.univ.filter fun d : Fin 31 => 31 - 0 ≤ d.val) = ∅ :=
      Finset.filter_eq_empty_iff.mpr fun d _ h => by have := d.isLt; omega
    rw [he, bigSep_empty]; exact BI.Entails.refl _
  | succ j ih =>
    have hlt : 30 - j < 31 := by omega
    have he : (Finset.univ.filter fun d : Fin 31 => 31 - (j + 1) ≤ d.val)
        = insert (⟨30 - j, hlt⟩ : Fin 31) (Finset.univ.filter fun d : Fin 31 => 31 - j ≤ d.val) := by
      ext d
      rw [Finset.mem_insert, Finset.mem_filter, Finset.mem_filter, Fin.ext_iff]
      have := d.isLt
      constructor
      · rintro ⟨-, h⟩; by_cases e : d.val = 30 - j
        · exact Or.inl e
        · exact Or.inr ⟨Finset.mem_univ _, by omega⟩
      · rintro (h | ⟨-, h⟩)
        · have h' : d.val = 30 - j := h
          exact ⟨Finset.mem_univ _, by omega⟩
        · exact ⟨Finset.mem_univ _, by omega⟩
    have hn : (⟨30 - j, hlt⟩ : Fin 31) ∉ Finset.univ.filter fun d : Fin 31 => 31 - j ≤ d.val := by
      rw [Finset.mem_filter]; rintro ⟨-, h⟩; have h' : 31 - j ≤ 30 - j := h; omega
    rw [he, bigSep_insert hn, chain_succ]
    exact sep_symm.trans (sep_mono_left (ih (by omega)))

end Owes

omit [FloatOps F] in
/-- What the launch deals device `c`: 31 units on its barrier cell, and the row's credit on its receive cell for each peer. -/
theorem creds (c : Dev nD) :
    (Pipeline.launchCred O₀ c : sProp 𝕄) ⊢ iprop(cred (tallyAt (barCell c) () 31) ∗ rcvCreds c 31) := by
  unfold Pipeline.launchCred
  rw [bigSep_univ_at _ (SemLoc.reg barS), launch_bar]
  refine sep_mono_right ?_
  refine (bigSep_subset (t := Finset.univ.map ⟨_, recvLoc_injective c⟩) fun sm hsm => ?_).trans ?_
  · obtain ⟨d, -, rfl⟩ := Finset.mem_map.mp hsm
    exact Finset.mem_erase.mpr ⟨fun h => (by cases h), Finset.mem_univ _⟩
  · rw [bigSep_map]
    refine (bigSep_mono fun d _ => Entails.of_eq (congrArg cred (launch_recv c (peer c d) (peer_ne c d)))).trans ?_
    have hall : (Finset.univ.filter fun d : Fin 31 => 31 - 31 ≤ d.val) = Finset.univ :=
      Finset.filter_true_of_mem fun d _ => Nat.zero_le _
    unfold rcvCreds
    rw [← hall]
    exact chain_of_bigSep _ 31 le_rfl

/-- info: 'Cert.KernelIdeal.Proto.mayWait_low' depends on axioms: [propext, Classical.choice, Quot.sound] -/
#guard_msgs in #print axioms mayWait_low
/-- info: 'Cert.KernelIdeal.Proto.mayWait_bar' depends on axioms: [propext, Classical.choice, Quot.sound] -/
#guard_msgs in #print axioms mayWait_bar
/-- info: 'Cert.KernelIdeal.Proto.waits' depends on axioms: [propext, Classical.choice, Quot.sound] -/
#guard_msgs in #print axioms waits
/-- info: 'Cert.KernelIdeal.Proto.creds' depends on axioms: [propext, Classical.choice, Quot.sound] -/
#guard_msgs in #print axioms creds

end Cert.KernelIdeal.Proto

end
-- ==== Proof.Canon.lean ====
/-
  The printed spellings of the rows, semaphores and devices are the protocol's names.

  The body names row `p` of the scratch by an offset its operations compute, a scratch semaphore by a slice of its array
  at such an offset, and a peer by arithmetic over the device's own position. Each is, in closed form, a row, a send or
  receive semaphore, or a peer of the protocol: the equations below, for any in-bounds evidence the printed text carries.
-/
import proofs.«900562_g7700000000000563_dist_max_ax0_shard0_i_m1024_n512_v7x_i32_f32_1_alg».proof.Proof.Data

noncomputable section

namespace Cert.KernelIdeal.Proto

open Cert.KernelIdeal Cert.KernelIdeal.Gen Cert.KernelIdeal.Rows

open Idealize.ShloMosaic
open Idealize.ShloMosaic.TcCoe

/-! ## Rows -/

theorem off1_eq_rowOff (c : Dev nD) : k0_off1 c = rowOff c := k0_off1_eq c
theorem off4_eq_rowOff (c : Dev nD) : k0_off4 c = rowOff c := k0_off4_eq c
theorem off5_eq_rowOff (c : Dev nD) (r : Fin 31) : k0_off5 c (BitVec.ofNat 32 (1 + r.val)) = rowOff (peer c r) := k0_off5_eq c r

/-- The rectangle of the device's own row, as the store that fills it spells it. -/
theorem rect_off1 (c : Dev nD) (h : ∀ a, k0_off1 c a + S1x1x512.size a ≤ S32x1x512.size a) :
    Rect.unit (s := S32x1x512) (k0_off1 c) S1x1x512.size h = rowRect c :=
  Rect.unit_congr (off1_eq_rowOff c) h (rowOff_inb c)

/-- The device's own row, as its copies spell their source and their destination. -/
theorem row_off4 (c : Dev nD) (h : ∀ a, k0_off4 c a + S1x1x512.size a ≤ S32x1x512.size a) :
    scrM.slice (Rect.unit (s := S32x1x512) (k0_off4 c) S1x1x512.size h) (fun _ => rfl) = rowM c :=
  Memref.slice_unit_congr scrM (off4_eq_rowOff c) h (rowOff_inb c) _ _

/-- The row of peer `r`, as the receive waits spell it. -/
theorem row_off5 (c : Dev nD) (r : Fin 31) (h : ∀ a, k0_off5 c (BitVec.ofNat 32 (1 + r.val)) a + S1x1x512.size a ≤ S32x1x512.size a) :
    scrM.slice (Rect.unit (s := S32x1x512) (k0_off5 c (BitVec.ofNat 32 (1 + r.val))) S1x1x512.size h) (fun _ => rfl) = rowM (peer c r) :=
  Memref.slice_unit_congr scrM (off5_eq_rowOff c r) h (rowOff_inb (peer c r)) _ _

/-- The same for any word `w` equal to that literal. -/
theorem row_off5' (c : Dev nD) (r : Fin 31) (w : BitVec 32) (hw : w = BitVec.ofNat 32 (1 + r.val))
    (h : ∀ a, k0_off5 c w a + S1x1x512.size a ≤ S32x1x512.size a) :
    scrM.slice (Rect.unit (s := S32x1x512) (k0_off5 c w) S1x1x512.size h) (fun _ => rfl) = rowM (peer c r) := by
  subst hw; exact row_off5 c r h

/-! ## Semaphores -/

/-- A unit rectangle of a row of 32 has one index, at the rectangle's offset. -/
theorem rowMajor_unit (off : Fin 1 → ℕ) (h : ∀ a, off a + S1.size a ≤ S32.size a) (j : (Rect.unit (s := S32) off S1.size h).shape.Idx) :
    (S32.rowMajor ((Rect.unit (s := S32) off S1.size h).emb j)).val = off 0 := by
  rw [Shape.rowMajor_val_one, Rect.emb_apply]
  have hj : (j 0).val < 1 := (j 0).isLt
  show off 0 + 1 * (j 0).val = off 0
  omega

/-- The one semaphore of a unit slice of 32 consecutive semaphores from `base`: the one at the slice's offset. -/
theorem sem_consecutive_unit (base : ℕ) (hb : base + S32.numel ≤ 66) (off : Fin 1 → ℕ) (h : ∀ a, off a + S1.size a ≤ S32.size a) :
    ((((SemArray.consecutive base S32 hb : DmaSems sig S32).slice (Rect.unit (s := S32) off S1.size h)).squeeze S_ squeezes_S1_S_).sem).val
      = base + off 0 :=
  congrArg (base + ·) (rowMajor_unit off h _)

/-- Send semaphore of peer `r`, as copy `r` and send wait `r` spell it. -/
theorem sendSem_off2 (c : Dev nD) (r : Fin 31) (h : ∀ a, k0_off2 c (BitVec.ofNat 32 (1 + r.val)) a + S1.size a ≤ S32.size a) :
    ((cc0_scratch1.slice (Rect.unit (s := S32) (k0_off2 c (BitVec.ofNat 32 (1 + r.val))) S1.size h)).squeeze S_ squeezes_S1_S_).sem = sendSem (peer c r) :=
  Fin.ext ((sem_consecutive_unit 2 hcc0_scratch1 _ h).trans (by rw [k0_off2_eq c r]; rfl))

/-- Receive semaphore of peer `r`, as receive wait `r` spells it. -/
theorem recvSem_off2 (c : Dev nD) (r : Fin 31) (h : ∀ a, k0_off2 c (BitVec.ofNat 32 (1 + r.val)) a + S1.size a ≤ S32.size a) :
    ((cc0_scratch2.slice (Rect.unit (s := S32) (k0_off2 c (BitVec.ofNat 32 (1 + r.val))) S1.size h)).squeeze S_ squeezes_S1_S_).sem = recvSem (peer c r) :=
  Fin.ext ((sem_consecutive_unit 34 hcc0_scratch2 _ h).trans (by rw [k0_off2_eq c r]; rfl))

/-- The device's own receive semaphore, the one every copy it fires credits on the peer. -/
theorem recvSem_off3 (c : Dev nD) (h : ∀ a, k0_off3 c a + S1.size a ≤ S32.size a) :
    ((cc0_scratch2.slice (Rect.unit (s := S32) (k0_off3 c) S1.size h)).squeeze S_ squeezes_S1_S_).sem = recvSem c :=
  Fin.ext ((sem_consecutive_unit 34 hcc0_scratch2 _ h).trans (by rw [k0_off3_eq c]; rfl))

/-- The two for any word `w` equal to that literal. -/
theorem sendSem_off2' (c : Dev nD) (r : Fin 31) (w : BitVec 32) (hw : w = BitVec.ofNat 32 (1 + r.val))
    (h : ∀ a, k0_off2 c w a + S1.size a ≤ S32.size a) :
    ((cc0_scratch1.slice (Rect.unit (s := S32) (k0_off2 c w) S1.size h)).squeeze S_ squeezes_S1_S_).sem = sendSem (peer c r) := by
  subst hw; exact sendSem_off2 c r h
theorem recvSem_off2' (c : Dev nD) (r : Fin 31) (w : BitVec 32) (hw : w = BitVec.ofNat 32 (1 + r.val))
    (h : ∀ a, k0_off2 c w a + S1.size a ≤ S32.size a) :
    ((cc0_scratch2.slice (Rect.unit (s := S32) (k0_off2 c w) S1.size h)).squeeze S_ squeezes_S1_S_).sem = recvSem (peer c r) := by
  subst hw; exact recvSem_off2 c r h

/-! ## Devices: the targets of the 31 signals, then of the 31 copies -/

theorem dev1 (c : Dev nD) : (⟨k0_dev1 c, k0_dev1_lt c⟩ : Dev nD) = peer c ⟨0, by decide⟩ := Fin.ext (k0_dev1_eq c)
theorem dev2 (c : Dev nD) : (⟨k0_dev2 c, k0_dev2_lt c⟩ : Dev nD) = peer c ⟨1, by decide⟩ := Fin.ext (k0_dev2_eq c)
theorem dev3 (c : Dev nD) : (⟨k0_dev3 c, k0_dev3_lt c⟩ : Dev nD) = peer c ⟨2, by decide⟩ := Fin.ext (k0_dev3_eq c)
theorem dev4 (c : Dev nD) : (⟨k0_dev4 c, k0_dev4_lt c⟩ : Dev nD) = peer c ⟨3, by decide⟩ := Fin.ext (k0_dev4_eq c)
theorem dev5 (c : Dev nD) : (⟨k0_dev5 c, k0_dev5_lt c⟩ : Dev nD) = peer c ⟨4, by decide⟩ := Fin.ext (k0_dev5_eq c)
theorem dev6 (c : Dev nD) : (⟨k0_dev6 c, k0_dev6_lt c⟩ : Dev nD) = peer c ⟨5, by decide⟩ := Fin.ext (k0_dev6_eq c)
theorem dev7 (c : Dev nD) : (⟨k0_dev7 c, k0_dev7_lt c⟩ : Dev nD) = peer c ⟨6, by decide⟩ := Fin.ext (k0_dev7_eq c)
theorem dev8 (c : Dev nD) : (⟨k0_dev8 c, k0_dev8_lt c⟩ : Dev nD) = peer c ⟨7, by decide⟩ := Fin.ext (k0_dev8_eq c)
theorem dev9 (c : Dev nD) : (⟨k0_dev9 c, k0_dev9_lt c⟩ : Dev nD) = peer c ⟨8, by decide⟩ := Fin.ext (k0_dev9_eq c)
theorem dev10 (c : Dev nD) : (⟨k0_dev10 c, k0_dev10_lt c⟩ : Dev nD) = peer c ⟨9, by decide⟩ := Fin.ext (k0_dev10_eq c)
theorem dev11 (c : Dev nD) : (⟨k0_dev11 c, k0_dev11_lt c⟩ : Dev nD) = peer c ⟨10, by decide⟩ := Fin.ext (k0_dev11_eq c)
theorem dev12 (c : Dev nD) : (⟨k0_dev12 c, k0_dev12_lt c⟩ : Dev nD) = peer c ⟨11, by decide⟩ := Fin.ext (k0_dev12_eq c)
theorem dev13 (c : Dev nD) : (⟨k0_dev13 c, k0_dev13_lt c⟩ : Dev nD) = peer c ⟨12, by decide⟩ := Fin.ext (k0_dev13_eq c)
theorem dev14 (c : Dev nD) : (⟨k0_dev14 c, k0_dev14_lt c⟩ : Dev nD) = peer c ⟨13, by decide⟩ := Fin.ext (k0_dev14_eq c)
theorem dev15 (c : Dev nD) : (⟨k0_dev15 c, k0_dev15_lt c⟩ : Dev nD) = peer c ⟨14, by decide⟩ := Fin.ext (k0_dev15_eq c)
theorem dev16 (c : Dev nD) : (⟨k0_dev16 c, k0_dev16_lt c⟩ : Dev nD) = peer c ⟨15, by decide⟩ := Fin.ext (k0_dev16_eq c)
theorem dev17 (c : Dev nD) : (⟨k0_dev17 c, k0_dev17_lt c⟩ : Dev nD) = peer c ⟨16, by decide⟩ := Fin.ext (k0_dev17_eq c)
theorem dev18 (c : Dev nD) : (⟨k0_dev18 c, k0_dev18_lt c⟩ : Dev nD) = peer c ⟨17, by decide⟩ := Fin.ext (k0_dev18_eq c)
theorem dev19 (c : Dev nD) : (⟨k0_dev19 c, k0_dev19_lt c⟩ : Dev nD) = peer c ⟨18, by decide⟩ := Fin.ext (k0_dev19_eq c)
theorem dev20 (c : Dev nD) : (⟨k0_dev20 c, k0_dev20_lt c⟩ : Dev nD) = peer c ⟨19, by decide⟩ := Fin.ext (k0_dev20_eq c)
theorem dev21 (c : Dev nD) : (⟨k0_dev21 c, k0_dev21_lt c⟩ : Dev nD) = peer c ⟨20, by decide⟩ := Fin.ext (k0_dev21_eq c)
theorem dev22 (c : Dev nD) : (⟨k0_dev22 c, k0_dev22_lt c⟩ : Dev nD) = peer c ⟨21, by decide⟩ := Fin.ext (k0_dev22_eq c)
theorem dev23 (c : Dev nD) : (⟨k0_dev23 c, k0_dev23_lt c⟩ : Dev nD) = peer c ⟨22, by decide⟩ := Fin.ext (k0_dev23_eq c)
theorem dev24 (c : Dev nD) : (⟨k0_dev24 c, k0_dev24_lt c⟩ : Dev nD) = peer c ⟨23, by decide⟩ := Fin.ext (k0_dev24_eq c)
theorem dev25 (c : Dev nD) : (⟨k0_dev25 c, k0_dev25_lt c⟩ : Dev nD) = peer c ⟨24, by decide⟩ := Fin.ext (k0_dev25_eq c)
theorem dev26 (c : Dev nD) : (⟨k0_dev26 c, k0_dev26_lt c⟩ : Dev nD) = peer c ⟨25, by decide⟩ := Fin.ext (k0_dev26_eq c)
theorem dev27 (c : Dev nD) : (⟨k0_dev27 c, k0_dev27_lt c⟩ : Dev nD) = peer c ⟨26, by decide⟩ := Fin.ext (k0_dev27_eq c)
theorem dev28 (c : Dev nD) : (⟨k0_dev28 c, k0_dev28_lt c⟩ : Dev nD) = peer c ⟨27, by decide⟩ := Fin.ext (k0_dev28_eq c)
theorem dev29 (c : Dev nD) : (⟨k0_dev29 c, k0_dev29_lt c⟩ : Dev nD) = peer c ⟨28, by decide⟩ := Fin.ext (k0_dev29_eq c)
theorem dev30 (c : Dev nD) : (⟨k0_dev30 c, k0_dev30_lt c⟩ : Dev nD) = peer c ⟨29, by decide⟩ := Fin.ext (k0_dev30_eq c)
theorem dev31 (c : Dev nD) : (⟨k0_dev31 c, k0_dev31_lt c⟩ : Dev nD) = peer c ⟨30, by decide⟩ := Fin.ext (k0_dev31_eq c)
theorem dev32 (c : Dev nD) : (⟨k0_dev32 c, k0_dev32_lt c⟩ : Dev nD) = peer c ⟨0, by decide⟩ := Fin.ext (k0_dev32_eq c)
theorem dev33 (c : Dev nD) : (⟨k0_dev33 c, k0_dev33_lt c⟩ : Dev nD) = peer c ⟨1, by decide⟩ := Fin.ext (k0_dev33_eq c)
theorem dev34 (c : Dev nD) : (⟨k0_dev34 c, k0_dev34_lt c⟩ : Dev nD) = peer c ⟨2, by decide⟩ := Fin.ext (k0_dev34_eq c)
theorem dev35 (c : Dev nD) : (⟨k0_dev35 c, k0_dev35_lt c⟩ : Dev nD) = peer c ⟨3, by decide⟩ := Fin.ext (k0_dev35_eq c)
theorem dev36 (c : Dev nD) : (⟨k0_dev36 c, k0_dev36_lt c⟩ : Dev nD) = peer c ⟨4, by decide⟩ := Fin.ext (k0_dev36_eq c)
theorem dev37 (c : Dev nD) : (⟨k0_dev37 c, k0_dev37_lt c⟩ : Dev nD) = peer c ⟨5, by decide⟩ := Fin.ext (k0_dev37_eq c)
theorem dev38 (c : Dev nD) : (⟨k0_dev38 c, k0_dev38_lt c⟩ : Dev nD) = peer c ⟨6, by decide⟩ := Fin.ext (k0_dev38_eq c)
theorem dev39 (c : Dev nD) : (⟨k0_dev39 c, k0_dev39_lt c⟩ : Dev nD) = peer c ⟨7, by decide⟩ := Fin.ext (k0_dev39_eq c)
theorem dev40 (c : Dev nD) : (⟨k0_dev40 c, k0_dev40_lt c⟩ : Dev nD) = peer c ⟨8, by decide⟩ := Fin.ext (k0_dev40_eq c)
theorem dev41 (c : Dev nD) : (⟨k0_dev41 c, k0_dev41_lt c⟩ : Dev nD) = peer c ⟨9, by decide⟩ := Fin.ext (k0_dev41_eq c)
theorem dev42 (c : Dev nD) : (⟨k0_dev42 c, k0_dev42_lt c⟩ : Dev nD) = peer c ⟨10, by decide⟩ := Fin.ext (k0_dev42_eq c)
theorem dev43 (c : Dev nD) : (⟨k0_dev43 c, k0_dev43_lt c⟩ : Dev nD) = peer c ⟨11, by decide⟩ := Fin.ext (k0_dev43_eq c)
theorem dev44 (c : Dev nD) : (⟨k0_dev44 c, k0_dev44_lt c⟩ : Dev nD) = peer c ⟨12, by decide⟩ := Fin.ext (k0_dev44_eq c)
theorem dev45 (c : Dev nD) : (⟨k0_dev45 c, k0_dev45_lt c⟩ : Dev nD) = peer c ⟨13, by decide⟩ := Fin.ext (k0_dev45_eq c)
theorem dev46 (c : Dev nD) : (⟨k0_dev46 c, k0_dev46_lt c⟩ : Dev nD) = peer c ⟨14, by decide⟩ := Fin.ext (k0_dev46_eq c)
theorem dev47 (c : Dev nD) : (⟨k0_dev47 c, k0_dev47_lt c⟩ : Dev nD) = peer c ⟨15, by decide⟩ := Fin.ext (k0_dev47_eq c)
theorem dev48 (c : Dev nD) : (⟨k0_dev48 c, k0_dev48_lt c⟩ : Dev nD) = peer c ⟨16, by decide⟩ := Fin.ext (k0_dev48_eq c)
theorem dev49 (c : Dev nD) : (⟨k0_dev49 c, k0_dev49_lt c⟩ : Dev nD) = peer c ⟨17, by decide⟩ := Fin.ext (k0_dev49_eq c)
theorem dev50 (c : Dev nD) : (⟨k0_dev50 c, k0_dev50_lt c⟩ : Dev nD) = peer c ⟨18, by decide⟩ := Fin.ext (k0_dev50_eq c)
theorem dev51 (c : Dev nD) : (⟨k0_dev51 c, k0_dev51_lt c⟩ : Dev nD) = peer c ⟨19, by decide⟩ := Fin.ext (k0_dev51_eq c)
theorem dev52 (c : Dev nD) : (⟨k0_dev52 c, k0_dev52_lt c⟩ : Dev nD) = peer c ⟨20, by decide⟩ := Fin.ext (k0_dev52_eq c)
theorem dev53 (c : Dev nD) : (⟨k0_dev53 c, k0_dev53_lt c⟩ : Dev nD) = peer c ⟨21, by decide⟩ := Fin.ext (k0_dev53_eq c)
theorem dev54 (c : Dev nD) : (⟨k0_dev54 c, k0_dev54_lt c⟩ : Dev nD) = peer c ⟨22, by decide⟩ := Fin.ext (k0_dev54_eq c)
theorem dev55 (c : Dev nD) : (⟨k0_dev55 c, k0_dev55_lt c⟩ : Dev nD) = peer c ⟨23, by decide⟩ := Fin.ext (k0_dev55_eq c)
theorem dev56 (c : Dev nD) : (⟨k0_dev56 c, k0_dev56_lt c⟩ : Dev nD) = peer c ⟨24, by decide⟩ := Fin.ext (k0_dev56_eq c)
theorem dev57 (c : Dev nD) : (⟨k0_dev57 c, k0_dev57_lt c⟩ : Dev nD) = peer c ⟨25, by decide⟩ := Fin.ext (k0_dev57_eq c)
theorem dev58 (c : Dev nD) : (⟨k0_dev58 c, k0_dev58_lt c⟩ : Dev nD) = peer c ⟨26, by decide⟩ := Fin.ext (k0_dev58_eq c)
theorem dev59 (c : Dev nD) : (⟨k0_dev59 c, k0_dev59_lt c⟩ : Dev nD) = peer c ⟨27, by decide⟩ := Fin.ext (k0_dev59_eq c)
theorem dev60 (c : Dev nD) : (⟨k0_dev60 c, k0_dev60_lt c⟩ : Dev nD) = peer c ⟨28, by decide⟩ := Fin.ext (k0_dev60_eq c)
theorem dev61 (c : Dev nD) : (⟨k0_dev61 c, k0_dev61_lt c⟩ : Dev nD) = peer c ⟨29, by decide⟩ := Fin.ext (k0_dev61_eq c)
theorem dev62 (c : Dev nD) : (⟨k0_dev62 c, k0_dev62_lt c⟩ : Dev nD) = peer c ⟨30, by decide⟩ := Fin.ext (k0_dev62_eq c)

/-- info: 'Cert.KernelIdeal.Proto.row_off5' depends on axioms: [propext, Classical.choice, Quot.sound] -/
#guard_msgs in #print axioms row_off5
/-- info: 'Cert.KernelIdeal.Proto.sendSem_off2' depends on axioms: [propext, Classical.choice, Quot.sound] -/
#guard_msgs in #print axioms sendSem_off2
/-- info: 'Cert.KernelIdeal.Proto.recvSem_off2' depends on axioms: [propext, Classical.choice, Quot.sound] -/
#guard_msgs in #print axioms recvSem_off2
/-- info: 'Cert.KernelIdeal.Proto.recvSem_off3' depends on axioms: [propext, Classical.choice, Quot.sound] -/
#guard_msgs in #print axioms recvSem_off3

end Cert.KernelIdeal.Proto

end
-- ==== Proof.Regroup.lean ====
/-
  Regrouping: the chains over a device's 31 peers against the big separating conjunctions they are cut from.

  A chain of length 31 is the big conjunction over all 31 peer indices; what has been gathered from all 31 peers in
  order is the same chain; and since every device other than `c` is exactly one peer of `c`, a big conjunction over the
  devices is `c`'s own entry and the chain of its peers' entries. The same regrouping is then read off for a device's
  positions (one cell per index), for its scratch (one row per device) and for its 64 own semaphores.
-/
import proofs.«900562_g7700000000000563_dist_max_ax0_shard0_i_m1024_n512_v7x_i32_f32_1_alg».proof.Proof.Data

noncomputable section

namespace Cert.KernelIdeal.Proto

open Cert.KernelIdeal Cert.KernelIdeal.Gen Cert.KernelIdeal.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Chains and big separating conjunctions -/

omit [FloatOps F] in
/-- Separating conjunction commutes, as an equation of assertions. -/
private theorem sepC (P Q : sProp 𝕄) : iprop(P ∗ Q) = iprop(Q ∗ P) :=
  Idealize.SL.BI.Entails.antisymm Idealize.SL.BI.sep_comm Idealize.SL.BI.sep_comm

/-- The last `j` of the 31 peer indices. -/
private def lastIx (j : ℕ) : Finset (Fin 31) := Finset.univ.filter fun d => 31 - j ≤ d.val
/-- The first `k` of the 31 peer indices. -/
private def firstIx (k : ℕ) : Finset (Fin 31) := Finset.univ.filter fun d => d.val < k

private theorem lastIx_all : lastIx 31 = Finset.univ := by
  ext d; simp only [lastIx, Finset.mem_filter, Finset.mem_univ, true_and, iff_true]; omega
private theorem firstIx_all : firstIx 31 = Finset.univ := by
  ext d; have := d.isLt; simp only [firstIx, Finset.mem_filter, Finset.mem_univ, true_and, iff_true]; omega

omit [FloatOps F] in
/-- A chain of length `j` is the big conjunction over the last `j` indices. -/
private theorem chain_eq_lastIx (Φ : Fin 31 → sProp 𝕄) : ∀ j, j ≤ 31 → chain Φ j = bigSep (lastIx j) Φ
  | 0, _ => by
    have e : lastIx 0 = ∅ := by
      ext d; have := d.isLt
      simp only [lastIx, Finset.mem_filter, Finset.mem_univ, true_and, Finset.notMem_empty, iff_false]; omega
    rw [e]; rfl
  | j + 1, h => by
    have e : lastIx (j + 1) = insert (⟨30 - j, by omega⟩ : Fin 31) (lastIx j) := by
      ext d
      simp only [lastIx, Finset.mem_filter, Finset.mem_univ, true_and, Finset.mem_insert, Fin.ext_iff]; omega
    have hn : (⟨30 - j, by omega⟩ : Fin 31) ∉ lastIx j := by
      simp only [lastIx, Finset.mem_filter, Finset.mem_univ, true_and]; omega
    rw [chain_succ, chain_eq_lastIx Φ j (by omega), e, bigSep_insert hn]; exact sepC _ _

omit [FloatOps F] in
/-- What has been gathered from the first `k` peers is the big conjunction over the first `k` indices. -/
private theorem upto_eq_firstIx (Φ : ℕ → sProp 𝕄) : ∀ k, k ≤ 31 → upto Φ k = bigSep (firstIx k) (fun d : Fin 31 => Φ d.val)
  | 0, _ => by
    have e : firstIx 0 = ∅ := by
      ext d
      simp only [firstIx, Finset.mem_filter, Finset.mem_univ, true_and, Finset.notMem_empty, iff_false]; omega
    rw [e]; rfl
  | k + 1, h => by
    have e : firstIx (k + 1) = insert (⟨k, by omega⟩ : Fin 31) (firstIx k) := by
      ext d
      simp only [firstIx, Finset.mem_filter, Finset.mem_univ, true_and, Finset.mem_insert, Fin.ext_iff]; omega
    have hn : (⟨k, by omega⟩ : Fin 31) ∉ firstIx k := by
      simp only [firstIx, Finset.mem_filter, Finset.mem_univ, true_and]; omega
    rw [upto_succ, upto_eq_firstIx Φ k (by omega), e, bigSep_insert hn]; exact sepC _ _

omit [FloatOps F] in
theorem chain_eq_bigSep (Φ : Fin 31 → sProp 𝕄) : chain Φ 31 = bigSep Finset.univ Φ := by
  rw [chain_eq_lastIx Φ 31 (le_refl _), lastIx_all]

omit [FloatOps F] in
/-- The whole chain is the big conjunction over all 31 peer indices. -/
theorem chain_iff_bigSep (Φ : Fin 31 → sProp 𝕄) : chain Φ 31 ⊣⊢ bigSep Finset.univ Φ :=
  .of_eq (chain_eq_bigSep Φ)

omit [FloatOps F] in
theorem upto_eq_chain (Φ : ℕ → sProp 𝕄) : upto Φ 31 = chain (fun d : Fin 31 => Φ d.val) 31 := by
  rw [upto_eq_firstIx Φ 31 (le_refl _), firstIx_all, chain_eq_bigSep]

omit [FloatOps F] in
/-- Gathered from all 31 peers in order: the whole chain. -/
theorem upto_iff_chain (Φ : ℕ → sProp 𝕄) : upto Φ 31 ⊣⊢ chain (fun d : Fin 31 => Φ d.val) 31 :=
  .of_eq (upto_eq_chain Φ)

/-- The peers of `c`, as an embedding of the 31 indices into the devices. -/
private def peerEmb (c : Dev nD) : Fin 31 ↪ Dev nD := ⟨peer c, peer_injective c⟩

/-- The peers of `c` are exactly the devices other than `c`. -/
private theorem map_peer (c : Dev nD) : (Finset.univ : Finset (Fin 31)).map (peerEmb c) = Finset.univ.erase c := by
  ext p
  simp only [Finset.mem_map, Finset.mem_univ, true_and, Finset.mem_erase, and_true, peerEmb, Function.Embedding.coeFn_mk]
  constructor
  · rintro ⟨d, rfl⟩; exact peer_ne c d
  · exact exists_peer c p

omit [FloatOps F] in
theorem bigSep_erase_eq_chain (c : Dev nD) (Φ : Dev nD → sProp 𝕄) :
    bigSep (Finset.univ.erase c) Φ = chain (fun d => Φ (peer c d)) 31 := by
  rw [chain_eq_bigSep, ← map_peer c, bigSep_map]; rfl

omit [FloatOps F] in
/-- Over the devices other than `c`: one entry per peer of `c`. -/
theorem bigSep_erase_iff_chain (c : Dev nD) (Φ : Dev nD → sProp 𝕄) :
    bigSep (Finset.univ.erase c) Φ ⊣⊢ chain (fun d => Φ (peer c d)) 31 :=
  .of_eq (bigSep_erase_eq_chain c Φ)

omit [FloatOps F] in
theorem bigSep_dev_eq (c : Dev nD) (Φ : Dev nD → sProp 𝕄) :
    bigSep Finset.univ Φ = iprop(Φ c ∗ chain (fun d => Φ (peer c d)) 31) := by
  rw [bigSep_univ_split c, bigSep_erase_eq_chain]; rfl

omit [FloatOps F] in
/-- Over all devices: `c`'s own entry and one per peer of `c`. -/
theorem bigSep_dev_iff (c : Dev nD) (Φ : Dev nD → sProp 𝕄) :
    bigSep Finset.univ Φ ⊣⊢ iprop(Φ c ∗ chain (fun d => Φ (peer c d)) 31) :=
  .of_eq (bigSep_dev_eq c Φ)

/-- info: 'Cert.KernelIdeal.Proto.bigSep_dev_iff' depends on axioms: [propext, Classical.choice, Quot.sound] -/
#guard_msgs in #print axioms bigSep_dev_iff

end Cert.KernelIdeal.Proto

end
-- ==== Proof.Regroup2.lean ====
/-
  Regrouping, continued: a device's scratch as its 32 rows, its positions cell by cell, its 64 own semaphores.

  A row's points-to sees only the row's index set. The 32 rows' index sets (first coordinate `p`) partition the scratch, so
  the scratch's points-to is `c`'s own row and the chain of its peers' rows. The row a device stores, the column-wise maximum
  of its own block, is its row of the complete array. A device's 65 cells are its barrier cell and, per device, a send and a
  receive cell; its 64 own semaphores are those send and receive cells' semaphores.
-/
import proofs.«900562_g7700000000000563_dist_max_ax0_shard0_i_m1024_n512_v7x_i32_f32_1_alg».proof.Proof.Regroup

import Mathlib.Logic.Equiv.Fin.Basic

noncomputable section

namespace Cert.KernelIdeal.Proto

open Cert.KernelIdeal Cert.KernelIdeal.Gen Cert.KernelIdeal.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The scratch and its rows -/

/-- A row's points-to sees only the row: contents that agree on the row's index set are interchangeable. -/
theorem rowPts_congr (c p : Dev nD) (q : PosShare TreeShare) (f g : Buf (Elt F) ((rowM p).view.loc (c : Thread nD τ)))
    (h : ∀ i ∈ (rowM p).view.set, f i = g i) : (rowPts c p q f : sProp 𝕄) ⊢ rowPts c p q g :=
  BIBase.Entails.of_eq (pointsTo_congr h)

/-- Row `p` of the scratch is the indices whose first coordinate is `p`. -/
private theorem mem_row (p : Dev nD) (i : S32x1x512.Idx) : i ∈ (rowRect p).set ↔ (i 0).val = p.val := by
  rw [Rect.mem_set_unit]
  have h1 : (i 1).val < 1 := (i 1).isLt
  have h2 : (i 2).val < 512 := (i 2).isLt
  constructor
  · intro h
    have h0 : p.val ≤ (i 0).val ∧ (i 0).val < p.val + 1 := h 0
    omega
  · intro h a
    match a with
    | ⟨0, _⟩ => exact ⟨by show p.val ≤ (i 0).val; omega, by show (i 0).val < p.val + 1; omega⟩
    | ⟨1, _⟩ => exact ⟨Nat.zero_le _, by show (i 1).val < 0 + 1; omega⟩
    | ⟨2, _⟩ => exact ⟨Nat.zero_le _, by show (i 2).val < 0 + 512; omega⟩

private theorem row_set (p : Dev nD) : (rowM p).view.set = (rowRect p).set := View.set_slice_whole cc0_scratch0 (rowRect p)

/-- The 32 rows cover the scratch. -/
private theorem rows_cover (c : Dev nD) :
    (Finset.univ : Finset (Idx ((c : Thread nD τ).loc cc0_scratch0))) = Finset.univ.biUnion fun p : Dev nD => (rowM p).view.set := by
  ext i
  simp only [Finset.mem_univ, Finset.mem_biUnion, true_and, true_iff]
  refine ⟨⟨(i 0).val, (i 0).isLt⟩, ?_⟩
  rw [row_set]; exact (mem_row _ i).mpr rfl

/-- Different rows share no index. -/
private theorem rows_disjoint (p p' : Dev nD) (h : p ≠ p') : Disjoint (rowM p).view.set (rowM p').view.set := by
  rw [row_set, row_set, Finset.disjoint_left]
  intro i hi hi'
  exact h (Fin.ext (((mem_row p i).mp hi).symm.trans ((mem_row p' i).mp hi')))

theorem scr_rows_eq (c : Dev nD) (q : PosShare TreeShare) (f : Buf (Elt F) ((c : Thread nD τ).loc cc0_scratch0)) :
    ((((c : Thread nD τ).loc cc0_scratch0) ↦{q} f) : sProp 𝕄)
      = iprop(rowPts c c q f ∗ chain (fun d => rowPts c (peer c d) q f) 31) := by
  rw [rows_cover c, pointsTo_biUnion Finset.univ _ fun p _ p' _ h => rows_disjoint p p' h]
  exact bigSep_dev_eq c fun p => rowPts c p q f

/-- The scratch is its 32 rows: `c`'s own and one per peer. -/
theorem scr_rows (c : Dev nD) (q : PosShare TreeShare) (f : Buf (Elt F) ((c : Thread nD τ).loc cc0_scratch0)) :
    ((((c : Thread nD τ).loc cc0_scratch0) ↦{q} f) : sProp 𝕄)
      ⊣⊢ iprop(rowPts c c q f ∗ chain (fun d => rowPts c (peer c d) q f) 31) :=
  .of_eq (scr_rows_eq c q f)

/-- The row a device stores, the column-wise maximum of its own block, is its row of the complete array. -/
theorem stored_row (c : Dev nD) (f : Buf (Elt F) ((c : Thread nD τ).loc cc0_scratch0)) :
    ∀ i ∈ (rowM c).view.set,
      ((scrM.access (rowRect c) : View sig .tc _ _ _).write (Elt F) f (k0_pay2 (xblk m c)) Finset.univ) i = RED m i := by
  intro i hi
  obtain ⟨y, -, rfl⟩ := Finset.mem_map.mp hi
  rw [View.write_emb_of_mem _ _ (Finset.mem_univ y)]
  have hy0 : (y 0).val < 1 := (y 0).isLt
  have hy1 : (y 1).val < 1 := (y 1).isLt
  have e0 : ((scrM.access (rowRect c) : View sig .tc _ _ _).emb y) 0 = c := by
    apply Fin.ext; show c.val + 1 * (y 0).val = c.val; omega
  have e2 : colIdx (((scrM.access (rowRect c) : View sig .tc _ _ _).emb y) 2) = y := by
    funext a
    match a with
    | ⟨0, _⟩ => apply Fin.ext; show 0 = (y 0).val; omega
    | ⟨1, _⟩ => apply Fin.ext; show 0 = (y 1).val; omega
    | ⟨2, _⟩ => apply Fin.ext; show 0 + 1 * (y 2).val = (y 2).val; omega
  show _ = k0_pay2 (xblk m (((scrM.access (rowRect c) : View sig .tc _ _ _).emb y) 0)) (colIdx (((scrM.access (rowRect c) : View sig .tc _ _ _).emb y) 2))
  rw [e0, e2]; exact cast_eq _ _

/-! ## Cells and own semaphores, regrouped -/

omit [FloatOps F] in
private theorem sepC' (P Q : sProp 𝕄) : iprop(P ∗ Q) = iprop(Q ∗ P) :=
  Idealize.SL.BI.Entails.antisymm Idealize.SL.BI.sep_comm Idealize.SL.BI.sep_comm
omit [FloatOps F] in
private theorem sepA' (P Q R : sProp 𝕄) : iprop((P ∗ Q) ∗ R) = iprop(P ∗ Q ∗ R) :=
  Idealize.SL.BI.Entails.antisymm Idealize.SL.BI.sep_assoc Idealize.SL.BI.sep_assoc'
omit [FloatOps F] in
/-- Two pairs, regrouped: the two heads, then the two tails. -/
private theorem sep4 (S CS R CR : sProp 𝕄) : iprop((S ∗ CS) ∗ (R ∗ CR)) = iprop(S ∗ R ∗ CS ∗ CR) := by
  rw [sepA', ← sepA' CS, sepC' CS R, sepA']

omit [FloatOps F] in
/-- Over an optional index: the entry at `none` and the entries at `some`. -/
private theorem bigSep_option {α : Type} [Fintype α] [DecidableEq α] (Φ : Option α → sProp 𝕄) :
    bigSep Finset.univ Φ = iprop(Φ none ∗ bigSep Finset.univ fun a => Φ (some a)) := by
  have e : (Finset.univ : Finset (Option α)).erase none = Finset.univ.map Function.Embedding.some := by
    ext x; cases x <;> simp
  rw [bigSep_univ_split none, e, bigSep_map]; rfl

omit [FloatOps F] in
private theorem bigSep_bool (Φ : Bool → sProp 𝕄) : bigSep Finset.univ Φ = iprop(Φ false ∗ Φ true) := by
  have e : (Finset.univ : Finset Bool).erase false = {true} := by decide
  rw [bigSep_univ_split false, e, bigSep_singleton]; rfl

omit [FloatOps F] in
theorem positions_eq (c : Dev nD) : (positions c : sProp 𝕄)
    = iprop(atPos ER (barCell c) 0 ∅ 0 ∗ atPos ER (sendCell c c) 0 ∅ 0 ∗ atPos ER (recvCell c c) 0 ∅ 0 ∗ sndPos c 31 ∗ rcvPos c 31) := by
  unfold positions sndPos rcvPos
  rw [bigSep_option, bigSep_univ_prod, bigSep_bool,
    bigSep_dev_eq c fun p => atPos ER (kcell (c, some (false, p))) 0 ∅ 0,
    bigSep_dev_eq c fun p => atPos ER (kcell (c, some (true, p))) 0 ∅ 0]
  exact congrArg (fun X : sProp 𝕄 => iprop(atPos ER (barCell c) 0 ∅ 0 ∗ X)) (sep4 _ _ _ _)

omit [FloatOps F] in
/-- A device's positions: its barrier cell's, its two self cells', and the chains over its peers' send and receive cells. -/
theorem positions_iff (c : Dev nD) : (positions c : sProp 𝕄)
    ⊣⊢ iprop(atPos ER (barCell c) 0 ∅ 0 ∗ atPos ER (sendCell c c) 0 ∅ 0 ∗ atPos ER (recvCell c c) 0 ∅ 0 ∗ sndPos c 31 ∗ rcvPos c 31) :=
  .of_eq (positions_eq c)

/-- The 64 own semaphores: the first 32 are the send semaphores, the last 32 the receive semaphores. -/
private def ownIx : Fin 32 ⊕ Fin 32 ≃ Fin 64 := (finSumFinEquiv : Fin 32 ⊕ Fin 32 ≃ Fin (32 + 32))

private theorem osem_inl (a : Fin 32) : osem (ownIx (Sum.inl a)) = .dma (sendSem a) :=
  congrArg SemLoc.dma (Fin.ext rfl)
private theorem osem_inr (b : Fin 32) : osem (ownIx (Sum.inr b)) = .dma (recvSem b) :=
  congrArg SemLoc.dma (Fin.ext (by show 2 + (32 + b.val) = 34 + b.val; omega))

omit [FloatOps F] in
theorem ownSems0_eq (c : Dev nD) : (Pipeline.ownSems0 osem c : sProp 𝕄)
    = iprop(semVal (sendCell c c) 0 ∗ semVal (recvCell c c) 0 ∗ upto (fun k => semVal (sendCell c (peerN c k)) 0) 31
        ∗ upto (fun k => semVal (recvCell c (peerN c k)) 0) 31) := by
  unfold Pipeline.ownSems0
  rw [bigSep_univ_equiv ownIx, bigSep_univ_sum]
  simp only [osem_inl, osem_inr]
  rw [bigSep_dev_eq c fun p => semVal (sendCell c p) 0, bigSep_dev_eq c fun p => semVal (recvCell c p) 0,
    upto_eq_chain, upto_eq_chain]
  exact sep4 _ _ _ _

omit [FloatOps F] in
/-- The own semaphores at zero, cell by cell, close into the launch's form. -/
theorem ownSems0_of_cells (c : Dev nD) :
    iprop(semVal (sendCell c c) 0 ∗ semVal (recvCell c c) 0 ∗ upto (fun k => semVal (sendCell c (peerN c k)) 0) 31
        ∗ upto (fun k => semVal (recvCell c (peerN c k)) 0) 31) ⊢ (Pipeline.ownSems0 osem c : sProp 𝕄) :=
  BIBase.Entails.of_eq (ownSems0_eq c).symm

/-- info: 'Cert.KernelIdeal.Proto.rowPts_congr' depends on axioms: [propext, Classical.choice, Quot.sound] -/
#guard_msgs in #print axioms rowPts_congr

/-- info: 'Cert.KernelIdeal.Proto.scr_rows' depends on axioms: [propext, Classical.choice, Quot.sound] -/
#guard_msgs in #print axioms scr_rows

/-- info: 'Cert.KernelIdeal.Proto.stored_row' depends on axioms: [propext, Classical.choice, Quot.sound] -/
#guard_msgs in #print axioms stored_row

/-- info: 'Cert.KernelIdeal.Proto.positions_iff' depends on axioms: [propext, Classical.choice, Quot.sound] -/
#guard_msgs in #print axioms positions_iff

/-- info: 'Cert.KernelIdeal.Proto.ownSems0_of_cells' depends on axioms: [propext, Classical.choice, Quot.sound] -/
#guard_msgs in #print axioms ownSems0_of_cells

end Cert.KernelIdeal.Proto

end
-- ==== Proof.StepsA.lean ====
/-
  The two steps a device takes on barrier cells: the unit it signals to one peer's barrier cell, handing that peer the row of
  its own scratch the peer will write, and the wait for the 31 units on its own barrier cell, which hands it row `c` of every
  peer's scratch.
-/
import proofs.«900562_g7700000000000563_dist_max_ax0_shard0_i_m1024_n512_v7x_i32_f32_1_alg».proof.Proof.Regroup

noncomputable section

namespace Cert.KernelIdeal.Proto

open Cert.KernelIdeal Cert.KernelIdeal.Gen Cert.KernelIdeal.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)
variable (K : Dev nD × CellIx → ℕ)

/-! ## One cell's records -/

/-- The invariant of one cell, out of the records. -/
theorem records_inv (ck : Dev nD × CellIx) : records m K ⊢ cellInv ER (sched m) (K ck) (kcell ck) := by
  unfold records
  exact sep_elim_left.trans
    (bigSep_elim (Φ := fun ck : Dev nD × CellIx => cellInv ER (sched m) (K ck) (kcell ck)) (Finset.mem_univ ck))

/-- That one cell has reached round 0, out of the records. -/
theorem records_reached (ck : Dev nD × CellIx) : records m K ⊢ reached ER (kcell ck) 0 := by
  unfold records
  exact sep_elim_right.trans
    (bigSep_elim (Φ := fun ck : Dev nD × CellIx => reached ER (kcell ck) 0) (Finset.mem_univ ck))

/-- The barrier cell's invariant and the rounds reached, at the cells as the steps name them. -/
theorem records_bar (n : Dev nD) : records m K ⊢ cellInv ER (sched m) (K (n, none)) (barCell n) := records_inv m K (n, none)
theorem records_bar_reached (n : Dev nD) : records m K ⊢ reached ER (barCell n) 0 := records_reached m K (n, none)
theorem records_recv_reached (c n : Dev nD) : records m K ⊢ reached ER (recvCell c n) 0 := records_reached m K (c, some (true, n))

/-! ## The barrier cell's tables, the payload as the points-to it is -/

private theorem payload_bar_pts (c d : Dev nD) : (sched (F := F) m).payload (barCell c) 0 d
    = iprop((∃ f, (rowM c).view.loc (d : Thread nD τ) ↦[(rowM c).view.set]{fullShare} f) ∗ reached ER (recvCell d c) 0) := rfl

private theorem bar_mem (c : Dev nD) (d : Fin 31) : c ∈ (sched (F := F) m).duties (barCell (peer c d)) 0 := by
  rw [duties_bar]; exact Finset.mem_erase.mpr ⟨(peer_ne c d).symm, Finset.mem_univ _⟩

private theorem bar_mem' (c : Dev nD) (d : Fin 31) : c ∈ (Finset.univ : Finset (Dev nD)).erase (peer c d) :=
  Finset.mem_erase.mpr ⟨(peer_ne c d).symm, Finset.mem_univ _⟩

attribute [local sl_rounds] duties_bar amount_bar expect_bar payload_bar_pts bar_mem bar_mem'

/-! ## The signal to peer `k` -/

/-- What is owed after `k` signals is what is owed after `k + 1`, and the unit to peer `k`'s barrier cell. -/
theorem oSig_peel (c : Dev nD) (k : ℕ) (hk : k < 31) :
    oSig c (31 - k) = oSig c (30 - k) + tallyAt (barCell (peer c ⟨k, hk⟩)) () 1 := by
  have h : 31 - k = (30 - k) + 1 := by omega
  rw [h, oSig_succ]
  have e : (⟨30 - (30 - k), by omega⟩ : Fin 31) = ⟨k, hk⟩ := Fin.ext (by show 30 - (30 - k) = k; omega)
  rw [e]

/-- The signal to peer `k`: it pays duty `c` of that peer's barrier cell with the row of `c`'s scratch that peer writes. -/
theorem step_signal (c : Dev nD) (k : ℕ) (hk : k < 31) (n : Dev nD) (hn : n = peer c ⟨k, hk⟩) {k' : ℕ} (hk' : k' = 1)
    {α : Type} {Q : α → sProp 𝕄} {kont : PUnit → Prog (TpuEff nD τ sig (Elt F) Λ₀ .tc) α} {W : Waits sig Unit} :
    iprop(records m K ∗ owes (c : Thread nD τ) (oSig c (31 - k)) W ∗ sigToks c (31 - k) ∗ slots c (31 - k))
      ⊢ iprop(((owes (c : Thread nD τ) (oSig c (30 - k)) W ∗ sigToks c (30 - k) ∗ slots c (30 - k))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS k') kont) Q) := by
  subst hn; subst hk'
  unfold sigToks slots
  rw [chain_peel _ k hk, chain_peel _ k hk, oSig_peel c k hk]
  iintro ⟨#Hrec, HO, ⟨Htoks, Htok⟩, ⟨Hslots, ⟨%f, Hslot⟩⟩⟩ Hk
  ihave #HI := (records_bar m K (peer c ⟨k, hk⟩)) $$ Hrec
  ihave #HrB := (records_bar_reached m K (peer c ⟨k, hk⟩)) $$ Hrec
  ihave #HrV := (records_recv_reached m K c (peer c ⟨k, hk⟩)) $$ Hrec
  unfold rowPts
  sl_exec
  iapply Hk
  isplitl [HO]; · iexact HO
  isplitl [Htoks]; · iexact Htoks
  iexact Hslots

/-! ## The wait on its own barrier cell -/

/-- What the 31 landed units hand over, kept to the rows: row `c` of every peer's scratch. -/
theorem barPays_dsts (c : Dev nD) :
    bigSep (Finset.univ.erase c) (fun p => barPay (F := F) c p) ⊢ dsts (F := F) c 31 := by
  unfold dsts
  rw [← bigSep_erase_eq_chain c (fun p => iprop(∃ f, rowPts (F := F) p c fullShare f))]
  refine bigSep_mono (Φ := fun p => barPay (F := F) c p) (Ψ := fun p => iprop(∃ f, rowPts (F := F) p c fullShare f)) ?_
  intro p _
  show iprop((∃ f, rowPts (F := F) p c fullShare f) ∗ reached ER (recvCell p c) 0) ⊢ iprop(∃ f, rowPts (F := F) p c fullShare f)
  exact sep_elim_left

/-- The wait for the 31 units of its barrier cell: every peer's unit has landed, and with it row `c` of that peer's scratch. -/
theorem step_barrier_wait (c : Dev nD) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (.reg barS) k' Kt) (hk' : k' = 31)
    (hmw : (levAts L lv : sProp 𝕄) ⊢ MayWait (c : Thread nD τ) (.reg barS) () (oRecv c 31))
    {α : Type} {Q : α → sProp 𝕄} {kont : PUnit → Prog (TpuEff nD τ sig (Elt F) Λ₀ .tc) α} {W : Waits sig Unit} :
    iprop(records m K ∗ levAts L lv ∗ cred (tallyAt (barCell c) () 31) ∗ owes (c : Thread nD τ) (oRecv c 31) W ∗ atPos ER (barCell c) 0 ∅ 0)
      ⊢ iprop(((owes (c : Thread nD τ) (oRecv c 31) (insert (SemLoc.reg barS, ()) W) ∗ atPos ER (barCell c) 1 ∅ 0 ∗ dsts (F := F) c 31)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hk'
  iintro ⟨#Hrec, #Hlev, Hc, HO, Hat⟩ Hk
  ihave #HI := (records_inv m K (c, none)) $$ Hrec
  iapply (Rounds.wp_wait_rest_token 𝒱₀ ER (sched m) (c : Thread nD τ) none (κ := K (c, none)) hw (Set.mem_univ _) ()
      (O := oRecv c 31) (W := W) (R := 0) (m := 0) (T := ∅) (by rw [expect_bar])) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (Entails.of_eq (rest_bar m c)) $$ Hpay
  ihave Hd := (barPays_dsts (F := F) c) $$ Hp
  iapply Hk
  isplitl [HO]; · iexact HO
  isplitl [Hat]; · iexact Hat
  iexact Hd

/-- The same, the payloads spelt as the points-to they are. -/
theorem barPays_dsts_pts (c : Dev nD) :
    bigSep (Finset.univ.erase c) (fun d : Dev nD =>
        iprop((∃ f, (rowM c).view.loc (d : Thread nD τ) ↦[(rowM c).view.set]{fullShare} f) ∗ reached ER (recvCell d c) 0))
      ⊢ dsts (F := F) c 31 := barPays_dsts c

/-- The same wait, the effect spelt out: the wait for 31 on the barrier semaphore. -/
theorem step_barrier_wait_sem (c : Dev nD) {k' : ℕ} (hk' : k' = 31)
    (hmw : (levAts L lv : sProp 𝕄) ⊢ MayWait (c : Thread nD τ) (.reg barS) () (oRecv c 31))
    {α : Type} {Q : α → sProp 𝕄} {kont : PUnit → Prog (TpuEff nD τ sig (Elt F) Λ₀ .tc) α} {W : Waits sig Unit} :
    iprop(records m K ∗ levAts L lv ∗ cred (tallyAt (barCell c) () 31) ∗ owes (c : Thread nD τ) (oRecv c 31) W ∗ atPos ER (barCell c) 0 ∅ 0)
      ⊢ iprop(((owes (c : Thread nD τ) (oRecv c 31) (insert (SemLoc.reg barS, ()) W) ∗ atPos ER (barCell c) 1 ∅ 0 ∗ dsts (F := F) c 31)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS k') kont) Q) := by
  subst hk'
  iintro ⟨#Hrec, #Hlev, Hc, HO, Hat⟩ Hk
  ihave #HI := (records_bar m K c) $$ Hrec
  ihave #Hmw := hmw $$ Hlev
  sl_exec
  ihave Hd := (barPays_dsts_pts (F := F) c) $$ Hat_pay1
  iapply Hk
  isplitl [HO]; · iexact HO
  isplitl [Hat]; · iexact Hat
  iexact Hd

/-- info: 'Cert.KernelIdeal.Proto.step_signal' depends on axioms: [propext, Classical.choice, Quot.sound] -/
#guard_msgs in #print axioms step_signal

/-- info: 'Cert.KernelIdeal.Proto.step_barrier_wait' depends on axioms: [propext, Classical.choice, Quot.sound] -/
#guard_msgs in #print axioms step_barrier_wait

/-- info: 'Cert.KernelIdeal.Proto.step_barrier_wait_sem' depends on axioms: [propext, Classical.choice, Quot.sound] -/
#guard_msgs in #print axioms step_barrier_wait_sem

end Cert.KernelIdeal.Proto

end
-- ==== Proof.StepsB.lean ====
/-
  One peer at a time: the copy of a device's own row to its k-th peer, the wait for that peer's row, the wait for the
  copy's read share, and, after all 31 peers, the closing of the device's 64 own cells.

  Each step is stated for the k-th peer of a device in the order of the walk: what is still held for peers k … 30 is a
  chain that gives up peer k's entry, what has been gathered from peers 0 … k-1 takes one more entry.
-/
import proofs.«900562_g7700000000000563_dist_max_ax0_shard0_i_m1024_n512_v7x_i32_f32_1_alg».proof.Proof.Data
import Idealize.ShloMosaic.Lib.Pipeline.Value

noncomputable section

namespace Cert.KernelIdeal.Proto

open Cert.KernelIdeal Cert.KernelIdeal.Gen Cert.KernelIdeal.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)
variable (K : Dev nD × CellIx → ℕ)

/-! ## Out of the records -/

/-- A cell's invariant, out of the records. -/
private theorem rec_inv (ck : Dev nD × CellIx) : records m K ⊢ cellInv ER (sched m) (K ck) (kcell ck) := by
  unfold records
  exact (BI.sep_and.trans BI.and_elimL).trans
    (bigSep_elim (Φ := fun ck : Dev nD × CellIx => cellInv ER (sched m) (K ck) (kcell ck)) (Finset.mem_univ ck))

/-- That a cell has reached round 0, out of the records. -/
private theorem rec_reached (ck : Dev nD × CellIx) : records m K ⊢ reached ER (kcell ck) 0 := by
  unfold records
  exact (BI.sep_and.trans BI.and_elimR).trans
    (bigSep_elim (Φ := fun ck : Dev nD × CellIx => reached ER (kcell ck) 0) (Finset.mem_univ ck))

/-- What is owed to the receive cells of peers k … 30 is what is owed to those of peers k+1 … 30 and peer k's. -/
private theorem oRecv_peel (c : Dev nD) (k : ℕ) (hk : k < 31) :
    oRecv c (31 - k) = oRecv c (30 - k) + tallyAt (recvCell (peer c ⟨k, hk⟩) c) () N := by
  have h : 31 - k = (30 - k) + 1 := by omega
  rw [h, oRecv_succ]
  have e : (⟨30 - (30 - k), by omega⟩ : Fin 31) = ⟨k, hk⟩ := Fin.ext (by show 30 - (30 - k) = k; omega)
  rw [e]

/-! ## The copy -/

/-- What a copy of row `c` lands on a peer's row `c` is, on that row, row `c` of the complete array: the copy
    reads the row off the complete array and writes every element of the row. -/
private theorem landed_row (c n : Dev nD) (fd : Buf (Elt F) ((rowM c).view.loc (n : Thread nD τ))) :
    ∀ i ∈ (rowM c).view.set,
      (rowM c).view.write (Elt F) fd ((rowM c).view.read (Elt F) (RED m)) Finset.univ i = RED m i := by
  intro i hi
  obtain ⟨y, rfl⟩ := View.exists_emb_of_mem_set _ hi
  rw [View.write_emb_of_mem _ _ (Finset.mem_univ y), View.read_apply, cast_cast, cast_eq]

/-- The copy rule at the cells of one copy: device `c` copies its row `c` into row `c` of `n`'s scratch, paying duty `n`
    of its own send cell for `n` and duty `c` of `n`'s receive cell `c`. -/
private theorem wp_send_row (c : Dev nD) (k : ℕ) (hk : k < 31) (n : Dev nD) (hn : n = peer c ⟨k, hk⟩)
    {hsc : ((rowM c : Memref sig (Dev.tc n : Thread nD τ).2.kind .vmem S1x1x512 .f32)).view.ref.isScScratch = false}
    {hsrc : (rowM c).view.WordExact} {hdst : (rowM c).view.WordExact}
    {hsem : DmaTarget.Typed .vmem (.dma (recvSem c)) (.remote (Dev.tc n : Thread nD τ) (rowM c) (.dma (sendSem n)) hsc)}
    {α : Type} {Q : α → sProp 𝕄} {kont : PUnit → Prog (TpuEff nD τ sig (Elt F) Λ₀ .tc) α} {W : Waits sig Unit}
    (fd : Buf (Elt F) ((rowM c).view.loc (n : Thread nD τ))) (O : CellTallies nD τ sig Unit) :
    iprop(cellInv ER (sched m) (K (c, some (false, n))) (sendCell c n) ∗ cellInv ER (sched m) (K (n, some (true, c))) (recvCell n c)
        ∗ rowPts c c (shareTok fullShare 31 ⟨k, hk⟩) (RED m) ∗ rowPts n c fullShare fd
        ∗ owes (c : Thread nD τ) (O + tallyAt (recvCell n c) () N) W
        ∗ dutyTok ER (sendCell c n) 0 n ∗ reached ER (sendCell c n) 0
        ∗ dutyTok ER (recvCell n c) 0 c ∗ reached ER (recvCell n c) 0)
      ⊢ iprop(((cred (tallyAt (sendCell c n) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM c) (.remote (Dev.tc n : Thread nD τ) (rowM c) (.dma (sendSem n)) hsc) (.dma (recvSem c)) hsrc hdst hsem) kont) Q) := by
  subst hn
  have hne : peer c ⟨k, hk⟩ ≠ c := peer_ne c ⟨k, hk⟩
  unfold rowPts
  exact Rounds.wp_send_pointsTo 𝒱₀ ER (sched m) (c : Thread nD τ) none
    (c' := (peer c ⟨k, hk⟩ : Thread nD τ)) (src := rowM c) (dst := rowM c)
    (q := shareTok fullShare 31 ⟨k, hk⟩) (fs := RED m) (fd := fd)
    (κ₁ := K (c, some (false, peer c ⟨k, hk⟩))) (κ₂ := K (peer c ⟨k, hk⟩, some (true, c)))
    (r₁ := 0) (r₂ := 0) (d₁ := peer c ⟨k, hk⟩) (d₂ := c)
    (by rw [duties_send m c _ hne]; exact Finset.mem_singleton_self _)
    (by rw [duties_recv m _ c hne.symm]; exact Finset.mem_singleton_self _)
    () () N rfl (amount_send m c _ _) (amount_recv m _ c _) O rfl (W := W)
    (by rw [payload_send]; unfold sendPay rowPts; rw [offOf_peer])
    (by rw [payload_recv]; unfold recvPay rowPts
        exact Entails.of_eq (pointsTo_congr (landed_row m c (peer c ⟨k, hk⟩) fd)))

/-- The copy to the k-th peer `n`: the device gives up, for that peer, the credit it owed the peer's receive cell, its
    two duty tokens, the share of its own row that the copy reads and the peer's row `c` it was handed, and gathers the
    credit the copy puts on its send cell for `n`. -/
theorem step_send (c : Dev nD) (k : ℕ) (hk : k < 31) (n : Dev nD) (hn : n = peer c ⟨k, hk⟩)
    {hsc : ((rowM c : Memref sig (Dev.tc n : Thread nD τ).2.kind .vmem S1x1x512 .f32)).view.ref.isScScratch = false}
    {hsrc : (rowM c).view.WordExact} {hdst : (rowM c).view.WordExact}
    {hsem : DmaTarget.Typed .vmem (.dma (recvSem c)) (.remote (Dev.tc n : Thread nD τ) (rowM c) (.dma (sendSem n)) hsc)}
    {α : Type} {Q : α → sProp 𝕄} {kont : PUnit → Prog (TpuEff nD τ sig (Elt F) Λ₀ .tc) α} {W : Waits sig Unit} :
    iprop(records m K ∗ owes (c : Thread nD τ) (oRecv c (31 - k)) W ∗ rcvToks c (31 - k) ∗ sndToks c (31 - k) ∗ srcShares m c (31 - k) ∗ dsts (F := F) c (31 - k) ∗ sndCreds c k)
      ⊢ iprop(((owes (c : Thread nD τ) (oRecv c (30 - k)) W ∗ rcvToks c (30 - k) ∗ sndToks c (30 - k) ∗ srcShares m c (30 - k) ∗ dsts (F := F) c (30 - k) ∗ sndCreds c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM c) (.remote (Dev.tc n : Thread nD τ) (rowM c) (.dma (sendSem n)) hsc) (.dma (recvSem c)) hsrc hdst hsem) kont) Q) := by
  subst hn
  rw [oRecv_peel c k hk]
  unfold rcvToks sndToks srcShares dsts sndCreds
  rw [chain_peel _ k hk, chain_peel _ k hk, chain_peel _ k hk, chain_peel _ k hk, upto_succ]
  iintro ⟨#Hrec, HO, ⟨HrT, Htr⟩, ⟨HsT, Hts⟩, ⟨Hsrc, Hs⟩, ⟨Hdst, ⟨%fd, Hd⟩⟩, Hcr⟩ Hk
  ihave #HIs := (rec_inv m K (c, some (false, peer c ⟨k, hk⟩))) $$ Hrec
  ihave #HRs := (rec_reached m K (c, some (false, peer c ⟨k, hk⟩))) $$ Hrec
  ihave #HIr := (rec_inv m K (peer c ⟨k, hk⟩, some (true, c))) $$ Hrec
  ihave #HRr := (rec_reached m K (peer c ⟨k, hk⟩, some (true, c))) $$ Hrec
  iapply (wp_send_row m K c k hk _ rfl fd (oRecv c (30 - k))) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact HRs
    isplitl [Htr]; · iexact Htr
    iexact HRr
  iintro ⟨Hc, HO⟩
  iapply Hk
  isplitl [HO]; · iexact HO
  isplitl [HrT]; · iexact HrT
  isplitl [HsT]; · iexact HsT
  isplitl [Hsrc]; · iexact Hsrc
  isplitl [Hdst]; · iexact Hdst
  isplitl [Hcr]; · iexact Hcr
  iexact Hc

/-! ## The two waits -/

/-- The credit the device's 31 copies put on its send cells, as a chain that gives up peer `k`'s first. -/
def sndCredsC (c : Dev nD) : ℕ → sProp 𝕄 := chain fun d => cred (tallyAt (sendCell c (peer c d)) () N)

/-- The wait on its receive cell for the k-th peer `n`, owing nothing: the row's credit and its position on the cell go
    in; the cell is past its one round, and row `n` of its scratch holds row `n` of the complete array. -/
theorem step_recv_wait (c : Dev nD) (k : ℕ) (hk : k < 31) (n : Dev nD) (hn : n = peer c ⟨k, hk⟩)
    {w : TpuEff nD τ sig (Elt F) Λ₀ .tc PUnit} {k' : ℕ}
    (hw : ∀ Kt : PUnit → sProp 𝕄, wpE (defs₀ (F := F)) 𝒱₀ (c : Thread nD τ) none Set.univ w Kt
      = waitSpec (c : Thread nD τ) Set.univ (.dma (recvSem n)) k' Kt) (hk' : k' = N)
    {α : Type} {Q : α → sProp 𝕄} {kont : PUnit → Prog (TpuEff nD τ sig (Elt F) Λ₀ .tc) α} {W : Waits sig Unit} :
    iprop(records m K ∗ owes (c : Thread nD τ) 0 W ∗ rcvCreds c (31 - k) ∗ rcvPos c (31 - k) ∗ gotRows m c k ∗ rcvDone c k)
      ⊢ iprop(((owes (c : Thread nD τ) 0 (insert (SemLoc.dma (recvSem n), ()) W) ∗ rcvCreds c (30 - k) ∗ rcvPos c (30 - k) ∗ gotRows m c (k + 1) ∗ rcvDone c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn; subst hk'
  have hne : peer c ⟨k, hk⟩ ≠ c := peer_ne c ⟨k, hk⟩
  unfold rcvCreds rcvPos gotRows rcvDone
  rw [chain_peel _ k hk, chain_peel _ k hk, upto_succ, upto_succ]
  iintro ⟨#Hrec, HO, ⟨Hcr, Hc⟩, ⟨Hps, Hp⟩, Hg, Hd⟩ Hk
  ihave #HI := (rec_inv m K (c, some (true, peer c ⟨k, hk⟩))) $$ Hrec
  iapply (Rounds.wp_wait_rest_token 𝒱₀ ER (sched m) (c : Thread nD τ) none (κ := K (c, some (true, peer c ⟨k, hk⟩)))
      hw (Set.mem_univ _) () (O := 0) (W := W) (R := 0) (m := 0) (T := ∅)
      (by rw [Nat.zero_add, expect_recv m c _ hne])) $$ [Hc HO Hp]
  · isplitr; · iexact HI
    isplitl [Hc]; · iexact Hc
    isplitl [HO]; · iexact HO
    isplitr; · rw [MayWait_zero]; iempintro
    iexact Hp
  iintro ⟨HO, Hat, -, Hpay⟩
  ihave Hrow := (Entails.of_eq (rest_recv m c _ hne)) $$ Hpay
  unfold recvPay
  iapply Hk
  isplitl [HO]; · iexact HO
  isplitl [Hcr]; · iexact Hcr
  isplitl [Hps]; · iexact Hps
  isplitl [Hg Hrow]
  · isplitl [Hg]; · iexact Hg
    iexact Hrow
  isplitl [Hd]; · iexact Hd
  iexact Hat

/-- The wait on its send cell for the k-th peer `n`, owing nothing: the credit its copy to `n` put there and its
    position on the cell go in; the cell is past its one round, and the share of its own row that copy read is back. -/
theorem step_send_wait (c : Dev nD) (k : ℕ) (hk : k < 31) (n : Dev nD) (hn : n = peer c ⟨k, hk⟩)
    {w : TpuEff nD τ sig (Elt F) Λ₀ .tc PUnit} {k' : ℕ}
    (hw : ∀ Kt : PUnit → sProp 𝕄, wpE (defs₀ (F := F)) 𝒱₀ (c : Thread nD τ) none Set.univ w Kt
      = waitSpec (c : Thread nD τ) Set.univ (.dma (sendSem n)) k' Kt) (hk' : k' = N)
    {α : Type} {Q : α → sProp 𝕄} {kont : PUnit → Prog (TpuEff nD τ sig (Elt F) Λ₀ .tc) α} {W : Waits sig Unit} :
    iprop(records m K ∗ owes (c : Thread nD τ) 0 W ∗ sndCredsC (F := F) c (31 - k) ∗ sndPos c (31 - k) ∗ gotShares m c k ∗ sndDone c k)
      ⊢ iprop(((owes (c : Thread nD τ) 0 (insert (SemLoc.dma (sendSem n), ()) W) ∗ sndCredsC (F := F) c (30 - k) ∗ sndPos c (30 - k) ∗ gotShares m c (k + 1) ∗ sndDone c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn; subst hk'
  have hne : peer c ⟨k, hk⟩ ≠ c := peer_ne c ⟨k, hk⟩
  unfold sndCredsC sndPos gotShares sndDone
  rw [chain_peel _ k hk, chain_peel _ k hk, upto_succ, upto_succ]
  iintro ⟨#Hrec, HO, ⟨Hcr, Hc⟩, ⟨Hps, Hp⟩, Hg, Hd⟩ Hk
  ihave #HI := (rec_inv m K (c, some (false, peer c ⟨k, hk⟩))) $$ Hrec
  iapply (Rounds.wp_wait_rest_token 𝒱₀ ER (sched m) (c : Thread nD τ) none (κ := K (c, some (false, peer c ⟨k, hk⟩)))
      hw (Set.mem_univ _) () (O := 0) (W := W) (R := 0) (m := 0) (T := ∅)
      (by rw [Nat.zero_add, expect_send m c _ hne])) $$ [Hc HO Hp]
  · isplitr; · iexact HI
    isplitl [Hc]; · iexact Hc
    isplitl [HO]; · iexact HO
    isplitr; · rw [MayWait_zero]; iempintro
    iexact Hp
  iintro ⟨HO, Hat, -, Hpay⟩
  ihave Hrow := (Entails.of_eq ((rest_send m c _ hne).trans (by unfold sendPay; rw [offOf_peer]))) $$ Hpay
  iapply Hk
  isplitl [HO]; · iexact HO
  isplitl [Hcr]; · iexact Hcr
  isplitl [Hps]; · iexact Hps
  isplitl [Hg Hrow]
  · isplitl [Hg]; · iexact Hg
    iexact Hrow
  isplitl [Hd]; · iexact Hd
  iexact Hat

/-! ## The two waits, the wait named as the program spells it -/

/-- The invariants of a receive cell and of a send cell, out of the records. -/
private theorem rec_inv_recv (c p : Dev nD) : records m K ⊢ cellInv ER (sched m) (K (c, some (true, p))) (recvCell c p) :=
  rec_inv m K (c, some (true, p))
private theorem rec_inv_send (c p : Dev nD) : records m K ⊢ cellInv ER (sched m) (K (c, some (false, p))) (sendCell c p) :=
  rec_inv m K (c, some (false, p))

/-- The tables of a receive cell and of a send cell for a peer, with the payload spelt as the row it is. -/
private theorem payload_recv_row (c p d : Dev nD) : (sched (F := F) m).payload (recvCell c p) 0 d
    = ((rowM p).view.loc (c : Thread nD τ) ↦[(rowM p).view.set]{fullShare} RED m) := payload_recv m c p d
private theorem duties_recv_peer (c : Dev nD) (d : Fin 31) : (sched (F := F) m).duties (recvCell c (peer c d)) 0 = {peer c d} :=
  duties_recv m c _ (peer_ne c d)
private theorem expect_recv_peer (c : Dev nD) (d : Fin 31) : (sched (F := F) m).expect (recvCell c (peer c d)) 0 = N :=
  expect_recv m c _ (peer_ne c d)
private theorem payload_send_row (c : Dev nD) (e : Fin 31) (d : Dev nD) : (sched (F := F) m).payload (sendCell c (peer c e)) 0 d
    = ((rowM c).view.loc (c : Thread nD τ) ↦[(rowM c).view.set]{Transfers.shareTokN fullShare e.val} RED m) := by
  rw [payload_send]; unfold sendPay rowPts; rw [offOf_peer]
private theorem duties_send_peer (c : Dev nD) (d : Fin 31) : (sched (F := F) m).duties (sendCell c (peer c d)) 0 = {peer c d} :=
  duties_send m c _ (peer_ne c d)
private theorem expect_send_peer (c : Dev nD) (d : Fin 31) : (sched (F := F) m).expect (sendCell c (peer c d)) 0 = N :=
  expect_send m c _ (peer_ne c d)

attribute [local sl_rounds] payload_recv_row duties_recv_peer expect_recv_peer amount_recv
  payload_send_row duties_send_peer expect_send_peer amount_send

/-- `step_recv_wait` with the wait named: the wait on receive semaphore `n` for the credit of row `n` of the scratch. -/
theorem step_recv_wait_dma (c : Dev nD) (k : ℕ) (hk : k < 31) (n : Dev nD) (hn : n = peer c ⟨k, hk⟩)
    {hs : (rowM n).view.WordExact} {hd : (rowM n).view.WordExact}
    {α : Type} {Q : α → sProp 𝕄} {kont : PUnit → Prog (TpuEff nD τ sig (Elt F) Λ₀ .tc) α} {W : Waits sig Unit} :
    iprop(records m K ∗ owes (c : Thread nD τ) 0 W ∗ rcvCreds c (31 - k) ∗ rcvPos c (31 - k) ∗ gotRows m c k ∗ rcvDone c k)
      ⊢ iprop(((owes (c : Thread nD τ) 0 (insert (SemLoc.dma (recvSem n), ()) W) ∗ rcvCreds c (30 - k) ∗ rcvPos c (30 - k) ∗ gotRows m c (k + 1) ∗ rcvDone c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvSem n) (rowM n) (rowM n) hs hd) kont) Q) := by
  subst hn
  unfold rcvCreds rcvPos gotRows rcvDone rowPts
  rw [chain_peel _ k hk, chain_peel _ k hk, upto_succ, upto_succ]
  iintro ⟨#Hrec, HO, ⟨Hcr, Hc⟩, ⟨Hps, Hp⟩, Hg, Hd⟩ Hk
  ihave #HI := (rec_inv_recv m K c (peer c ⟨k, hk⟩)) $$ Hrec
  sl_exec
  iclear Hp_reached
  iapply Hk
  isplitl [HO]; · iexact HO
  isplitl [Hcr]; · iexact Hcr
  isplitl [Hps]; · iexact Hps
  isplitl [Hg Hp_pay1]
  · isplitl [Hg]; · iexact Hg
    iexact Hp_pay1
  isplitl [Hd]; · iexact Hd
  iexact Hp

/-- `step_send_wait` with the wait named: the wait on send semaphore `n` for the credit of the device's own row. -/
theorem step_send_wait_dma (c : Dev nD) (k : ℕ) (hk : k < 31) (n : Dev nD) (hn : n = peer c ⟨k, hk⟩)
    {hs : (rowM c).view.WordExact} {hd : (rowM c).view.WordExact}
    {α : Type} {Q : α → sProp 𝕄} {kont : PUnit → Prog (TpuEff nD τ sig (Elt F) Λ₀ .tc) α} {W : Waits sig Unit} :
    iprop(records m K ∗ owes (c : Thread nD τ) 0 W ∗ sndCredsC (F := F) c (31 - k) ∗ sndPos c (31 - k) ∗ gotShares m c k ∗ sndDone c k)
      ⊢ iprop(((owes (c : Thread nD τ) 0 (insert (SemLoc.dma (sendSem n), ()) W) ∗ sndCredsC (F := F) c (30 - k) ∗ sndPos c (30 - k) ∗ gotShares m c (k + 1) ∗ sndDone c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendSem n) (rowM c) (rowM c) hs hd) kont) Q) := by
  subst hn
  unfold sndCredsC sndPos gotShares sndDone rowPts
  rw [chain_peel _ k hk, chain_peel _ k hk, upto_succ, upto_succ]
  iintro ⟨#Hrec, HO, ⟨Hcr, Hc⟩, ⟨Hps, Hp⟩, Hg, Hd⟩ Hk
  ihave #HI := (rec_inv_send m K c (peer c ⟨k, hk⟩)) $$ Hrec
  sl_exec
  iclear Hp_reached
  iapply Hk
  isplitl [HO]; · iexact HO
  isplitl [Hcr]; · iexact Hcr
  isplitl [Hps]; · iexact Hps
  isplitl [Hg Hp_pay1]
  · isplitl [Hg]; · iexact Hg
    iexact Hp_pay1
  isplitl [Hd]; · iexact Hd
  iexact Hp

/-! ## Closing the own cells -/

/-- One cell closes: its owner, at a round from which no round has a duty, nothing taken or consumed of it, takes the
    cell's counter out at zero. -/
private theorem close_cell (ck : Dev nD × CellIx) (R : ℕ)
    (hR : ∀ r, R ≤ r → (sched (F := F) m).duties (kcell ck) r = ∅) :
    iprop(records m K ∗ atPos ER (kcell ck) R ∅ 0) ⊢ iprop(|={Set.univ}=> semVal (kcell ck) 0) := by
  iintro ⟨#Hrec, Hat⟩
  ihave #HI := (rec_inv m K ck) $$ Hrec
  iapply (Rounds.cell_close ER (sched m) (Set.mem_univ (K ck)) (fun h => h) (R := R) hR)
  isplitr; · iexact HI
  iexact Hat

private theorem close_send (c p : Dev nD) (R : ℕ) (hR : ∀ r, R ≤ r → (sched (F := F) m).duties (sendCell c p) r = ∅) :
    iprop(records m K ∗ atPos ER (sendCell c p) R ∅ 0) ⊢ iprop(|={Set.univ}=> semVal (sendCell c p) 0) :=
  close_cell m K (c, some (false, p)) R hR

private theorem close_recv (c p : Dev nD) (R : ℕ) (hR : ∀ r, R ≤ r → (sched (F := F) m).duties (recvCell c p) r = ∅) :
    iprop(records m K ∗ atPos ER (recvCell c p) R ∅ 0) ⊢ iprop(|={Set.univ}=> semVal (recvCell c p) 0) :=
  close_cell m K (c, some (true, p)) R hR

omit [FloatOps F] in
/-- What holds entry by entry under an update, given a persistent fact, holds of what was gathered from the first `j` peers. -/
private theorem upto_fupd (P : sProp 𝕄) [BI.Persistent P] (Φ Ψ : ℕ → sProp 𝕄)
    (h : ∀ k, iprop(P ∗ Φ k) ⊢ iprop(|={Set.univ}=> Ψ k)) :
    ∀ j, iprop(P ∗ upto Φ j) ⊢ iprop(|={Set.univ}=> upto Ψ j)
  | 0 => by
    iintro ⟨-, -⟩
    imodintro
    unfold upto
    iempintro
  | j + 1 => by
    rw [upto_succ, upto_succ]
    iintro ⟨#HP, Hu, Hk⟩
    imod (upto_fupd P Φ Ψ h j) $$ [Hu] with Hu'
    · isplitr; · iexact HP
      iexact Hu
    imod (h j) $$ [Hk] with Hk'
    · isplitr; · iexact HP
      iexact Hk
    imodintro
    isplitl [Hu']; · iexact Hu'
    iexact Hk'

/-- After the last wait the device closes its 64 own cells: the two it never used, at round 0 where they have no duty,
    and the 62 for its peers, each past its one round. Their counters, at zero, are the device's again. -/
theorem step_close (c : Dev nD) :
    iprop(records m K ∗ atPos ER (sendCell c c) 0 ∅ 0 ∗ atPos ER (recvCell c c) 0 ∅ 0 ∗ sndDone c 31 ∗ rcvDone c 31)
      ⊢ |={Set.univ}=> iprop(semVal (sendCell c c) 0 ∗ semVal (recvCell c c) 0
          ∗ upto (fun k => semVal (sendCell c (peerN c k)) 0) 31 ∗ upto (fun k => semVal (recvCell c (peerN c k)) 0) 31) := by
  have hS : ∀ r, 0 ≤ r → (sched (F := F) m).duties (sendCell c c) r = ∅ := fun r _ => by
    rcases Nat.eq_zero_or_pos r with rfl | h
    · exact duties_send_self m c
    · exact duties_later m _ r h
  have hR : ∀ r, 0 ≤ r → (sched (F := F) m).duties (recvCell c c) r = ∅ := fun r _ => by
    rcases Nat.eq_zero_or_pos r with rfl | h
    · exact duties_recv_self m c
    · exact duties_later m _ r h
  unfold sndDone rcvDone
  iintro ⟨#Hrec, HaS, HaR, HdS, HdR⟩
  imod (close_send m K c c 0 hS) $$ [HaS] with HzS
  · isplitr; · iexact Hrec
    iexact HaS
  imod (close_recv m K c c 0 hR) $$ [HaR] with HzR
  · isplitr; · iexact Hrec
    iexact HaR
  imod (upto_fupd (records m K) (fun k => atPos ER (sendCell c (peerN c k)) 1 ∅ 0) (fun k => semVal (sendCell c (peerN c k)) 0)
      (fun k => close_send m K c (peerN c k) 1 (duties_later m _)) 31) $$ [HdS] with HzSs
  · isplitr; · iexact Hrec
    iexact HdS
  imod (upto_fupd (records m K) (fun k => atPos ER (recvCell c (peerN c k)) 1 ∅ 0) (fun k => semVal (recvCell c (peerN c k)) 0)
      (fun k => close_recv m K c (peerN c k) 1 (duties_later m _)) 31) $$ [HdR] with HzRs
  · isplitr; · iexact Hrec
    iexact HdR
  imodintro
  isplitl [HzS]; · iexact HzS
  isplitl [HzR]; · iexact HzR
  isplitl [HzSs]; · iexact HzSs
  iexact HzRs

/-- info: 'Cert.KernelIdeal.Proto.step_send' depends on axioms: [propext, Classical.choice, Quot.sound] -/
#guard_msgs in #print axioms step_send

/-- info: 'Cert.KernelIdeal.Proto.step_recv_wait' depends on axioms: [propext, Classical.choice, Quot.sound] -/
#guard_msgs in #print axioms step_recv_wait

/-- info: 'Cert.KernelIdeal.Proto.step_send_wait' depends on axioms: [propext, Classical.choice, Quot.sound] -/
#guard_msgs in #print axioms step_send_wait

/-- info: 'Cert.KernelIdeal.Proto.step_recv_wait_dma' depends on axioms: [propext, Classical.choice, Quot.sound] -/
#guard_msgs in #print axioms step_recv_wait_dma

/-- info: 'Cert.KernelIdeal.Proto.step_send_wait_dma' depends on axioms: [propext, Classical.choice, Quot.sound] -/
#guard_msgs in #print axioms step_send_wait_dma

/-- info: 'Cert.KernelIdeal.Proto.step_close' depends on axioms: [propext, Classical.choice, Quot.sound] -/
#guard_msgs in #print axioms step_close

end Cert.KernelIdeal.Proto

end
-- ==== Proof.StepsW.lean ====
/-
  The four peer steps once more, stated for ANY spelling of the peer, the rows and the semaphores that equals the protocol's:
  the operation's device, source, destination and semaphores are variables, each with an equation. Nothing new is proved
  here; a step applies to the body's text as it stands once those equations are supplied.
-/
import proofs.«900562_g7700000000000563_dist_max_ax0_shard0_i_m1024_n512_v7x_i32_f32_1_alg».proof.Proof.StepsA
import proofs.«900562_g7700000000000563_dist_max_ax0_shard0_i_m1024_n512_v7x_i32_f32_1_alg».proof.Proof.StepsB

noncomputable section

namespace Cert.KernelIdeal.Proto

open Cert.KernelIdeal Cert.KernelIdeal.Gen Cert.KernelIdeal.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CellIx → ℕ)

/-- The copy to peer `k`, whatever the spelling of its source and destination rows and of its two semaphores. -/
theorem step_send_at (c : Dev nD) (k : ℕ) (hk : k < 31) (n : Dev nD) (hn : n = peer c ⟨k, hk⟩)
    (src : Memref sig .tc .vmem S1x1x512 .f32) (hs : src = rowM c)
    (dst : Memref sig (Dev.tc n : Thread nD τ).2.kind .vmem S1x1x512 .f32) (hd : dst = rowM c)
    (sS sR : DmaSem sig) (hS : sS = sendSem (peer c ⟨k, hk⟩)) (hR : sR = recvSem c)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {kont : PUnit → Prog (TpuEff nD τ sig (Elt F) Λ₀ .tc) α} {W : Waits sig Unit} :
    iprop(records m K ∗ owes (c : Thread nD τ) (oRecv c (31 - k)) W ∗ rcvToks c (31 - k) ∗ sndToks c (31 - k) ∗ srcShares m c (31 - k) ∗ dsts (F := F) c (31 - k) ∗ sndCreds c k)
      ⊢ iprop(((owes (c : Thread nD τ) (oRecv c (30 - k)) W ∗ rcvToks c (30 - k) ∗ sndToks c (30 - k) ∗ srcShares m c (30 - k) ∗ dsts (F := F) c (30 - k) ∗ sndCreds c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kont) Q) := by
  subst hn
  subst hs
  subst hd
  subst hS
  subst hR
  exact step_send m K c k hk _ rfl

/-- The wait for peer `k`'s copy, whatever the spelling of its semaphore and rows. -/
theorem step_recv_wait_at (c : Dev nD) (k : ℕ) (hk : k < 31)
    (sR : DmaSem sig) (hR : sR = recvSem (peer c ⟨k, hk⟩))
    (src dst : Memref sig .tc .vmem S1x1x512 .f32) (hs : src = rowM (peer c ⟨k, hk⟩)) (hd : dst = rowM (peer c ⟨k, hk⟩))
    {hsE : src.view.WordExact} {hdE : dst.view.WordExact}
    {α : Type} {Q : α → sProp 𝕄} {kont : PUnit → Prog (TpuEff nD τ sig (Elt F) Λ₀ .tc) α} {W : Waits sig Unit} :
    iprop(records m K ∗ owes (c : Thread nD τ) 0 W ∗ rcvCreds c (31 - k) ∗ rcvPos c (31 - k) ∗ gotRows m c k ∗ rcvDone c k)
      ⊢ iprop(((owes (c : Thread nD τ) 0 (insert (SemLoc.dma (recvSem (peer c ⟨k, hk⟩)), ()) W) ∗ rcvCreds c (30 - k) ∗ rcvPos c (30 - k) ∗ gotRows m c (k + 1) ∗ rcvDone c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 sR src dst hsE hdE) kont) Q) := by
  subst hR
  subst hs
  subst hd
  exact step_recv_wait_dma m K c k hk _ rfl

/-- The wait for its own copy to peer `k` to have left, whatever the spelling of its semaphore and rows. -/
theorem step_send_wait_at (c : Dev nD) (k : ℕ) (hk : k < 31)
    (sS : DmaSem sig) (hS : sS = sendSem (peer c ⟨k, hk⟩))
    (src dst : Memref sig .tc .vmem S1x1x512 .f32) (hs : src = rowM c) (hd : dst = rowM c)
    {hsE : src.view.WordExact} {hdE : dst.view.WordExact}
    {α : Type} {Q : α → sProp 𝕄} {kont : PUnit → Prog (TpuEff nD τ sig (Elt F) Λ₀ .tc) α} {W : Waits sig Unit} :
    iprop(records m K ∗ owes (c : Thread nD τ) 0 W ∗ sndCredsC (F := F) c (31 - k) ∗ sndPos c (31 - k) ∗ gotShares m c k ∗ sndDone c k)
      ⊢ iprop(((owes (c : Thread nD τ) 0 (insert (SemLoc.dma (sendSem (peer c ⟨k, hk⟩)), ()) W) ∗ sndCredsC (F := F) c (30 - k) ∗ sndPos c (30 - k) ∗ gotShares m c (k + 1) ∗ sndDone c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 sS src dst hsE hdE) kont) Q) := by
  subst hS
  subst hs
  subst hd
  exact step_send_wait_dma m K c k hk _ rfl

end Cert.KernelIdeal.Proto

end
-- ==== Proof.Local.lean ====
/-
  The two local stretches of one device's body.

  The first: the device loads its staged block, loads row c of its scratch, and stores the column-wise maximum of the
  block into that row. The row's points-to sees only the row's index set, and there the stored contents are the complete
  array's: row c of the complete array is the column-wise maximum of block c.
  The second: it loads the whole scratch, holding the complete array, and stores the maximum over its 32 rows as its result.
-/
import proofs.«900562_g7700000000000563_dist_max_ax0_shard0_i_m1024_n512_v7x_i32_f32_1_alg».proof.Proof.Data
import proofs.«900562_g7700000000000563_dist_max_ax0_shard0_i_m1024_n512_v7x_i32_f32_1_alg».proof.Proof.Gen.KernelIdeal.Skeleton
import Idealize.ShloMosaic.Lib.Pipeline.Value

noncomputable section

namespace Cert.KernelIdeal.Proto

open Cert.KernelIdeal Cert.KernelIdeal.Gen Cert.KernelIdeal.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

namespace Local

theorem hz2 : (![0, 0] : Fin 2 → Nat) = fun _ => 0 := funext fun a => by fin_cases a <;> rfl
theorem hz3 : (![0, 0, 0] : Fin 3 → Nat) = fun _ => 0 := funext fun a => by fin_cases a <;> rfl

/-- Row c of the scratch, as an index of the scratch: its first coordinate is c, -/
theorem emb_row0 (c : Dev nD) (y : S1x1x512.Idx) : ((rowRect c).emb y) 0 = c := by
  apply Fin.ext
  have h : (((rowRect c).emb y) 0 : Nat) = rowOff c 0 + 1 * (y 0 : Nat) := Rect.emb_apply (rowRect c) y 0
  have hy : (y 0 : Nat) < 1 := (y 0).isLt
  rw [h]
  show c.val + 1 * (y 0 : Nat) = c.val
  omega

/-- and its column the row's own. -/
theorem emb_row2 (c : Dev nD) (y : S1x1x512.Idx) : colIdx (((rowRect c).emb y) 2) = y := by
  have h0 : (0 : Fin 1) = y 0 := Fin.ext (by have hy : (y 0 : Nat) < 1 := (y 0).isLt; show 0 = (y 0 : Nat); omega)
  have h1 : (0 : Fin 1) = y 1 := Fin.ext (by have hy : (y 1 : Nat) < 1 := (y 1).isLt; show 0 = (y 1 : Nat); omega)
  have h2 : ((rowRect c).emb y) 2 = y 2 := Fin.ext (by
    have h : (((rowRect c).emb y) 2 : Nat) = rowOff c 2 + 1 * (y 2 : Nat) := Rect.emb_apply (rowRect c) y 2
    rw [h]
    show 0 + 1 * (y 2 : Nat) = (y 2 : Nat)
    omega)
  unfold colIdx
  rw [h2]
  exact (congrArg (fun a => ValueIdx.ix3 a (0 : Fin 1) (y 2)) h0).trans
    ((congrArg (fun b => ValueIdx.ix3 (y 0) b (y 2)) h1).trans (ValueIdx.eq_ix3 y).symm)

/-- Row c of the complete array is the column-wise maximum of block c. -/
theorem RED_row (c : Dev nD) (y : S1x1x512.Idx) : RED m ((rowRect c).emb y) = k0_pay2 (xblk m c) y := by
  unfold RED rows
  rw [emb_row0, emb_row2]

set_option maxRecDepth 16384 in
/-- On row c's index set, the scratch with the column-wise maximum of block c stored into row c holds the complete array. -/
theorem stored_eq (c : Dev nD) (f : Buf (Elt F) ((c : Thread nD τ).loc cc0_scratch0)) :
    ∀ i ∈ (scrM.access (rowRect c) : View sig .tc _ _ _).set,
      (scrM.access (rowRect c) : View sig .tc _ _ _).write (Elt F) f (k0_pay2 (xblk m c)) Finset.univ i = RED m i := by
  intro i hi
  obtain ⟨y, hy⟩ := View.exists_emb_of_mem_set (scrM.access (rowRect c) : View sig .tc _ _ _) hi
  subst hy
  rw [View.write_emb_of_mem _ _ (Finset.mem_univ y)]
  have e : (scrM.access (rowRect c) : View sig .tc _ _ _).emb y = (rowRect c).emb y := rfl
  rw [e, RED_row]
  exact cast_eq _ _

/-- A load of the whole staged block reads its contents; -/
theorem read_x {hin0 : ∀ a, (![0, 0] : Fin 2 → Nat) a + S1024x512.size a ≤ S1024x512.size a} (f : (cc0_stg0_0 : Ref sig .tc).ty.Contents (Elt F)) :
    (Memref.whole cc0_stg0_0 : Memref sig .tc .vmem S1024x512 .f32).view.readAt (Elt F) (Rect.unit (s := S1024x512) ![0, 0] S1024x512.size hin0).toLoadRect f = f :=
  Memref.readAt_unit_zero (Elt F) cc0_stg0_0 hz2 _ f
/-- a load of the whole scratch its contents; -/
theorem read_scr {hin0 : ∀ a, (![0, 0, 0] : Fin 3 → Nat) a + S32x1x512.size a ≤ S32x1x512.size a} (f : (cc0_scratch0 : Ref sig .tc).ty.Contents (Elt F)) :
    (scrM : Memref sig .tc .vmem S32x1x512 .f32).view.readAt (Elt F) (Rect.unit (s := S32x1x512) ![0, 0, 0] S32x1x512.size hin0).toLoadRect f = f :=
  Memref.readAt_unit_zero (Elt F) cc0_scratch0 hz3 _ f
/-- a store over the whole result buffer leaves what is stored. -/
theorem write_out {hin1 : ∀ a, (![0, 0] : Fin 2 → Nat) a + S1x512.size a ≤ S1x512.size a} (f w : (cc0_stg1_0 : Ref sig .tc).ty.Contents (Elt F)) :
    ((Memref.whole cc0_stg1_0 : Memref sig .tc .vmem S1x512 .f32).access (Rect.unit (s := S1x512) ![0, 0] S1x512.size hin1) : View sig .tc _ _ _).write (Elt F) f w Finset.univ = w :=
  Memref.write_access_unit_zero_univ (Elt F) cc0_stg1_0 hz2 _ f w

end Local

/-- The first local stretch at any spelling of row c's offsets. -/
theorem step_compute_at (c : Dev nD) (f : Buf (Elt F) ((c : Thread nD τ).loc cc0_scratch0)) (off : Fin 3 → Nat) (hoff : off = rowOff c)
    {hin0 : ∀ a, (![0, 0] : Fin 2 → Nat) a + S1024x512.size a ≤ S1024x512.size a}
    {hin1 : ∀ a, off a + S1x1x512.size a ≤ S32x1x512.size a}
    {h1 : (Memref.whole cc0_stg0_0 : Memref sig .tc .vmem S1024x512 .f32).view.LoadsAt (Rect.unit (s := S1024x512) ![0, 0] S1024x512.size hin0).toLoadRect}
    {h2 : (Memref.whole cc0_scratch0 : Memref sig .tc .vmem S32x1x512 .f32).view.LoadsAt (Rect.unit (s := S32x1x512) off S1x1x512.size hin1).toLoadRect}
    {h3 : ((Memref.whole cc0_scratch0 : Memref sig .tc .vmem S32x1x512 .f32).access (Rect.unit (s := S32x1x512) off S1x1x512.size hin1)).Stores Finset.univ}
    {h4 : (Finset.univ : Finset (Rect.unit (s := S32x1x512) off S1x1x512.size hin1).shape.Idx) = Finset.univ ∨ ∀ a, (Rect.unit (s := S32x1x512) off S1x1x512.size hin1).stride a = 1}
    {α : Type} {Q : α → sProp 𝕄} {kont : PUnit → Prog (TpuEff nD τ sig (Elt F) Λ₀ .tc) α} :
    iprop((((c : Thread nD τ).loc cc0_stg0_0) ↦{fullShare} xblk m c) ∗ rowPts c c fullShare f)
      ⊢ iprop((((((c : Thread nD τ).loc cc0_stg0_0) ↦{fullShare} xblk m c) ∗ rowPts c c fullShare (RED m)) -∗ wp frame (wpE (defs₀ (F := F)) 𝒱₀ (c : Thread nD τ) none) Set.univ (kont ⟨⟩) Q)
          -∗ wp frame (wpE (defs₀ (F := F)) 𝒱₀ (c : Thread nD τ) none) Set.univ
              (Prog.op (TpuEff.load (Memref.whole cc0_stg0_0) (Rect.unit (s := S1024x512) ![0, 0] S1024x512.size hin0).toLoadRect h1) fun v128 =>
               Prog.op (TpuEff.load (Memref.whole cc0_scratch0) (Rect.unit (s := S32x1x512) off S1x1x512.size hin1).toLoadRect h2) fun v134 =>
               Prog.op (TpuEff.store (Memref.whole cc0_scratch0) (Rect.unit (s := S32x1x512) off S1x1x512.size hin1) (k0_pay2 v128) Finset.univ h3 h4) kont) Q) := by
  subst hoff
  unfold rowPts
  iintro ⟨Hx, Hrow⟩ Hk
  iapply (wp_load 𝒱₀ (c : Thread nD τ) none Set.univ (m := (Memref.whole cc0_stg0_0 : Memref sig .tc .vmem S1024x512 .f32)) (Finset.subset_univ _)) $$ Hx; iintro Hx
  rw [Local.read_x]
  iapply (wp_load_rect 𝒱₀ (c : Thread nD τ) none Set.univ (m := scrM) (r := rowRect c) (Finset.Subset.refl _)) $$ Hrow; iintro Hrow
  iapply (wp_store 𝒱₀ (c : Thread nD τ) none Set.univ (m := scrM) (r := rowRect c) (Mk := Finset.univ) (S := (scrM.access (rowRect c) : View sig .tc _ _ _).set) (Finset.Subset.refl _)) $$ Hrow; iintro Hrow
  iapply Hk
  isplitl [Hx]; · iexact Hx
  iapply (Entails.of_eq (pointsTo_congr (Local.stored_eq m c f)))
  iexact Hrow

/-- The first local stretch as the skeleton prints it: the device's block loaded, row c of the scratch loaded, the block's
    column-wise maximum stored into row c, which then holds row c of the complete array. -/
theorem step_compute (c : Dev nD) (f : Buf (Elt F) ((c : Thread nD τ).loc cc0_scratch0))
    {hin0 : ∀ a, (![0, 0] : Fin 2 → Nat) a + S1024x512.size a ≤ S1024x512.size a}
    {hin1 : ∀ a, k0_off1 c a + S1x1x512.size a ≤ S32x1x512.size a}
    {h1 : (Memref.whole cc0_stg0_0 : Memref sig .tc .vmem S1024x512 .f32).view.LoadsAt (Rect.unit (s := S1024x512) ![0, 0] S1024x512.size hin0).toLoadRect}
    {h2 : (Memref.whole cc0_scratch0 : Memref sig .tc .vmem S32x1x512 .f32).view.LoadsAt (Rect.unit (s := S32x1x512) (k0_off1 c) S1x1x512.size hin1).toLoadRect}
    {h3 : ((Memref.whole cc0_scratch0 : Memref sig .tc .vmem S32x1x512 .f32).access (Rect.unit (s := S32x1x512) (k0_off1 c) S1x1x512.size hin1)).Stores Finset.univ}
    {h4 : (Finset.univ : Finset (Rect.unit (s := S32x1x512) (k0_off1 c) S1x1x512.size hin1).shape.Idx) = Finset.univ ∨ ∀ a, (Rect.unit (s := S32x1x512) (k0_off1 c) S1x1x512.size hin1).stride a = 1}
    {α : Type} {Q : α → sProp 𝕄} {kont : PUnit → Prog (TpuEff nD τ sig (Elt F) Λ₀ .tc) α} :
    iprop((((c : Thread nD τ).loc cc0_stg0_0) ↦{fullShare} xblk m c) ∗ rowPts c c fullShare f)
      ⊢ iprop((((((c : Thread nD τ).loc cc0_stg0_0) ↦{fullShare} xblk m c) ∗ rowPts c c fullShare (RED m)) -∗ wp frame (wpE (defs₀ (F := F)) 𝒱₀ (c : Thread nD τ) none) Set.univ (kont ⟨⟩) Q)
          -∗ wp frame (wpE (defs₀ (F := F)) 𝒱₀ (c : Thread nD τ) none) Set.univ
              (Prog.op (TpuEff.load (Memref.whole cc0_stg0_0) (Rect.unit (s := S1024x512) ![0, 0] S1024x512.size hin0).toLoadRect h1) fun v128 =>
               Prog.op (TpuEff.load (Memref.whole cc0_scratch0) (Rect.unit (s := S32x1x512) (k0_off1 c) S1x1x512.size hin1).toLoadRect h2) fun v134 =>
               Prog.op (TpuEff.store (Memref.whole cc0_scratch0) (Rect.unit (s := S32x1x512) (k0_off1 c) S1x1x512.size hin1) (k0_pay2 v128) Finset.univ h3 h4) kont) Q) :=
  step_compute_at m c f (k0_off1 c) (k0_off1_eq c)

/-- The second local stretch as the skeleton prints it: the whole scratch loaded, holding the complete array; the result
    buffer loaded; the maximum over the 32 rows stored as the result. -/
theorem step_final (c : Dev nD) (g : Buf (Elt F) ((c : Thread nD τ).loc cc0_stg1_0))
    {hin0 : ∀ a, (![0, 0, 0] : Fin 3 → Nat) a + S32x1x512.size a ≤ S32x1x512.size a}
    {hin1 : ∀ a, (![0, 0] : Fin 2 → Nat) a + S1x512.size a ≤ S1x512.size a}
    {h1 : (Memref.whole cc0_scratch0 : Memref sig .tc .vmem S32x1x512 .f32).view.LoadsAt (Rect.unit (s := S32x1x512) ![0, 0, 0] S32x1x512.size hin0).toLoadRect}
    {h2 : (Memref.whole cc0_stg1_0 : Memref sig .tc .vmem S1x512 .f32).view.LoadsAt (Rect.unit (s := S1x512) ![0, 0] S1x512.size hin1).toLoadRect}
    {h3 : ((Memref.whole cc0_stg1_0 : Memref sig .tc .vmem S1x512 .f32).access (Rect.unit (s := S1x512) ![0, 0] S1x512.size hin1)).Stores Finset.univ}
    {h4 : (Finset.univ : Finset (Rect.unit (s := S1x512) ![0, 0] S1x512.size hin1).shape.Idx) = Finset.univ ∨ ∀ a, (Rect.unit (s := S1x512) ![0, 0] S1x512.size hin1).stride a = 1}
    {α : Type} {Q : α → sProp 𝕄} {kont : PUnit → Prog (TpuEff nD τ sig (Elt F) Λ₀ .tc) α} :
    iprop((((c : Thread nD τ).loc cc0_scratch0) ↦{fullShare} RED m) ∗ (((c : Thread nD τ).loc cc0_stg1_0) ↦{fullShare} g))
      ⊢ iprop((((((c : Thread nD τ).loc cc0_scratch0) ↦{fullShare} RED m) ∗ (((c : Thread nD τ).loc cc0_stg1_0) ↦{fullShare} OUT m)) -∗ wp frame (wpE (defs₀ (F := F)) 𝒱₀ (c : Thread nD τ) none) Set.univ (kont ⟨⟩) Q)
          -∗ wp frame (wpE (defs₀ (F := F)) 𝒱₀ (c : Thread nD τ) none) Set.univ
              (Prog.op (TpuEff.load (Memref.whole cc0_scratch0) (Rect.unit (s := S32x1x512) ![0, 0, 0] S32x1x512.size hin0).toLoadRect h1) fun v695 =>
               Prog.op (TpuEff.load (Memref.whole cc0_stg1_0) (Rect.unit (s := S1x512) ![0, 0] S1x512.size hin1).toLoadRect h2) fun v697 =>
               Prog.op (TpuEff.store (Memref.whole cc0_stg1_0) (Rect.unit (s := S1x512) ![0, 0] S1x512.size hin1) (k0_pay1 v695) Finset.univ h3 h4) kont) Q) := by
  iintro ⟨Hs, Ho⟩ Hk
  iapply (wp_load 𝒱₀ (c : Thread nD τ) none Set.univ (m := scrM) (Finset.subset_univ _)) $$ Hs; iintro Hs
  rw [Local.read_scr]
  iapply (wp_load 𝒱₀ (c : Thread nD τ) none Set.univ (m := (Memref.whole cc0_stg1_0 : Memref sig .tc .vmem S1x512 .f32)) (Finset.subset_univ _)) $$ Ho; iintro Ho
  iapply (wp_store 𝒱₀ (c : Thread nD τ) none Set.univ (m := (Memref.whole cc0_stg1_0 : Memref sig .tc .vmem S1x512 .f32))
      (r := Rect.unit (s := S1x512) ![0, 0] S1x512.size hin1) (Mk := Finset.univ) (Finset.subset_univ _)) $$ Ho; iintro Ho
  rw [Local.write_out]
  iapply Hk
  isplitl [Hs]; · iexact Hs
  iexact Ho

/-- info: 'Cert.KernelIdeal.Proto.step_compute' depends on axioms: [propext, Classical.choice, Quot.sound] -/
#guard_msgs in #print axioms step_compute

/-- info: 'Cert.KernelIdeal.Proto.step_final' depends on axioms: [propext, Classical.choice, Quot.sound] -/
#guard_msgs in #print axioms step_final

end Cert.KernelIdeal.Proto

end
-- ==== Proof.Body.lean ====
/-
  One device's body, from what the launch hands it to what it hands back.

  The device walks its 31 peers in order four times — a signal to each, a copy to each, a wait for each one's copy, a wait
  for each of its own copies to have left — with its own row computed before the barrier wait and the maximum over all
  rows taken at the end. Each of the four peer steps is one lemma, applied at the literal peer numbers 0 … 30.
-/
import proofs.«900562_g7700000000000563_dist_max_ax0_shard0_i_m1024_n512_v7x_i32_f32_1_alg».proof.Proof.Data
import proofs.«900562_g7700000000000563_dist_max_ax0_shard0_i_m1024_n512_v7x_i32_f32_1_alg».proof.Proof.Gen.KernelIdeal.Points
import proofs.«900562_g7700000000000563_dist_max_ax0_shard0_i_m1024_n512_v7x_i32_f32_1_alg».proof.Proof.Owes
import proofs.«900562_g7700000000000563_dist_max_ax0_shard0_i_m1024_n512_v7x_i32_f32_1_alg».proof.Proof.Canon
import proofs.«900562_g7700000000000563_dist_max_ax0_shard0_i_m1024_n512_v7x_i32_f32_1_alg».proof.Proof.Regroup2
import proofs.«900562_g7700000000000563_dist_max_ax0_shard0_i_m1024_n512_v7x_i32_f32_1_alg».proof.Proof.StepsW
import proofs.«900562_g7700000000000563_dist_max_ax0_shard0_i_m1024_n512_v7x_i32_f32_1_alg».proof.Proof.Local

noncomputable section

namespace Cert.KernelIdeal.Proto

open Cert.KernelIdeal Cert.KernelIdeal.Gen Cert.KernelIdeal.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the pipeline writes back for the result window is the maximum over the 32 rows. -/
theorem after_out (c : Dev nD) : (dats m 0 c).after (1 : Fin 2) t₀ = OUT m := by
  unfold dats; generalize OUT m = o; rfl

omit [FloatOps F] in
/-- A chain is monotone in its entries. -/
theorem chain_mono {Φ Ψ : Fin 31 → sProp 𝕄} (h : ∀ d, Φ d ⊢ Ψ d) : ∀ j, chain Φ j ⊢ chain Ψ j
  | 0 => BI.Entails.refl _
  | j + 1 => BI.sep_mono (chain_mono h j) (h _)

set_option hygiene false in
/-- The device a printed chain names is the peer it should be: from the chain's generated closed form. -/
macro "dev_eq%" e:ident : term => `(Fin.ext (($e _).trans (by simp only [peer])))

set_option hygiene false in
/-- The `k`-th signal: its unit on peer `k`'s barrier cell, with row `peer c k` of the scratch handed over. -/
macro "sig_step" k:num e:ident : tactic => `(tactic| (
  iapply (step_signal m K c $k (by decide) _ ($e c) (by decide)) $$ [HO Hsig Hsl]
  · isplitr; · iexact Hrec
    isplitl [HO]; · iexact HO
    isplitl [Hsig]; · iexact Hsig
    iexact Hsl
  iintro ⟨HO, Hsig, Hsl⟩))

set_option hygiene false in
/-- Opening the next part of the body's text. -/
macro "open_part" p:ident s:ident : tactic => `(tactic| (
  rw [$p:ident]; unfold $s:ident
  simp only [semSignalWord, semWaitWord, Prog.lift, Prog.bind_op, Prog.bind_ret, Prog.pure_eq_ret]))

set_option hygiene false in
/-- The `k`-th copy: row `c` (one share of it) to row `c` of peer `k`'s scratch. -/
macro "snd_step" k:num dv:ident : tactic => `(tactic| (
  iapply (step_send_at m K c $k (by decide) _ ($dv c) _ (row_off4 c _) _ (row_off4 c _) _ _ (sendSem_off2 c ($k : Fin 31) _) (recvSem_off3 c _)) $$ [HO Hrcv Hsnd Hsh Hds Hcs]
  · isplitr; · iexact Hrec
    isplitl [HO]; · iexact HO
    isplitl [Hrcv]; · iexact Hrcv
    isplitl [Hsnd]; · iexact Hsnd
    isplitl [Hsh]; · iexact Hsh
    isplitl [Hds]; · iexact Hds
    iexact Hcs
  iintro ⟨HO, Hrcv, Hsnd, Hsh, Hds, Hcs⟩))

set_option hygiene false in
/-- The wait for peer `k`'s copy: row `peer c k` of the scratch comes with it. -/
macro "rcv_wait" k:num : tactic => `(tactic| (
  iapply (step_recv_wait_at m K c $k (by decide) _ (recvSem_off2 c ($k : Fin 31) _) _ _ (row_off5 c ($k : Fin 31) _) (row_off5 c ($k : Fin 31) _)) $$ [HO Hcr HrP Hgr Hrd]
  · isplitr; · iexact Hrec
    isplitl [HO]; · iexact HO
    isplitl [Hcr]; · iexact Hcr
    isplitl [HrP]; · iexact HrP
    isplitl [Hgr]; · iexact Hgr
    iexact Hrd
  iintro ⟨HO, Hcr, HrP, Hgr, Hrd⟩))

set_option hygiene false in
/-- The wait for its own `k`-th copy to have left: that copy's share of row `c` comes back. -/
macro "snd_wait" k:num : tactic => `(tactic| (
  iapply (step_send_wait_at m K c $k (by decide) _ (sendSem_off2 c ($k : Fin 31) _) _ _ (row_off4 c _) (row_off4 c _)) $$ [HO HcsC HsP Hgs Hsd]
  · isplitr; · iexact Hrec
    isplitl [HO]; · iexact HO
    isplitl [HcsC]; · iexact HcsC
    isplitl [HsP]; · iexact HsP
    isplitl [Hgs]; · iexact Hgs
    iexact Hsd
  iintro ⟨HO, HcsC, HsP, Hgs, Hsd⟩))

set_option maxRecDepth 16000 in
set_option maxHeartbeats 3200000 in
theorem body_obligation (c : Dev nD) : BodyObligation (dats (F := F) m 0 c) (defs₀ (F := F)) 𝒱₀ () Set.univ := fun t => by
  rw [fin_N t]
  rw [bigSep_W, bigSep_W]
  simp only [owns_whole_eq]
  have hprog : defs₀ (F := F) Proc.tc 0 (t₀, cfg0.slots t₀) = cc0_body_skel (F := F) (Memref.whole cc0_stg0_0) (Memref.isWhole_whole _) (Memref.whole cc0_stg1_0) (Memref.isWhole_whole _)
      (Memref.whole cc0_scratch0) (Memref.isWhole_whole _) cc0_scratch1 cc0_scratch2 := rfl
  rw [hprog]
  rw [show (dats m 0 c).Φ t₀.castSucc = Φ₀ m c from rfl, show (dats m 0 c).Φ t₀.succ = Φ₁ m c from rfl]
  unfold Φ₀ start ghost linear
  iintro ⟨⟨⟨⟨%K, #Hrec, Hpos, Hsig, Hrcv, Hsnd⟩, Hcb, Hcr, #Hlev⟩, ⟨%f0, Hscr⟩⟩, Ho, ⟨%d0, %g0, %hg0, Hx⟩, ⟨%d1, %g1, %hg1, Hout⟩⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = oSig c 31 from rfl]
  -- the scratch by rows: row `c` stays, the other 31 go with the signals
  ihave Hrows := ((scr_rows c fullShare f0).1) $$ Hscr
  icases Hrows with ⟨Hrow, Hsl0⟩
  ihave Hsl := (show chain (fun d => rowPts (F := F) c (peer c d) fullShare f0) 31 ⊢ slots (F := F) c 31 from
    chain_mono (fun d => by iintro H; iexists f0; iexact H) 31) $$ Hsl0
  unfold cc0_body_skel
  rw [k0_part1_eq_skeleton]; unfold k0_part1_skel
  simp only [Prog.lift, Prog.bind_op, Prog.bind_ret, Prog.pure_eq_ret, wp_deviceId]
  rw [k0_part2_eq_skeleton]; unfold k0_part2_skel
  simp only [Prog.lift, Prog.bind_op, Prog.bind_ret, Prog.pure_eq_ret]
  rw [k0_part3_eq_skeleton]; unfold k0_part3_skel
  simp only [semSignalWord, Prog.lift, Prog.bind_op, Prog.bind_ret, Prog.pure_eq_ret]
  sig_step 0 dev1
  sig_step 1 dev2
  sig_step 2 dev3
  sig_step 3 dev4
  sig_step 4 dev5
  sig_step 5 dev6
  sig_step 6 dev7
  sig_step 7 dev8
  open_part k0_part4_eq_skeleton k0_part4_skel
  sig_step 8 dev9
  sig_step 9 dev10
  sig_step 10 dev11
  sig_step 11 dev12
  sig_step 12 dev13
  sig_step 13 dev14
  sig_step 14 dev15
  sig_step 15 dev16
  sig_step 16 dev17
  sig_step 17 dev18
  open_part k0_part5_eq_skeleton k0_part5_skel
  sig_step 18 dev19
  sig_step 19 dev20
  sig_step 20 dev21
  sig_step 21 dev22
  sig_step 22 dev23
  sig_step 23 dev24
  sig_step 24 dev25
  sig_step 25 dev26
  sig_step 26 dev27
  sig_step 27 dev28
  open_part k0_part6_eq_skeleton k0_part6_skel
  sig_step 28 dev29
  sig_step 29 dev30
  sig_step 30 dev31
  -- its own row: the column-wise maximum of its block, stored into row `c`
  ihave Hp := ((positions_iff c).1) $$ Hpos
  icases Hp with ⟨Hbar, Hsself, Hrself, HsP, HrP⟩
  iapply (step_compute m c f0) $$ [Hx Hrow]
  · isplitl [Hx]; · iexact Hx
    iexact Hrow
  iintro ⟨Hx, Hrow⟩
  -- the wait for all 31 peers' signals: row `c` of every peer's scratch comes with them
  iapply (step_barrier_wait_sem m K c (k' := (31#32).toNat) (by decide) (mayWait_bar c)) $$ [Hcb HO Hbar]
  · isplitr; · iexact Hrec
    isplitr; · iexact Hlev
    isplitl [Hcb]; · iexact Hcb
    isplitl [HO]; · iexact HO
    iexact Hbar
  iintro ⟨HO, Hbar, Hds⟩
  -- row `c` in the 31 shares its 31 copies read, and what is left of it
  unfold rowPts
  ihave Hsp := (Transfers.pointsTo_toks_split fullShare 31) $$ Hrow
  icases Hsp with ⟨Hrem, Hshb⟩
  ihave Hsh := (show bigSep Finset.univ (fun i : Fin 31 => ((rowM c).view.loc (c : Thread nD τ) ↦[(rowM c).view.set]{Transfers.shareTok fullShare 31 i} RED m : sProp 𝕄)) ⊢ srcShares m c 31 from
    (chain_iff_bigSep _).2) $$ Hshb
  ihave Hcs := (show (emp : sProp 𝕄) ⊢ sndCreds c 0 from BI.Entails.refl _) $$ []
  · iempintro
  snd_step 0 dev32
  open_part k0_part7_eq_skeleton k0_part7_skel
  snd_step 1 dev33
  snd_step 2 dev34
  snd_step 3 dev35
  snd_step 4 dev36
  open_part k0_part8_eq_skeleton k0_part8_skel
  snd_step 5 dev37
  snd_step 6 dev38
  snd_step 7 dev39
  snd_step 8 dev40
  open_part k0_part9_eq_skeleton k0_part9_skel
  snd_step 9 dev41
  snd_step 10 dev42
  snd_step 11 dev43
  snd_step 12 dev44
  open_part k0_part10_eq_skeleton k0_part10_skel
  snd_step 13 dev45
  snd_step 14 dev46
  snd_step 15 dev47
  snd_step 16 dev48
  open_part k0_part11_eq_skeleton k0_part11_skel
  snd_step 17 dev49
  snd_step 18 dev50
  snd_step 19 dev51
  snd_step 20 dev52
  open_part k0_part12_eq_skeleton k0_part12_skel
  snd_step 21 dev53
  snd_step 22 dev54
  snd_step 23 dev55
  snd_step 24 dev56
  open_part k0_part13_eq_skeleton k0_part13_skel
  snd_step 25 dev57
  snd_step 26 dev58
  snd_step 27 dev59
  snd_step 28 dev60
  open_part k0_part14_eq_skeleton k0_part14_skel
  snd_step 29 dev61
  snd_step 30 dev62
  -- every copy is on its way: it owes nothing more; the credit its copies left on its send cells, by peer
  ihave HcsC := (show sndCreds c 31 ⊢ sndCredsC (F := F) c 31 from (upto_iff_chain _).1) $$ Hcs
  ihave Hgr := (show (emp : sProp 𝕄) ⊢ gotRows m c 0 from BI.Entails.refl _) $$ []
  · iempintro
  ihave Hrd := (show (emp : sProp 𝕄) ⊢ rcvDone (F := F) c 0 from BI.Entails.refl _) $$ []
  · iempintro
  ihave Hgs := (show (emp : sProp 𝕄) ⊢ gotShares m c 0 from BI.Entails.refl _) $$ []
  · iempintro
  ihave Hsd := (show (emp : sProp 𝕄) ⊢ sndDone (F := F) c 0 from BI.Entails.refl _) $$ []
  · iempintro
  rcv_wait 0
  rcv_wait 1
  rcv_wait 2
  open_part k0_part15_eq_skeleton k0_part15_skel
  rcv_wait 3
  rcv_wait 4
  rcv_wait 5
  rcv_wait 6
  open_part k0_part16_eq_skeleton k0_part16_skel
  rcv_wait 7
  rcv_wait 8
  rcv_wait 9
  rcv_wait 10
  rcv_wait 11
  open_part k0_part17_eq_skeleton k0_part17_skel
  rcv_wait 12
  rcv_wait 13
  rcv_wait 14
  rcv_wait 15
  open_part k0_part18_eq_skeleton k0_part18_skel
  rcv_wait 16
  rcv_wait 17
  rcv_wait 18
  rcv_wait 19
  rcv_wait 20
  open_part k0_part19_eq_skeleton k0_part19_skel
  rcv_wait 21
  rcv_wait 22
  rcv_wait 23
  rcv_wait 24
  rcv_wait 25
  open_part k0_part20_eq_skeleton k0_part20_skel
  rcv_wait 26
  rcv_wait 27
  rcv_wait 28
  rcv_wait 29
  open_part k0_part21_eq_skeleton k0_part21_skel
  rcv_wait 30
  snd_wait 0
  snd_wait 1
  snd_wait 2
  snd_wait 3
  snd_wait 4
  open_part k0_part22_eq_skeleton k0_part22_skel
  snd_wait 5
  snd_wait 6
  snd_wait 7
  snd_wait 8
  snd_wait 9
  snd_wait 10
  open_part k0_part23_eq_skeleton k0_part23_skel
  snd_wait 11
  snd_wait 12
  snd_wait 13
  snd_wait 14
  snd_wait 15
  snd_wait 16
  open_part k0_part24_eq_skeleton k0_part24_skel
  snd_wait 17
  snd_wait 18
  snd_wait 19
  snd_wait 20
  snd_wait 21
  snd_wait 22
  open_part k0_part25_eq_skeleton k0_part25_skel
  snd_wait 23
  snd_wait 24
  snd_wait 25
  snd_wait 26
  snd_wait 27
  snd_wait 28
  snd_wait 29
  snd_wait 30
  -- row `c` whole again from its 31 shares and what was left; then the scratch whole from its 32 rows, all holding the complete array
  ihave Hshb := (show gotShares m c 31 ⊢ bigSep Finset.univ (fun i : Fin 31 => ((rowM c).view.loc (c : Thread nD τ) ↦[(rowM c).view.set]{Transfers.shareTok fullShare 31 i} RED m : sProp 𝕄)) from
    ((upto_iff_chain _).1).trans (chain_iff_bigSep _).1) $$ Hgs
  ihave Hrow := (show iprop((((rowM c).view.loc (c : Thread nD τ) ↦[(rowM c).view.set]{Transfers.shareDrop fullShare 31} RED m : sProp 𝕄)) ∗ bigSep Finset.univ (fun i : Fin 31 => ((rowM c).view.loc (c : Thread nD τ) ↦[(rowM c).view.set]{Transfers.shareTok fullShare 31 i} RED m : sProp 𝕄))) ⊢ rowPts c c fullShare (RED m) from
    Transfers.pointsTo_toks_join fullShare 31) $$ [Hrem Hshb]
  · isplitl [Hrem]; · iexact Hrem
    iexact Hshb
  ihave Hrs := (show gotRows m c 31 ⊢ chain (fun d => rowPts c (peer c d) fullShare (RED m)) 31 from (upto_iff_chain _).1) $$ Hgr
  ihave Hscr := ((scr_rows c fullShare (RED m)).2) $$ [Hrow Hrs]
  · isplitl [Hrow]; · iexact Hrow
    iexact Hrs
  -- the result: the maximum over the 32 rows
  iapply (step_final m c g1) $$ [Hscr Hout]
  · isplitl [Hscr]; · iexact Hscr
    iexact Hout
  iintro ⟨Hscr, Hout⟩
  -- its 64 own cells close: their counters at zero are the core's again
  imod (step_close m K c) $$ [Hsself Hrself Hsd Hrd] with Hz
  · isplitr; · iexact Hrec
    isplitl [Hsself]; · iexact Hsself
    isplitl [Hrself]; · iexact Hrself
    isplitl [Hsd]; · iexact Hsd
    iexact Hrd
  ihave Hown := (ownSems0_of_cells (F := F) c) $$ Hz
  rw [wp_ret]; imodintro
  unfold Φ₁
  rw [show (dats m 0 c).owed t₀.succ = 0 from rfl]
  isplitl [Hscr Hown]
  · isplitl [Hscr]; · iexact Hscr
    iexact Hown
  isplitl [HO]
  · iexists _
    isplitr
    rotate_left
    · iexact HO
    · ipureintro; exact fun _ _ => Or.inl trivial
  isplitl [Hx]
  · iexists _; isplitr; · (ipureintro; rfl)
    iexact Hx
  iexists (OUT m); isplitr; · (ipureintro; exact (after_out m c).symm)
  iexact Hout

/-- info: 'Cert.KernelIdeal.Proto.body_obligation' depends on axioms: [propext, Classical.choice, Quot.sound] -/
#guard_msgs in #print axioms body_obligation

end Cert.KernelIdeal.Proto

end
-- ==== Proof.LaunchK.lean ====
/-
  The launch of the all-to-all maximum on 32 devices.

  From the launch element — every one of the 32 × 65 cells of the protocol in its launch state, and one token per duty —
  to what each device's body starts from: the cells' invariants allocated under one update for all devices (the barrier
  semaphore is the runtime's, so its counter at zero arrives with the unscoped semaphores; the 64 send and receive
  semaphores are the kernel's own), each cell's position with its owner, and each duty's token with the device that PAYS
  the duty. A token minted on device p's barrier cell, or on its receive cell c, for the duty named c, goes to device c;
  the tokens on a device's send cells stay with it. Device c then holds, peer by peer, the chains its body consumes.
  The run follows from the body obligation, the levels under the staging waits and the launch credit, all three taken as
  hypotheses here.
-/
import proofs.«900562_g7700000000000563_dist_max_ax0_shard0_i_m1024_n512_v7x_i32_f32_1_alg».proof.Proof.Data

noncomputable section

namespace Cert.KernelIdeal.Proto

open Cert.KernelIdeal Cert.KernelIdeal.Gen Cert.KernelIdeal.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace LaunchK

/-! ## An iterated conjunction over an optional index -/

theorem bigSep_univ_option {M : Type} [URA M] {α : Type} [Fintype α] (Φ : Option α → sProp M) :
    bigSep Finset.univ Φ = iprop(Φ none ∗ bigSep Finset.univ fun a => Φ (some a)) := by
  rw [bigSep_univ_equiv (Equiv.optionEquivSumPUnit.{0, 0} α).symm Φ, bigSep_univ_sum, bigSep_univ_of_subsingleton PUnit.unit]
  exact BI.Entails.antisymm BI.sep_comm BI.sep_comm

instance sched_payload_storable (g : GSem nD τ sig) (r : ℕ) (d : Dev nD) :
    BI.Storable (upEmb : UEmb _ 𝕄) ((sched (F := F) m).payload g r d) := by
  dsimp only [sched]
  unfold barPay recvPay sendPay rowPts
  (repeat' split) <;> infer_instance

theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The launch element: the cells and the duty tokens -/

def ringCells : Finset (GSem nD τ sig) := Finset.univ.map ⟨kcell, kcell_injective⟩

/-- Which of a device's cells a token of duty p belongs to, by kind: its barrier cell, its send cell p, its receive cell p. -/
def tokIx (p : Dev nD) : Fin 3 → CellIx
  | 0 => none
  | 1 => some (false, p)
  | 2 => some (true, p)

/-- The tokens minted: per device c and duty name p, one on the barrier cell of c, one on its send cell p, one on its receive cell p. -/
abbrev tokOf (x : Dev nD × Dev nD × Fin 3) : GSem nD τ sig × ℕ × Dev nD := (kcell (x.1, tokIx x.2.1 x.2.2), 0, x.2.1)

theorem tokOf_injective : Function.Injective tokOf := by
  rintro ⟨c, p, j⟩ ⟨c', p', j'⟩ h
  have hp : p = p' := congrArg (fun x : GSem nD τ sig × ℕ × Dev nD => x.2.2) h
  subst hp
  have hk := kcell_injective (congrArg (fun x : GSem nD τ sig × ℕ × Dev nD => x.1) h)
  have hc : c = c' := congrArg Prod.fst hk
  subst hc
  have hj : tokIx p j = tokIx p j' := congrArg Prod.snd hk
  have : j = j' := by
    fin_cases j <;> fin_cases j' <;> first | rfl | (simp [tokIx] at hj)
  subst this; rfl

def ringToks : Finset (GSem nD τ sig × ℕ × Dev nD) := Finset.univ.map ⟨tokOf, tokOf_injective⟩

/-- The duty tokens of the cells of device c. -/
def toks (c : Dev nD) : sProp 𝕄 :=
  bigSep Finset.univ fun p : Dev nD => iprop(dutyTok ER (barCell c) 0 p ∗ dutyTok ER (sendCell c p) 0 p ∗ dutyTok ER (recvCell c p) 0 p)

/-- What the launch element deals device c. -/
def G (c : Dev nD) : sProp 𝕄 :=
  iprop((bigSep Finset.univ fun k : CellIx => roundState ER (sched m) (kcell (c, k)) 0)
    ∗ (bigSep Finset.univ fun k : CellIx => iprop(atPos ER (kcell (c, k)) 0 ∅ 0 ∗ reached ER (kcell (c, k)) 0)) ∗ toks c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_univ_prod]
      exact bigSep_congr fun p _ => by rw [bigSep_fin3]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, per cell -/

/-- The 64 own semaphores, by kind and peer: send semaphore p is number p, receive semaphore p number 32 + p. -/
def semIx : Bool × Dev nD ≃ Fin 64 where
  toFun k := ⟨(if k.1 then 32 else 0) + k.2.val, by have hp : k.2.val < 32 := k.2.isLt; split <;> omega⟩
  invFun i := (decide (32 ≤ i.val), ⟨i.val % 32, Nat.mod_lt _ (by decide)⟩)
  left_inv := by
    rintro ⟨b, p⟩
    have hp : p.val < 32 := p.isLt
    cases b
    · refine Prod.ext ?_ (Fin.ext ?_)
      · show decide (32 ≤ 0 + p.val) = false
        exact decide_eq_false (by omega)
      · show (0 + p.val) % 32 = p.val
        omega
    · refine Prod.ext ?_ (Fin.ext ?_)
      · show decide (32 ≤ 32 + p.val) = true
        exact decide_eq_true (by omega)
      · show (32 + p.val) % 32 = p.val
        omega
  right_inv := by
    intro i
    have hi : i.val < 64 := i.isLt
    apply Fin.ext
    show (if decide (32 ≤ i.val) = true then 32 else 0) + i.val % 32 = i.val
    by_cases h : 32 ≤ i.val
    · rw [if_pos (decide_eq_true h)]; omega
    · rw [if_neg (by rw [decide_eq_false h]; exact Bool.false_ne_true)]; omega

theorem osem_semIx (k : Bool × Dev nD) : osem (semIx k) = csem (some k) := by
  rcases k with ⟨b, p⟩
  cases b
  · show SemLoc.dma _ = SemLoc.dma (sendSem p)
    refine congrArg SemLoc.dma (Fin.ext ?_)
    show 2 + (0 + p.val) = 2 + p.val
    omega
  · show SemLoc.dma _ = SemLoc.dma (recvSem p)
    refine congrArg SemLoc.dma (Fin.ext ?_)
    show 2 + (32 + p.val) = 34 + p.val
    omega

theorem ownSems0_eq (c : Dev nD) : (Pipeline.ownSems0 (Ix := Unit) (Name := ℕ) (U := UU) (Lvl := ℕ) (Val := Elt F) (τ := τ) osem c : sProp 𝕄)
    = bigSep Finset.univ fun k : Bool × Dev nD => semVal (kcell (c, some k)) 0 := by
  unfold Pipeline.ownSems0
  rw [bigSep_univ_equiv semIx]
  exact bigSep_congr fun k _ => by rw [osem_semIx]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_univ_option]
  exact BI.sep_comm

theorem stage_sem_lt : ∀ (w : Fin 2) (s : Fin (spec0 w).nbuf), ((spec0 w).sem s).val < 2 := by decide

theorem ownSemFacts : Pipeline.OwnSemFacts cfg0.spec osem where
  isScoped := by decide
  inj := fun i j h => Fin.ext (by
    have h' : 2 + i.val = 2 + j.val := congrArg Fin.val (SemLoc.dma.inj h)
    omega)
  disj := fun k w s h => by
    have h' : 2 + k.val = ((spec0 w).sem s).val := congrArg Fin.val (SemLoc.dma.inj h)
    have := stage_sem_lt w s
    omega

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (sched m) κ (kcell (c, k))))
          ∗ (bigSep Finset.univ fun k : CellIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (sched m) (kcell (c, k)) 0)
      ⊢ (|={Set.univ}=> bigSep Finset.univ fun k : CellIx => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## From a conjunction over the peers to a chain -/

theorem chain_of_bigSep (Φ : Fin 31 → sProp 𝕄) : bigSep Finset.univ Φ ⊢ chain Φ 31 := by
  have h : ∀ j, j ≤ 31 → bigSep (Finset.univ.filter fun d : Fin 31 => 31 - j ≤ d.val) Φ ⊢ chain Φ j := by
    intro j
    induction j with
    | zero =>
      intro _
      have hs : (Finset.univ.filter fun d : Fin 31 => 31 - 0 ≤ d.val) = ∅ :=
        Finset.filter_false_of_mem fun d _ => by have := d.isLt; omega
      rw [hs, bigSep_empty]
      exact BI.Entails.refl _
    | succ j ih =>
      intro hj
      have hs : (Finset.univ.filter fun d : Fin 31 => 31 - (j + 1) ≤ d.val)
          = insert (⟨30 - j, by omega⟩ : Fin 31) (Finset.univ.filter fun d : Fin 31 => 31 - j ≤ d.val) := by
        ext d
        simp only [Finset.mem_filter, Finset.mem_univ, true_and, Finset.mem_insert, Fin.ext_iff]
        omega
      have hn : (⟨30 - j, by omega⟩ : Fin 31) ∉ Finset.univ.filter fun d : Fin 31 => 31 - j ≤ d.val := by
        simp only [Finset.mem_filter, Finset.mem_univ, true_and]
        omega
      rw [hs, bigSep_insert hn, chain_succ]
      exact BI.sep_comm.trans (BI.sep_mono (ih (by omega)) (BI.Entails.refl _))
  have hu : (Finset.univ.filter fun d : Fin 31 => 31 - 31 ≤ d.val) = Finset.univ :=
    Finset.filter_true_of_mem fun d _ => by omega
  have := h 31 le_rfl
  rwa [hu] at this

/-- The peers of a device are the other devices. -/
theorem peers_eq (c : Dev nD) : (Finset.univ : Finset (Fin 31)).map ⟨peer c, peer_injective c⟩ = Finset.univ.erase c := by
  ext p
  simp only [Finset.mem_map, Finset.mem_univ, true_and, Function.Embedding.coeFn_mk, Finset.mem_erase, and_true]
  constructor
  · rintro ⟨d, rfl⟩; exact peer_ne c d
  · intro h; exact exists_peer c p h

/-- What is held for every device gives, for device c, the chain over its peers (its own entry is let go). -/
theorem to_chain (c : Dev nD) (Ψ : Dev nD → sProp 𝕄) : bigSep Finset.univ Ψ ⊢ chain (fun d => Ψ (peer c d)) 31 :=
  (bigSep_subset (Finset.erase_subset c Finset.univ)).trans (by
    rw [← peers_eq c, bigSep_map]
    exact chain_of_bigSep _)

/-! ## The global step -/

/-- What the global step makes of the launch element. -/
def G' (c : Dev nD) : sProp 𝕄 := iprop(∃ K, ghost m K c)

/-- The tokens of the duties device c pays. -/
def payToks (c : Dev nD) : sProp 𝕄 := iprop(sigToks (F := F) c 31 ∗ rcvToks c 31 ∗ sndToks c 31)

theorem pay_of_all (c : Dev nD) :
    iprop((bigSep Finset.univ fun p : Dev nD => (dutyTok ER (barCell p) 0 c : sProp 𝕄))
        ∗ (bigSep Finset.univ fun p : Dev nD => (dutyTok ER (sendCell c p) 0 p : sProp 𝕄))
        ∗ (bigSep Finset.univ fun p : Dev nD => (dutyTok ER (recvCell p c) 0 c : sProp 𝕄)))
      ⊢ payToks c := by
  unfold payToks sigToks rcvToks sndToks
  iintro ⟨HA, HS, HR⟩
  isplitl [HA]; · iapply (to_chain c fun p => dutyTok ER (barCell p) 0 c); iexact HA
  isplitl [HR]; · iapply (to_chain c fun p => dutyTok ER (recvCell p c) 0 c); iexact HR
  iapply (to_chain c fun p => dutyTok ER (sendCell c p) 0 p); iexact HS

/-- The tokens dealt to their payers: the token of duty c on the barrier cell and on the receive cell c of every other device
    goes to device c; the tokens on its own send cells stay. -/
theorem toks_around : (bigSep Finset.univ fun c : Dev nD => (toks c : sProp 𝕄)) ⊢ bigSep Finset.univ fun c : Dev nD => payToks c := by
  have e : (bigSep Finset.univ fun c : Dev nD => (toks c : sProp 𝕄))
      = iprop((bigSep Finset.univ fun c : Dev nD => bigSep Finset.univ fun p : Dev nD => (dutyTok ER (barCell p) 0 c : sProp 𝕄))
          ∗ (bigSep Finset.univ fun c : Dev nD => bigSep Finset.univ fun p : Dev nD => (dutyTok ER (sendCell c p) 0 p : sProp 𝕄))
          ∗ (bigSep Finset.univ fun c : Dev nD => bigSep Finset.univ fun p : Dev nD => (dutyTok ER (recvCell p c) 0 c : sProp 𝕄))) := by
    unfold toks
    simp only [bigSep_sep']
    rw [bigSep_univ_comm (fun c p : Dev nD => (dutyTok ER (barCell c) 0 p : sProp 𝕄)),
      bigSep_univ_comm (fun c p : Dev nD => (dutyTok ER (recvCell c p) 0 p : sProp 𝕄))]
  rw [e, ← bigSep_sep', ← bigSep_sep']
  exact bigSep_mono fun c _ => pay_of_all c

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CellIx → ℕ) (c : Dev nD) : iprop(records m K ∗ (positions c ∗ payToks c)) ⊢ G' m c := by
  unfold G' ghost linear payToks
  iintro H
  iexists K
  iexact H

theorem regroup :
    (bigSep Finset.univ fun c : Dev nD => iprop((bigSep Finset.univ fun k : CellIx => iprop(∃ κ : ℕ, cellInv ER (sched m) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CellIx => iprop(∃ κ : ℕ, cellInv ER (sched m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · unfold positions; iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions of the launch -/

theorem start_intro (hcreds : ∀ c : Dev nD, (Pipeline.launchCred O₀ c : sProp 𝕄) ⊢ iprop(cred (tallyAt (barCell c) () 31) ∗ rcvCreds c 31)) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (hcreds c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq]
  unfold Φ₁
  iintro ⟨Hr, Hz⟩
  isplitr; · iempintro
  isplitl [Hz]; · iexact Hz
  iexists (RED m); iexact Hr

theorem share_eq (c : Dev nD) (w : Fin cfg0.W) : (dats m 0 c).share w = fullShare := by unfold Dat.share; split <;> rfl

theorem L_of_ne (g : GSem nD τ sig) (h : g.1.2 ≠ .tc) : L g = ∅ := if_neg h

end LaunchK

/-! ## The launch element and the run -/

/-- The launch element: the staging cells of the pipeline in the first component, the 32 × 65 cells of the protocol and
    their duty tokens in the second. -/
def u₀ : UU :=
  (initOf (Pipeline.cells cfgs cellOf_inj) (Pipeline.launchToks cfgs cellOf_inj), initOf LaunchK.ringCells LaunchK.ringToks)

set_option maxRecDepth 8000 in
/-- At the compiled mesh of 32 devices, for any float values, from any memory with zero counters: given one thread's body
    proved, the levels under every staging wait and the launch credit of each device, every weakly fair execution of the
    32 kernels terminates, and every final state has each device's arrays at the contents the proof data computes. -/
theorem run_main
    (hbody : ∀ c : Dev nD, BodyObligation (dats (F := F) m 0 c) (defs₀ (F := F)) 𝒱₀ () Set.univ)
    (hwaits : ∀ c : Dev nD, (levAts L lv : sProp 𝕄) ⊢ Pipeline.cellsWaits cfgs (dats m) () 0 c)
    (hcreds : ∀ c : Dev nD, (Pipeline.launchCred O₀ c : sProp 𝕄) ⊢ iprop(cred (tallyAt (barCell c) () 31) ∗ rcvCreds c 31)) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ LaunchK.ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := LaunchK.share_eq m)
    (hdistinct := winFacts0.arr_inj)
    (O₀ := O₀) (howed₀ := fun _ => rfl) (howedN := fun _ => rfl)
    (L := L) (lv := lv) (hL := LaunchK.L_of_ne) (hwaits := hwaits)
    (G := LaunchK.G m) (G' := LaunchK.G' m) (u₀ := u₀)
    (hu₀ := by
      unfold u₀
      iintro Hu
      ihave H := (ownU_pair _ _) $$ Hu
      icases H with ⟨HP, HX⟩
      imod (LaunchK.fund_ring m) $$ HX with HG
      imodintro
      isplitl [HP] <;> iassumption)
    (hglob := LaunchK.glob m)
    (hA := fun _ _ => rfl) (hpf := fun _ k => k.elim0)
    (X := start m) (Y := fun _ => iprop(emp)) (Z := fun _ => iprop(emp))
    (hX := LaunchK.start_intro m ρ hcreds) (hin := LaunchK.phi0_intro m) (hout := LaunchK.phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Proto.run_main' depends on axioms: [propext, Classical.choice, Quot.sound] -/
#guard_msgs in #print axioms run_main

end Cert.KernelIdeal.Proto

end
-- ==== Proof.Run.lean ====
/-
  The run of the whole mesh: every weakly fair execution of the 32 kernels terminates, and every final state has each
  device's argument array as launched and its result array at the maximum over all 32 blocks' column-wise maxima.
  From the body of one device (walked peer by peer), the levels under which its waits are allowed, and the launch credit.
-/
import proofs.«900562_g7700000000000563_dist_max_ax0_shard0_i_m1024_n512_v7x_i32_f32_1_alg».proof.Proof.Body
import proofs.«900562_g7700000000000563_dist_max_ax0_shard0_i_m1024_n512_v7x_i32_f32_1_alg».proof.Proof.LaunchK
import proofs.«900562_g7700000000000563_dist_max_ax0_shard0_i_m1024_n512_v7x_i32_f32_1_alg».proof.Proof.Values

noncomputable section

namespace Cert.KernelIdeal.Proto

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

theorem run_all : RunAll (F := F) m ρ := by
  unfold RunAll
  exact run_main m ρ (fun c => body_obligation m c) (fun c => waits m c) (fun c => creds c)

/-- info: 'Cert.KernelIdeal.Proto.run_all' depends on axioms: [propext, Classical.choice, Quot.sound] -/
#guard_msgs in #print axioms run_all

end Cert.KernelIdeal.Proto

end
-- ==== Proof.Bits.Owes.lean ====
/-
  What the devices owe one another at launch, seen from both ends.

  Device `c` owes each of its 31 peers one unit on the peer's barrier cell and one row's credit on the peer's receive
  cell `c`. Read at a cell, the dues are: a barrier cell is owed one unit by every other device (31 in all), receive
  cell `q` of device `c` is owed the row's credit by `q` alone. That is the credit the launch deals each device.
  Barrier cells sit at level 1, receive cells at level 2, every other cell at level 0: a device waits on a staging or
  send cell owing anything, on its barrier cell owing receive credit only, and on a receive cell owing nothing.
-/
import proofs.«900562_g7700000000000563_dist_max_ax0_shard0_i_m1024_n512_v7x_i32_f32_1_alg».proof.Proof.Bits.Data
import Mathlib.Algebra.BigOperators.Fin
import Mathlib.Algebra.BigOperators.Intervals

noncomputable section

namespace Cert.Kernel.Proto

open Cert.Kernel Cert.Kernel.Gen Cert.Kernel.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

namespace Owes

/-! ## Sums over the 31 peers -/

/-- The peers of `c` are the devices other than `c`. -/
theorem image_peer (c : Dev nD) : Finset.univ.image (peer c) = Finset.univ.erase c := by
  ext p
  rw [Finset.mem_image, Finset.mem_erase]
  constructor
  · rintro ⟨d, -, rfl⟩; exact ⟨peer_ne c d, Finset.mem_univ _⟩
  · rintro ⟨h, -⟩; obtain ⟨d, hd⟩ := exists_peer c p h; exact ⟨d, Finset.mem_univ _, hd⟩

theorem sum_peers {M : Type} [AddCommMonoid M] (c : Dev nD) (G : Dev nD → M) :
    (∑ d : Fin 31, G (peer c d)) = ∑ p ∈ Finset.univ.erase c, G p := by
  rw [← image_peer, Finset.sum_image fun a _ b _ h => peer_injective c h]

/-- A sum over the peers taken from the last down, as the dues are written: the same sum over `Fin 31`. -/
theorem sum_down {M : Type} [AddCommMonoid M] (c : Dev nD) (G : Dev nD → M) :
    (∑ i ∈ Finset.range 31, G (peerN c (30 - i))) = ∑ d : Fin 31, G (peer c d) := by
  have h := Finset.sum_range_reflect (fun i => G (peerN c i)) 31
  exact h.trans (Fin.sum_univ_eq_sum_range (fun i => G (peerN c i)) 31).symm

/-! ## The dues as sums -/

theorem oRecv_eq (c : Dev nD) (j : ℕ) :
    oRecv c j = ∑ i ∈ Finset.range j, (tallyAt (recvCell (peerN c (30 - i)) c) () N : CellTallies nD τ sig Unit) := by
  induction j with
  | zero => rfl
  | succ j ih => rw [oRecv_succ, Finset.sum_range_succ, ih]; rfl

theorem oSig_eq (c : Dev nD) (j : ℕ) :
    oSig c j = oRecv c 31 + ∑ i ∈ Finset.range j, (tallyAt (barCell (peerN c (30 - i))) () 1 : CellTallies nD τ sig Unit) := by
  induction j with
  | zero => rw [Finset.sum_range_zero, add_zero]; rfl
  | succ j ih => rw [oSig_succ, Finset.sum_range_succ, ih, add_assoc]; rfl

theorem oRecv_eq_sum (c : Dev nD) :
    oRecv c 31 = ∑ d : Fin 31, (tallyAt (recvCell (peer c d) c) () N : CellTallies nD τ sig Unit) := by
  rw [oRecv_eq, sum_down c fun p => (tallyAt (recvCell p c) () N : CellTallies nD τ sig Unit)]

theorem O₀_eq_sum (c : Dev nD) :
    O₀ c = oRecv c 31 + ∑ d : Fin 31, (tallyAt (barCell (peer c d)) () 1 : CellTallies nD τ sig Unit) := by
  unfold O₀; rw [oSig_eq, sum_down c fun p => (tallyAt (barCell p) () 1 : CellTallies nD τ sig Unit)]

/-! ## The dues read at a cell -/

theorem barCell_injective : Function.Injective (barCell : Dev nD → GSem nD τ sig) :=
  fun a b h => congrArg (fun g : GSem nD τ sig => g.1.1) h
theorem recvCell_injective (q : Dev nD) : Function.Injective (fun p : Dev nD => (recvCell p q : GSem nD τ sig)) :=
  fun a b h => congrArg (fun g : GSem nD τ sig => g.1.1) h
theorem recv_ne_bar (c p c' : Dev nD) : (recvCell c p : GSem nD τ sig) ≠ barCell c' :=
  fun h => by cases (congrArg Prod.snd h)

/-- What device `d` owes receive cell `q` of device `c`: the row's credit when `q = d` and `c` is another device. -/
theorem oRecv_recv (d c q : Dev nD) : oRecv d 31 (recvCell c q) () = if q = d ∧ c ≠ d then N else 0 := by
  rw [oRecv_eq_sum, sum_peers d (fun p => (tallyAt (recvCell p d) () N : CellTallies nD τ sig Unit)),
    Pipeline.sum_tallyAt_cells (Finset.univ.erase d) (recvCell_injective d) () N (recvCell c q) ()]
  refine if_congr ⟨?_, ?_⟩ rfl rfl
  · rintro ⟨⟨p, hp, h⟩, -⟩
    have h1 : p = c := congrArg (fun g : GSem nD τ sig => g.1.1) h
    have h2 : SemLoc.dma (recvSem d) = (SemLoc.dma (recvSem q) : SemLoc sig) := congrArg Prod.snd h
    exact ⟨(recvSem_injective (SemLoc.dma.inj h2)).symm, h1 ▸ (Finset.mem_erase.mp hp).1⟩
  · rintro ⟨rfl, h⟩; exact ⟨⟨c, Finset.mem_erase.mpr ⟨h, Finset.mem_univ _⟩, rfl⟩, rfl⟩

theorem oRecv_bar (d c : Dev nD) : oRecv d 31 (barCell c) () = 0 := by
  rw [oRecv_eq_sum, Finset.sum_apply, Finsupp.finsetSum_apply]
  exact Finset.sum_eq_zero fun k _ => by rw [tallyAt_ne_cell (fun h => recv_ne_bar _ _ _ h.symm)]; rfl

theorem owed_recv (d c q : Dev nD) : O₀ d (recvCell c q) () = if q = d ∧ c ≠ d then N else 0 := by
  rw [O₀_eq_sum, Pi.add_apply, Finsupp.add_apply, oRecv_recv, Finset.sum_apply, Finsupp.finsetSum_apply,
    Finset.sum_eq_zero fun k _ => by rw [tallyAt_ne_cell (recv_ne_bar _ _ _)]; rfl, Nat.add_zero]

/-- What device `d` owes the barrier cell of device `c`: one unit when `c` is another device. -/
theorem owed_bar (d c : Dev nD) : O₀ d (barCell c) () = if c ≠ d then 1 else 0 := by
  rw [O₀_eq_sum, Pi.add_apply, Finsupp.add_apply, oRecv_bar, Nat.zero_add,
    sum_peers d (fun p => (tallyAt (barCell p) () 1 : CellTallies nD τ sig Unit)),
    Pipeline.sum_tallyAt_cells (Finset.univ.erase d) barCell_injective () 1 (barCell c) ()]
  refine if_congr ⟨?_, ?_⟩ rfl rfl
  · rintro ⟨⟨p, hp, h⟩, -⟩
    have h1 : p = c := barCell_injective h
    exact h1 ▸ (Finset.mem_erase.mp hp).1
  · intro h; exact ⟨⟨c, Finset.mem_erase.mpr ⟨h, Finset.mem_univ _⟩, rfl⟩, rfl⟩

/-- The receive dues sit on receive cells of peers; -/
theorem oRecv_pos {c : Dev nD} {g : GSem nD τ sig} {u : Unit} (h : 0 < oRecv c 31 g u) : ∃ d : Fin 31, g = recvCell (peer c d) c := by
  rw [oRecv_eq_sum] at h
  obtain ⟨d, -, hd⟩ := Pipeline.sum_pos_exists h
  exact ⟨d, (Pipeline.tallyAt_pos hd).1⟩

/-- everything owed at launch on receive cells or barrier cells of peers. -/
theorem O₀_pos {c : Dev nD} {g : GSem nD τ sig} {u : Unit} (h : 0 < O₀ c g u) :
    (∃ d : Fin 31, g = recvCell (peer c d) c) ∨ ∃ d : Fin 31, g = barCell (peer c d) := by
  rw [O₀_eq_sum] at h
  rcases Pipeline.add_pos_cases h with h | h
  · exact Or.inl (oRecv_pos h)
  · obtain ⟨d, -, hd⟩ := Pipeline.sum_pos_exists h
    exact Or.inr ⟨d, (Pipeline.tallyAt_pos hd).1⟩

/-! ## Levels -/

theorem lv_bar (c : Dev nD) : lv (barCell c) () = 1 := rfl
theorem lv_recv (c p : Dev nD) : lv (recvCell c p) () = 2 := by
  unfold lv; dsimp only; rw [decode_recvSem]
theorem lv_low (c : Dev nD) (q : DmaSem sig) (hq : q.val < 34) : lv ((c : Thread nD τ), .dma q) () = 0 := by
  unfold lv; dsimp only
  unfold decode
  by_cases h : 2 ≤ q.val ∧ q.val < 34
  · rw [dif_pos h]
  · rw [dif_neg h, dif_neg (fun h' => absurd h'.1 (Nat.not_le.mpr hq))]

end Owes

open Owes

/-! ## Levels and waits -/

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A wait on a staging or send semaphore (level 0), owing everything or nothing. -/
theorem mayWait_low (c : Dev nD) (q : DmaSem sig) (hq : q.val < 34) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    cases u
    rcases O₀_pos hg with ⟨d, rfl⟩ | ⟨d, rfl⟩
    · exact ⟨by rw [L_tc]; exact Finset.mem_singleton_self _, by rw [lv_low c q hq, lv_recv]; decide⟩
    · exact ⟨by rw [L_tc]; exact Finset.mem_singleton_self _, by rw [lv_low c q hq, lv_bar]; decide⟩
  · rw [MayWait_zero]; iintro -; iempintro

omit [FloatOps F] in
/-- At its barrier wait a device owes the receive dues only: receive cells, above its barrier cell. -/
theorem mayWait_bar (c : Dev nD) : (levAts L lv : sProp 𝕄) ⊢ MayWait (c : Thread nD τ) (.reg barS) () (oRecv c 31) := by
  refine Pipeline.mayWait_of_levAts (by rw [L_tc]; exact Finset.mem_singleton_self _) fun g u hg => ?_
  cases u
  obtain ⟨d, rfl⟩ := oRecv_pos hg
  exact ⟨by rw [L_tc]; exact Finset.mem_singleton_self _, by rw [lv_bar, lv_recv]; decide⟩

/-- The pipeline's own waits, on the two staging semaphores: before the point owing everything, after it nothing. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-! ## The launch credit -/

namespace Owes

omit [FloatOps F] in
/-- The barrier cell of `c` is credited one unit by each of the 31 other devices. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

omit [FloatOps F] in
/-- Receive cell `q` of `c`, `q` another device, is credited the row's credit by `q` alone. -/
theorem launch_recv (c q : Dev nD) (hq : q ≠ c) :
    tallyOn (recvCell c q) (launchCredit (Pipeline.owing O₀) 0 (recvCell c q)) = (tallyAt (recvCell c q) () N : CellTallies nD τ sig Unit) := by
  unfold tallyAt; refine congrArg _ (Finsupp.ext fun u => ?_); cases u
  rw [Pipeline.launchCredit_owing, Finsupp.single_eq_same, Finset.sum_congr rfl fun d _ => owed_recv d c q,
    Finset.sum_eq_single q (fun d _ hd => if_neg fun h => hd h.1.symm) (fun h => absurd (Finset.mem_univ _) h),
    if_pos ⟨rfl, hq.symm⟩]

theorem recvLoc_injective (c : Dev nD) : Function.Injective (fun d : Fin 31 => (SemLoc.dma (recvSem (peer c d)) : SemLoc sig)) :=
  fun a b h => peer_injective c (recvSem_injective (SemLoc.dma.inj h))

omit [FloatOps F] in
/-- The entries of the peers from `31 - j` up, out of a conjunction over them all. -/
theorem chain_of_bigSep (Φ : Fin 31 → sProp 𝕄) (j : ℕ) (hj : j ≤ 31) :
    bigSep (Finset.univ.filter fun d : Fin 31 => 31 - j ≤ d.val) Φ ⊢ chain Φ j := by
  induction j with
  | zero =>
    have he : (Finset.univ.filter fun d : Fin 31 => 31 - 0 ≤ d.val) = ∅ :=
      Finset.filter_eq_empty_iff.mpr fun d _ h => by have := d.isLt; omega
    rw [he, bigSep_empty]; exact BI.Entails.refl _
  | succ j ih =>
    have hlt : 30 - j < 31 := by omega
    have he : (Finset.univ.filter fun d : Fin 31 => 31 - (j + 1) ≤ d.val)
        = insert (⟨30 - j, hlt⟩ : Fin 31) (Finset.univ.filter fun d : Fin 31 => 31 - j ≤ d.val) := by
      ext d
      rw [Finset.mem_insert, Finset.mem_filter, Finset.mem_filter, Fin.ext_iff]
      have := d.isLt
      constructor
      · rintro ⟨-, h⟩; by_cases e : d.val = 30 - j
        · exact Or.inl e
        · exact Or.inr ⟨Finset.mem_univ _, by omega⟩
      · rintro (h | ⟨-, h⟩)
        · have h' : d.val = 30 - j := h
          exact ⟨Finset.mem_univ _, by omega⟩
        · exact ⟨Finset.mem_univ _, by omega⟩
    have hn : (⟨30 - j, hlt⟩ : Fin 31) ∉ Finset.univ.filter fun d : Fin 31 => 31 - j ≤ d.val := by
      rw [Finset.mem_filter]; rintro ⟨-, h⟩; have h' : 31 - j ≤ 30 - j := h; omega
    rw [he, bigSep_insert hn, chain_succ]
    exact sep_symm.trans (sep_mono_left (ih (by omega)))

end Owes

omit [FloatOps F] in
/-- What the launch deals device `c`: 31 units on its barrier cell, and the row's credit on its receive cell for each peer. -/
theorem creds (c : Dev nD) :
    (Pipeline.launchCred O₀ c : sProp 𝕄) ⊢ iprop(cred (tallyAt (barCell c) () 31) ∗ rcvCreds c 31) := by
  unfold Pipeline.launchCred
  rw [bigSep_univ_at _ (SemLoc.reg barS), launch_bar]
  refine sep_mono_right ?_
  refine (bigSep_subset (t := Finset.univ.map ⟨_, recvLoc_injective c⟩) fun sm hsm => ?_).trans ?_
  · obtain ⟨d, -, rfl⟩ := Finset.mem_map.mp hsm
    exact Finset.mem_erase.mpr ⟨fun h => (by cases h), Finset.mem_univ _⟩
  · rw [bigSep_map]
    refine (bigSep_mono fun d _ => Entails.of_eq (congrArg cred (launch_recv c (peer c d) (peer_ne c d)))).trans ?_
    have hall : (Finset.univ.filter fun d : Fin 31 => 31 - 31 ≤ d.val) = Finset.univ :=
      Finset.filter_true_of_mem fun d _ => Nat.zero_le _
    unfold rcvCreds
    rw [← hall]
    exact chain_of_bigSep _ 31 le_rfl

/-- info: 'Cert.Kernel.Proto.mayWait_low' depends on axioms: [propext, Classical.choice, Quot.sound] -/
#guard_msgs in #print axioms mayWait_low
/-- info: 'Cert.Kernel.Proto.mayWait_bar' depends on axioms: [propext, Classical.choice, Quot.sound] -/
#guard_msgs in #print axioms mayWait_bar
/-- info: 'Cert.Kernel.Proto.waits' depends on axioms: [propext, Classical.choice, Quot.sound] -/
#guard_msgs in #print axioms waits
/-- info: 'Cert.Kernel.Proto.creds' depends on axioms: [propext, Classical.choice, Quot.sound] -/
#guard_msgs in #print axioms creds

end Cert.Kernel.Proto

end
-- ==== Proof.Bits.Canon.lean ====
/-
  The printed spellings of the rows, semaphores and devices are the protocol's names.

  The body names row `p` of the scratch by an offset its operations compute, a scratch semaphore by a slice of its array
  at such an offset, and a peer by arithmetic over the device's own position. Each is, in closed form, a row, a send or
  receive semaphore, or a peer of the protocol: the equations below, for any in-bounds evidence the printed text carries.
-/
import proofs.«900562_g7700000000000563_dist_max_ax0_shard0_i_m1024_n512_v7x_i32_f32_1_alg».proof.Proof.Bits.Data

noncomputable section

namespace Cert.Kernel.Proto

open Cert.Kernel Cert.Kernel.Gen Cert.Kernel.Rows

open Idealize.ShloMosaic
open Idealize.ShloMosaic.TcCoe

/-! ## Rows -/

theorem off1_eq_rowOff (c : Dev nD) : k0_off1 c = rowOff c := k0_off1_eq c
theorem off4_eq_rowOff (c : Dev nD) : k0_off4 c = rowOff c := k0_off4_eq c
theorem off5_eq_rowOff (c : Dev nD) (r : Fin 31) : k0_off5 c (BitVec.ofNat 32 (1 + r.val)) = rowOff (peer c r) := k0_off5_eq c r

/-- The rectangle of the device's own row, as the store that fills it spells it. -/
theorem rect_off1 (c : Dev nD) (h : ∀ a, k0_off1 c a + S1x1x512.size a ≤ S32x1x512.size a) :
    Rect.unit (s := S32x1x512) (k0_off1 c) S1x1x512.size h = rowRect c :=
  Rect.unit_congr (off1_eq_rowOff c) h (rowOff_inb c)

/-- The device's own row, as its copies spell their source and their destination. -/
theorem row_off4 (c : Dev nD) (h : ∀ a, k0_off4 c a + S1x1x512.size a ≤ S32x1x512.size a) :
    scrM.slice (Rect.unit (s := S32x1x512) (k0_off4 c) S1x1x512.size h) (fun _ => rfl) = rowM c :=
  Memref.slice_unit_congr scrM (off4_eq_rowOff c) h (rowOff_inb c) _ _

/-- The row of peer `r`, as the receive waits spell it. -/
theorem row_off5 (c : Dev nD) (r : Fin 31) (h : ∀ a, k0_off5 c (BitVec.ofNat 32 (1 + r.val)) a + S1x1x512.size a ≤ S32x1x512.size a) :
    scrM.slice (Rect.unit (s := S32x1x512) (k0_off5 c (BitVec.ofNat 32 (1 + r.val))) S1x1x512.size h) (fun _ => rfl) = rowM (peer c r) :=
  Memref.slice_unit_congr scrM (off5_eq_rowOff c r) h (rowOff_inb (peer c r)) _ _

/-- The same for any word `w` equal to that literal. -/
theorem row_off5' (c : Dev nD) (r : Fin 31) (w : BitVec 32) (hw : w = BitVec.ofNat 32 (1 + r.val))
    (h : ∀ a, k0_off5 c w a + S1x1x512.size a ≤ S32x1x512.size a) :
    scrM.slice (Rect.unit (s := S32x1x512) (k0_off5 c w) S1x1x512.size h) (fun _ => rfl) = rowM (peer c r) := by
  subst hw; exact row_off5 c r h

/-! ## Semaphores -/

/-- A unit rectangle of a row of 32 has one index, at the rectangle's offset. -/
theorem rowMajor_unit (off : Fin 1 → ℕ) (h : ∀ a, off a + S1.size a ≤ S32.size a) (j : (Rect.unit (s := S32) off S1.size h).shape.Idx) :
    (S32.rowMajor ((Rect.unit (s := S32) off S1.size h).emb j)).val = off 0 := by
  rw [Shape.rowMajor_val_one, Rect.emb_apply]
  have hj : (j 0).val < 1 := (j 0).isLt
  show off 0 + 1 * (j 0).val = off 0
  omega

/-- The one semaphore of a unit slice of 32 consecutive semaphores from `base`: the one at the slice's offset. -/
theorem sem_consecutive_unit (base : ℕ) (hb : base + S32.numel ≤ 66) (off : Fin 1 → ℕ) (h : ∀ a, off a + S1.size a ≤ S32.size a) :
    ((((SemArray.consecutive base S32 hb : DmaSems sig S32).slice (Rect.unit (s := S32) off S1.size h)).squeeze S_ squeezes_S1_S_).sem).val
      = base + off 0 :=
  congrArg (base + ·) (rowMajor_unit off h _)

/-- Send semaphore of peer `r`, as copy `r` and send wait `r` spell it. -/
theorem sendSem_off2 (c : Dev nD) (r : Fin 31) (h : ∀ a, k0_off2 c (BitVec.ofNat 32 (1 + r.val)) a + S1.size a ≤ S32.size a) :
    ((cc0_scratch1.slice (Rect.unit (s := S32) (k0_off2 c (BitVec.ofNat 32 (1 + r.val))) S1.size h)).squeeze S_ squeezes_S1_S_).sem = sendSem (peer c r) :=
  Fin.ext ((sem_consecutive_unit 2 hcc0_scratch1 _ h).trans (by rw [k0_off2_eq c r]; rfl))

/-- Receive semaphore of peer `r`, as receive wait `r` spells it. -/
theorem recvSem_off2 (c : Dev nD) (r : Fin 31) (h : ∀ a, k0_off2 c (BitVec.ofNat 32 (1 + r.val)) a + S1.size a ≤ S32.size a) :
    ((cc0_scratch2.slice (Rect.unit (s := S32) (k0_off2 c (BitVec.ofNat 32 (1 + r.val))) S1.size h)).squeeze S_ squeezes_S1_S_).sem = recvSem (peer c r) :=
  Fin.ext ((sem_consecutive_unit 34 hcc0_scratch2 _ h).trans (by rw [k0_off2_eq c r]; rfl))

/-- The device's own receive semaphore, the one every copy it fires credits on the peer. -/
theorem recvSem_off3 (c : Dev nD) (h : ∀ a, k0_off3 c a + S1.size a ≤ S32.size a) :
    ((cc0_scratch2.slice (Rect.unit (s := S32) (k0_off3 c) S1.size h)).squeeze S_ squeezes_S1_S_).sem = recvSem c :=
  Fin.ext ((sem_consecutive_unit 34 hcc0_scratch2 _ h).trans (by rw [k0_off3_eq c]; rfl))

/-- The two for any word `w` equal to that literal. -/
theorem sendSem_off2' (c : Dev nD) (r : Fin 31) (w : BitVec 32) (hw : w = BitVec.ofNat 32 (1 + r.val))
    (h : ∀ a, k0_off2 c w a + S1.size a ≤ S32.size a) :
    ((cc0_scratch1.slice (Rect.unit (s := S32) (k0_off2 c w) S1.size h)).squeeze S_ squeezes_S1_S_).sem = sendSem (peer c r) := by
  subst hw; exact sendSem_off2 c r h
theorem recvSem_off2' (c : Dev nD) (r : Fin 31) (w : BitVec 32) (hw : w = BitVec.ofNat 32 (1 + r.val))
    (h : ∀ a, k0_off2 c w a + S1.size a ≤ S32.size a) :
    ((cc0_scratch2.slice (Rect.unit (s := S32) (k0_off2 c w) S1.size h)).squeeze S_ squeezes_S1_S_).sem = recvSem (peer c r) := by
  subst hw; exact recvSem_off2 c r h

/-! ## Devices: the targets of the 31 signals, then of the 31 copies -/

theorem dev1 (c : Dev nD) : (⟨k0_dev1 c, k0_dev1_lt c⟩ : Dev nD) = peer c ⟨0, by decide⟩ := Fin.ext (k0_dev1_eq c)
theorem dev2 (c : Dev nD) : (⟨k0_dev2 c, k0_dev2_lt c⟩ : Dev nD) = peer c ⟨1, by decide⟩ := Fin.ext (k0_dev2_eq c)
theorem dev3 (c : Dev nD) : (⟨k0_dev3 c, k0_dev3_lt c⟩ : Dev nD) = peer c ⟨2, by decide⟩ := Fin.ext (k0_dev3_eq c)
theorem dev4 (c : Dev nD) : (⟨k0_dev4 c, k0_dev4_lt c⟩ : Dev nD) = peer c ⟨3, by decide⟩ := Fin.ext (k0_dev4_eq c)
theorem dev5 (c : Dev nD) : (⟨k0_dev5 c, k0_dev5_lt c⟩ : Dev nD) = peer c ⟨4, by decide⟩ := Fin.ext (k0_dev5_eq c)
theorem dev6 (c : Dev nD) : (⟨k0_dev6 c, k0_dev6_lt c⟩ : Dev nD) = peer c ⟨5, by decide⟩ := Fin.ext (k0_dev6_eq c)
theorem dev7 (c : Dev nD) : (⟨k0_dev7 c, k0_dev7_lt c⟩ : Dev nD) = peer c ⟨6, by decide⟩ := Fin.ext (k0_dev7_eq c)
theorem dev8 (c : Dev nD) : (⟨k0_dev8 c, k0_dev8_lt c⟩ : Dev nD) = peer c ⟨7, by decide⟩ := Fin.ext (k0_dev8_eq c)
theorem dev9 (c : Dev nD) : (⟨k0_dev9 c, k0_dev9_lt c⟩ : Dev nD) = peer c ⟨8, by decide⟩ := Fin.ext (k0_dev9_eq c)
theorem dev10 (c : Dev nD) : (⟨k0_dev10 c, k0_dev10_lt c⟩ : Dev nD) = peer c ⟨9, by decide⟩ := Fin.ext (k0_dev10_eq c)
theorem dev11 (c : Dev nD) : (⟨k0_dev11 c, k0_dev11_lt c⟩ : Dev nD) = peer c ⟨10, by decide⟩ := Fin.ext (k0_dev11_eq c)
theorem dev12 (c : Dev nD) : (⟨k0_dev12 c, k0_dev12_lt c⟩ : Dev nD) = peer c ⟨11, by decide⟩ := Fin.ext (k0_dev12_eq c)
theorem dev13 (c : Dev nD) : (⟨k0_dev13 c, k0_dev13_lt c⟩ : Dev nD) = peer c ⟨12, by decide⟩ := Fin.ext (k0_dev13_eq c)
theorem dev14 (c : Dev nD) : (⟨k0_dev14 c, k0_dev14_lt c⟩ : Dev nD) = peer c ⟨13, by decide⟩ := Fin.ext (k0_dev14_eq c)
theorem dev15 (c : Dev nD) : (⟨k0_dev15 c, k0_dev15_lt c⟩ : Dev nD) = peer c ⟨14, by decide⟩ := Fin.ext (k0_dev15_eq c)
theorem dev16 (c : Dev nD) : (⟨k0_dev16 c, k0_dev16_lt c⟩ : Dev nD) = peer c ⟨15, by decide⟩ := Fin.ext (k0_dev16_eq c)
theorem dev17 (c : Dev nD) : (⟨k0_dev17 c, k0_dev17_lt c⟩ : Dev nD) = peer c ⟨16, by decide⟩ := Fin.ext (k0_dev17_eq c)
theorem dev18 (c : Dev nD) : (⟨k0_dev18 c, k0_dev18_lt c⟩ : Dev nD) = peer c ⟨17, by decide⟩ := Fin.ext (k0_dev18_eq c)
theorem dev19 (c : Dev nD) : (⟨k0_dev19 c, k0_dev19_lt c⟩ : Dev nD) = peer c ⟨18, by decide⟩ := Fin.ext (k0_dev19_eq c)
theorem dev20 (c : Dev nD) : (⟨k0_dev20 c, k0_dev20_lt c⟩ : Dev nD) = peer c ⟨19, by decide⟩ := Fin.ext (k0_dev20_eq c)
theorem dev21 (c : Dev nD) : (⟨k0_dev21 c, k0_dev21_lt c⟩ : Dev nD) = peer c ⟨20, by decide⟩ := Fin.ext (k0_dev21_eq c)
theorem dev22 (c : Dev nD) : (⟨k0_dev22 c, k0_dev22_lt c⟩ : Dev nD) = peer c ⟨21, by decide⟩ := Fin.ext (k0_dev22_eq c)
theorem dev23 (c : Dev nD) : (⟨k0_dev23 c, k0_dev23_lt c⟩ : Dev nD) = peer c ⟨22, by decide⟩ := Fin.ext (k0_dev23_eq c)
theorem dev24 (c : Dev nD) : (⟨k0_dev24 c, k0_dev24_lt c⟩ : Dev nD) = peer c ⟨23, by decide⟩ := Fin.ext (k0_dev24_eq c)
theorem dev25 (c : Dev nD) : (⟨k0_dev25 c, k0_dev25_lt c⟩ : Dev nD) = peer c ⟨24, by decide⟩ := Fin.ext (k0_dev25_eq c)
theorem dev26 (c : Dev nD) : (⟨k0_dev26 c, k0_dev26_lt c⟩ : Dev nD) = peer c ⟨25, by decide⟩ := Fin.ext (k0_dev26_eq c)
theorem dev27 (c : Dev nD) : (⟨k0_dev27 c, k0_dev27_lt c⟩ : Dev nD) = peer c ⟨26, by decide⟩ := Fin.ext (k0_dev27_eq c)
theorem dev28 (c : Dev nD) : (⟨k0_dev28 c, k0_dev28_lt c⟩ : Dev nD) = peer c ⟨27, by decide⟩ := Fin.ext (k0_dev28_eq c)
theorem dev29 (c : Dev nD) : (⟨k0_dev29 c, k0_dev29_lt c⟩ : Dev nD) = peer c ⟨28, by decide⟩ := Fin.ext (k0_dev29_eq c)
theorem dev30 (c : Dev nD) : (⟨k0_dev30 c, k0_dev30_lt c⟩ : Dev nD) = peer c ⟨29, by decide⟩ := Fin.ext (k0_dev30_eq c)
theorem dev31 (c : Dev nD) : (⟨k0_dev31 c, k0_dev31_lt c⟩ : Dev nD) = peer c ⟨30, by decide⟩ := Fin.ext (k0_dev31_eq c)
theorem dev32 (c : Dev nD) : (⟨k0_dev32 c, k0_dev32_lt c⟩ : Dev nD) = peer c ⟨0, by decide⟩ := Fin.ext (k0_dev32_eq c)
theorem dev33 (c : Dev nD) : (⟨k0_dev33 c, k0_dev33_lt c⟩ : Dev nD) = peer c ⟨1, by decide⟩ := Fin.ext (k0_dev33_eq c)
theorem dev34 (c : Dev nD) : (⟨k0_dev34 c, k0_dev34_lt c⟩ : Dev nD) = peer c ⟨2, by decide⟩ := Fin.ext (k0_dev34_eq c)
theorem dev35 (c : Dev nD) : (⟨k0_dev35 c, k0_dev35_lt c⟩ : Dev nD) = peer c ⟨3, by decide⟩ := Fin.ext (k0_dev35_eq c)
theorem dev36 (c : Dev nD) : (⟨k0_dev36 c, k0_dev36_lt c⟩ : Dev nD) = peer c ⟨4, by decide⟩ := Fin.ext (k0_dev36_eq c)
theorem dev37 (c : Dev nD) : (⟨k0_dev37 c, k0_dev37_lt c⟩ : Dev nD) = peer c ⟨5, by decide⟩ := Fin.ext (k0_dev37_eq c)
theorem dev38 (c : Dev nD) : (⟨k0_dev38 c, k0_dev38_lt c⟩ : Dev nD) = peer c ⟨6, by decide⟩ := Fin.ext (k0_dev38_eq c)
theorem dev39 (c : Dev nD) : (⟨k0_dev39 c, k0_dev39_lt c⟩ : Dev nD) = peer c ⟨7, by decide⟩ := Fin.ext (k0_dev39_eq c)
theorem dev40 (c : Dev nD) : (⟨k0_dev40 c, k0_dev40_lt c⟩ : Dev nD) = peer c ⟨8, by decide⟩ := Fin.ext (k0_dev40_eq c)
theorem dev41 (c : Dev nD) : (⟨k0_dev41 c, k0_dev41_lt c⟩ : Dev nD) = peer c ⟨9, by decide⟩ := Fin.ext (k0_dev41_eq c)
theorem dev42 (c : Dev nD) : (⟨k0_dev42 c, k0_dev42_lt c⟩ : Dev nD) = peer c ⟨10, by decide⟩ := Fin.ext (k0_dev42_eq c)
theorem dev43 (c : Dev nD) : (⟨k0_dev43 c, k0_dev43_lt c⟩ : Dev nD) = peer c ⟨11, by decide⟩ := Fin.ext (k0_dev43_eq c)
theorem dev44 (c : Dev nD) : (⟨k0_dev44 c, k0_dev44_lt c⟩ : Dev nD) = peer c ⟨12, by decide⟩ := Fin.ext (k0_dev44_eq c)
theorem dev45 (c : Dev nD) : (⟨k0_dev45 c, k0_dev45_lt c⟩ : Dev nD) = peer c ⟨13, by decide⟩ := Fin.ext (k0_dev45_eq c)
theorem dev46 (c : Dev nD) : (⟨k0_dev46 c, k0_dev46_lt c⟩ : Dev nD) = peer c ⟨14, by decide⟩ := Fin.ext (k0_dev46_eq c)
theorem dev47 (c : Dev nD) : (⟨k0_dev47 c, k0_dev47_lt c⟩ : Dev nD) = peer c ⟨15, by decide⟩ := Fin.ext (k0_dev47_eq c)
theorem dev48 (c : Dev nD) : (⟨k0_dev48 c, k0_dev48_lt c⟩ : Dev nD) = peer c ⟨16, by decide⟩ := Fin.ext (k0_dev48_eq c)
theorem dev49 (c : Dev nD) : (⟨k0_dev49 c, k0_dev49_lt c⟩ : Dev nD) = peer c ⟨17, by decide⟩ := Fin.ext (k0_dev49_eq c)
theorem dev50 (c : Dev nD) : (⟨k0_dev50 c, k0_dev50_lt c⟩ : Dev nD) = peer c ⟨18, by decide⟩ := Fin.ext (k0_dev50_eq c)
theorem dev51 (c : Dev nD) : (⟨k0_dev51 c, k0_dev51_lt c⟩ : Dev nD) = peer c ⟨19, by decide⟩ := Fin.ext (k0_dev51_eq c)
theorem dev52 (c : Dev nD) : (⟨k0_dev52 c, k0_dev52_lt c⟩ : Dev nD) = peer c ⟨20, by decide⟩ := Fin.ext (k0_dev52_eq c)
theorem dev53 (c : Dev nD) : (⟨k0_dev53 c, k0_dev53_lt c⟩ : Dev nD) = peer c ⟨21, by decide⟩ := Fin.ext (k0_dev53_eq c)
theorem dev54 (c : Dev nD) : (⟨k0_dev54 c, k0_dev54_lt c⟩ : Dev nD) = peer c ⟨22, by decide⟩ := Fin.ext (k0_dev54_eq c)
theorem dev55 (c : Dev nD) : (⟨k0_dev55 c, k0_dev55_lt c⟩ : Dev nD) = peer c ⟨23, by decide⟩ := Fin.ext (k0_dev55_eq c)
theorem dev56 (c : Dev nD) : (⟨k0_dev56 c, k0_dev56_lt c⟩ : Dev nD) = peer c ⟨24, by decide⟩ := Fin.ext (k0_dev56_eq c)
theorem dev57 (c : Dev nD) : (⟨k0_dev57 c, k0_dev57_lt c⟩ : Dev nD) = peer c ⟨25, by decide⟩ := Fin.ext (k0_dev57_eq c)
theorem dev58 (c : Dev nD) : (⟨k0_dev58 c, k0_dev58_lt c⟩ : Dev nD) = peer c ⟨26, by decide⟩ := Fin.ext (k0_dev58_eq c)
theorem dev59 (c : Dev nD) : (⟨k0_dev59 c, k0_dev59_lt c⟩ : Dev nD) = peer c ⟨27, by decide⟩ := Fin.ext (k0_dev59_eq c)
theorem dev60 (c : Dev nD) : (⟨k0_dev60 c, k0_dev60_lt c⟩ : Dev nD) = peer c ⟨28, by decide⟩ := Fin.ext (k0_dev60_eq c)
theorem dev61 (c : Dev nD) : (⟨k0_dev61 c, k0_dev61_lt c⟩ : Dev nD) = peer c ⟨29, by decide⟩ := Fin.ext (k0_dev61_eq c)
theorem dev62 (c : Dev nD) : (⟨k0_dev62 c, k0_dev62_lt c⟩ : Dev nD) = peer c ⟨30, by decide⟩ := Fin.ext (k0_dev62_eq c)

/-- info: 'Cert.Kernel.Proto.row_off5' depends on axioms: [propext, Classical.choice, Quot.sound] -/
#guard_msgs in #print axioms row_off5
/-- info: 'Cert.Kernel.Proto.sendSem_off2' depends on axioms: [propext, Classical.choice, Quot.sound] -/
#guard_msgs in #print axioms sendSem_off2
/-- info: 'Cert.Kernel.Proto.recvSem_off2' depends on axioms: [propext, Classical.choice, Quot.sound] -/
#guard_msgs in #print axioms recvSem_off2
/-- info: 'Cert.Kernel.Proto.recvSem_off3' depends on axioms: [propext, Classical.choice, Quot.sound] -/
#guard_msgs in #print axioms recvSem_off3

end Cert.Kernel.Proto

end
-- ==== Proof.Bits.Regroup.lean ====
/-
  Regrouping: the chains over a device's 31 peers against the big separating conjunctions they are cut from.

  A chain of length 31 is the big conjunction over all 31 peer indices; what has been gathered from all 31 peers in
  order is the same chain; and since every device other than `c` is exactly one peer of `c`, a big conjunction over the
  devices is `c`'s own entry and the chain of its peers' entries. The same regrouping is then read off for a device's
  positions (one cell per index), for its scratch (one row per device) and for its 64 own semaphores.
-/
import proofs.«900562_g7700000000000563_dist_max_ax0_shard0_i_m1024_n512_v7x_i32_f32_1_alg».proof.Proof.Bits.Data

noncomputable section

namespace Cert.Kernel.Proto

open Cert.Kernel Cert.Kernel.Gen Cert.Kernel.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Chains and big separating conjunctions -/

omit [FloatOps F] in
/-- Separating conjunction commutes, as an equation of assertions. -/
private theorem sepC (P Q : sProp 𝕄) : iprop(P ∗ Q) = iprop(Q ∗ P) :=
  Idealize.SL.BI.Entails.antisymm Idealize.SL.BI.sep_comm Idealize.SL.BI.sep_comm

/-- The last `j` of the 31 peer indices. -/
private def lastIx (j : ℕ) : Finset (Fin 31) := Finset.univ.filter fun d => 31 - j ≤ d.val
/-- The first `k` of the 31 peer indices. -/
private def firstIx (k : ℕ) : Finset (Fin 31) := Finset.univ.filter fun d => d.val < k

private theorem lastIx_all : lastIx 31 = Finset.univ := by
  ext d; simp only [lastIx, Finset.mem_filter, Finset.mem_univ, true_and, iff_true]; omega
private theorem firstIx_all : firstIx 31 = Finset.univ := by
  ext d; have := d.isLt; simp only [firstIx, Finset.mem_filter, Finset.mem_univ, true_and, iff_true]; omega

omit [FloatOps F] in
/-- A chain of length `j` is the big conjunction over the last `j` indices. -/
private theorem chain_eq_lastIx (Φ : Fin 31 → sProp 𝕄) : ∀ j, j ≤ 31 → chain Φ j = bigSep (lastIx j) Φ
  | 0, _ => by
    have e : lastIx 0 = ∅ := by
      ext d; have := d.isLt
      simp only [lastIx, Finset.mem_filter, Finset.mem_univ, true_and, Finset.notMem_empty, iff_false]; omega
    rw [e]; rfl
  | j + 1, h => by
    have e : lastIx (j + 1) = insert (⟨30 - j, by omega⟩ : Fin 31) (lastIx j) := by
      ext d
      simp only [lastIx, Finset.mem_filter, Finset.mem_univ, true_and, Finset.mem_insert, Fin.ext_iff]; omega
    have hn : (⟨30 - j, by omega⟩ : Fin 31) ∉ lastIx j := by
      simp only [lastIx, Finset.mem_filter, Finset.mem_univ, true_and]; omega
    rw [chain_succ, chain_eq_lastIx Φ j (by omega), e, bigSep_insert hn]; exact sepC _ _

omit [FloatOps F] in
/-- What has been gathered from the first `k` peers is the big conjunction over the first `k` indices. -/
private theorem upto_eq_firstIx (Φ : ℕ → sProp 𝕄) : ∀ k, k ≤ 31 → upto Φ k = bigSep (firstIx k) (fun d : Fin 31 => Φ d.val)
  | 0, _ => by
    have e : firstIx 0 = ∅ := by
      ext d
      simp only [firstIx, Finset.mem_filter, Finset.mem_univ, true_and, Finset.notMem_empty, iff_false]; omega
    rw [e]; rfl
  | k + 1, h => by
    have e : firstIx (k + 1) = insert (⟨k, by omega⟩ : Fin 31) (firstIx k) := by
      ext d
      simp only [firstIx, Finset.mem_filter, Finset.mem_univ, true_and, Finset.mem_insert, Fin.ext_iff]; omega
    have hn : (⟨k, by omega⟩ : Fin 31) ∉ firstIx k := by
      simp only [firstIx, Finset.mem_filter, Finset.mem_univ, true_and]; omega
    rw [upto_succ, upto_eq_firstIx Φ k (by omega), e, bigSep_insert hn]; exact sepC _ _

omit [FloatOps F] in
theorem chain_eq_bigSep (Φ : Fin 31 → sProp 𝕄) : chain Φ 31 = bigSep Finset.univ Φ := by
  rw [chain_eq_lastIx Φ 31 (le_refl _), lastIx_all]

omit [FloatOps F] in
/-- The whole chain is the big conjunction over all 31 peer indices. -/
theorem chain_iff_bigSep (Φ : Fin 31 → sProp 𝕄) : chain Φ 31 ⊣⊢ bigSep Finset.univ Φ :=
  .of_eq (chain_eq_bigSep Φ)

omit [FloatOps F] in
theorem upto_eq_chain (Φ : ℕ → sProp 𝕄) : upto Φ 31 = chain (fun d : Fin 31 => Φ d.val) 31 := by
  rw [upto_eq_firstIx Φ 31 (le_refl _), firstIx_all, chain_eq_bigSep]

omit [FloatOps F] in
/-- Gathered from all 31 peers in order: the whole chain. -/
theorem upto_iff_chain (Φ : ℕ → sProp 𝕄) : upto Φ 31 ⊣⊢ chain (fun d : Fin 31 => Φ d.val) 31 :=
  .of_eq (upto_eq_chain Φ)

/-- The peers of `c`, as an embedding of the 31 indices into the devices. -/
private def peerEmb (c : Dev nD) : Fin 31 ↪ Dev nD := ⟨peer c, peer_injective c⟩

/-- The peers of `c` are exactly the devices other than `c`. -/
private theorem map_peer (c : Dev nD) : (Finset.univ : Finset (Fin 31)).map (peerEmb c) = Finset.univ.erase c := by
  ext p
  simp only [Finset.mem_map, Finset.mem_univ, true_and, Finset.mem_erase, and_true, peerEmb, Function.Embedding.coeFn_mk]
  constructor
  · rintro ⟨d, rfl⟩; exact peer_ne c d
  · exact exists_peer c p

omit [FloatOps F] in
theorem bigSep_erase_eq_chain (c : Dev nD) (Φ : Dev nD → sProp 𝕄) :
    bigSep (Finset.univ.erase c) Φ = chain (fun d => Φ (peer c d)) 31 := by
  rw [chain_eq_bigSep, ← map_peer c, bigSep_map]; rfl

omit [FloatOps F] in
/-- Over the devices other than `c`: one entry per peer of `c`. -/
theorem bigSep_erase_iff_chain (c : Dev nD) (Φ : Dev nD → sProp 𝕄) :
    bigSep (Finset.univ.erase c) Φ ⊣⊢ chain (fun d => Φ (peer c d)) 31 :=
  .of_eq (bigSep_erase_eq_chain c Φ)

omit [FloatOps F] in
theorem bigSep_dev_eq (c : Dev nD) (Φ : Dev nD → sProp 𝕄) :
    bigSep Finset.univ Φ = iprop(Φ c ∗ chain (fun d => Φ (peer c d)) 31) := by
  rw [bigSep_univ_split c, bigSep_erase_eq_chain]; rfl

omit [FloatOps F] in
/-- Over all devices: `c`'s own entry and one per peer of `c`. -/
theorem bigSep_dev_iff (c : Dev nD) (Φ : Dev nD → sProp 𝕄) :
    bigSep Finset.univ Φ ⊣⊢ iprop(Φ c ∗ chain (fun d => Φ (peer c d)) 31) :=
  .of_eq (bigSep_dev_eq c Φ)

/-- info: 'Cert.Kernel.Proto.bigSep_dev_iff' depends on axioms: [propext, Classical.choice, Quot.sound] -/
#guard_msgs in #print axioms bigSep_dev_iff

end Cert.Kernel.Proto

end
-- ==== Proof.Bits.Regroup2.lean ====
/-
  Regrouping, continued: a device's scratch as its 32 rows, its positions cell by cell, its 64 own semaphores.

  A row's points-to sees only the row's index set. The 32 rows' index sets (first coordinate `p`) partition the scratch, so
  the scratch's points-to is `c`'s own row and the chain of its peers' rows. The row a device stores, the column-wise maximum
  of its own block, is its row of the complete array. A device's 65 cells are its barrier cell and, per device, a send and a
  receive cell; its 64 own semaphores are those send and receive cells' semaphores.
-/
import proofs.«900562_g7700000000000563_dist_max_ax0_shard0_i_m1024_n512_v7x_i32_f32_1_alg».proof.Proof.Bits.Regroup

import Mathlib.Logic.Equiv.Fin.Basic

noncomputable section

namespace Cert.Kernel.Proto

open Cert.Kernel Cert.Kernel.Gen Cert.Kernel.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The scratch and its rows -/

/-- A row's points-to sees only the row: contents that agree on the row's index set are interchangeable. -/
theorem rowPts_congr (c p : Dev nD) (q : PosShare TreeShare) (f g : Buf (Elt F) ((rowM p).view.loc (c : Thread nD τ)))
    (h : ∀ i ∈ (rowM p).view.set, f i = g i) : (rowPts c p q f : sProp 𝕄) ⊢ rowPts c p q g :=
  BIBase.Entails.of_eq (pointsTo_congr h)

/-- Row `p` of the scratch is the indices whose first coordinate is `p`. -/
private theorem mem_row (p : Dev nD) (i : S32x1x512.Idx) : i ∈ (rowRect p).set ↔ (i 0).val = p.val := by
  rw [Rect.mem_set_unit]
  have h1 : (i 1).val < 1 := (i 1).isLt
  have h2 : (i 2).val < 512 := (i 2).isLt
  constructor
  · intro h
    have h0 : p.val ≤ (i 0).val ∧ (i 0).val < p.val + 1 := h 0
    omega
  · intro h a
    match a with
    | ⟨0, _⟩ => exact ⟨by show p.val ≤ (i 0).val; omega, by show (i 0).val < p.val + 1; omega⟩
    | ⟨1, _⟩ => exact ⟨Nat.zero_le _, by show (i 1).val < 0 + 1; omega⟩
    | ⟨2, _⟩ => exact ⟨Nat.zero_le _, by show (i 2).val < 0 + 512; omega⟩

private theorem row_set (p : Dev nD) : (rowM p).view.set = (rowRect p).set := View.set_slice_whole cc0_scratch0 (rowRect p)

/-- The 32 rows cover the scratch. -/
private theorem rows_cover (c : Dev nD) :
    (Finset.univ : Finset (Idx ((c : Thread nD τ).loc cc0_scratch0))) = Finset.univ.biUnion fun p : Dev nD => (rowM p).view.set := by
  ext i
  simp only [Finset.mem_univ, Finset.mem_biUnion, true_and, true_iff]
  refine ⟨⟨(i 0).val, (i 0).isLt⟩, ?_⟩
  rw [row_set]; exact (mem_row _ i).mpr rfl

/-- Different rows share no index. -/
private theorem rows_disjoint (p p' : Dev nD) (h : p ≠ p') : Disjoint (rowM p).view.set (rowM p').view.set := by
  rw [row_set, row_set, Finset.disjoint_left]
  intro i hi hi'
  exact h (Fin.ext (((mem_row p i).mp hi).symm.trans ((mem_row p' i).mp hi')))

theorem scr_rows_eq (c : Dev nD) (q : PosShare TreeShare) (f : Buf (Elt F) ((c : Thread nD τ).loc cc0_scratch0)) :
    ((((c : Thread nD τ).loc cc0_scratch0) ↦{q} f) : sProp 𝕄)
      = iprop(rowPts c c q f ∗ chain (fun d => rowPts c (peer c d) q f) 31) := by
  rw [rows_cover c, pointsTo_biUnion Finset.univ _ fun p _ p' _ h => rows_disjoint p p' h]
  exact bigSep_dev_eq c fun p => rowPts c p q f

/-- The scratch is its 32 rows: `c`'s own and one per peer. -/
theorem scr_rows (c : Dev nD) (q : PosShare TreeShare) (f : Buf (Elt F) ((c : Thread nD τ).loc cc0_scratch0)) :
    ((((c : Thread nD τ).loc cc0_scratch0) ↦{q} f) : sProp 𝕄)
      ⊣⊢ iprop(rowPts c c q f ∗ chain (fun d => rowPts c (peer c d) q f) 31) :=
  .of_eq (scr_rows_eq c q f)

/-- The row a device stores, the column-wise maximum of its own block, is its row of the complete array. -/
theorem stored_row (c : Dev nD) (f : Buf (Elt F) ((c : Thread nD τ).loc cc0_scratch0)) :
    ∀ i ∈ (rowM c).view.set,
      ((scrM.access (rowRect c) : View sig .tc _ _ _).write (Elt F) f (k0_pay2 (xblk m c)) Finset.univ) i = RED m i := by
  intro i hi
  obtain ⟨y, -, rfl⟩ := Finset.mem_map.mp hi
  rw [View.write_emb_of_mem _ _ (Finset.mem_univ y)]
  have hy0 : (y 0).val < 1 := (y 0).isLt
  have hy1 : (y 1).val < 1 := (y 1).isLt
  have e0 : ((scrM.access (rowRect c) : View sig .tc _ _ _).emb y) 0 = c := by
    apply Fin.ext; show c.val + 1 * (y 0).val = c.val; omega
  have e2 : colIdx (((scrM.access (rowRect c) : View sig .tc _ _ _).emb y) 2) = y := by
    funext a
    match a with
    | ⟨0, _⟩ => apply Fin.ext; show 0 = (y 0).val; omega
    | ⟨1, _⟩ => apply Fin.ext; show 0 = (y 1).val; omega
    | ⟨2, _⟩ => apply Fin.ext; show 0 + 1 * (y 2).val = (y 2).val; omega
  show _ = k0_pay2 (xblk m (((scrM.access (rowRect c) : View sig .tc _ _ _).emb y) 0)) (colIdx (((scrM.access (rowRect c) : View sig .tc _ _ _).emb y) 2))
  rw [e0, e2]; exact cast_eq _ _

/-! ## Cells and own semaphores, regrouped -/

omit [FloatOps F] in
private theorem sepC' (P Q : sProp 𝕄) : iprop(P ∗ Q) = iprop(Q ∗ P) :=
  Idealize.SL.BI.Entails.antisymm Idealize.SL.BI.sep_comm Idealize.SL.BI.sep_comm
omit [FloatOps F] in
private theorem sepA' (P Q R : sProp 𝕄) : iprop((P ∗ Q) ∗ R) = iprop(P ∗ Q ∗ R) :=
  Idealize.SL.BI.Entails.antisymm Idealize.SL.BI.sep_assoc Idealize.SL.BI.sep_assoc'
omit [FloatOps F] in
/-- Two pairs, regrouped: the two heads, then the two tails. -/
private theorem sep4 (S CS R CR : sProp 𝕄) : iprop((S ∗ CS) ∗ (R ∗ CR)) = iprop(S ∗ R ∗ CS ∗ CR) := by
  rw [sepA', ← sepA' CS, sepC' CS R, sepA']

omit [FloatOps F] in
/-- Over an optional index: the entry at `none` and the entries at `some`. -/
private theorem bigSep_option {α : Type} [Fintype α] [DecidableEq α] (Φ : Option α → sProp 𝕄) :
    bigSep Finset.univ Φ = iprop(Φ none ∗ bigSep Finset.univ fun a => Φ (some a)) := by
  have e : (Finset.univ : Finset (Option α)).erase none = Finset.univ.map Function.Embedding.some := by
    ext x; cases x <;> simp
  rw [bigSep_univ_split none, e, bigSep_map]; rfl

omit [FloatOps F] in
private theorem bigSep_bool (Φ : Bool → sProp 𝕄) : bigSep Finset.univ Φ = iprop(Φ false ∗ Φ true) := by
  have e : (Finset.univ : Finset Bool).erase false = {true} := by decide
  rw [bigSep_univ_split false, e, bigSep_singleton]; rfl

omit [FloatOps F] in
theorem positions_eq (c : Dev nD) : (positions c : sProp 𝕄)
    = iprop(atPos ER (barCell c) 0 ∅ 0 ∗ atPos ER (sendCell c c) 0 ∅ 0 ∗ atPos ER (recvCell c c) 0 ∅ 0 ∗ sndPos c 31 ∗ rcvPos c 31) := by
  unfold positions sndPos rcvPos
  rw [bigSep_option, bigSep_univ_prod, bigSep_bool,
    bigSep_dev_eq c fun p => atPos ER (kcell (c, some (false, p))) 0 ∅ 0,
    bigSep_dev_eq c fun p => atPos ER (kcell (c, some (true, p))) 0 ∅ 0]
  exact congrArg (fun X : sProp 𝕄 => iprop(atPos ER (barCell c) 0 ∅ 0 ∗ X)) (sep4 _ _ _ _)

omit [FloatOps F] in
/-- A device's positions: its barrier cell's, its two self cells', and the chains over its peers' send and receive cells. -/
theorem positions_iff (c : Dev nD) : (positions c : sProp 𝕄)
    ⊣⊢ iprop(atPos ER (barCell c) 0 ∅ 0 ∗ atPos ER (sendCell c c) 0 ∅ 0 ∗ atPos ER (recvCell c c) 0 ∅ 0 ∗ sndPos c 31 ∗ rcvPos c 31) :=
  .of_eq (positions_eq c)

/-- The 64 own semaphores: the first 32 are the send semaphores, the last 32 the receive semaphores. -/
private def ownIx : Fin 32 ⊕ Fin 32 ≃ Fin 64 := (finSumFinEquiv : Fin 32 ⊕ Fin 32 ≃ Fin (32 + 32))

private theorem osem_inl (a : Fin 32) : osem (ownIx (Sum.inl a)) = .dma (sendSem a) :=
  congrArg SemLoc.dma (Fin.ext rfl)
private theorem osem_inr (b : Fin 32) : osem (ownIx (Sum.inr b)) = .dma (recvSem b) :=
  congrArg SemLoc.dma (Fin.ext (by show 2 + (32 + b.val) = 34 + b.val; omega))

omit [FloatOps F] in
theorem ownSems0_eq (c : Dev nD) : (Pipeline.ownSems0 osem c : sProp 𝕄)
    = iprop(semVal (sendCell c c) 0 ∗ semVal (recvCell c c) 0 ∗ upto (fun k => semVal (sendCell c (peerN c k)) 0) 31
        ∗ upto (fun k => semVal (recvCell c (peerN c k)) 0) 31) := by
  unfold Pipeline.ownSems0
  rw [bigSep_univ_equiv ownIx, bigSep_univ_sum]
  simp only [osem_inl, osem_inr]
  rw [bigSep_dev_eq c fun p => semVal (sendCell c p) 0, bigSep_dev_eq c fun p => semVal (recvCell c p) 0,
    upto_eq_chain, upto_eq_chain]
  exact sep4 _ _ _ _

omit [FloatOps F] in
/-- The own semaphores at zero, cell by cell, close into the launch's form. -/
theorem ownSems0_of_cells (c : Dev nD) :
    iprop(semVal (sendCell c c) 0 ∗ semVal (recvCell c c) 0 ∗ upto (fun k => semVal (sendCell c (peerN c k)) 0) 31
        ∗ upto (fun k => semVal (recvCell c (peerN c k)) 0) 31) ⊢ (Pipeline.ownSems0 osem c : sProp 𝕄) :=
  BIBase.Entails.of_eq (ownSems0_eq c).symm

/-- info: 'Cert.Kernel.Proto.rowPts_congr' depends on axioms: [propext, Classical.choice, Quot.sound] -/
#guard_msgs in #print axioms rowPts_congr

/-- info: 'Cert.Kernel.Proto.scr_rows' depends on axioms: [propext, Classical.choice, Quot.sound] -/
#guard_msgs in #print axioms scr_rows

/-- info: 'Cert.Kernel.Proto.stored_row' depends on axioms: [propext, Classical.choice, Quot.sound] -/
#guard_msgs in #print axioms stored_row

/-- info: 'Cert.Kernel.Proto.positions_iff' depends on axioms: [propext, Classical.choice, Quot.sound] -/
#guard_msgs in #print axioms positions_iff

/-- info: 'Cert.Kernel.Proto.ownSems0_of_cells' depends on axioms: [propext, Classical.choice, Quot.sound] -/
#guard_msgs in #print axioms ownSems0_of_cells

end Cert.Kernel.Proto

end
-- ==== Proof.Bits.StepsA.lean ====
/-
  The two steps a device takes on barrier cells: the unit it signals to one peer's barrier cell, handing that peer the row of
  its own scratch the peer will write, and the wait for the 31 units on its own barrier cell, which hands it row `c` of every
  peer's scratch.
-/
import proofs.«900562_g7700000000000563_dist_max_ax0_shard0_i_m1024_n512_v7x_i32_f32_1_alg».proof.Proof.Bits.Regroup

noncomputable section

namespace Cert.Kernel.Proto

open Cert.Kernel Cert.Kernel.Gen Cert.Kernel.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)
variable (K : Dev nD × CellIx → ℕ)

/-! ## One cell's records -/

/-- The invariant of one cell, out of the records. -/
theorem records_inv (ck : Dev nD × CellIx) : records m K ⊢ cellInv ER (sched m) (K ck) (kcell ck) := by
  unfold records
  exact sep_elim_left.trans
    (bigSep_elim (Φ := fun ck : Dev nD × CellIx => cellInv ER (sched m) (K ck) (kcell ck)) (Finset.mem_univ ck))

/-- That one cell has reached round 0, out of the records. -/
theorem records_reached (ck : Dev nD × CellIx) : records m K ⊢ reached ER (kcell ck) 0 := by
  unfold records
  exact sep_elim_right.trans
    (bigSep_elim (Φ := fun ck : Dev nD × CellIx => reached ER (kcell ck) 0) (Finset.mem_univ ck))

/-- The barrier cell's invariant and the rounds reached, at the cells as the steps name them. -/
theorem records_bar (n : Dev nD) : records m K ⊢ cellInv ER (sched m) (K (n, none)) (barCell n) := records_inv m K (n, none)
theorem records_bar_reached (n : Dev nD) : records m K ⊢ reached ER (barCell n) 0 := records_reached m K (n, none)
theorem records_recv_reached (c n : Dev nD) : records m K ⊢ reached ER (recvCell c n) 0 := records_reached m K (c, some (true, n))

/-! ## The barrier cell's tables, the payload as the points-to it is -/

private theorem payload_bar_pts (c d : Dev nD) : (sched (F := F) m).payload (barCell c) 0 d
    = iprop((∃ f, (rowM c).view.loc (d : Thread nD τ) ↦[(rowM c).view.set]{fullShare} f) ∗ reached ER (recvCell d c) 0) := rfl

private theorem bar_mem (c : Dev nD) (d : Fin 31) : c ∈ (sched (F := F) m).duties (barCell (peer c d)) 0 := by
  rw [duties_bar]; exact Finset.mem_erase.mpr ⟨(peer_ne c d).symm, Finset.mem_univ _⟩

private theorem bar_mem' (c : Dev nD) (d : Fin 31) : c ∈ (Finset.univ : Finset (Dev nD)).erase (peer c d) :=
  Finset.mem_erase.mpr ⟨(peer_ne c d).symm, Finset.mem_univ _⟩

attribute [local sl_rounds] duties_bar amount_bar expect_bar payload_bar_pts bar_mem bar_mem'

/-! ## The signal to peer `k` -/

/-- What is owed after `k` signals is what is owed after `k + 1`, and the unit to peer `k`'s barrier cell. -/
theorem oSig_peel (c : Dev nD) (k : ℕ) (hk : k < 31) :
    oSig c (31 - k) = oSig c (30 - k) + tallyAt (barCell (peer c ⟨k, hk⟩)) () 1 := by
  have h : 31 - k = (30 - k) + 1 := by omega
  rw [h, oSig_succ]
  have e : (⟨30 - (30 - k), by omega⟩ : Fin 31) = ⟨k, hk⟩ := Fin.ext (by show 30 - (30 - k) = k; omega)
  rw [e]

/-- The signal to peer `k`: it pays duty `c` of that peer's barrier cell with the row of `c`'s scratch that peer writes. -/
theorem step_signal (c : Dev nD) (k : ℕ) (hk : k < 31) (n : Dev nD) (hn : n = peer c ⟨k, hk⟩) {k' : ℕ} (hk' : k' = 1)
    {α : Type} {Q : α → sProp 𝕄} {kont : PUnit → Prog (TpuEff nD τ sig (Elt F) Λ₀ .tc) α} {W : Waits sig Unit} :
    iprop(records m K ∗ owes (c : Thread nD τ) (oSig c (31 - k)) W ∗ sigToks c (31 - k) ∗ slots c (31 - k))
      ⊢ iprop(((owes (c : Thread nD τ) (oSig c (30 - k)) W ∗ sigToks c (30 - k) ∗ slots c (30 - k))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS k') kont) Q) := by
  subst hn; subst hk'
  unfold sigToks slots
  rw [chain_peel _ k hk, chain_peel _ k hk, oSig_peel c k hk]
  iintro ⟨#Hrec, HO, ⟨Htoks, Htok⟩, ⟨Hslots, ⟨%f, Hslot⟩⟩⟩ Hk
  ihave #HI := (records_bar m K (peer c ⟨k, hk⟩)) $$ Hrec
  ihave #HrB := (records_bar_reached m K (peer c ⟨k, hk⟩)) $$ Hrec
  ihave #HrV := (records_recv_reached m K c (peer c ⟨k, hk⟩)) $$ Hrec
  unfold rowPts
  sl_exec
  iapply Hk
  isplitl [HO]; · iexact HO
  isplitl [Htoks]; · iexact Htoks
  iexact Hslots

/-! ## The wait on its own barrier cell -/

/-- What the 31 landed units hand over, kept to the rows: row `c` of every peer's scratch. -/
theorem barPays_dsts (c : Dev nD) :
    bigSep (Finset.univ.erase c) (fun p => barPay (F := F) c p) ⊢ dsts (F := F) c 31 := by
  unfold dsts
  rw [← bigSep_erase_eq_chain c (fun p => iprop(∃ f, rowPts (F := F) p c fullShare f))]
  refine bigSep_mono (Φ := fun p => barPay (F := F) c p) (Ψ := fun p => iprop(∃ f, rowPts (F := F) p c fullShare f)) ?_
  intro p _
  show iprop((∃ f, rowPts (F := F) p c fullShare f) ∗ reached ER (recvCell p c) 0) ⊢ iprop(∃ f, rowPts (F := F) p c fullShare f)
  exact sep_elim_left

/-- The wait for the 31 units of its barrier cell: every peer's unit has landed, and with it row `c` of that peer's scratch. -/
theorem step_barrier_wait (c : Dev nD) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (.reg barS) k' Kt) (hk' : k' = 31)
    (hmw : (levAts L lv : sProp 𝕄) ⊢ MayWait (c : Thread nD τ) (.reg barS) () (oRecv c 31))
    {α : Type} {Q : α → sProp 𝕄} {kont : PUnit → Prog (TpuEff nD τ sig (Elt F) Λ₀ .tc) α} {W : Waits sig Unit} :
    iprop(records m K ∗ levAts L lv ∗ cred (tallyAt (barCell c) () 31) ∗ owes (c : Thread nD τ) (oRecv c 31) W ∗ atPos ER (barCell c) 0 ∅ 0)
      ⊢ iprop(((owes (c : Thread nD τ) (oRecv c 31) (insert (SemLoc.reg barS, ()) W) ∗ atPos ER (barCell c) 1 ∅ 0 ∗ dsts (F := F) c 31)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hk'
  iintro ⟨#Hrec, #Hlev, Hc, HO, Hat⟩ Hk
  ihave #HI := (records_inv m K (c, none)) $$ Hrec
  iapply (Rounds.wp_wait_rest_token 𝒱₀ ER (sched m) (c : Thread nD τ) none (κ := K (c, none)) hw (Set.mem_univ _) ()
      (O := oRecv c 31) (W := W) (R := 0) (m := 0) (T := ∅) (by rw [expect_bar])) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (Entails.of_eq (rest_bar m c)) $$ Hpay
  ihave Hd := (barPays_dsts (F := F) c) $$ Hp
  iapply Hk
  isplitl [HO]; · iexact HO
  isplitl [Hat]; · iexact Hat
  iexact Hd

/-- The same, the payloads spelt as the points-to they are. -/
theorem barPays_dsts_pts (c : Dev nD) :
    bigSep (Finset.univ.erase c) (fun d : Dev nD =>
        iprop((∃ f, (rowM c).view.loc (d : Thread nD τ) ↦[(rowM c).view.set]{fullShare} f) ∗ reached ER (recvCell d c) 0))
      ⊢ dsts (F := F) c 31 := barPays_dsts c

/-- The same wait, the effect spelt out: the wait for 31 on the barrier semaphore. -/
theorem step_barrier_wait_sem (c : Dev nD) {k' : ℕ} (hk' : k' = 31)
    (hmw : (levAts L lv : sProp 𝕄) ⊢ MayWait (c : Thread nD τ) (.reg barS) () (oRecv c 31))
    {α : Type} {Q : α → sProp 𝕄} {kont : PUnit → Prog (TpuEff nD τ sig (Elt F) Λ₀ .tc) α} {W : Waits sig Unit} :
    iprop(records m K ∗ levAts L lv ∗ cred (tallyAt (barCell c) () 31) ∗ owes (c : Thread nD τ) (oRecv c 31) W ∗ atPos ER (barCell c) 0 ∅ 0)
      ⊢ iprop(((owes (c : Thread nD τ) (oRecv c 31) (insert (SemLoc.reg barS, ()) W) ∗ atPos ER (barCell c) 1 ∅ 0 ∗ dsts (F := F) c 31)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS k') kont) Q) := by
  subst hk'
  iintro ⟨#Hrec, #Hlev, Hc, HO, Hat⟩ Hk
  ihave #HI := (records_bar m K c) $$ Hrec
  ihave #Hmw := hmw $$ Hlev
  sl_exec
  ihave Hd := (barPays_dsts_pts (F := F) c) $$ Hat_pay1
  iapply Hk
  isplitl [HO]; · iexact HO
  isplitl [Hat]; · iexact Hat
  iexact Hd

/-- info: 'Cert.Kernel.Proto.step_signal' depends on axioms: [propext, Classical.choice, Quot.sound] -/
#guard_msgs in #print axioms step_signal

/-- info: 'Cert.Kernel.Proto.step_barrier_wait' depends on axioms: [propext, Classical.choice, Quot.sound] -/
#guard_msgs in #print axioms step_barrier_wait

/-- info: 'Cert.Kernel.Proto.step_barrier_wait_sem' depends on axioms: [propext, Classical.choice, Quot.sound] -/
#guard_msgs in #print axioms step_barrier_wait_sem

end Cert.Kernel.Proto

end
-- ==== Proof.Bits.StepsB.lean ====
/-
  One peer at a time: the copy of a device's own row to its k-th peer, the wait for that peer's row, the wait for the
  copy's read share, and, after all 31 peers, the closing of the device's 64 own cells.

  Each step is stated for the k-th peer of a device in the order of the walk: what is still held for peers k … 30 is a
  chain that gives up peer k's entry, what has been gathered from peers 0 … k-1 takes one more entry.
-/
import proofs.«900562_g7700000000000563_dist_max_ax0_shard0_i_m1024_n512_v7x_i32_f32_1_alg».proof.Proof.Bits.Data
import Idealize.ShloMosaic.Lib.Pipeline.Value

noncomputable section

namespace Cert.Kernel.Proto

open Cert.Kernel Cert.Kernel.Gen Cert.Kernel.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)
variable (K : Dev nD × CellIx → ℕ)

/-! ## Out of the records -/

/-- A cell's invariant, out of the records. -/
private theorem rec_inv (ck : Dev nD × CellIx) : records m K ⊢ cellInv ER (sched m) (K ck) (kcell ck) := by
  unfold records
  exact (BI.sep_and.trans BI.and_elimL).trans
    (bigSep_elim (Φ := fun ck : Dev nD × CellIx => cellInv ER (sched m) (K ck) (kcell ck)) (Finset.mem_univ ck))

/-- That a cell has reached round 0, out of the records. -/
private theorem rec_reached (ck : Dev nD × CellIx) : records m K ⊢ reached ER (kcell ck) 0 := by
  unfold records
  exact (BI.sep_and.trans BI.and_elimR).trans
    (bigSep_elim (Φ := fun ck : Dev nD × CellIx => reached ER (kcell ck) 0) (Finset.mem_univ ck))

/-- What is owed to the receive cells of peers k … 30 is what is owed to those of peers k+1 … 30 and peer k's. -/
private theorem oRecv_peel (c : Dev nD) (k : ℕ) (hk : k < 31) :
    oRecv c (31 - k) = oRecv c (30 - k) + tallyAt (recvCell (peer c ⟨k, hk⟩) c) () N := by
  have h : 31 - k = (30 - k) + 1 := by omega
  rw [h, oRecv_succ]
  have e : (⟨30 - (30 - k), by omega⟩ : Fin 31) = ⟨k, hk⟩ := Fin.ext (by show 30 - (30 - k) = k; omega)
  rw [e]

/-! ## The copy -/

/-- What a copy of row `c` lands on a peer's row `c` is, on that row, row `c` of the complete array: the copy
    reads the row off the complete array and writes every element of the row. -/
private theorem landed_row (c n : Dev nD) (fd : Buf (Elt F) ((rowM c).view.loc (n : Thread nD τ))) :
    ∀ i ∈ (rowM c).view.set,
      (rowM c).view.write (Elt F) fd ((rowM c).view.read (Elt F) (RED m)) Finset.univ i = RED m i := by
  intro i hi
  obtain ⟨y, rfl⟩ := View.exists_emb_of_mem_set _ hi
  rw [View.write_emb_of_mem _ _ (Finset.mem_univ y), View.read_apply, cast_cast, cast_eq]

/-- The copy rule at the cells of one copy: device `c` copies its row `c` into row `c` of `n`'s scratch, paying duty `n`
    of its own send cell for `n` and duty `c` of `n`'s receive cell `c`. -/
private theorem wp_send_row (c : Dev nD) (k : ℕ) (hk : k < 31) (n : Dev nD) (hn : n = peer c ⟨k, hk⟩)
    {hsc : ((rowM c : Memref sig (Dev.tc n : Thread nD τ).2.kind .vmem S1x1x512 .f32)).view.ref.isScScratch = false}
    {hsrc : (rowM c).view.WordExact} {hdst : (rowM c).view.WordExact}
    {hsem : DmaTarget.Typed .vmem (.dma (recvSem c)) (.remote (Dev.tc n : Thread nD τ) (rowM c) (.dma (sendSem n)) hsc)}
    {α : Type} {Q : α → sProp 𝕄} {kont : PUnit → Prog (TpuEff nD τ sig (Elt F) Λ₀ .tc) α} {W : Waits sig Unit}
    (fd : Buf (Elt F) ((rowM c).view.loc (n : Thread nD τ))) (O : CellTallies nD τ sig Unit) :
    iprop(cellInv ER (sched m) (K (c, some (false, n))) (sendCell c n) ∗ cellInv ER (sched m) (K (n, some (true, c))) (recvCell n c)
        ∗ rowPts c c (shareTok fullShare 31 ⟨k, hk⟩) (RED m) ∗ rowPts n c fullShare fd
        ∗ owes (c : Thread nD τ) (O + tallyAt (recvCell n c) () N) W
        ∗ dutyTok ER (sendCell c n) 0 n ∗ reached ER (sendCell c n) 0
        ∗ dutyTok ER (recvCell n c) 0 c ∗ reached ER (recvCell n c) 0)
      ⊢ iprop(((cred (tallyAt (sendCell c n) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM c) (.remote (Dev.tc n : Thread nD τ) (rowM c) (.dma (sendSem n)) hsc) (.dma (recvSem c)) hsrc hdst hsem) kont) Q) := by
  subst hn
  have hne : peer c ⟨k, hk⟩ ≠ c := peer_ne c ⟨k, hk⟩
  unfold rowPts
  exact Rounds.wp_send_pointsTo 𝒱₀ ER (sched m) (c : Thread nD τ) none
    (c' := (peer c ⟨k, hk⟩ : Thread nD τ)) (src := rowM c) (dst := rowM c)
    (q := shareTok fullShare 31 ⟨k, hk⟩) (fs := RED m) (fd := fd)
    (κ₁ := K (c, some (false, peer c ⟨k, hk⟩))) (κ₂ := K (peer c ⟨k, hk⟩, some (true, c)))
    (r₁ := 0) (r₂ := 0) (d₁ := peer c ⟨k, hk⟩) (d₂ := c)
    (by rw [duties_send m c _ hne]; exact Finset.mem_singleton_self _)
    (by rw [duties_recv m _ c hne.symm]; exact Finset.mem_singleton_self _)
    () () N rfl (amount_send m c _ _) (amount_recv m _ c _) O rfl (W := W)
    (by rw [payload_send]; unfold sendPay rowPts; rw [offOf_peer])
    (by rw [payload_recv]; unfold recvPay rowPts
        exact Entails.of_eq (pointsTo_congr (landed_row m c (peer c ⟨k, hk⟩) fd)))

/-- The copy to the k-th peer `n`: the device gives up, for that peer, the credit it owed the peer's receive cell, its
    two duty tokens, the share of its own row that the copy reads and the peer's row `c` it was handed, and gathers the
    credit the copy puts on its send cell for `n`. -/
theorem step_send (c : Dev nD) (k : ℕ) (hk : k < 31) (n : Dev nD) (hn : n = peer c ⟨k, hk⟩)
    {hsc : ((rowM c : Memref sig (Dev.tc n : Thread nD τ).2.kind .vmem S1x1x512 .f32)).view.ref.isScScratch = false}
    {hsrc : (rowM c).view.WordExact} {hdst : (rowM c).view.WordExact}
    {hsem : DmaTarget.Typed .vmem (.dma (recvSem c)) (.remote (Dev.tc n : Thread nD τ) (rowM c) (.dma (sendSem n)) hsc)}
    {α : Type} {Q : α → sProp 𝕄} {kont : PUnit → Prog (TpuEff nD τ sig (Elt F) Λ₀ .tc) α} {W : Waits sig Unit} :
    iprop(records m K ∗ owes (c : Thread nD τ) (oRecv c (31 - k)) W ∗ rcvToks c (31 - k) ∗ sndToks c (31 - k) ∗ srcShares m c (31 - k) ∗ dsts (F := F) c (31 - k) ∗ sndCreds c k)
      ⊢ iprop(((owes (c : Thread nD τ) (oRecv c (30 - k)) W ∗ rcvToks c (30 - k) ∗ sndToks c (30 - k) ∗ srcShares m c (30 - k) ∗ dsts (F := F) c (30 - k) ∗ sndCreds c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM c) (.remote (Dev.tc n : Thread nD τ) (rowM c) (.dma (sendSem n)) hsc) (.dma (recvSem c)) hsrc hdst hsem) kont) Q) := by
  subst hn
  rw [oRecv_peel c k hk]
  unfold rcvToks sndToks srcShares dsts sndCreds
  rw [chain_peel _ k hk, chain_peel _ k hk, chain_peel _ k hk, chain_peel _ k hk, upto_succ]
  iintro ⟨#Hrec, HO, ⟨HrT, Htr⟩, ⟨HsT, Hts⟩, ⟨Hsrc, Hs⟩, ⟨Hdst, ⟨%fd, Hd⟩⟩, Hcr⟩ Hk
  ihave #HIs := (rec_inv m K (c, some (false, peer c ⟨k, hk⟩))) $$ Hrec
  ihave #HRs := (rec_reached m K (c, some (false, peer c ⟨k, hk⟩))) $$ Hrec
  ihave #HIr := (rec_inv m K (peer c ⟨k, hk⟩, some (true, c))) $$ Hrec
  ihave #HRr := (rec_reached m K (peer c ⟨k, hk⟩, some (true, c))) $$ Hrec
  iapply (wp_send_row m K c k hk _ rfl fd (oRecv c (30 - k))) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact HRs
    isplitl [Htr]; · iexact Htr
    iexact HRr
  iintro ⟨Hc, HO⟩
  iapply Hk
  isplitl [HO]; · iexact HO
  isplitl [HrT]; · iexact HrT
  isplitl [HsT]; · iexact HsT
  isplitl [Hsrc]; · iexact Hsrc
  isplitl [Hdst]; · iexact Hdst
  isplitl [Hcr]; · iexact Hcr
  iexact Hc

/-! ## The two waits -/

/-- The credit the device's 31 copies put on its send cells, as a chain that gives up peer `k`'s first. -/
def sndCredsC (c : Dev nD) : ℕ → sProp 𝕄 := chain fun d => cred (tallyAt (sendCell c (peer c d)) () N)

/-- The wait on its receive cell for the k-th peer `n`, owing nothing: the row's credit and its position on the cell go
    in; the cell is past its one round, and row `n` of its scratch holds row `n` of the complete array. -/
theorem step_recv_wait (c : Dev nD) (k : ℕ) (hk : k < 31) (n : Dev nD) (hn : n = peer c ⟨k, hk⟩)
    {w : TpuEff nD τ sig (Elt F) Λ₀ .tc PUnit} {k' : ℕ}
    (hw : ∀ Kt : PUnit → sProp 𝕄, wpE (defs₀ (F := F)) 𝒱₀ (c : Thread nD τ) none Set.univ w Kt
      = waitSpec (c : Thread nD τ) Set.univ (.dma (recvSem n)) k' Kt) (hk' : k' = N)
    {α : Type} {Q : α → sProp 𝕄} {kont : PUnit → Prog (TpuEff nD τ sig (Elt F) Λ₀ .tc) α} {W : Waits sig Unit} :
    iprop(records m K ∗ owes (c : Thread nD τ) 0 W ∗ rcvCreds c (31 - k) ∗ rcvPos c (31 - k) ∗ gotRows m c k ∗ rcvDone c k)
      ⊢ iprop(((owes (c : Thread nD τ) 0 (insert (SemLoc.dma (recvSem n), ()) W) ∗ rcvCreds c (30 - k) ∗ rcvPos c (30 - k) ∗ gotRows m c (k + 1) ∗ rcvDone c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn; subst hk'
  have hne : peer c ⟨k, hk⟩ ≠ c := peer_ne c ⟨k, hk⟩
  unfold rcvCreds rcvPos gotRows rcvDone
  rw [chain_peel _ k hk, chain_peel _ k hk, upto_succ, upto_succ]
  iintro ⟨#Hrec, HO, ⟨Hcr, Hc⟩, ⟨Hps, Hp⟩, Hg, Hd⟩ Hk
  ihave #HI := (rec_inv m K (c, some (true, peer c ⟨k, hk⟩))) $$ Hrec
  iapply (Rounds.wp_wait_rest_token 𝒱₀ ER (sched m) (c : Thread nD τ) none (κ := K (c, some (true, peer c ⟨k, hk⟩)))
      hw (Set.mem_univ _) () (O := 0) (W := W) (R := 0) (m := 0) (T := ∅)
      (by rw [Nat.zero_add, expect_recv m c _ hne])) $$ [Hc HO Hp]
  · isplitr; · iexact HI
    isplitl [Hc]; · iexact Hc
    isplitl [HO]; · iexact HO
    isplitr; · rw [MayWait_zero]; iempintro
    iexact Hp
  iintro ⟨HO, Hat, -, Hpay⟩
  ihave Hrow := (Entails.of_eq (rest_recv m c _ hne)) $$ Hpay
  unfold recvPay
  iapply Hk
  isplitl [HO]; · iexact HO
  isplitl [Hcr]; · iexact Hcr
  isplitl [Hps]; · iexact Hps
  isplitl [Hg Hrow]
  · isplitl [Hg]; · iexact Hg
    iexact Hrow
  isplitl [Hd]; · iexact Hd
  iexact Hat

/-- The wait on its send cell for the k-th peer `n`, owing nothing: the credit its copy to `n` put there and its
    position on the cell go in; the cell is past its one round, and the share of its own row that copy read is back. -/
theorem step_send_wait (c : Dev nD) (k : ℕ) (hk : k < 31) (n : Dev nD) (hn : n = peer c ⟨k, hk⟩)
    {w : TpuEff nD τ sig (Elt F) Λ₀ .tc PUnit} {k' : ℕ}
    (hw : ∀ Kt : PUnit → sProp 𝕄, wpE (defs₀ (F := F)) 𝒱₀ (c : Thread nD τ) none Set.univ w Kt
      = waitSpec (c : Thread nD τ) Set.univ (.dma (sendSem n)) k' Kt) (hk' : k' = N)
    {α : Type} {Q : α → sProp 𝕄} {kont : PUnit → Prog (TpuEff nD τ sig (Elt F) Λ₀ .tc) α} {W : Waits sig Unit} :
    iprop(records m K ∗ owes (c : Thread nD τ) 0 W ∗ sndCredsC (F := F) c (31 - k) ∗ sndPos c (31 - k) ∗ gotShares m c k ∗ sndDone c k)
      ⊢ iprop(((owes (c : Thread nD τ) 0 (insert (SemLoc.dma (sendSem n), ()) W) ∗ sndCredsC (F := F) c (30 - k) ∗ sndPos c (30 - k) ∗ gotShares m c (k + 1) ∗ sndDone c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hn; subst hk'
  have hne : peer c ⟨k, hk⟩ ≠ c := peer_ne c ⟨k, hk⟩
  unfold sndCredsC sndPos gotShares sndDone
  rw [chain_peel _ k hk, chain_peel _ k hk, upto_succ, upto_succ]
  iintro ⟨#Hrec, HO, ⟨Hcr, Hc⟩, ⟨Hps, Hp⟩, Hg, Hd⟩ Hk
  ihave #HI := (rec_inv m K (c, some (false, peer c ⟨k, hk⟩))) $$ Hrec
  iapply (Rounds.wp_wait_rest_token 𝒱₀ ER (sched m) (c : Thread nD τ) none (κ := K (c, some (false, peer c ⟨k, hk⟩)))
      hw (Set.mem_univ _) () (O := 0) (W := W) (R := 0) (m := 0) (T := ∅)
      (by rw [Nat.zero_add, expect_send m c _ hne])) $$ [Hc HO Hp]
  · isplitr; · iexact HI
    isplitl [Hc]; · iexact Hc
    isplitl [HO]; · iexact HO
    isplitr; · rw [MayWait_zero]; iempintro
    iexact Hp
  iintro ⟨HO, Hat, -, Hpay⟩
  ihave Hrow := (Entails.of_eq ((rest_send m c _ hne).trans (by unfold sendPay; rw [offOf_peer]))) $$ Hpay
  iapply Hk
  isplitl [HO]; · iexact HO
  isplitl [Hcr]; · iexact Hcr
  isplitl [Hps]; · iexact Hps
  isplitl [Hg Hrow]
  · isplitl [Hg]; · iexact Hg
    iexact Hrow
  isplitl [Hd]; · iexact Hd
  iexact Hat

/-! ## The two waits, the wait named as the program spells it -/

/-- The invariants of a receive cell and of a send cell, out of the records. -/
private theorem rec_inv_recv (c p : Dev nD) : records m K ⊢ cellInv ER (sched m) (K (c, some (true, p))) (recvCell c p) :=
  rec_inv m K (c, some (true, p))
private theorem rec_inv_send (c p : Dev nD) : records m K ⊢ cellInv ER (sched m) (K (c, some (false, p))) (sendCell c p) :=
  rec_inv m K (c, some (false, p))

/-- The tables of a receive cell and of a send cell for a peer, with the payload spelt as the row it is. -/
private theorem payload_recv_row (c p d : Dev nD) : (sched (F := F) m).payload (recvCell c p) 0 d
    = ((rowM p).view.loc (c : Thread nD τ) ↦[(rowM p).view.set]{fullShare} RED m) := payload_recv m c p d
private theorem duties_recv_peer (c : Dev nD) (d : Fin 31) : (sched (F := F) m).duties (recvCell c (peer c d)) 0 = {peer c d} :=
  duties_recv m c _ (peer_ne c d)
private theorem expect_recv_peer (c : Dev nD) (d : Fin 31) : (sched (F := F) m).expect (recvCell c (peer c d)) 0 = N :=
  expect_recv m c _ (peer_ne c d)
private theorem payload_send_row (c : Dev nD) (e : Fin 31) (d : Dev nD) : (sched (F := F) m).payload (sendCell c (peer c e)) 0 d
    = ((rowM c).view.loc (c : Thread nD τ) ↦[(rowM c).view.set]{Transfers.shareTokN fullShare e.val} RED m) := by
  rw [payload_send]; unfold sendPay rowPts; rw [offOf_peer]
private theorem duties_send_peer (c : Dev nD) (d : Fin 31) : (sched (F := F) m).duties (sendCell c (peer c d)) 0 = {peer c d} :=
  duties_send m c _ (peer_ne c d)
private theorem expect_send_peer (c : Dev nD) (d : Fin 31) : (sched (F := F) m).expect (sendCell c (peer c d)) 0 = N :=
  expect_send m c _ (peer_ne c d)

attribute [local sl_rounds] payload_recv_row duties_recv_peer expect_recv_peer amount_recv
  payload_send_row duties_send_peer expect_send_peer amount_send

/-- `step_recv_wait` with the wait named: the wait on receive semaphore `n` for the credit of row `n` of the scratch. -/
theorem step_recv_wait_dma (c : Dev nD) (k : ℕ) (hk : k < 31) (n : Dev nD) (hn : n = peer c ⟨k, hk⟩)
    {hs : (rowM n).view.WordExact} {hd : (rowM n).view.WordExact}
    {α : Type} {Q : α → sProp 𝕄} {kont : PUnit → Prog (TpuEff nD τ sig (Elt F) Λ₀ .tc) α} {W : Waits sig Unit} :
    iprop(records m K ∗ owes (c : Thread nD τ) 0 W ∗ rcvCreds c (31 - k) ∗ rcvPos c (31 - k) ∗ gotRows m c k ∗ rcvDone c k)
      ⊢ iprop(((owes (c : Thread nD τ) 0 (insert (SemLoc.dma (recvSem n), ()) W) ∗ rcvCreds c (30 - k) ∗ rcvPos c (30 - k) ∗ gotRows m c (k + 1) ∗ rcvDone c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvSem n) (rowM n) (rowM n) hs hd) kont) Q) := by
  subst hn
  unfold rcvCreds rcvPos gotRows rcvDone rowPts
  rw [chain_peel _ k hk, chain_peel _ k hk, upto_succ, upto_succ]
  iintro ⟨#Hrec, HO, ⟨Hcr, Hc⟩, ⟨Hps, Hp⟩, Hg, Hd⟩ Hk
  ihave #HI := (rec_inv_recv m K c (peer c ⟨k, hk⟩)) $$ Hrec
  sl_exec
  iclear Hp_reached
  iapply Hk
  isplitl [HO]; · iexact HO
  isplitl [Hcr]; · iexact Hcr
  isplitl [Hps]; · iexact Hps
  isplitl [Hg Hp_pay1]
  · isplitl [Hg]; · iexact Hg
    iexact Hp_pay1
  isplitl [Hd]; · iexact Hd
  iexact Hp

/-- `step_send_wait` with the wait named: the wait on send semaphore `n` for the credit of the device's own row. -/
theorem step_send_wait_dma (c : Dev nD) (k : ℕ) (hk : k < 31) (n : Dev nD) (hn : n = peer c ⟨k, hk⟩)
    {hs : (rowM c).view.WordExact} {hd : (rowM c).view.WordExact}
    {α : Type} {Q : α → sProp 𝕄} {kont : PUnit → Prog (TpuEff nD τ sig (Elt F) Λ₀ .tc) α} {W : Waits sig Unit} :
    iprop(records m K ∗ owes (c : Thread nD τ) 0 W ∗ sndCredsC (F := F) c (31 - k) ∗ sndPos c (31 - k) ∗ gotShares m c k ∗ sndDone c k)
      ⊢ iprop(((owes (c : Thread nD τ) 0 (insert (SemLoc.dma (sendSem n), ()) W) ∗ sndCredsC (F := F) c (30 - k) ∗ sndPos c (30 - k) ∗ gotShares m c (k + 1) ∗ sndDone c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendSem n) (rowM c) (rowM c) hs hd) kont) Q) := by
  subst hn
  unfold sndCredsC sndPos gotShares sndDone rowPts
  rw [chain_peel _ k hk, chain_peel _ k hk, upto_succ, upto_succ]
  iintro ⟨#Hrec, HO, ⟨Hcr, Hc⟩, ⟨Hps, Hp⟩, Hg, Hd⟩ Hk
  ihave #HI := (rec_inv_send m K c (peer c ⟨k, hk⟩)) $$ Hrec
  sl_exec
  iclear Hp_reached
  iapply Hk
  isplitl [HO]; · iexact HO
  isplitl [Hcr]; · iexact Hcr
  isplitl [Hps]; · iexact Hps
  isplitl [Hg Hp_pay1]
  · isplitl [Hg]; · iexact Hg
    iexact Hp_pay1
  isplitl [Hd]; · iexact Hd
  iexact Hp

/-! ## Closing the own cells -/

/-- One cell closes: its owner, at a round from which no round has a duty, nothing taken or consumed of it, takes the
    cell's counter out at zero. -/
private theorem close_cell (ck : Dev nD × CellIx) (R : ℕ)
    (hR : ∀ r, R ≤ r → (sched (F := F) m).duties (kcell ck) r = ∅) :
    iprop(records m K ∗ atPos ER (kcell ck) R ∅ 0) ⊢ iprop(|={Set.univ}=> semVal (kcell ck) 0) := by
  iintro ⟨#Hrec, Hat⟩
  ihave #HI := (rec_inv m K ck) $$ Hrec
  iapply (Rounds.cell_close ER (sched m) (Set.mem_univ (K ck)) (fun h => h) (R := R) hR)
  isplitr; · iexact HI
  iexact Hat

private theorem close_send (c p : Dev nD) (R : ℕ) (hR : ∀ r, R ≤ r → (sched (F := F) m).duties (sendCell c p) r = ∅) :
    iprop(records m K ∗ atPos ER (sendCell c p) R ∅ 0) ⊢ iprop(|={Set.univ}=> semVal (sendCell c p) 0) :=
  close_cell m K (c, some (false, p)) R hR

private theorem close_recv (c p : Dev nD) (R : ℕ) (hR : ∀ r, R ≤ r → (sched (F := F) m).duties (recvCell c p) r = ∅) :
    iprop(records m K ∗ atPos ER (recvCell c p) R ∅ 0) ⊢ iprop(|={Set.univ}=> semVal (recvCell c p) 0) :=
  close_cell m K (c, some (true, p)) R hR

omit [FloatOps F] in
/-- What holds entry by entry under an update, given a persistent fact, holds of what was gathered from the first `j` peers. -/
private theorem upto_fupd (P : sProp 𝕄) [BI.Persistent P] (Φ Ψ : ℕ → sProp 𝕄)
    (h : ∀ k, iprop(P ∗ Φ k) ⊢ iprop(|={Set.univ}=> Ψ k)) :
    ∀ j, iprop(P ∗ upto Φ j) ⊢ iprop(|={Set.univ}=> upto Ψ j)
  | 0 => by
    iintro ⟨-, -⟩
    imodintro
    unfold upto
    iempintro
  | j + 1 => by
    rw [upto_succ, upto_succ]
    iintro ⟨#HP, Hu, Hk⟩
    imod (upto_fupd P Φ Ψ h j) $$ [Hu] with Hu'
    · isplitr; · iexact HP
      iexact Hu
    imod (h j) $$ [Hk] with Hk'
    · isplitr; · iexact HP
      iexact Hk
    imodintro
    isplitl [Hu']; · iexact Hu'
    iexact Hk'

/-- After the last wait the device closes its 64 own cells: the two it never used, at round 0 where they have no duty,
    and the 62 for its peers, each past its one round. Their counters, at zero, are the device's again. -/
theorem step_close (c : Dev nD) :
    iprop(records m K ∗ atPos ER (sendCell c c) 0 ∅ 0 ∗ atPos ER (recvCell c c) 0 ∅ 0 ∗ sndDone c 31 ∗ rcvDone c 31)
      ⊢ |={Set.univ}=> iprop(semVal (sendCell c c) 0 ∗ semVal (recvCell c c) 0
          ∗ upto (fun k => semVal (sendCell c (peerN c k)) 0) 31 ∗ upto (fun k => semVal (recvCell c (peerN c k)) 0) 31) := by
  have hS : ∀ r, 0 ≤ r → (sched (F := F) m).duties (sendCell c c) r = ∅ := fun r _ => by
    rcases Nat.eq_zero_or_pos r with rfl | h
    · exact duties_send_self m c
    · exact duties_later m _ r h
  have hR : ∀ r, 0 ≤ r → (sched (F := F) m).duties (recvCell c c) r = ∅ := fun r _ => by
    rcases Nat.eq_zero_or_pos r with rfl | h
    · exact duties_recv_self m c
    · exact duties_later m _ r h
  unfold sndDone rcvDone
  iintro ⟨#Hrec, HaS, HaR, HdS, HdR⟩
  imod (close_send m K c c 0 hS) $$ [HaS] with HzS
  · isplitr; · iexact Hrec
    iexact HaS
  imod (close_recv m K c c 0 hR) $$ [HaR] with HzR
  · isplitr; · iexact Hrec
    iexact HaR
  imod (upto_fupd (records m K) (fun k => atPos ER (sendCell c (peerN c k)) 1 ∅ 0) (fun k => semVal (sendCell c (peerN c k)) 0)
      (fun k => close_send m K c (peerN c k) 1 (duties_later m _)) 31) $$ [HdS] with HzSs
  · isplitr; · iexact Hrec
    iexact HdS
  imod (upto_fupd (records m K) (fun k => atPos ER (recvCell c (peerN c k)) 1 ∅ 0) (fun k => semVal (recvCell c (peerN c k)) 0)
      (fun k => close_recv m K c (peerN c k) 1 (duties_later m _)) 31) $$ [HdR] with HzRs
  · isplitr; · iexact Hrec
    iexact HdR
  imodintro
  isplitl [HzS]; · iexact HzS
  isplitl [HzR]; · iexact HzR
  isplitl [HzSs]; · iexact HzSs
  iexact HzRs

/-- info: 'Cert.Kernel.Proto.step_send' depends on axioms: [propext, Classical.choice, Quot.sound] -/
#guard_msgs in #print axioms step_send

/-- info: 'Cert.Kernel.Proto.step_recv_wait' depends on axioms: [propext, Classical.choice, Quot.sound] -/
#guard_msgs in #print axioms step_recv_wait

/-- info: 'Cert.Kernel.Proto.step_send_wait' depends on axioms: [propext, Classical.choice, Quot.sound] -/
#guard_msgs in #print axioms step_send_wait

/-- info: 'Cert.Kernel.Proto.step_recv_wait_dma' depends on axioms: [propext, Classical.choice, Quot.sound] -/
#guard_msgs in #print axioms step_recv_wait_dma

/-- info: 'Cert.Kernel.Proto.step_send_wait_dma' depends on axioms: [propext, Classical.choice, Quot.sound] -/
#guard_msgs in #print axioms step_send_wait_dma

/-- info: 'Cert.Kernel.Proto.step_close' depends on axioms: [propext, Classical.choice, Quot.sound] -/
#guard_msgs in #print axioms step_close

end Cert.Kernel.Proto

end
-- ==== Proof.Bits.StepsW.lean ====
/-
  The four peer steps once more, stated for ANY spelling of the peer, the rows and the semaphores that equals the protocol's:
  the operation's device, source, destination and semaphores are variables, each with an equation. Nothing new is proved
  here; a step applies to the body's text as it stands once those equations are supplied.
-/
import proofs.«900562_g7700000000000563_dist_max_ax0_shard0_i_m1024_n512_v7x_i32_f32_1_alg».proof.Proof.Bits.StepsA
import proofs.«900562_g7700000000000563_dist_max_ax0_shard0_i_m1024_n512_v7x_i32_f32_1_alg».proof.Proof.Bits.StepsB

noncomputable section

namespace Cert.Kernel.Proto

open Cert.Kernel Cert.Kernel.Gen Cert.Kernel.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CellIx → ℕ)

/-- The copy to peer `k`, whatever the spelling of its source and destination rows and of its two semaphores. -/
theorem step_send_at (c : Dev nD) (k : ℕ) (hk : k < 31) (n : Dev nD) (hn : n = peer c ⟨k, hk⟩)
    (src : Memref sig .tc .vmem S1x1x512 .f32) (hs : src = rowM c)
    (dst : Memref sig (Dev.tc n : Thread nD τ).2.kind .vmem S1x1x512 .f32) (hd : dst = rowM c)
    (sS sR : DmaSem sig) (hS : sS = sendSem (peer c ⟨k, hk⟩)) (hR : sR = recvSem c)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {kont : PUnit → Prog (TpuEff nD τ sig (Elt F) Λ₀ .tc) α} {W : Waits sig Unit} :
    iprop(records m K ∗ owes (c : Thread nD τ) (oRecv c (31 - k)) W ∗ rcvToks c (31 - k) ∗ sndToks c (31 - k) ∗ srcShares m c (31 - k) ∗ dsts (F := F) c (31 - k) ∗ sndCreds c k)
      ⊢ iprop(((owes (c : Thread nD τ) (oRecv c (30 - k)) W ∗ rcvToks c (30 - k) ∗ sndToks c (30 - k) ∗ srcShares m c (30 - k) ∗ dsts (F := F) c (30 - k) ∗ sndCreds c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kont) Q) := by
  subst hn
  subst hs
  subst hd
  subst hS
  subst hR
  exact step_send m K c k hk _ rfl

/-- The wait for peer `k`'s copy, whatever the spelling of its semaphore and rows. -/
theorem step_recv_wait_at (c : Dev nD) (k : ℕ) (hk : k < 31)
    (sR : DmaSem sig) (hR : sR = recvSem (peer c ⟨k, hk⟩))
    (src dst : Memref sig .tc .vmem S1x1x512 .f32) (hs : src = rowM (peer c ⟨k, hk⟩)) (hd : dst = rowM (peer c ⟨k, hk⟩))
    {hsE : src.view.WordExact} {hdE : dst.view.WordExact}
    {α : Type} {Q : α → sProp 𝕄} {kont : PUnit → Prog (TpuEff nD τ sig (Elt F) Λ₀ .tc) α} {W : Waits sig Unit} :
    iprop(records m K ∗ owes (c : Thread nD τ) 0 W ∗ rcvCreds c (31 - k) ∗ rcvPos c (31 - k) ∗ gotRows m c k ∗ rcvDone c k)
      ⊢ iprop(((owes (c : Thread nD τ) 0 (insert (SemLoc.dma (recvSem (peer c ⟨k, hk⟩)), ()) W) ∗ rcvCreds c (30 - k) ∗ rcvPos c (30 - k) ∗ gotRows m c (k + 1) ∗ rcvDone c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 sR src dst hsE hdE) kont) Q) := by
  subst hR
  subst hs
  subst hd
  exact step_recv_wait_dma m K c k hk _ rfl

/-- The wait for its own copy to peer `k` to have left, whatever the spelling of its semaphore and rows. -/
theorem step_send_wait_at (c : Dev nD) (k : ℕ) (hk : k < 31)
    (sS : DmaSem sig) (hS : sS = sendSem (peer c ⟨k, hk⟩))
    (src dst : Memref sig .tc .vmem S1x1x512 .f32) (hs : src = rowM c) (hd : dst = rowM c)
    {hsE : src.view.WordExact} {hdE : dst.view.WordExact}
    {α : Type} {Q : α → sProp 𝕄} {kont : PUnit → Prog (TpuEff nD τ sig (Elt F) Λ₀ .tc) α} {W : Waits sig Unit} :
    iprop(records m K ∗ owes (c : Thread nD τ) 0 W ∗ sndCredsC (F := F) c (31 - k) ∗ sndPos c (31 - k) ∗ gotShares m c k ∗ sndDone c k)
      ⊢ iprop(((owes (c : Thread nD τ) 0 (insert (SemLoc.dma (sendSem (peer c ⟨k, hk⟩)), ()) W) ∗ sndCredsC (F := F) c (30 - k) ∗ sndPos c (30 - k) ∗ gotShares m c (k + 1) ∗ sndDone c (k + 1))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 sS src dst hsE hdE) kont) Q) := by
  subst hS
  subst hs
  subst hd
  exact step_send_wait_dma m K c k hk _ rfl

end Cert.Kernel.Proto

end
-- ==== Proof.Bits.Local.lean ====
/-
  The two local stretches of one device's body.

  The first: the device loads its staged block, loads row c of its scratch, and stores the column-wise maximum of the
  block into that row. The row's points-to sees only the row's index set, and there the stored contents are the complete
  array's: row c of the complete array is the column-wise maximum of block c.
  The second: it loads the whole scratch, holding the complete array, and stores the maximum over its 32 rows as its result.
-/
import proofs.«900562_g7700000000000563_dist_max_ax0_shard0_i_m1024_n512_v7x_i32_f32_1_alg».proof.Proof.Bits.Data
import proofs.«900562_g7700000000000563_dist_max_ax0_shard0_i_m1024_n512_v7x_i32_f32_1_alg».proof.Proof.Gen.Kernel.Skeleton
import Idealize.ShloMosaic.Lib.Pipeline.Value

noncomputable section

namespace Cert.Kernel.Proto

open Cert.Kernel Cert.Kernel.Gen Cert.Kernel.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

namespace Local

theorem hz2 : (![0, 0] : Fin 2 → Nat) = fun _ => 0 := funext fun a => by fin_cases a <;> rfl
theorem hz3 : (![0, 0, 0] : Fin 3 → Nat) = fun _ => 0 := funext fun a => by fin_cases a <;> rfl

/-- Row c of the scratch, as an index of the scratch: its first coordinate is c, -/
theorem emb_row0 (c : Dev nD) (y : S1x1x512.Idx) : ((rowRect c).emb y) 0 = c := by
  apply Fin.ext
  have h : (((rowRect c).emb y) 0 : Nat) = rowOff c 0 + 1 * (y 0 : Nat) := Rect.emb_apply (rowRect c) y 0
  have hy : (y 0 : Nat) < 1 := (y 0).isLt
  rw [h]
  show c.val + 1 * (y 0 : Nat) = c.val
  omega

/-- and its column the row's own. -/
theorem emb_row2 (c : Dev nD) (y : S1x1x512.Idx) : colIdx (((rowRect c).emb y) 2) = y := by
  have h0 : (0 : Fin 1) = y 0 := Fin.ext (by have hy : (y 0 : Nat) < 1 := (y 0).isLt; show 0 = (y 0 : Nat); omega)
  have h1 : (0 : Fin 1) = y 1 := Fin.ext (by have hy : (y 1 : Nat) < 1 := (y 1).isLt; show 0 = (y 1 : Nat); omega)
  have h2 : ((rowRect c).emb y) 2 = y 2 := Fin.ext (by
    have h : (((rowRect c).emb y) 2 : Nat) = rowOff c 2 + 1 * (y 2 : Nat) := Rect.emb_apply (rowRect c) y 2
    rw [h]
    show 0 + 1 * (y 2 : Nat) = (y 2 : Nat)
    omega)
  unfold colIdx
  rw [h2]
  exact (congrArg (fun a => ValueIdx.ix3 a (0 : Fin 1) (y 2)) h0).trans
    ((congrArg (fun b => ValueIdx.ix3 (y 0) b (y 2)) h1).trans (ValueIdx.eq_ix3 y).symm)

/-- Row c of the complete array is the column-wise maximum of block c. -/
theorem RED_row (c : Dev nD) (y : S1x1x512.Idx) : RED m ((rowRect c).emb y) = k0_pay2 (xblk m c) y := by
  unfold RED rows
  rw [emb_row0, emb_row2]

set_option maxRecDepth 16384 in
/-- On row c's index set, the scratch with the column-wise maximum of block c stored into row c holds the complete array. -/
theorem stored_eq (c : Dev nD) (f : Buf (Elt F) ((c : Thread nD τ).loc cc0_scratch0)) :
    ∀ i ∈ (scrM.access (rowRect c) : View sig .tc _ _ _).set,
      (scrM.access (rowRect c) : View sig .tc _ _ _).write (Elt F) f (k0_pay2 (xblk m c)) Finset.univ i = RED m i := by
  intro i hi
  obtain ⟨y, hy⟩ := View.exists_emb_of_mem_set (scrM.access (rowRect c) : View sig .tc _ _ _) hi
  subst hy
  rw [View.write_emb_of_mem _ _ (Finset.mem_univ y)]
  have e : (scrM.access (rowRect c) : View sig .tc _ _ _).emb y = (rowRect c).emb y := rfl
  rw [e, RED_row]
  exact cast_eq _ _

/-- A load of the whole staged block reads its contents; -/
theorem read_x {hin0 : ∀ a, (![0, 0] : Fin 2 → Nat) a + S1024x512.size a ≤ S1024x512.size a} (f : (cc0_stg0_0 : Ref sig .tc).ty.Contents (Elt F)) :
    (Memref.whole cc0_stg0_0 : Memref sig .tc .vmem S1024x512 .f32).view.readAt (Elt F) (Rect.unit (s := S1024x512) ![0, 0] S1024x512.size hin0).toLoadRect f = f :=
  Memref.readAt_unit_zero (Elt F) cc0_stg0_0 hz2 _ f
/-- a load of the whole scratch its contents; -/
theorem read_scr {hin0 : ∀ a, (![0, 0, 0] : Fin 3 → Nat) a + S32x1x512.size a ≤ S32x1x512.size a} (f : (cc0_scratch0 : Ref sig .tc).ty.Contents (Elt F)) :
    (scrM : Memref sig .tc .vmem S32x1x512 .f32).view.readAt (Elt F) (Rect.unit (s := S32x1x512) ![0, 0, 0] S32x1x512.size hin0).toLoadRect f = f :=
  Memref.readAt_unit_zero (Elt F) cc0_scratch0 hz3 _ f
/-- a store over the whole result buffer leaves what is stored. -/
theorem write_out {hin1 : ∀ a, (![0, 0] : Fin 2 → Nat) a + S1x512.size a ≤ S1x512.size a} (f w : (cc0_stg1_0 : Ref sig .tc).ty.Contents (Elt F)) :
    ((Memref.whole cc0_stg1_0 : Memref sig .tc .vmem S1x512 .f32).access (Rect.unit (s := S1x512) ![0, 0] S1x512.size hin1) : View sig .tc _ _ _).write (Elt F) f w Finset.univ = w :=
  Memref.write_access_unit_zero_univ (Elt F) cc0_stg1_0 hz2 _ f w

end Local

/-- The first local stretch at any spelling of row c's offsets. -/
theorem step_compute_at (c : Dev nD) (f : Buf (Elt F) ((c : Thread nD τ).loc cc0_scratch0)) (off : Fin 3 → Nat) (hoff : off = rowOff c)
    {hin0 : ∀ a, (![0, 0] : Fin 2 → Nat) a + S1024x512.size a ≤ S1024x512.size a}
    {hin1 : ∀ a, off a + S1x1x512.size a ≤ S32x1x512.size a}
    {h1 : (Memref.whole cc0_stg0_0 : Memref sig .tc .vmem S1024x512 .f32).view.LoadsAt (Rect.unit (s := S1024x512) ![0, 0] S1024x512.size hin0).toLoadRect}
    {h2 : (Memref.whole cc0_scratch0 : Memref sig .tc .vmem S32x1x512 .f32).view.LoadsAt (Rect.unit (s := S32x1x512) off S1x1x512.size hin1).toLoadRect}
    {h3 : ((Memref.whole cc0_scratch0 : Memref sig .tc .vmem S32x1x512 .f32).access (Rect.unit (s := S32x1x512) off S1x1x512.size hin1)).Stores Finset.univ}
    {h4 : (Finset.univ : Finset (Rect.unit (s := S32x1x512) off S1x1x512.size hin1).shape.Idx) = Finset.univ ∨ ∀ a, (Rect.unit (s := S32x1x512) off S1x1x512.size hin1).stride a = 1}
    {α : Type} {Q : α → sProp 𝕄} {kont : PUnit → Prog (TpuEff nD τ sig (Elt F) Λ₀ .tc) α} :
    iprop((((c : Thread nD τ).loc cc0_stg0_0) ↦{fullShare} xblk m c) ∗ rowPts c c fullShare f)
      ⊢ iprop((((((c : Thread nD τ).loc cc0_stg0_0) ↦{fullShare} xblk m c) ∗ rowPts c c fullShare (RED m)) -∗ wp frame (wpE (defs₀ (F := F)) 𝒱₀ (c : Thread nD τ) none) Set.univ (kont ⟨⟩) Q)
          -∗ wp frame (wpE (defs₀ (F := F)) 𝒱₀ (c : Thread nD τ) none) Set.univ
              (Prog.op (TpuEff.load (Memref.whole cc0_stg0_0) (Rect.unit (s := S1024x512) ![0, 0] S1024x512.size hin0).toLoadRect h1) fun v128 =>
               Prog.op (TpuEff.load (Memref.whole cc0_scratch0) (Rect.unit (s := S32x1x512) off S1x1x512.size hin1).toLoadRect h2) fun v134 =>
               Prog.op (TpuEff.store (Memref.whole cc0_scratch0) (Rect.unit (s := S32x1x512) off S1x1x512.size hin1) (k0_pay2 v128) Finset.univ h3 h4) kont) Q) := by
  subst hoff
  unfold rowPts
  iintro ⟨Hx, Hrow⟩ Hk
  iapply (wp_load 𝒱₀ (c : Thread nD τ) none Set.univ (m := (Memref.whole cc0_stg0_0 : Memref sig .tc .vmem S1024x512 .f32)) (Finset.subset_univ _)) $$ Hx; iintro Hx
  rw [Local.read_x]
  iapply (wp_load_rect 𝒱₀ (c : Thread nD τ) none Set.univ (m := scrM) (r := rowRect c) (Finset.Subset.refl _)) $$ Hrow; iintro Hrow
  iapply (wp_store 𝒱₀ (c : Thread nD τ) none Set.univ (m := scrM) (r := rowRect c) (Mk := Finset.univ) (S := (scrM.access (rowRect c) : View sig .tc _ _ _).set) (Finset.Subset.refl _)) $$ Hrow; iintro Hrow
  iapply Hk
  isplitl [Hx]; · iexact Hx
  iapply (Entails.of_eq (pointsTo_congr (Local.stored_eq m c f)))
  iexact Hrow

/-- The first local stretch as the skeleton prints it: the device's block loaded, row c of the scratch loaded, the block's
    column-wise maximum stored into row c, which then holds row c of the complete array. -/
theorem step_compute (c : Dev nD) (f : Buf (Elt F) ((c : Thread nD τ).loc cc0_scratch0))
    {hin0 : ∀ a, (![0, 0] : Fin 2 → Nat) a + S1024x512.size a ≤ S1024x512.size a}
    {hin1 : ∀ a, k0_off1 c a + S1x1x512.size a ≤ S32x1x512.size a}
    {h1 : (Memref.whole cc0_stg0_0 : Memref sig .tc .vmem S1024x512 .f32).view.LoadsAt (Rect.unit (s := S1024x512) ![0, 0] S1024x512.size hin0).toLoadRect}
    {h2 : (Memref.whole cc0_scratch0 : Memref sig .tc .vmem S32x1x512 .f32).view.LoadsAt (Rect.unit (s := S32x1x512) (k0_off1 c) S1x1x512.size hin1).toLoadRect}
    {h3 : ((Memref.whole cc0_scratch0 : Memref sig .tc .vmem S32x1x512 .f32).access (Rect.unit (s := S32x1x512) (k0_off1 c) S1x1x512.size hin1)).Stores Finset.univ}
    {h4 : (Finset.univ : Finset (Rect.unit (s := S32x1x512) (k0_off1 c) S1x1x512.size hin1).shape.Idx) = Finset.univ ∨ ∀ a, (Rect.unit (s := S32x1x512) (k0_off1 c) S1x1x512.size hin1).stride a = 1}
    {α : Type} {Q : α → sProp 𝕄} {kont : PUnit → Prog (TpuEff nD τ sig (Elt F) Λ₀ .tc) α} :
    iprop((((c : Thread nD τ).loc cc0_stg0_0) ↦{fullShare} xblk m c) ∗ rowPts c c fullShare f)
      ⊢ iprop((((((c : Thread nD τ).loc cc0_stg0_0) ↦{fullShare} xblk m c) ∗ rowPts c c fullShare (RED m)) -∗ wp frame (wpE (defs₀ (F := F)) 𝒱₀ (c : Thread nD τ) none) Set.univ (kont ⟨⟩) Q)
          -∗ wp frame (wpE (defs₀ (F := F)) 𝒱₀ (c : Thread nD τ) none) Set.univ
              (Prog.op (TpuEff.load (Memref.whole cc0_stg0_0) (Rect.unit (s := S1024x512) ![0, 0] S1024x512.size hin0).toLoadRect h1) fun v128 =>
               Prog.op (TpuEff.load (Memref.whole cc0_scratch0) (Rect.unit (s := S32x1x512) (k0_off1 c) S1x1x512.size hin1).toLoadRect h2) fun v134 =>
               Prog.op (TpuEff.store (Memref.whole cc0_scratch0) (Rect.unit (s := S32x1x512) (k0_off1 c) S1x1x512.size hin1) (k0_pay2 v128) Finset.univ h3 h4) kont) Q) :=
  step_compute_at m c f (k0_off1 c) (k0_off1_eq c)

/-- The second local stretch as the skeleton prints it: the whole scratch loaded, holding the complete array; the result
    buffer loaded; the maximum over the 32 rows stored as the result. -/
theorem step_final (c : Dev nD) (g : Buf (Elt F) ((c : Thread nD τ).loc cc0_stg1_0))
    {hin0 : ∀ a, (![0, 0, 0] : Fin 3 → Nat) a + S32x1x512.size a ≤ S32x1x512.size a}
    {hin1 : ∀ a, (![0, 0] : Fin 2 → Nat) a + S1x512.size a ≤ S1x512.size a}
    {h1 : (Memref.whole cc0_scratch0 : Memref sig .tc .vmem S32x1x512 .f32).view.LoadsAt (Rect.unit (s := S32x1x512) ![0, 0, 0] S32x1x512.size hin0).toLoadRect}
    {h2 : (Memref.whole cc0_stg1_0 : Memref sig .tc .vmem S1x512 .f32).view.LoadsAt (Rect.unit (s := S1x512) ![0, 0] S1x512.size hin1).toLoadRect}
    {h3 : ((Memref.whole cc0_stg1_0 : Memref sig .tc .vmem S1x512 .f32).access (Rect.unit (s := S1x512) ![0, 0] S1x512.size hin1)).Stores Finset.univ}
    {h4 : (Finset.univ : Finset (Rect.unit (s := S1x512) ![0, 0] S1x512.size hin1).shape.Idx) = Finset.univ ∨ ∀ a, (Rect.unit (s := S1x512) ![0, 0] S1x512.size hin1).stride a = 1}
    {α : Type} {Q : α → sProp 𝕄} {kont : PUnit → Prog (TpuEff nD τ sig (Elt F) Λ₀ .tc) α} :
    iprop((((c : Thread nD τ).loc cc0_scratch0) ↦{fullShare} RED m) ∗ (((c : Thread nD τ).loc cc0_stg1_0) ↦{fullShare} g))
      ⊢ iprop((((((c : Thread nD τ).loc cc0_scratch0) ↦{fullShare} RED m) ∗ (((c : Thread nD τ).loc cc0_stg1_0) ↦{fullShare} OUT m)) -∗ wp frame (wpE (defs₀ (F := F)) 𝒱₀ (c : Thread nD τ) none) Set.univ (kont ⟨⟩) Q)
          -∗ wp frame (wpE (defs₀ (F := F)) 𝒱₀ (c : Thread nD τ) none) Set.univ
              (Prog.op (TpuEff.load (Memref.whole cc0_scratch0) (Rect.unit (s := S32x1x512) ![0, 0, 0] S32x1x512.size hin0).toLoadRect h1) fun v695 =>
               Prog.op (TpuEff.load (Memref.whole cc0_stg1_0) (Rect.unit (s := S1x512) ![0, 0] S1x512.size hin1).toLoadRect h2) fun v697 =>
               Prog.op (TpuEff.store (Memref.whole cc0_stg1_0) (Rect.unit (s := S1x512) ![0, 0] S1x512.size hin1) (k0_pay1 v695) Finset.univ h3 h4) kont) Q) := by
  iintro ⟨Hs, Ho⟩ Hk
  iapply (wp_load 𝒱₀ (c : Thread nD τ) none Set.univ (m := scrM) (Finset.subset_univ _)) $$ Hs; iintro Hs
  rw [Local.read_scr]
  iapply (wp_load 𝒱₀ (c : Thread nD τ) none Set.univ (m := (Memref.whole cc0_stg1_0 : Memref sig .tc .vmem S1x512 .f32)) (Finset.subset_univ _)) $$ Ho; iintro Ho
  iapply (wp_store 𝒱₀ (c : Thread nD τ) none Set.univ (m := (Memref.whole cc0_stg1_0 : Memref sig .tc .vmem S1x512 .f32))
      (r := Rect.unit (s := S1x512) ![0, 0] S1x512.size hin1) (Mk := Finset.univ) (Finset.subset_univ _)) $$ Ho; iintro Ho
  rw [Local.write_out]
  iapply Hk
  isplitl [Hs]; · iexact Hs
  iexact Ho

/-- info: 'Cert.Kernel.Proto.step_compute' depends on axioms: [propext, Classical.choice, Quot.sound] -/
#guard_msgs in #print axioms step_compute

/-- info: 'Cert.Kernel.Proto.step_final' depends on axioms: [propext, Classical.choice, Quot.sound] -/
#guard_msgs in #print axioms step_final

end Cert.Kernel.Proto

end
-- ==== Proof.Bits.Body.lean ====
/-
  One device's body, from what the launch hands it to what it hands back.

  The device walks its 31 peers in order four times — a signal to each, a copy to each, a wait for each one's copy, a wait
  for each of its own copies to have left — with its own row computed before the barrier wait and the maximum over all
  rows taken at the end. Each of the four peer steps is one lemma, applied at the literal peer numbers 0 … 30.
-/
import proofs.«900562_g7700000000000563_dist_max_ax0_shard0_i_m1024_n512_v7x_i32_f32_1_alg».proof.Proof.Bits.Data
import proofs.«900562_g7700000000000563_dist_max_ax0_shard0_i_m1024_n512_v7x_i32_f32_1_alg».proof.Proof.Gen.Kernel.Points
import proofs.«900562_g7700000000000563_dist_max_ax0_shard0_i_m1024_n512_v7x_i32_f32_1_alg».proof.Proof.Bits.Owes
import proofs.«900562_g7700000000000563_dist_max_ax0_shard0_i_m1024_n512_v7x_i32_f32_1_alg».proof.Proof.Bits.Canon
import proofs.«900562_g7700000000000563_dist_max_ax0_shard0_i_m1024_n512_v7x_i32_f32_1_alg».proof.Proof.Bits.Regroup2
import proofs.«900562_g7700000000000563_dist_max_ax0_shard0_i_m1024_n512_v7x_i32_f32_1_alg».proof.Proof.Bits.StepsW
import proofs.«900562_g7700000000000563_dist_max_ax0_shard0_i_m1024_n512_v7x_i32_f32_1_alg».proof.Proof.Bits.Local

noncomputable section

namespace Cert.Kernel.Proto

open Cert.Kernel Cert.Kernel.Gen Cert.Kernel.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the pipeline writes back for the result window is the maximum over the 32 rows. -/
theorem after_out (c : Dev nD) : (dats m 0 c).after (1 : Fin 2) t₀ = OUT m := by
  unfold dats; generalize OUT m = o; rfl

omit [FloatOps F] in
/-- A chain is monotone in its entries. -/
theorem chain_mono {Φ Ψ : Fin 31 → sProp 𝕄} (h : ∀ d, Φ d ⊢ Ψ d) : ∀ j, chain Φ j ⊢ chain Ψ j
  | 0 => BI.Entails.refl _
  | j + 1 => BI.sep_mono (chain_mono h j) (h _)

set_option hygiene false in
/-- The device a printed chain names is the peer it should be: from the chain's generated closed form. -/
macro "dev_eq%" e:ident : term => `(Fin.ext (($e _).trans (by simp only [peer])))

set_option hygiene false in
/-- The `k`-th signal: its unit on peer `k`'s barrier cell, with row `peer c k` of the scratch handed over. -/
macro "sig_step" k:num e:ident : tactic => `(tactic| (
  iapply (step_signal m K c $k (by decide) _ ($e c) (by decide)) $$ [HO Hsig Hsl]
  · isplitr; · iexact Hrec
    isplitl [HO]; · iexact HO
    isplitl [Hsig]; · iexact Hsig
    iexact Hsl
  iintro ⟨HO, Hsig, Hsl⟩))

set_option hygiene false in
/-- Opening the next part of the body's text. -/
macro "open_part" p:ident s:ident : tactic => `(tactic| (
  rw [$p:ident]; unfold $s:ident
  simp only [semSignalWord, semWaitWord, Prog.lift, Prog.bind_op, Prog.bind_ret, Prog.pure_eq_ret]))

set_option hygiene false in
/-- The `k`-th copy: row `c` (one share of it) to row `c` of peer `k`'s scratch. -/
macro "snd_step" k:num dv:ident : tactic => `(tactic| (
  iapply (step_send_at m K c $k (by decide) _ ($dv c) _ (row_off4 c _) _ (row_off4 c _) _ _ (sendSem_off2 c ($k : Fin 31) _) (recvSem_off3 c _)) $$ [HO Hrcv Hsnd Hsh Hds Hcs]
  · isplitr; · iexact Hrec
    isplitl [HO]; · iexact HO
    isplitl [Hrcv]; · iexact Hrcv
    isplitl [Hsnd]; · iexact Hsnd
    isplitl [Hsh]; · iexact Hsh
    isplitl [Hds]; · iexact Hds
    iexact Hcs
  iintro ⟨HO, Hrcv, Hsnd, Hsh, Hds, Hcs⟩))

set_option hygiene false in
/-- The wait for peer `k`'s copy: row `peer c k` of the scratch comes with it. -/
macro "rcv_wait" k:num : tactic => `(tactic| (
  iapply (step_recv_wait_at m K c $k (by decide) _ (recvSem_off2 c ($k : Fin 31) _) _ _ (row_off5 c ($k : Fin 31) _) (row_off5 c ($k : Fin 31) _)) $$ [HO Hcr HrP Hgr Hrd]
  · isplitr; · iexact Hrec
    isplitl [HO]; · iexact HO
    isplitl [Hcr]; · iexact Hcr
    isplitl [HrP]; · iexact HrP
    isplitl [Hgr]; · iexact Hgr
    iexact Hrd
  iintro ⟨HO, Hcr, HrP, Hgr, Hrd⟩))

set_option hygiene false in
/-- The wait for its own `k`-th copy to have left: that copy's share of row `c` comes back. -/
macro "snd_wait" k:num : tactic => `(tactic| (
  iapply (step_send_wait_at m K c $k (by decide) _ (sendSem_off2 c ($k : Fin 31) _) _ _ (row_off4 c _) (row_off4 c _)) $$ [HO HcsC HsP Hgs Hsd]
  · isplitr; · iexact Hrec
    isplitl [HO]; · iexact HO
    isplitl [HcsC]; · iexact HcsC
    isplitl [HsP]; · iexact HsP
    isplitl [Hgs]; · iexact Hgs
    iexact Hsd
  iintro ⟨HO, HcsC, HsP, Hgs, Hsd⟩))

set_option maxRecDepth 16000 in
set_option maxHeartbeats 3200000 in
theorem body_obligation (c : Dev nD) : BodyObligation (dats (F := F) m 0 c) (defs₀ (F := F)) 𝒱₀ () Set.univ := fun t => by
  rw [fin_N t]
  rw [bigSep_W, bigSep_W]
  simp only [owns_whole_eq]
  have hprog : defs₀ (F := F) Proc.tc 0 (t₀, cfg0.slots t₀) = cc0_body_skel (F := F) (Memref.whole cc0_stg0_0) (Memref.isWhole_whole _) (Memref.whole cc0_stg1_0) (Memref.isWhole_whole _)
      (Memref.whole cc0_scratch0) (Memref.isWhole_whole _) cc0_scratch1 cc0_scratch2 := rfl
  rw [hprog]
  rw [show (dats m 0 c).Φ t₀.castSucc = Φ₀ m c from rfl, show (dats m 0 c).Φ t₀.succ = Φ₁ m c from rfl]
  unfold Φ₀ start ghost linear
  iintro ⟨⟨⟨⟨%K, #Hrec, Hpos, Hsig, Hrcv, Hsnd⟩, Hcb, Hcr, #Hlev⟩, ⟨%f0, Hscr⟩⟩, Ho, ⟨%d0, %g0, %hg0, Hx⟩, ⟨%d1, %g1, %hg1, Hout⟩⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = oSig c 31 from rfl]
  -- the scratch by rows: row `c` stays, the other 31 go with the signals
  ihave Hrows := ((scr_rows c fullShare f0).1) $$ Hscr
  icases Hrows with ⟨Hrow, Hsl0⟩
  ihave Hsl := (show chain (fun d => rowPts (F := F) c (peer c d) fullShare f0) 31 ⊢ slots (F := F) c 31 from
    chain_mono (fun d => by iintro H; iexists f0; iexact H) 31) $$ Hsl0
  unfold cc0_body_skel
  rw [k0_part1_eq_skeleton]; unfold k0_part1_skel
  simp only [Prog.lift, Prog.bind_op, Prog.bind_ret, Prog.pure_eq_ret, wp_deviceId]
  rw [k0_part2_eq_skeleton]; unfold k0_part2_skel
  simp only [Prog.lift, Prog.bind_op, Prog.bind_ret, Prog.pure_eq_ret]
  rw [k0_part3_eq_skeleton]; unfold k0_part3_skel
  simp only [semSignalWord, Prog.lift, Prog.bind_op, Prog.bind_ret, Prog.pure_eq_ret]
  sig_step 0 dev1
  sig_step 1 dev2
  sig_step 2 dev3
  sig_step 3 dev4
  sig_step 4 dev5
  sig_step 5 dev6
  sig_step 6 dev7
  sig_step 7 dev8
  open_part k0_part4_eq_skeleton k0_part4_skel
  sig_step 8 dev9
  sig_step 9 dev10
  sig_step 10 dev11
  sig_step 11 dev12
  sig_step 12 dev13
  sig_step 13 dev14
  sig_step 14 dev15
  sig_step 15 dev16
  sig_step 16 dev17
  sig_step 17 dev18
  open_part k0_part5_eq_skeleton k0_part5_skel
  sig_step 18 dev19
  sig_step 19 dev20
  sig_step 20 dev21
  sig_step 21 dev22
  sig_step 22 dev23
  sig_step 23 dev24
  sig_step 24 dev25
  sig_step 25 dev26
  sig_step 26 dev27
  sig_step 27 dev28
  open_part k0_part6_eq_skeleton k0_part6_skel
  sig_step 28 dev29
  sig_step 29 dev30
  sig_step 30 dev31
  -- its own row: the column-wise maximum of its block, stored into row `c`
  ihave Hp := ((positions_iff c).1) $$ Hpos
  icases Hp with ⟨Hbar, Hsself, Hrself, HsP, HrP⟩
  iapply (step_compute m c f0) $$ [Hx Hrow]
  · isplitl [Hx]; · iexact Hx
    iexact Hrow
  iintro ⟨Hx, Hrow⟩
  -- the wait for all 31 peers' signals: row `c` of every peer's scratch comes with them
  iapply (step_barrier_wait_sem m K c (k' := (31#32).toNat) (by decide) (mayWait_bar c)) $$ [Hcb HO Hbar]
  · isplitr; · iexact Hrec
    isplitr; · iexact Hlev
    isplitl [Hcb]; · iexact Hcb
    isplitl [HO]; · iexact HO
    iexact Hbar
  iintro ⟨HO, Hbar, Hds⟩
  -- row `c` in the 31 shares its 31 copies read, and what is left of it
  unfold rowPts
  ihave Hsp := (Transfers.pointsTo_toks_split fullShare 31) $$ Hrow
  icases Hsp with ⟨Hrem, Hshb⟩
  ihave Hsh := (show bigSep Finset.univ (fun i : Fin 31 => ((rowM c).view.loc (c : Thread nD τ) ↦[(rowM c).view.set]{Transfers.shareTok fullShare 31 i} RED m : sProp 𝕄)) ⊢ srcShares m c 31 from
    (chain_iff_bigSep _).2) $$ Hshb
  ihave Hcs := (show (emp : sProp 𝕄) ⊢ sndCreds c 0 from BI.Entails.refl _) $$ []
  · iempintro
  snd_step 0 dev32
  open_part k0_part7_eq_skeleton k0_part7_skel
  snd_step 1 dev33
  snd_step 2 dev34
  snd_step 3 dev35
  snd_step 4 dev36
  open_part k0_part8_eq_skeleton k0_part8_skel
  snd_step 5 dev37
  snd_step 6 dev38
  snd_step 7 dev39
  snd_step 8 dev40
  open_part k0_part9_eq_skeleton k0_part9_skel
  snd_step 9 dev41
  snd_step 10 dev42
  snd_step 11 dev43
  snd_step 12 dev44
  open_part k0_part10_eq_skeleton k0_part10_skel
  snd_step 13 dev45
  snd_step 14 dev46
  snd_step 15 dev47
  snd_step 16 dev48
  open_part k0_part11_eq_skeleton k0_part11_skel
  snd_step 17 dev49
  snd_step 18 dev50
  snd_step 19 dev51
  snd_step 20 dev52
  open_part k0_part12_eq_skeleton k0_part12_skel
  snd_step 21 dev53
  snd_step 22 dev54
  snd_step 23 dev55
  snd_step 24 dev56
  open_part k0_part13_eq_skeleton k0_part13_skel
  snd_step 25 dev57
  snd_step 26 dev58
  snd_step 27 dev59
  snd_step 28 dev60
  open_part k0_part14_eq_skeleton k0_part14_skel
  snd_step 29 dev61
  snd_step 30 dev62
  -- every copy is on its way: it owes nothing more; the credit its copies left on its send cells, by peer
  ihave HcsC := (show sndCreds c 31 ⊢ sndCredsC (F := F) c 31 from (upto_iff_chain _).1) $$ Hcs
  ihave Hgr := (show (emp : sProp 𝕄) ⊢ gotRows m c 0 from BI.Entails.refl _) $$ []
  · iempintro
  ihave Hrd := (show (emp : sProp 𝕄) ⊢ rcvDone (F := F) c 0 from BI.Entails.refl _) $$ []
  · iempintro
  ihave Hgs := (show (emp : sProp 𝕄) ⊢ gotShares m c 0 from BI.Entails.refl _) $$ []
  · iempintro
  ihave Hsd := (show (emp : sProp 𝕄) ⊢ sndDone (F := F) c 0 from BI.Entails.refl _) $$ []
  · iempintro
  rcv_wait 0
  rcv_wait 1
  rcv_wait 2
  open_part k0_part15_eq_skeleton k0_part15_skel
  rcv_wait 3
  rcv_wait 4
  rcv_wait 5
  rcv_wait 6
  open_part k0_part16_eq_skeleton k0_part16_skel
  rcv_wait 7
  rcv_wait 8
  rcv_wait 9
  rcv_wait 10
  rcv_wait 11
  open_part k0_part17_eq_skeleton k0_part17_skel
  rcv_wait 12
  rcv_wait 13
  rcv_wait 14
  rcv_wait 15
  open_part k0_part18_eq_skeleton k0_part18_skel
  rcv_wait 16
  rcv_wait 17
  rcv_wait 18
  rcv_wait 19
  rcv_wait 20
  open_part k0_part19_eq_skeleton k0_part19_skel
  rcv_wait 21
  rcv_wait 22
  rcv_wait 23
  rcv_wait 24
  rcv_wait 25
  open_part k0_part20_eq_skeleton k0_part20_skel
  rcv_wait 26
  rcv_wait 27
  rcv_wait 28
  rcv_wait 29
  open_part k0_part21_eq_skeleton k0_part21_skel
  rcv_wait 30
  snd_wait 0
  snd_wait 1
  snd_wait 2
  snd_wait 3
  snd_wait 4
  open_part k0_part22_eq_skeleton k0_part22_skel
  snd_wait 5
  snd_wait 6
  snd_wait 7
  snd_wait 8
  snd_wait 9
  snd_wait 10
  open_part k0_part23_eq_skeleton k0_part23_skel
  snd_wait 11
  snd_wait 12
  snd_wait 13
  snd_wait 14
  snd_wait 15
  snd_wait 16
  open_part k0_part24_eq_skeleton k0_part24_skel
  snd_wait 17
  snd_wait 18
  snd_wait 19
  snd_wait 20
  snd_wait 21
  snd_wait 22
  open_part k0_part25_eq_skeleton k0_part25_skel
  snd_wait 23
  snd_wait 24
  snd_wait 25
  snd_wait 26
  snd_wait 27
  snd_wait 28
  snd_wait 29
  snd_wait 30
  -- row `c` whole again from its 31 shares and what was left; then the scratch whole from its 32 rows, all holding the complete array
  ihave Hshb := (show gotShares m c 31 ⊢ bigSep Finset.univ (fun i : Fin 31 => ((rowM c).view.loc (c : Thread nD τ) ↦[(rowM c).view.set]{Transfers.shareTok fullShare 31 i} RED m : sProp 𝕄)) from
    ((upto_iff_chain _).1).trans (chain_iff_bigSep _).1) $$ Hgs
  ihave Hrow := (show iprop((((rowM c).view.loc (c : Thread nD τ) ↦[(rowM c).view.set]{Transfers.shareDrop fullShare 31} RED m : sProp 𝕄)) ∗ bigSep Finset.univ (fun i : Fin 31 => ((rowM c).view.loc (c : Thread nD τ) ↦[(rowM c).view.set]{Transfers.shareTok fullShare 31 i} RED m : sProp 𝕄))) ⊢ rowPts c c fullShare (RED m) from
    Transfers.pointsTo_toks_join fullShare 31) $$ [Hrem Hshb]
  · isplitl [Hrem]; · iexact Hrem
    iexact Hshb
  ihave Hrs := (show gotRows m c 31 ⊢ chain (fun d => rowPts c (peer c d) fullShare (RED m)) 31 from (upto_iff_chain _).1) $$ Hgr
  ihave Hscr := ((scr_rows c fullShare (RED m)).2) $$ [Hrow Hrs]
  · isplitl [Hrow]; · iexact Hrow
    iexact Hrs
  -- the result: the maximum over the 32 rows
  iapply (step_final m c g1) $$ [Hscr Hout]
  · isplitl [Hscr]; · iexact Hscr
    iexact Hout
  iintro ⟨Hscr, Hout⟩
  -- its 64 own cells close: their counters at zero are the core's again
  imod (step_close m K c) $$ [Hsself Hrself Hsd Hrd] with Hz
  · isplitr; · iexact Hrec
    isplitl [Hsself]; · iexact Hsself
    isplitl [Hrself]; · iexact Hrself
    isplitl [Hsd]; · iexact Hsd
    iexact Hrd
  ihave Hown := (ownSems0_of_cells (F := F) c) $$ Hz
  rw [wp_ret]; imodintro
  unfold Φ₁
  rw [show (dats m 0 c).owed t₀.succ = 0 from rfl]
  isplitl [Hscr Hown]
  · isplitl [Hscr]; · iexact Hscr
    iexact Hown
  isplitl [HO]
  · iexists _
    isplitr
    rotate_left
    · iexact HO
    · ipureintro; exact fun _ _ => Or.inl trivial
  isplitl [Hx]
  · iexists _; isplitr; · (ipureintro; rfl)
    iexact Hx
  iexists (OUT m); isplitr; · (ipureintro; exact (after_out m c).symm)
  iexact Hout

/-- info: 'Cert.Kernel.Proto.body_obligation' depends on axioms: [propext, Classical.choice, Quot.sound] -/
#guard_msgs in #print axioms body_obligation

end Cert.Kernel.Proto

end
-- ==== Proof.Bits.LaunchK.lean ====
/-
  The launch of the all-to-all maximum on 32 devices.

  From the launch element — every one of the 32 × 65 cells of the protocol in its launch state, and one token per duty —
  to what each device's body starts from: the cells' invariants allocated under one update for all devices (the barrier
  semaphore is the runtime's, so its counter at zero arrives with the unscoped semaphores; the 64 send and receive
  semaphores are the kernel's own), each cell's position with its owner, and each duty's token with the device that PAYS
  the duty. A token minted on device p's barrier cell, or on its receive cell c, for the duty named c, goes to device c;
  the tokens on a device's send cells stay with it. Device c then holds, peer by peer, the chains its body consumes.
  The run follows from the body obligation, the levels under the staging waits and the launch credit, all three taken as
  hypotheses here.
-/
import proofs.«900562_g7700000000000563_dist_max_ax0_shard0_i_m1024_n512_v7x_i32_f32_1_alg».proof.Proof.Bits.Data

noncomputable section

namespace Cert.Kernel.Proto

open Cert.Kernel Cert.Kernel.Gen Cert.Kernel.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace LaunchK

/-! ## An iterated conjunction over an optional index -/

theorem bigSep_univ_option {M : Type} [URA M] {α : Type} [Fintype α] (Φ : Option α → sProp M) :
    bigSep Finset.univ Φ = iprop(Φ none ∗ bigSep Finset.univ fun a => Φ (some a)) := by
  rw [bigSep_univ_equiv (Equiv.optionEquivSumPUnit.{0, 0} α).symm Φ, bigSep_univ_sum, bigSep_univ_of_subsingleton PUnit.unit]
  exact BI.Entails.antisymm BI.sep_comm BI.sep_comm

instance sched_payload_storable (g : GSem nD τ sig) (r : ℕ) (d : Dev nD) :
    BI.Storable (upEmb : UEmb _ 𝕄) ((sched (F := F) m).payload g r d) := by
  dsimp only [sched]
  unfold barPay recvPay sendPay rowPts
  (repeat' split) <;> infer_instance

theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The launch element: the cells and the duty tokens -/

def ringCells : Finset (GSem nD τ sig) := Finset.univ.map ⟨kcell, kcell_injective⟩

/-- Which of a device's cells a token of duty p belongs to, by kind: its barrier cell, its send cell p, its receive cell p. -/
def tokIx (p : Dev nD) : Fin 3 → CellIx
  | 0 => none
  | 1 => some (false, p)
  | 2 => some (true, p)

/-- The tokens minted: per device c and duty name p, one on the barrier cell of c, one on its send cell p, one on its receive cell p. -/
abbrev tokOf (x : Dev nD × Dev nD × Fin 3) : GSem nD τ sig × ℕ × Dev nD := (kcell (x.1, tokIx x.2.1 x.2.2), 0, x.2.1)

theorem tokOf_injective : Function.Injective tokOf := by
  rintro ⟨c, p, j⟩ ⟨c', p', j'⟩ h
  have hp : p = p' := congrArg (fun x : GSem nD τ sig × ℕ × Dev nD => x.2.2) h
  subst hp
  have hk := kcell_injective (congrArg (fun x : GSem nD τ sig × ℕ × Dev nD => x.1) h)
  have hc : c = c' := congrArg Prod.fst hk
  subst hc
  have hj : tokIx p j = tokIx p j' := congrArg Prod.snd hk
  have : j = j' := by
    fin_cases j <;> fin_cases j' <;> first | rfl | (simp [tokIx] at hj)
  subst this; rfl

def ringToks : Finset (GSem nD τ sig × ℕ × Dev nD) := Finset.univ.map ⟨tokOf, tokOf_injective⟩

/-- The duty tokens of the cells of device c. -/
def toks (c : Dev nD) : sProp 𝕄 :=
  bigSep Finset.univ fun p : Dev nD => iprop(dutyTok ER (barCell c) 0 p ∗ dutyTok ER (sendCell c p) 0 p ∗ dutyTok ER (recvCell c p) 0 p)

/-- What the launch element deals device c. -/
def G (c : Dev nD) : sProp 𝕄 :=
  iprop((bigSep Finset.univ fun k : CellIx => roundState ER (sched m) (kcell (c, k)) 0)
    ∗ (bigSep Finset.univ fun k : CellIx => iprop(atPos ER (kcell (c, k)) 0 ∅ 0 ∗ reached ER (kcell (c, k)) 0)) ∗ toks c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_univ_prod]
      exact bigSep_congr fun p _ => by rw [bigSep_fin3]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, per cell -/

/-- The 64 own semaphores, by kind and peer: send semaphore p is number p, receive semaphore p number 32 + p. -/
def semIx : Bool × Dev nD ≃ Fin 64 where
  toFun k := ⟨(if k.1 then 32 else 0) + k.2.val, by have hp : k.2.val < 32 := k.2.isLt; split <;> omega⟩
  invFun i := (decide (32 ≤ i.val), ⟨i.val % 32, Nat.mod_lt _ (by decide)⟩)
  left_inv := by
    rintro ⟨b, p⟩
    have hp : p.val < 32 := p.isLt
    cases b
    · refine Prod.ext ?_ (Fin.ext ?_)
      · show decide (32 ≤ 0 + p.val) = false
        exact decide_eq_false (by omega)
      · show (0 + p.val) % 32 = p.val
        omega
    · refine Prod.ext ?_ (Fin.ext ?_)
      · show decide (32 ≤ 32 + p.val) = true
        exact decide_eq_true (by omega)
      · show (32 + p.val) % 32 = p.val
        omega
  right_inv := by
    intro i
    have hi : i.val < 64 := i.isLt
    apply Fin.ext
    show (if decide (32 ≤ i.val) = true then 32 else 0) + i.val % 32 = i.val
    by_cases h : 32 ≤ i.val
    · rw [if_pos (decide_eq_true h)]; omega
    · rw [if_neg (by rw [decide_eq_false h]; exact Bool.false_ne_true)]; omega

theorem osem_semIx (k : Bool × Dev nD) : osem (semIx k) = csem (some k) := by
  rcases k with ⟨b, p⟩
  cases b
  · show SemLoc.dma _ = SemLoc.dma (sendSem p)
    refine congrArg SemLoc.dma (Fin.ext ?_)
    show 2 + (0 + p.val) = 2 + p.val
    omega
  · show SemLoc.dma _ = SemLoc.dma (recvSem p)
    refine congrArg SemLoc.dma (Fin.ext ?_)
    show 2 + (32 + p.val) = 34 + p.val
    omega

theorem ownSems0_eq (c : Dev nD) : (Pipeline.ownSems0 (Ix := Unit) (Name := ℕ) (U := UU) (Lvl := ℕ) (Val := Elt F) (τ := τ) osem c : sProp 𝕄)
    = bigSep Finset.univ fun k : Bool × Dev nD => semVal (kcell (c, some k)) 0 := by
  unfold Pipeline.ownSems0
  rw [bigSep_univ_equiv semIx]
  exact bigSep_congr fun k _ => by rw [osem_semIx]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_univ_option]
  exact BI.sep_comm

theorem stage_sem_lt : ∀ (w : Fin 2) (s : Fin (spec0 w).nbuf), ((spec0 w).sem s).val < 2 := by decide

theorem ownSemFacts : Pipeline.OwnSemFacts cfg0.spec osem where
  isScoped := by decide
  inj := fun i j h => Fin.ext (by
    have h' : 2 + i.val = 2 + j.val := congrArg Fin.val (SemLoc.dma.inj h)
    omega)
  disj := fun k w s h => by
    have h' : 2 + k.val = ((spec0 w).sem s).val := congrArg Fin.val (SemLoc.dma.inj h)
    have := stage_sem_lt w s
    omega

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (sched m) κ (kcell (c, k))))
          ∗ (bigSep Finset.univ fun k : CellIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (sched m) (kcell (c, k)) 0)
      ⊢ (|={Set.univ}=> bigSep Finset.univ fun k : CellIx => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## From a conjunction over the peers to a chain -/

theorem chain_of_bigSep (Φ : Fin 31 → sProp 𝕄) : bigSep Finset.univ Φ ⊢ chain Φ 31 := by
  have h : ∀ j, j ≤ 31 → bigSep (Finset.univ.filter fun d : Fin 31 => 31 - j ≤ d.val) Φ ⊢ chain Φ j := by
    intro j
    induction j with
    | zero =>
      intro _
      have hs : (Finset.univ.filter fun d : Fin 31 => 31 - 0 ≤ d.val) = ∅ :=
        Finset.filter_false_of_mem fun d _ => by have := d.isLt; omega
      rw [hs, bigSep_empty]
      exact BI.Entails.refl _
    | succ j ih =>
      intro hj
      have hs : (Finset.univ.filter fun d : Fin 31 => 31 - (j + 1) ≤ d.val)
          = insert (⟨30 - j, by omega⟩ : Fin 31) (Finset.univ.filter fun d : Fin 31 => 31 - j ≤ d.val) := by
        ext d
        simp only [Finset.mem_filter, Finset.mem_univ, true_and, Finset.mem_insert, Fin.ext_iff]
        omega
      have hn : (⟨30 - j, by omega⟩ : Fin 31) ∉ Finset.univ.filter fun d : Fin 31 => 31 - j ≤ d.val := by
        simp only [Finset.mem_filter, Finset.mem_univ, true_and]
        omega
      rw [hs, bigSep_insert hn, chain_succ]
      exact BI.sep_comm.trans (BI.sep_mono (ih (by omega)) (BI.Entails.refl _))
  have hu : (Finset.univ.filter fun d : Fin 31 => 31 - 31 ≤ d.val) = Finset.univ :=
    Finset.filter_true_of_mem fun d _ => by omega
  have := h 31 le_rfl
  rwa [hu] at this

/-- The peers of a device are the other devices. -/
theorem peers_eq (c : Dev nD) : (Finset.univ : Finset (Fin 31)).map ⟨peer c, peer_injective c⟩ = Finset.univ.erase c := by
  ext p
  simp only [Finset.mem_map, Finset.mem_univ, true_and, Function.Embedding.coeFn_mk, Finset.mem_erase, and_true]
  constructor
  · rintro ⟨d, rfl⟩; exact peer_ne c d
  · intro h; exact exists_peer c p h

/-- What is held for every device gives, for device c, the chain over its peers (its own entry is let go). -/
theorem to_chain (c : Dev nD) (Ψ : Dev nD → sProp 𝕄) : bigSep Finset.univ Ψ ⊢ chain (fun d => Ψ (peer c d)) 31 :=
  (bigSep_subset (Finset.erase_subset c Finset.univ)).trans (by
    rw [← peers_eq c, bigSep_map]
    exact chain_of_bigSep _)

/-! ## The global step -/

/-- What the global step makes of the launch element. -/
def G' (c : Dev nD) : sProp 𝕄 := iprop(∃ K, ghost m K c)

/-- The tokens of the duties device c pays. -/
def payToks (c : Dev nD) : sProp 𝕄 := iprop(sigToks (F := F) c 31 ∗ rcvToks c 31 ∗ sndToks c 31)

theorem pay_of_all (c : Dev nD) :
    iprop((bigSep Finset.univ fun p : Dev nD => (dutyTok ER (barCell p) 0 c : sProp 𝕄))
        ∗ (bigSep Finset.univ fun p : Dev nD => (dutyTok ER (sendCell c p) 0 p : sProp 𝕄))
        ∗ (bigSep Finset.univ fun p : Dev nD => (dutyTok ER (recvCell p c) 0 c : sProp 𝕄)))
      ⊢ payToks c := by
  unfold payToks sigToks rcvToks sndToks
  iintro ⟨HA, HS, HR⟩
  isplitl [HA]; · iapply (to_chain c fun p => dutyTok ER (barCell p) 0 c); iexact HA
  isplitl [HR]; · iapply (to_chain c fun p => dutyTok ER (recvCell p c) 0 c); iexact HR
  iapply (to_chain c fun p => dutyTok ER (sendCell c p) 0 p); iexact HS

/-- The tokens dealt to their payers: the token of duty c on the barrier cell and on the receive cell c of every other device
    goes to device c; the tokens on its own send cells stay. -/
theorem toks_around : (bigSep Finset.univ fun c : Dev nD => (toks c : sProp 𝕄)) ⊢ bigSep Finset.univ fun c : Dev nD => payToks c := by
  have e : (bigSep Finset.univ fun c : Dev nD => (toks c : sProp 𝕄))
      = iprop((bigSep Finset.univ fun c : Dev nD => bigSep Finset.univ fun p : Dev nD => (dutyTok ER (barCell p) 0 c : sProp 𝕄))
          ∗ (bigSep Finset.univ fun c : Dev nD => bigSep Finset.univ fun p : Dev nD => (dutyTok ER (sendCell c p) 0 p : sProp 𝕄))
          ∗ (bigSep Finset.univ fun c : Dev nD => bigSep Finset.univ fun p : Dev nD => (dutyTok ER (recvCell p c) 0 c : sProp 𝕄))) := by
    unfold toks
    simp only [bigSep_sep']
    rw [bigSep_univ_comm (fun c p : Dev nD => (dutyTok ER (barCell c) 0 p : sProp 𝕄)),
      bigSep_univ_comm (fun c p : Dev nD => (dutyTok ER (recvCell c p) 0 p : sProp 𝕄))]
  rw [e, ← bigSep_sep', ← bigSep_sep']
  exact bigSep_mono fun c _ => pay_of_all c

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CellIx → ℕ) (c : Dev nD) : iprop(records m K ∗ (positions c ∗ payToks c)) ⊢ G' m c := by
  unfold G' ghost linear payToks
  iintro H
  iexists K
  iexact H

theorem regroup :
    (bigSep Finset.univ fun c : Dev nD => iprop((bigSep Finset.univ fun k : CellIx => iprop(∃ κ : ℕ, cellInv ER (sched m) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CellIx => iprop(∃ κ : ℕ, cellInv ER (sched m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · unfold positions; iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions of the launch -/

theorem start_intro (hcreds : ∀ c : Dev nD, (Pipeline.launchCred O₀ c : sProp 𝕄) ⊢ iprop(cred (tallyAt (barCell c) () 31) ∗ rcvCreds c 31)) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (hcreds c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq]
  unfold Φ₁
  iintro ⟨Hr, Hz⟩
  isplitr; · iempintro
  isplitl [Hz]; · iexact Hz
  iexists (RED m); iexact Hr

theorem share_eq (c : Dev nD) (w : Fin cfg0.W) : (dats m 0 c).share w = fullShare := by unfold Dat.share; split <;> rfl

theorem L_of_ne (g : GSem nD τ sig) (h : g.1.2 ≠ .tc) : L g = ∅ := if_neg h

end LaunchK

/-! ## The launch element and the run -/

/-- The launch element: the staging cells of the pipeline in the first component, the 32 × 65 cells of the protocol and
    their duty tokens in the second. -/
def u₀ : UU :=
  (initOf (Pipeline.cells cfgs cellOf_inj) (Pipeline.launchToks cfgs cellOf_inj), initOf LaunchK.ringCells LaunchK.ringToks)

set_option maxRecDepth 8000 in
/-- At the compiled mesh of 32 devices, for any float values, from any memory with zero counters: given one thread's body
    proved, the levels under every staging wait and the launch credit of each device, every weakly fair execution of the
    32 kernels terminates, and every final state has each device's arrays at the contents the proof data computes. -/
theorem run_main
    (hbody : ∀ c : Dev nD, BodyObligation (dats (F := F) m 0 c) (defs₀ (F := F)) 𝒱₀ () Set.univ)
    (hwaits : ∀ c : Dev nD, (levAts L lv : sProp 𝕄) ⊢ Pipeline.cellsWaits cfgs (dats m) () 0 c)
    (hcreds : ∀ c : Dev nD, (Pipeline.launchCred O₀ c : sProp 𝕄) ⊢ iprop(cred (tallyAt (barCell c) () 31) ∗ rcvCreds c 31)) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ LaunchK.ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := LaunchK.share_eq m)
    (hdistinct := winFacts0.arr_inj)
    (O₀ := O₀) (howed₀ := fun _ => rfl) (howedN := fun _ => rfl)
    (L := L) (lv := lv) (hL := LaunchK.L_of_ne) (hwaits := hwaits)
    (G := LaunchK.G m) (G' := LaunchK.G' m) (u₀ := u₀)
    (hu₀ := by
      unfold u₀
      iintro Hu
      ihave H := (ownU_pair _ _) $$ Hu
      icases H with ⟨HP, HX⟩
      imod (LaunchK.fund_ring m) $$ HX with HG
      imodintro
      isplitl [HP] <;> iassumption)
    (hglob := LaunchK.glob m)
    (hA := fun _ _ => rfl) (hpf := fun _ k => k.elim0)
    (X := start m) (Y := fun _ => iprop(emp)) (Z := fun _ => iprop(emp))
    (hX := LaunchK.start_intro m ρ hcreds) (hin := LaunchK.phi0_intro m) (hout := LaunchK.phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Proto.run_main' depends on axioms: [propext, Classical.choice, Quot.sound] -/
#guard_msgs in #print axioms run_main

end Cert.Kernel.Proto

end
-- ==== Proof.Bits.Run.lean ====
/-
  The run of the whole mesh: every weakly fair execution of the 32 kernels terminates, and every final state has each
  device's argument array as launched and its result array at the maximum over all 32 blocks' column-wise maxima.
  From the body of one device (walked peer by peer), the levels under which its waits are allowed, and the launch credit.
-/
import proofs.«900562_g7700000000000563_dist_max_ax0_shard0_i_m1024_n512_v7x_i32_f32_1_alg».proof.Proof.Bits.Body
import proofs.«900562_g7700000000000563_dist_max_ax0_shard0_i_m1024_n512_v7x_i32_f32_1_alg».proof.Proof.Bits.LaunchK
import proofs.«900562_g7700000000000563_dist_max_ax0_shard0_i_m1024_n512_v7x_i32_f32_1_alg».proof.Proof.Bits.Values

noncomputable section

namespace Cert.Kernel.Proto

open Cert.Kernel Cert.Kernel.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

theorem run_all : RunAll (F := F) m ρ := by
  unfold RunAll
  exact run_main m ρ (fun c => body_obligation m c) (fun c => waits m c) (fun c => creds c)

/-- info: 'Cert.Kernel.Proto.run_all' depends on axioms: [propext, Classical.choice, Quot.sound] -/
#guard_msgs in #print axioms run_all

end Cert.Kernel.Proto

end
-- ==== Proof.lean ====
/-
  The certificate: a maximum over axis 0 of an array cut in 32 blocks of rows over 32 devices.

  Each device takes the column-wise maximum of its block (one row of 512), sends that row to every other device and
  receives theirs — a signal to each peer's barrier semaphore first, so that no row lands before its destination's kernel is
  running —, and takes the maximum over the 32 rows it then holds. The reference takes the maximum over all 32768 rows at
  once. Over the extended reals a maximum of maxima over a partition of the rows is the maximum over all rows, whatever the
  grouping, and the reductions' start value, minus infinity, is the identity of max: the two results agree entry by entry,
  with no condition on the inputs.
  The three frames come from the runs (the kernel's, at the word level and idealized, and the reference's); the idealization
  rewrote no operation, so `preserves` has nothing to state.
-/
import proofs.«900562_g7700000000000563_dist_max_ax0_shard0_i_m1024_n512_v7x_i32_f32_1_alg».proof.Defs
import proofs.«900562_g7700000000000563_dist_max_ax0_shard0_i_m1024_n512_v7x_i32_f32_1_alg».proof.Proof.Assemble
import proofs.«900562_g7700000000000563_dist_max_ax0_shard0_i_m1024_n512_v7x_i32_f32_1_alg».proof.Proof.Run
import proofs.«900562_g7700000000000563_dist_max_ax0_shard0_i_m1024_n512_v7x_i32_f32_1_alg».proof.Proof.Bits.Run

noncomputable section

namespace Cert.Proof

open Idealize.ShloMosaic Idealize.SL.Sem

theorem claim : Cert.Claim :=
  Cert.Assemble.claim_of_runs (fun m ρ => Cert.Kernel.Proto.run_all m ρ) (fun m ρ => Cert.KernelIdeal.Proto.run_all m ρ)

end Cert.Proof

end
